-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x5000000 : Shape := ⟨2, ![2, 5000000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16 .f32) (main_arg6 : FVec F S16x16 .f32) (main_arg7 : FVec F S16 .f32) (main_arg8 : FVec F S16x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S200000x3 .f32) (main_arg1 : IVec S2x5000000 32) (main_arg2 : FVec F S3x16 .f32) (main_arg3 : FVec F S16 .f32) (main_arg4 : FVec F S16x16 .f32) (main_arg5 : FVec F S16 .f32) (main_arg6 : FVec F S16x16 .f32) (main_arg7 : FVec F S16 .f32) (main_arg8 : FVec F S16x1 .f32) (main_arg9 : FVec F S1 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S200000x3 : Shape := ⟨2, ![200000, 3]⟩
abbrev S2x5000000 : Shape := ⟨2, ![2, 5000000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x5000000 : Shape := ⟨2, ![1, 5000000]⟩
abbrev S5000000 : Shape := ⟨1, ![5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S5000000x1 : Shape := ⟨2, ![5000000, 1]⟩
abbrev S38416 : Shape := ⟨1, ![38416]⟩
abbrev S19668992 : Shape := ⟨1, ![19668992]⟩
abbrev S38416x1x512 : Shape := ⟨3, ![38416, 1, 512]⟩
abbrev S200000x1 : Shape := ⟨2, ![200000, 1]⟩
abbrev S200704x1 : Shape := ⟨2, ![200704, 1]⟩
abbrev S200704x3 : Shape := ⟨2, ![200704, 3]⟩
abbrev S200704x16 : Shape := ⟨2, ![200704, 16]⟩
abbrev S1024x3 : Shape := ⟨2, ![1024, 3]⟩
abbrev S1024x16 : Shape := ⟨2, ![1024, 16]⟩
abbrev S1x1x512 : Shape := ⟨3, ![1, 1, 512]⟩
abbrev S512 : Shape := ⟨1, ![512]⟩
abbrev S512x1024 : Shape := ⟨2, ![512, 1024]⟩
abbrev S512x1 : Shape := ⟨2, ![512, 1]⟩
abbrev S512x16 : Shape := ⟨2, ![512, 16]⟩
abbrev S1024x512 : Shape := ⟨2, ![1024, 512]⟩
abbrev S1x512 : Shape := ⟨2, ![1, 512]⟩
abbrev S1x16 : Shape := ⟨2, ![1, 16]⟩
abbrev S1024x1 : Shape := ⟨2, ![1024, 1]⟩
abbrev S1x1 : Shape := ⟨2, ![1, 1]⟩

abbrev nBuf : Space → Nat
  | .hbm => 278
  | .vmem => 64
  | .smem => 0
  | _ => 0

abbrev hbmTy0_0 (i : Nat) : BufTy := match i % 128 with
  | 0 => ⟨S200000x3, .f32⟩
  | 1 => ⟨S2x5000000, .i32⟩
  | 2 => ⟨S3x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x1, .f32⟩
  | 9 => ⟨S1, .f32⟩
  | 10 => ⟨S1x5000000, .i32⟩
  | 11 => ⟨S5000000, .i32⟩
  | 12 => ⟨S1x5000000, .i32⟩
  | 13 => ⟨S5000000, .i32⟩
  | 14 => ⟨S200000, .i32⟩
  | 15 => ⟨S5200000, .i32⟩
  | 16 => ⟨S5200000, .i32⟩
  | 17 => ⟨S_, .f32⟩
  | 18 => ⟨S200000, .f32⟩
  | 19 => ⟨S_, .i32⟩
  | 20 => ⟨S5200000, .i32⟩
  | 21 => ⟨S5200000, .i1⟩
  | 22 => ⟨S_, .i32⟩
  | 23 => ⟨S5200000, .i32⟩
  | 24 => ⟨S5200000, .i32⟩
  | 25 => ⟨S5200000, .i32⟩
  | 26 => ⟨S5200000x1, .i32⟩
  | 27 => ⟨S_, .f32⟩
  | 28 => ⟨S5200000, .f32⟩
  | 29 => ⟨S200000, .f32⟩
  | 30 => ⟨S_, .f32⟩
  | 31 => ⟨S200000, .f32⟩
  | 32 => ⟨S200000, .i1⟩
  | 33 => ⟨S200000, .f32⟩
  | 34 => ⟨S_, .f32⟩
  | 35 => ⟨S_, .f32⟩
  | 36 => ⟨S200000, .f32⟩
  | 37 => ⟨S200000, .f32⟩
  | 38 => ⟨S_, .i32⟩
  | 39 => ⟨S5000000, .i32⟩
  | 40 => ⟨S5000000, .i1⟩
  | 41 => ⟨S_, .i32⟩
  | 42 => ⟨S5000000, .i32⟩
  | 43 => ⟨S5000000, .i32⟩
  | 44 => ⟨S5000000, .i32⟩
  | 45 => ⟨S5000000x1, .i32⟩
  | 46 => ⟨S5000000, .f32⟩
  | 47 => ⟨S_, .i32⟩
  | 48 => ⟨S5000000, .i32⟩
  | 49 => ⟨S5000000, .i1⟩
  | 50 => ⟨S_, .i32⟩
  | 51 => ⟨S5000000, .i32⟩
  | 52 => ⟨S5000000, .i32⟩
  | 53 => ⟨S5000000, .i32⟩
  | 54 => ⟨S5000000x1, .i32⟩
  | 55 => ⟨S5000000, .f32⟩
  | 56 => ⟨S5000000, .f32⟩
  | 57 => ⟨S200000, .f32⟩
  | 58 => ⟨S_, .i32⟩
  | 59 => ⟨S_, .i32⟩
  | 60 => ⟨S5000000, .i32⟩
  | 61 => ⟨S5000000, .i32⟩
  | 62 => ⟨S5000000, .i32⟩
  | 63 => ⟨S_, .i32⟩
  | 64 => ⟨S5000000, .i32⟩
  | 65 => ⟨S5000000, .i1⟩
  | 66 => ⟨S5000000, .i32⟩
  | 67 => ⟨S5000000, .i32⟩
  | 68 => ⟨S_, .i32⟩
  | 69 => ⟨S5000000, .i32⟩
  | 70 => ⟨S5000000, .i1⟩
  | 71 => ⟨S5000000, .i1⟩
  | 72 => ⟨S_, .i32⟩
  | 73 => ⟨S5000000, .i32⟩
  | 74 => ⟨S5000000, .i32⟩
  | 75 => ⟨S5000000, .i32⟩
  | 76 => ⟨S_, .i32⟩
  | 77 => ⟨S_, .i32⟩
  | 78 => ⟨S5000000, .i32⟩
  | 79 => ⟨S5000000, .i32⟩
  | 80 => ⟨S5000000, .i32⟩
  | 81 => ⟨S_, .i32⟩
  | 82 => ⟨S5000000, .i32⟩
  | 83 => ⟨S5000000, .i1⟩
  | 84 => ⟨S5000000, .i32⟩
  | 85 => ⟨S5000000, .i32⟩
  | 86 => ⟨S_, .i32⟩
  | 87 => ⟨S5000000, .i32⟩
  | 88 => ⟨S5000000, .i1⟩
  | 89 => ⟨S5000000, .i1⟩
  | 90 => ⟨S_, .i32⟩
  | 91 => ⟨S5000000, .i32⟩
  | 92 => ⟨S5000000, .i32⟩
  | 93 => ⟨S5000000, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S5000000, .i32⟩
  | 101 => ⟨S5000000, .i32⟩
  | 102 => ⟨S_, .i32⟩
  | 103 => ⟨S5000000, .i32⟩
  | 104 => ⟨S5000000, .i1⟩
  | 105 => ⟨S_, .i32⟩
  | 106 => ⟨S5000000, .i32⟩
  | 107 => ⟨S5000000, .i1⟩
  | 108 => ⟨S_, .i32⟩
  | 109 => ⟨S_, .i1⟩
  | 110 => ⟨S5000000, .i1⟩
  | 111 => ⟨S5000000, .i1⟩
  | 112 => ⟨S5000000, .i1⟩
  | 113 => ⟨S5000000, .i32⟩
  | 114 => ⟨S5000000, .i32⟩
  | 115 => ⟨S5000000, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S5000000, .i32⟩
  | 123 => ⟨S5000000, .i32⟩
  | 124 => ⟨S_, .i32⟩
  | 125 => ⟨S5000000, .i32⟩
  | 126 => ⟨S5000000, .i1⟩
  | 127 => ⟨S_, .i32⟩
  | _ => ⟨S200000x3, .f32⟩

abbrev hbmTy0_1 (i : Nat) : BufTy := match i % 128 with
  | 0 => ⟨S5000000, .i32⟩
  | 1 => ⟨S5000000, .i1⟩
  | 2 => ⟨S_, .i32⟩
  | 3 => ⟨S_, .i1⟩
  | 4 => ⟨S5000000, .i1⟩
  | 5 => ⟨S5000000, .i1⟩
  | 6 => ⟨S5000000, .i1⟩
  | 7 => ⟨S5000000, .i32⟩
  | 8 => ⟨S5000000, .i32⟩
  | 9 => ⟨S5000000, .i32⟩
  | 10 => ⟨S_, .i32⟩
  | 11 => ⟨S5000000, .i32⟩
  | 12 => ⟨S5000000, .i32⟩
  | 13 => ⟨S5000000, .i32⟩
  | 14 => ⟨S5000000, .i32⟩
  | 15 => ⟨S5000000, .i32⟩
  | 16 => ⟨S5000000, .i32⟩
  | 17 => ⟨S5000000, .f32⟩
  | 18 => ⟨S_, .i32⟩
  | 19 => ⟨S38416, .i32⟩
  | 20 => ⟨S_, .i32⟩
  | 21 => ⟨S5000000, .i32⟩
  | 22 => ⟨S5000000, .i1⟩
  | 23 => ⟨S_, .i32⟩
  | 24 => ⟨S5000000, .i32⟩
  | 25 => ⟨S5000000, .i32⟩
  | 26 => ⟨S5000000, .i32⟩
  | 27 => ⟨S5000000x1, .i32⟩
  | 28 => ⟨S_, .i32⟩
  | 29 => ⟨S5000000, .i32⟩
  | 30 => ⟨S38416, .i32⟩
  | 31 => ⟨S_, .i32⟩
  | 32 => ⟨S_, .i32⟩
  | 33 => ⟨S38416, .i32⟩
  | 34 => ⟨S38416, .i32⟩
  | 35 => ⟨S5000000, .i32⟩
  | 36 => ⟨S_, .i32⟩
  | 37 => ⟨S5000000, .i32⟩
  | 38 => ⟨S5000000, .i1⟩
  | 39 => ⟨S_, .i32⟩
  | 40 => ⟨S5000000, .i32⟩
  | 41 => ⟨S5000000, .i32⟩
  | 42 => ⟨S5000000, .i32⟩
  | 43 => ⟨S5000000x1, .i32⟩
  | 44 => ⟨S5000000, .i32⟩
  | 45 => ⟨S5000000, .i32⟩
  | 46 => ⟨S_, .i32⟩
  | 47 => ⟨S5000000, .i32⟩
  | 48 => ⟨S5000000, .i32⟩
  | 49 => ⟨S_, .i32⟩
  | 50 => ⟨S5000000, .i32⟩
  | 51 => ⟨S5000000, .i32⟩
  | 52 => ⟨S5000000, .i32⟩
  | 53 => ⟨S_, .i32⟩
  | 54 => ⟨S19668992, .i32⟩
  | 55 => ⟨S_, .i32⟩
  | 56 => ⟨S5000000, .i32⟩
  | 57 => ⟨S5000000, .i1⟩
  | 58 => ⟨S_, .i32⟩
  | 59 => ⟨S5000000, .i32⟩
  | 60 => ⟨S5000000, .i32⟩
  | 61 => ⟨S5000000, .i32⟩
  | 62 => ⟨S5000000x1, .i32⟩
  | 63 => ⟨S19668992, .i32⟩
  | 64 => ⟨S_, .i32⟩
  | 65 => ⟨S19668992, .i32⟩
  | 66 => ⟨S_, .i32⟩
  | 67 => ⟨S5000000, .i32⟩
  | 68 => ⟨S5000000, .i1⟩
  | 69 => ⟨S_, .i32⟩
  | 70 => ⟨S5000000, .i32⟩
  | 71 => ⟨S5000000, .i32⟩
  | 72 => ⟨S5000000, .i32⟩
  | 73 => ⟨S5000000x1, .i32⟩
  | 74 => ⟨S19668992, .i32⟩
  | 75 => ⟨S_, .f32⟩
  | 76 => ⟨S19668992, .f32⟩
  | 77 => ⟨S_, .i32⟩
  | 78 => ⟨S5000000, .i32⟩
  | 79 => ⟨S5000000, .i1⟩
  | 80 => ⟨S_, .i32⟩
  | 81 => ⟨S5000000, .i32⟩
  | 82 => ⟨S5000000, .i32⟩
  | 83 => ⟨S5000000, .i32⟩
  | 84 => ⟨S5000000x1, .i32⟩
  | 85 => ⟨S19668992, .f32⟩
  | 86 => ⟨S38416x1x512, .i32⟩
  | 87 => ⟨S38416x1x512, .i32⟩
  | 88 => ⟨S38416x1x512, .f32⟩
  | 89 => ⟨S200000x1, .f32⟩
  | 90 => ⟨S_, .i32⟩
  | 91 => ⟨S_, .f32⟩
  | 92 => ⟨S200704x1, .f32⟩
  | 93 => ⟨S_, .i32⟩
  | 94 => ⟨S_, .f32⟩
  | 95 => ⟨S200704x3, .f32⟩
  | 96 => ⟨S200704x16, .f32⟩
  | 97 => ⟨S200704x16, .f32⟩
  | 98 => ⟨S200704x16, .f32⟩
  | 99 => ⟨S200704x16, .f32⟩
  | 100 => ⟨S200704x16, .f32⟩
  | 101 => ⟨S1x16, .f32⟩
  | 102 => ⟨S200704x16, .f32⟩
  | 103 => ⟨S200704x16, .f32⟩
  | 104 => ⟨S_, .f32⟩
  | 105 => ⟨S200704x16, .f32⟩
  | 106 => ⟨S200704x16, .f32⟩
  | 107 => ⟨S200704x16, .f32⟩
  | 108 => ⟨S200704x16, .f32⟩
  | 109 => ⟨S200704x16, .f32⟩
  | 110 => ⟨S200704x16, .f32⟩
  | 111 => ⟨S200704x16, .f32⟩
  | 112 => ⟨S1x16, .f32⟩
  | 113 => ⟨S200704x16, .f32⟩
  | 114 => ⟨S200704x16, .f32⟩
  | 115 => ⟨S_, .f32⟩
  | 116 => ⟨S200704x16, .f32⟩
  | 117 => ⟨S200704x16, .f32⟩
  | 118 => ⟨S200704x16, .f32⟩
  | 119 => ⟨S200704x16, .f32⟩
  | 120 => ⟨S200704x16, .f32⟩
  | 121 => ⟨S200704x16, .f32⟩
  | 122 => ⟨S200704x16, .f32⟩
  | 123 => ⟨S1x16, .f32⟩
  | 124 => ⟨S200704x16, .f32⟩
  | 125 => ⟨S200704x16, .f32⟩
  | 126 => ⟨S_, .f32⟩
  | 127 => ⟨S200704x16, .f32⟩
  | _ => ⟨S200000x3, .f32⟩

abbrev hbmTy0_2 (i : Nat) : BufTy := match i % 128 with
  | 0 => ⟨S200704x16, .f32⟩
  | 1 => ⟨S200704x1, .f32⟩
  | 2 => ⟨S200704x1, .f32⟩
  | 3 => ⟨S200704x1, .f32⟩
  | 4 => ⟨S200704x1, .f32⟩
  | 5 => ⟨S1x1, .f32⟩
  | 6 => ⟨S200704x1, .f32⟩
  | 7 => ⟨S200704x1, .f32⟩
  | 8 => ⟨S200000x1, .f32⟩
  | 9 => ⟨S_, .f32⟩
  | 10 => ⟨S200000, .f32⟩
  | 11 => ⟨S_, .f32⟩
  | 12 => ⟨S200000, .f32⟩
  | 13 => ⟨S200000, .f32⟩
  | 14 => ⟨S200000x1, .f32⟩
  | 15 => ⟨S200000x1, .f32⟩
  | 16 => ⟨S200000x1, .f32⟩
  | 17 => ⟨S_, .f32⟩
  | 18 => ⟨S200000, .f32⟩
  | 19 => ⟨S200000x1, .f32⟩
  | 20 => ⟨S200000x1, .f32⟩
  | 21 => ⟨S200000x1, .f32⟩
  | _ => ⟨S200000x3, .f32⟩

abbrev hbmTy (i : Nat) : BufTy := match i / 128 with
  | 0 => hbmTy0_0 i
  | 1 => hbmTy0_1 i
  | 2 => hbmTy0_2 i
  | _ => ⟨S200000x3, .f32⟩

abbrev bufTy : (tb : Table) → Fin (tcTables nBuf tb) → BufTy
  | .hbm, ⟨i, _⟩ => hbmTy i
  | .local _ .vmem, ⟨0, _⟩ => ⟨S1024x3, .f32⟩
  | .local _ .vmem, ⟨1, _⟩ => ⟨S1024x3, .f32⟩
  | .local _ .vmem, ⟨2, _⟩ => ⟨S3x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S1x1x512, .i32⟩
  | .local _ .vmem, ⟨11, _⟩ => ⟨S1x1x512, .f32⟩
  | .local _ .vmem, ⟨12, _⟩ => ⟨S1x1x512, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | .local _ .vmem, ⟨16, _⟩ => ⟨S1024x16, .f32⟩
  | .local _ .vmem, ⟨17, _⟩ => ⟨S1024x16, .f32⟩
  | .local _ .vmem, ⟨18, _⟩ => ⟨S16x16, .f32⟩
  | .local _ .vmem, ⟨19, _⟩ => ⟨S1024x16, .f32⟩
  | .local _ .vmem, ⟨20, _⟩ => ⟨S1024x16, .f32⟩
  | .local _ .vmem, ⟨21, _⟩ => ⟨S1024x16, .f32⟩
  | .local _ .vmem, ⟨22, _⟩ => ⟨S1024x16, .f32⟩
  | .local _ .vmem, ⟨23, _⟩ => ⟨S1x1x512, .i32⟩
  | .local _ .vmem, ⟨24, _⟩ => ⟨S1x1x512, .i32⟩
  | .local _ .vmem, ⟨25, _⟩ => ⟨S1x1x512, .i32⟩
  | .local _ .vmem, ⟨26, _⟩ => ⟨S1x1x512, .i32⟩
  | .local _ .vmem, ⟨27, _⟩ => ⟨S1x1x512, .f32⟩
  | .local _ .vmem, ⟨28, _⟩ => ⟨S1x1x512, .f32⟩
  | .local _ .vmem, ⟨29, _⟩ => ⟨S1024x16, .f32⟩
  | .local _ .vmem, ⟨30, _⟩ => ⟨S1024x16, .f32⟩
  | .local _ .vmem, ⟨31, _⟩ => ⟨S1024x16, .f32⟩
  | .local _ .vmem, ⟨32, _⟩ => ⟨S1024x16, .f32⟩
  | .local _ .vmem, ⟨33, _⟩ => ⟨S1024x16, .f32⟩
  | .local _ .vmem, ⟨34, _⟩ => ⟨S16x16, .f32⟩
  | .local _ .vmem, ⟨35, _⟩ => ⟨S1024x16, .f32⟩
  | .local _ .vmem, ⟨36, _⟩ => ⟨S1024x16, .f32⟩
  | .local _ .vmem, ⟨37, _⟩ => ⟨S1024x16, .f32⟩
  | .local _ .vmem, ⟨38, _⟩ => ⟨S1024x16, .f32⟩
  | .local _ .vmem, ⟨39, _⟩ => ⟨S1x1x512, .i32⟩
  | .local _ .vmem, ⟨40, _⟩ => ⟨S1x1x512, .i32⟩
  | .local _ .vmem, ⟨41, _⟩ => ⟨S1x1x512, .i32⟩
  | .local _ .vmem, ⟨42, _⟩ => ⟨S1x1x512, .i32⟩
  | .local _ .vmem, ⟨43, _⟩ => ⟨S1x1x512, .f32⟩
  | .local _ .vmem, ⟨44, _⟩ => ⟨S1x1x512, .f32⟩
  | .local _ .vmem, ⟨45, _⟩ => ⟨S1024x16, .f32⟩
  | .local _ .vmem, ⟨46, _⟩ => ⟨S1024x16, .f32⟩
  | .local _ .vmem, ⟨47, _⟩ => ⟨S1024x16, .f32⟩
  | .local _ .vmem, ⟨48, _⟩ => ⟨S1024x16, .f32⟩
  | .local _ .vmem, ⟨49, _⟩ => ⟨S1024x16, .f32⟩
  | .local _ .vmem, ⟨50, _⟩ => ⟨S16x1, .f32⟩
  | .local _ .vmem, ⟨51, _⟩ => ⟨S1024x1, .f32⟩
  | .local _ .vmem, ⟨52, _⟩ => ⟨S1024x1, .f32⟩
  | .local _ .vmem, ⟨53, _⟩ => ⟨S1024x1, .f32⟩
  | .local _ .vmem, ⟨54, _⟩ => ⟨S1024x1, .f32⟩
  | .local _ .vmem, ⟨55, _⟩ => ⟨S1x1x512, .i32⟩
  | .local _ .vmem, ⟨56, _⟩ => ⟨S1x1x512, .i32⟩
  | .local _ .vmem, ⟨57, _⟩ => ⟨S1x1x512, .i32⟩
  | .local _ .vmem, ⟨58, _⟩ => ⟨S1x1x512, .i32⟩
  | .local _ .vmem, ⟨59, _⟩ => ⟨S1x1x512, .f32⟩
  | .local _ .vmem, ⟨60, _⟩ => ⟨S1x1x512, .f32⟩
  | .local _ .vmem, ⟨61, _⟩ => ⟨S1024x1, .f32⟩
  | .local _ .vmem, ⟨62, _⟩ => ⟨S1024x1, .f32⟩
  | .local _ .vmem, ⟨63, _⟩ => ⟨S1024x1, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v36 : Ref sig .tc := ⟨.hbm, 75, rfl⟩
abbrev main_c_9 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_c : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_0 : Ref sig .tc := ⟨.hbm, 90, rfl⟩
abbrev main_call2_v12 : Ref sig .tc := ⟨.hbm, 91, rfl⟩
abbrev main_call2_v13 : Ref sig .tc := ⟨.hbm, 92, rfl⟩
abbrev main_v37 : Ref sig .tc := ⟨.hbm, 93, rfl⟩
abbrev main_c_10 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_1 : Ref sig .tc := ⟨.hbm, 102, rfl⟩
abbrev main_call3_v5 : Ref sig .tc := ⟨.hbm, 103, rfl⟩
abbrev main_call3_v6 : Ref sig .tc := ⟨.hbm, 104, rfl⟩
abbrev main_call3_c_2 : Ref sig .tc := ⟨.hbm, 105, rfl⟩
abbrev main_call3_v7 : Ref sig .tc := ⟨.hbm, 106, rfl⟩
abbrev main_call3_v8 : Ref sig .tc := ⟨.hbm, 107, rfl⟩
abbrev main_call3_c_3 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_v38 : Ref sig .tc := ⟨.hbm, 115, rfl⟩
abbrev main_c_11 : Ref sig .tc := ⟨.hbm, 116, rfl⟩
abbrev main_call4_v0 : Ref sig .tc := ⟨.hbm, 117, rfl⟩
abbrev main_call4_c : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_c_1 : Ref sig .tc := ⟨.hbm, 124, rfl⟩
abbrev main_call4_v5 : Ref sig .tc := ⟨.hbm, 125, rfl⟩
abbrev main_call4_v6 : Ref sig .tc := ⟨.hbm, 126, rfl⟩
abbrev main_call4_c_2 : Ref sig .tc := ⟨.hbm, 127, rfl⟩
abbrev main_call4_v7 : Ref sig .tc := ⟨.hbm, 128, rfl⟩
abbrev main_call4_v8 : Ref sig .tc := ⟨.hbm, 129, rfl⟩
abbrev main_call4_c_3 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_v39 : Ref sig .tc := ⟨.hbm, 137, rfl⟩
abbrev main_c_12 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43_0 : Ref sig .tc := ⟨.hbm, 142, rfl⟩
abbrev main_v43_1 : Ref sig .tc := ⟨.hbm, 143, rfl⟩
abbrev main_v43_2 : Ref sig .tc := ⟨.hbm, 144, rfl⟩
abbrev main_v43_3 : Ref sig .tc := ⟨.hbm, 145, rfl⟩
abbrev main_c_13 : Ref sig .tc := ⟨.hbm, 146, rfl⟩
abbrev main_v44 : Ref sig .tc := ⟨.hbm, 147, rfl⟩
abbrev main_c_14 : Ref sig .tc := ⟨.hbm, 148, rfl⟩
abbrev main_v45 : Ref sig .tc := ⟨.hbm, 149, rfl⟩
abbrev main_v46 : Ref sig .tc := ⟨.hbm, 150, rfl⟩
abbrev main_c_15 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_c_16 : Ref sig .tc := ⟨.hbm, 156, rfl⟩
abbrev main_v51 : Ref sig .tc := ⟨.hbm, 157, rfl⟩
abbrev main_v52 : Ref sig .tc := ⟨.hbm, 158, rfl⟩
abbrev main_call5_call0_c : Ref sig .tc := ⟨.hbm, 159, rfl⟩
abbrev main_call5_call0_v0 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_c_17 : Ref sig .tc := ⟨.hbm, 164, rfl⟩
abbrev main_v56 : Ref sig .tc := ⟨.hbm, 165, rfl⟩
abbrev main_v57 : Ref sig .tc := ⟨.hbm, 166, rfl⟩
abbrev main_c_18 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_c_19 : Ref sig .tc := ⟨.hbm, 174, rfl⟩
abbrev main_v64 : Ref sig .tc := ⟨.hbm, 175, rfl⟩
abbrev main_v65 : Ref sig .tc := ⟨.hbm, 176, rfl⟩
abbrev main_c_20 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_c_21 : Ref sig .tc := ⟨.hbm, 181, rfl⟩
abbrev main_v69 : Ref sig .tc := ⟨.hbm, 182, rfl⟩
abbrev main_c_22 : Ref sig .tc := ⟨.hbm, 183, rfl⟩
abbrev main_v70 : Ref sig .tc := ⟨.hbm, 184, rfl⟩
abbrev main_v71 : Ref sig .tc := ⟨.hbm, 185, rfl⟩
abbrev main_c_23 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_c_24 : Ref sig .tc := ⟨.hbm, 192, rfl⟩
abbrev main_v77 : Ref sig .tc := ⟨.hbm, 193, rfl⟩
abbrev main_c_25 : Ref sig .tc := ⟨.hbm, 194, rfl⟩
abbrev main_v78 : Ref sig .tc := ⟨.hbm, 195, rfl⟩
abbrev main_v79 : Ref sig .tc := ⟨.hbm, 196, rfl⟩
abbrev main_c_26 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩
abbrev main_cst_27 : Ref sig .tc := ⟨.hbm, 203, rfl⟩
abbrev main_v85 : Ref sig .tc := ⟨.hbm, 204, rfl⟩
abbrev main_c_28 : Ref sig .tc := ⟨.hbm, 205, rfl⟩
abbrev main_v86 : Ref sig .tc := ⟨.hbm, 206, rfl⟩
abbrev main_v87 : Ref sig .tc := ⟨.hbm, 207, rfl⟩
abbrev main_c_29 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_c_30 : Ref sig .tc := ⟨.hbm, 218, rfl⟩
abbrev main_call6_v0 : Ref sig .tc := ⟨.hbm, 219, rfl⟩
abbrev main_v97 : Ref sig .tc := ⟨.hbm, 220, rfl⟩
abbrev main_c_31 : Ref sig .tc := ⟨.hbm, 221, rfl⟩
abbrev main_call7_v0 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_call8_cst : Ref sig .tc := ⟨.hbm, 232, rfl⟩
abbrev main_call8_v0 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_call9_cst : Ref sig .tc := ⟨.hbm, 243, rfl⟩
abbrev main_call9_v0 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_call10_cst : Ref sig .tc := ⟨.hbm, 254, rfl⟩
abbrev main_call10_v0 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_call11_cst : Ref sig .tc := ⟨.hbm, 265, rfl⟩
abbrev main_call11_v0 : Ref sig .tc := ⟨.hbm, 266, rfl⟩
abbrev main_call11_cst_0 : Ref sig .tc := ⟨.hbm, 267, rfl⟩
abbrev main_call11_v1 : Ref sig .tc := ⟨.hbm, 268, rfl⟩
abbrev main_call11_v2 : Ref sig .tc := ⟨.hbm, 269, rfl⟩
abbrev main_call11_v3 : Ref sig .tc := ⟨.hbm, 270, rfl⟩
abbrev main_call11_v4 : Ref sig .tc := ⟨.hbm, 271, rfl⟩
abbrev main_call11_v5 : Ref sig .tc := ⟨.hbm, 272, rfl⟩
abbrev main_call11_cst_1 : Ref sig .tc := ⟨.hbm, 273, rfl⟩
abbrev main_call11_v6 : Ref sig .tc := ⟨.hbm, 274, rfl⟩
abbrev main_call11_v7 : Ref sig .tc := ⟨.hbm, 275, rfl⟩
abbrev main_call11_v8 : Ref sig .tc := ⟨.hbm, 276, rfl⟩
abbrev main_v134 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg3_1 : Ref sig .tc := ⟨.vmem, 60, rfl⟩
abbrev cc7_stg4_0 : Ref sig .tc := ⟨.vmem, 61, rfl⟩
abbrev cc7_stg4_1 : Ref sig .tc := ⟨.vmem, 62, rfl⟩
abbrev cc7_scratch0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc7_sem3_0 : DmaSem sig := 56
abbrev cc7_sem3_1 : DmaSem sig := 57
abbrev cc7_sem4_0 : DmaSem sig := 58
abbrev cc7_sem4_1 : DmaSem sig := 59

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![196, 196], ![false, false]⟩

def k1_cond2 (i : grid1.Coords) : BitVec 1 :=
  let arg1 : BitVec 32 := BitVec.ofNat 32 (i 1).val
  let c195_i32 : BitVec 32 := 195#32
  let v38 : BitVec 1 := Scalar.cmpi .eq arg1 c195_i32
  let v39 : BitVec 32 := Scalar.extui v38
  let c0_i32_19 : BitVec 32 := 0#32
  let v40 : BitVec 1 := Scalar.cmpi .ne v39 c0_i32_19
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![196, 196], ![false, false]⟩

def k3_cond2 (i : grid3.Coords) : BitVec 1 :=
  let arg1 : BitVec 32 := BitVec.ofNat 32 (i 1).val
  let c195_i32 : BitVec 32 := 195#32
  let v38 : BitVec 1 := Scalar.cmpi .eq arg1 c195_i32
  let v39 : BitVec 32 := Scalar.extui v38
  let c0_i32_19 : BitVec 32 := 0#32
  let v40 : BitVec 1 := Scalar.cmpi .ne v39 c0_i32_19
  v40

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x1x512 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x512 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![196], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![196, 196], ![false, false]⟩

def k5_cond2 (i : grid5.Coords) : BitVec 1 :=
  let arg1 : BitVec 32 := BitVec.ofNat 32 (i 1).val
  let c195_i32 : BitVec 32 := 195#32
  let v38 : BitVec 1 := Scalar.cmpi .eq arg1 c195_i32
  let v39 : BitVec 32 := Scalar.extui v38
  let c0_i32_19 : BitVec 32 := 0#32
  let v40 : BitVec 1 := Scalar.cmpi .ne v39 c0_i32_19
  v40

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x1x512 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1x512 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x1x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1024x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨1, ![196], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![196, 196], ![false, false]⟩

def k7_cond2 (i : grid7.Coords) : BitVec 1 :=
  let arg1 : BitVec 32 := BitVec.ofNat 32 (i 1).val
  let c195_i32 : BitVec 32 := 195#32
  let v38 : BitVec 1 := Scalar.cmpi .eq arg1 c195_i32
  let v39 : BitVec 32 := Scalar.extui v38
  let c0_i32_19 : BitVec 32 := 0#32
  let v40 : BitVec 1 := Scalar.cmpi .ne v39 c0_i32_19
  v40

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x1x512 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x1x512 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x1x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1024x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S200000 : S_.BroadcastsInDim S200000 (![] : Fin 0 → Fin S200000.rank)
  bcast_S_S5200000 : S_.BroadcastsInDim S5200000 (![] : Fin 0 → Fin S5200000.rank)
  bcast_S5200000_S5200000x1_0 : S5200000.BroadcastsInDim S5200000x1 (![0] : Fin 1 → Fin S5200000x1.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S38416 : S_.BroadcastsInDim S38416 (![] : Fin 0 → Fin S38416.rank)
  bcast_S_S_ : S_.BroadcastsInDim S_ (![] : Fin 0 → Fin S_.rank)
  reduceWindows_S38416_S38416_w38416s1p38415_0 : S38416.ReduceWindows (![38416] : Fin 1 → Nat) ![1] ![38415] ![0] S38416
  h_S_ : 0 < S_.numel
  bcast_S_S19668992 : S_.BroadcastsInDim S19668992 (![] : Fin 0 → Fin S19668992.rank)
  shapeCasts_S19668992_S38416x1x512 : S19668992.ShapeCasts S38416x1x512
  shapeCasts_S200000_S200000x1 : S200000.ShapeCasts S200000x1
  pads_S200000x1_S200704x1_07040_000 : S200000x1.Pads (![0, 0] : Fin 2 → Nat) ![704, 0] ![0, 0] S200704x1
  pads_S200000x3_S200704x3_07040_000 : S200000x3.Pads (![0, 0] : Fin 2 → Nat) ![704, 0] ![0, 0] S200704x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S512x1024_d1_w32 : S512x1024.Iotas .tc 32 [1]
  shapeCasts_S512_S512x1 : S512.ShapeCasts S512x1
  broadcasts_S512x1_S512x1024 : S512x1.Broadcasts S512x1024
  shapeCasts_S512x1_S512x1 : S512x1.ShapeCasts S512x1
  iota_S1024x512_d0_w32 : S1024x512.Iotas .tc 32 [0]
  shapeCasts_S512_S1x512 : S512.ShapeCasts S1x512
  broadcasts_S1x512_S1024x512 : S1x512.Broadcasts S1024x512
  bcast_S200704x1_S200704x16_0_1 : S200704x1.BroadcastsInDim S200704x16 (![0, 1] : Fin 2 → Fin S200704x16.rank)
  bcast_S16_S1x16_1 : S16.BroadcastsInDim S1x16 (![1] : Fin 1 → Fin S1x16.rank)
  bcast_S1x16_S200704x16_0_1 : S1x16.BroadcastsInDim S200704x16 (![0, 1] : Fin 2 → Fin S200704x16.rank)
  bcast_S_S200704x16 : S_.BroadcastsInDim S200704x16 (![] : Fin 0 → Fin S200704x16.rank)
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bcast_S1_S1x1_1 : S1.BroadcastsInDim S1x1 (![1] : Fin 1 → Fin S1x1.rank)
  bcast_S1x1_S200704x1_0_1 : S1x1.BroadcastsInDim S200704x1 (![0, 1] : Fin 2 → Fin S200704x1.rank)
  slices_S200704x1_S200000x1_0_0 : S200704x1.Slices ![0, 0] S200000x1
  reducesTo_S200000x1_S200000_d1 : S200000x1.ReducesTo [1] S200000
  bcast_S200000_S200000x1_0 : S200000.BroadcastsInDim S200000x1 (![0] : Fin 1 → Fin S200000x1.rank)
  scatter_S200000_S5200000x1_S5200000_n_0_0_1_wf : ScatterDims.WF S200000 S5200000x1 S5200000 [] [0] [0] 1
  gather_S200000_S5000000x1_S5000000_n_0_n_n_0_1_1_wf : GatherDims.WF S200000 S5000000x1 S5000000 [] [0] [] [0] [] 1 ![1]
  scatter_S38416_S5000000x1_S5000000_n_0_0_1_wf : ScatterDims.WF S38416 S5000000x1 S5000000 [] [0] [0] 1
  gather_S38416_S5000000x1_S5000000_n_0_n_n_0_1_1_wf : GatherDims.WF S38416 S5000000x1 S5000000 [] [0] [] [0] [] 1 ![1]
  scatter_S19668992_S5000000x1_S5000000_n_0_0_1_wf : ScatterDims.WF S19668992 S5000000x1 S5000000 [] [0] [0] 1
  dot_S1024x3_S3x16_S1024x16_1_0_0_1_n_n_wf : DotDims.WF S1024x3 S3x16 S1024x16 [1] [0] [0] [1] [] []
  dot_S512x1024_S1024x16_S512x16_1_0_0_1_n_n_wf : DotDims.WF S512x1024 S1024x16 S512x16 [1] [0] [0] [1] [] []
  dot_S1024x512_S512x16_S1024x16_1_0_0_1_n_n_wf : DotDims.WF S1024x512 S512x16 S1024x16 [1] [0] [0] [1] [] []
  dot_S1024x16_S16x16_S1024x16_1_0_0_1_n_n_wf : DotDims.WF S1024x16 S16x16 S1024x16 [1] [0] [0] [1] [] []
  dot_S1024x16_S16x1_S1024x1_1_0_0_1_n_n_wf : DotDims.WF S1024x16 S16x1 S1024x1 [1] [0] [0] [1] [] []
  dot_S512x1024_S1024x1_S512x1_1_0_0_1_n_n_wf : DotDims.WF S512x1024 S1024x1 S512x1 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S200704x3.size a
  hwx0_0 : ∀ i : grid0.Coords, EltTy.bits .f32 = 32 ∨ (Rect.block (s := S200704x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S200704x16.size a
  hwx0_2 : ∀ i : grid0.Coords, EltTy.bits .f32 = 32 ∨ (Rect.block (s := S200704x16) S1024x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x16.size a ≤ S200704x16.size a
  hwx1_0 : ∀ i : grid1.Coords, EltTy.bits .f32 = 32 ∨ (Rect.block (s := S200704x16) S1024x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S38416x1x512.size a
  hwx1_1 : ∀ i : grid1.Coords, EltTy.bits .i32 = 32 ∨ (Rect.block (s := S38416x1x512) S1x1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S38416x1x512.size a
  hwx1_2 : ∀ i : grid1.Coords, EltTy.bits .i32 = 32 ∨ (Rect.block (s := S38416x1x512) S1x1x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S38416x1x512.size a
  hwx1_3 : ∀ i : grid1.Coords, EltTy.bits .f32 = 32 ∨ (Rect.block (s := S38416x1x512) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x16.size a ≤ S200704x16.size a
  hwx1_4 : ∀ i : grid1.Coords, EltTy.bits .f32 = 32 ∨ (Rect.block (s := S200704x16) S1024x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S200704x16.size a
  hwx2_0 : ∀ i : grid2.Coords, EltTy.bits .f32 = 32 ∨ (Rect.block (s := S200704x16) S1024x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x16.size a ≤ S200704x16.size a
  hwx2_2 : ∀ i : grid2.Coords, EltTy.bits .f32 = 32 ∨ (Rect.block (s := S200704x16) S1024x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x16.size a ≤ S200704x16.size a
  hwx3_0 : ∀ i : grid3.Coords, EltTy.bits .f32 = 32 ∨ (Rect.block (s := S200704x16) S1024x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x512.size a ≤ S38416x1x512.size a
  hwx3_1 : ∀ i : grid3.Coords, EltTy.bits .i32 = 32 ∨ (Rect.block (s := S38416x1x512) S1x1x512.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x512.size a ≤ S38416x1x512.size a
  hwx3_2 : ∀ i : grid3.Coords, EltTy.bits .i32 = 32 ∨ (Rect.block (s := S38416x1x512) S1x1x512.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512.size a ≤ S38416x1x512.size a
  hwx3_3 : ∀ i : grid3.Coords, EltTy.bits .f32 = 32 ∨ (Rect.block (s := S38416x1x512) S1x1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x16.size a ≤ S200704x16.size a
  hwx3_4 : ∀ i : grid3.Coords, EltTy.bits .f32 = 32 ∨ (Rect.block (s := S200704x16) S1024x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x16.size a ≤ S200704x16.size a
  hwx4_0 : ∀ i : grid4.Coords, EltTy.bits .f32 = 32 ∨ (Rect.block (s := S200704x16) S1024x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x16.size a ≤ S200704x16.size a
  hwx4_2 : ∀ i : grid4.Coords, EltTy.bits .f32 = 32 ∨ (Rect.block (s := S200704x16) S1024x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x16.size a ≤ S200704x16.size a
  hwx5_0 : ∀ i : grid5.Coords, EltTy.bits .f32 = 32 ∨ (Rect.block (s := S200704x16) S1024x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x512.size a ≤ S38416x1x512.size a
  hwx5_1 : ∀ i : grid5.Coords, EltTy.bits .i32 = 32 ∨ (Rect.block (s := S38416x1x512) S1x1x512.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x512.size a ≤ S38416x1x512.size a
  hwx5_2 : ∀ i : grid5.Coords, EltTy.bits .i32 = 32 ∨ (Rect.block (s := S38416x1x512) S1x1x512.size (cc5_transform_2 i) (hinb5_2 i)).WholeWords (EltTy.packing .i32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x512.size a ≤ S38416x1x512.size a
  hwx5_3 : ∀ i : grid5.Coords, EltTy.bits .f32 = 32 ∨ (Rect.block (s := S38416x1x512) S1x1x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x16.size a ≤ S200704x16.size a
  hwx5_4 : ∀ i : grid5.Coords, EltTy.bits .f32 = 32 ∨ (Rect.block (s := S200704x16) S1024x16.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x16.size a ≤ S200704x16.size a
  hwx6_0 : ∀ i : grid6.Coords, EltTy.bits .f32 = 32 ∨ (Rect.block (s := S200704x16) S1024x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x1.size a ≤ S16x1.size a
  hwx6_1 : ∀ i : grid6.Coords, EltTy.bits .f32 = 32 ∨ (Rect.block (s := S16x1) S16x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1.size a ≤ S200704x1.size a
  hwx6_2 : ∀ i : grid6.Coords, EltTy.bits .f32 = 32 ∨ (Rect.block (s := S200704x1) S1024x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1.size a ≤ S200704x1.size a
  hwx7_0 : ∀ i : grid7.Coords, EltTy.bits .f32 = 32 ∨ (Rect.block (s := S200704x1) S1024x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x512.size a ≤ S38416x1x512.size a
  hwx7_1 : ∀ i : grid7.Coords, EltTy.bits .i32 = 32 ∨ (Rect.block (s := S38416x1x512) S1x1x512.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x512.size a ≤ S38416x1x512.size a
  hwx7_2 : ∀ i : grid7.Coords, EltTy.bits .i32 = 32 ∨ (Rect.block (s := S38416x1x512) S1x1x512.size (cc7_transform_2 i) (hinb7_2 i)).WholeWords (EltTy.packing .i32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1x512.size a ≤ S38416x1x512.size a
  hwx7_3 : ∀ i : grid7.Coords, EltTy.bits .f32 = 32 ∨ (Rect.block (s := S38416x1x512) S1x1x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x1.size a ≤ S200704x1.size a
  hwx7_4 : ∀ i : grid7.Coords, EltTy.bits .f32 = 32 ∨ (Rect.block (s := S200704x1) S1024x1.size (cc7_transform_4 i) (hinb7_4 i)).WholeWords (EltTy.packing .f32)

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5000000x1_S5000000_n_0_n_n_0_1_1 : GatherDims S200000 S5000000x1 S5000000 where
  offsetDims := []
  collapsedSliceDims := [0]
  operandBatchingDims := []
  startIndicesBatchingDims := []
  startIndexMap := [0]
  indexVectorDim := 1
  sliceSizes := ![1]
  wf := gather_S200000_S5000000x1_S5000000_n_0_n_n_0_1_1_wf
def comparator_i32_i32_i32_f32_d0 : BitVec 32 × BitVec 32 × BitVec 32 × F .f32 → BitVec 32 × BitVec 32 × BitVec 32 × F .f32 → BitVec 1 :=
  fun l r =>
    let v135 := IntOp.cmpi .slt l.1 r.1
    v135
def scatter_S38416_S5000000x1_S5000000_n_0_0_1 : ScatterDims S38416 S5000000x1 S5000000 where
  updateWindowDims := []
  insertedWindowDims := [0]
  scatterDimsToOperandDims := [0]
  indexVectorDim := 1
  wf := scatter_S38416_S5000000x1_S5000000_n_0_0_1_wf
def gather_S38416_S5000000x1_S5000000_n_0_n_n_0_1_1 : GatherDims S38416 S5000000x1 S5000000 where
  offsetDims := []
  collapsedSliceDims := [0]
  operandBatchingDims := []
  startIndicesBatchingDims := []
  startIndexMap := [0]
  indexVectorDim := 1
  sliceSizes := ![1]
  wf := gather_S38416_S5000000x1_S5000000_n_0_n_n_0_1_1_wf
def scatter_S19668992_S5000000x1_S5000000_n_0_0_1 : ScatterDims S19668992 S5000000x1 S5000000 where
  updateWindowDims := []
  insertedWindowDims := [0]
  scatterDimsToOperandDims := [0]
  indexVectorDim := 1
  wf := scatter_S19668992_S5000000x1_S5000000_n_0_0_1_wf
def dot_S1024x3_S3x16_S1024x16_1_0_0_1_n_n : DotDims S1024x3 S3x16 S1024x16 where
  lhsContracting := [1]
  rhsContracting := [0]
  lhsNonContracting := [0]
  rhsNonContracting := [1]
  lhsBatch := []
  rhsBatch := []
  wf := dot_S1024x3_S3x16_S1024x16_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v98) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v99) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v99) S1024x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v95) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v100) S1024x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v107) S1024x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1024x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v108) S1024x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x1x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1x1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v109) S1024x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v116) S1024x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v117) S1024x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v117) S1024x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x1x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x1x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x1x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v118) S1024x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v125) S1024x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S16x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1024x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v126) S1024x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x1x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x1x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x1x512.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v127) S1024x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

class Facts : Prop extends Facts₀ where

variable [Facts]
-- ==== ReferenceIdeal.lean ====
abbrev S200000x3 : Shape := ⟨2, ![200000, 3]⟩
abbrev S2x5000000 : Shape := ⟨2, ![2, 5000000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S200000 : Shape := ⟨1, ![200000]⟩
abbrev S1x5000000 : Shape := ⟨2, ![1, 5000000]⟩
abbrev S5000000 : Shape := ⟨1, ![5000000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S5200000x16 : Shape := ⟨2, ![5200000, 16]⟩
abbrev S1x16 : Shape := ⟨2, ![1, 16]⟩
abbrev S200000x1 : Shape := ⟨2, ![200000, 1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S200000x3, .f32⟩
  | 1 => ⟨S2x5000000, .i32⟩
  | 2 => ⟨S3x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x1, .f32⟩
  | 9 => ⟨S1, .f32⟩
  | 10 => ⟨S200000, .i32⟩
  | 11 => ⟨S1x5000000, .i32⟩
  | 12 => ⟨S5000000, .i32⟩
  | 13 => ⟨S5200000, .i32⟩
  | 14 => ⟨S1x5000000, .i32⟩
  | 15 => ⟨S5000000, .i32⟩
  | 16 => ⟨S5200000, .i32⟩
  | 17 => ⟨S_, .f32⟩
  | 18 => ⟨S5200000, .f32⟩
  | 19 => ⟨S_, .f32⟩
  | 20 => ⟨S200000, .f32⟩
  | 21 => ⟨S5200000x1, .i32⟩
  | 22 => ⟨S200000, .f32⟩
  | 23 => ⟨S_, .f32⟩
  | 24 => ⟨S200000, .f32⟩
  | 25 => ⟨S200000, .i1⟩
  | 26 => ⟨S200000, .f32⟩
  | 27 => ⟨S_, .f32⟩
  | 28 => ⟨S_, .f32⟩
  | 29 => ⟨S200000, .f32⟩
  | 30 => ⟨S200000, .f32⟩
  | 31 => ⟨S_, .i32⟩
  | 32 => ⟨S5200000, .i32⟩
  | 33 => ⟨S5200000, .i1⟩
  | 34 => ⟨S_, .i32⟩
  | 35 => ⟨S5200000, .i32⟩
  | 36 => ⟨S5200000, .i32⟩
  | 37 => ⟨S5200000, .i32⟩
  | 38 => ⟨S5200000x1, .i32⟩
  | 39 => ⟨S5200000, .f32⟩
  | 40 => ⟨S_, .i32⟩
  | 41 => ⟨S5200000, .i32⟩
  | 42 => ⟨S5200000, .i1⟩
  | 43 => ⟨S_, .i32⟩
  | 44 => ⟨S5200000, .i32⟩
  | 45 => ⟨S5200000, .i32⟩
  | 46 => ⟨S5200000, .i32⟩
  | 47 => ⟨S5200000x1, .i32⟩
  | 48 => ⟨S5200000, .f32⟩
  | 49 => ⟨S5200000, .f32⟩
  | 50 => ⟨S200000x16, .f32⟩
  | 51 => ⟨S_, .i32⟩
  | 52 => ⟨S5200000, .i32⟩
  | 53 => ⟨S5200000, .i1⟩
  | 54 => ⟨S_, .i32⟩
  | 55 => ⟨S5200000, .i32⟩
  | 56 => ⟨S5200000, .i32⟩
  | 57 => ⟨S5200000, .i32⟩
  | 58 => ⟨S5200000x1, .i32⟩
  | 59 => ⟨S5200000x16, .f32⟩
  | 60 => ⟨S5200000x1, .f32⟩
  | 61 => ⟨S5200000x16, .f32⟩
  | 62 => ⟨S5200000x16, .f32⟩
  | 63 => ⟨S_, .f32⟩
  | 64 => ⟨S200000x16, .f32⟩
  | 65 => ⟨S5200000x1, .i32⟩
  | 66 => ⟨S200000x16, .f32⟩
  | 67 => ⟨S1x16, .f32⟩
  | 68 => ⟨S200000x16, .f32⟩
  | 69 => ⟨S200000x16, .f32⟩
  | 70 => ⟨S_, .f32⟩
  | 71 => ⟨S200000x16, .f32⟩
  | 72 => ⟨S200000x16, .f32⟩
  | 73 => ⟨S200000x16, .f32⟩
  | 74 => ⟨S_, .i32⟩
  | 75 => ⟨S5200000, .i32⟩
  | 76 => ⟨S5200000, .i1⟩
  | 77 => ⟨S_, .i32⟩
  | 78 => ⟨S5200000, .i32⟩
  | 79 => ⟨S5200000, .i32⟩
  | 80 => ⟨S5200000, .i32⟩
  | 81 => ⟨S5200000x1, .i32⟩
  | 82 => ⟨S5200000x16, .f32⟩
  | 83 => ⟨S5200000x1, .f32⟩
  | 84 => ⟨S5200000x16, .f32⟩
  | 85 => ⟨S5200000x16, .f32⟩
  | 86 => ⟨S_, .f32⟩
  | 87 => ⟨S200000x16, .f32⟩
  | 88 => ⟨S5200000x1, .i32⟩
  | 89 => ⟨S200000x16, .f32⟩
  | 90 => ⟨S1x16, .f32⟩
  | 91 => ⟨S200000x16, .f32⟩
  | 92 => ⟨S200000x16, .f32⟩
  | 93 => ⟨S_, .f32⟩
  | 94 => ⟨S200000x16, .f32⟩
  | 95 => ⟨S200000x16, .f32⟩
  | 96 => ⟨S200000x16, .f32⟩
  | 97 => ⟨S_, .i32⟩
  | 98 => ⟨S5200000, .i32⟩
  | 99 => ⟨S5200000, .i1⟩
  | 100 => ⟨S_, .i32⟩
  | 101 => ⟨S5200000, .i32⟩
  | 102 => ⟨S5200000, .i32⟩
  | 103 => ⟨S5200000, .i32⟩
  | 104 => ⟨S5200000x1, .i32⟩
  | 105 => ⟨S5200000x16, .f32⟩
  | 106 => ⟨S5200000x1, .f32⟩
  | 107 => ⟨S5200000x16, .f32⟩
  | 108 => ⟨S5200000x16, .f32⟩
  | 109 => ⟨S_, .f32⟩
  | 110 => ⟨S200000x16, .f32⟩
  | 111 => ⟨S5200000x1, .i32⟩
  | 112 => ⟨S200000x16, .f32⟩
  | 113 => ⟨S1x16, .f32⟩
  | 114 => ⟨S200000x16, .f32⟩
  | 115 => ⟨S200000x16, .f32⟩
  | 116 => ⟨S_, .f32⟩
  | 117 => ⟨S200000x16, .f32⟩
  | 118 => ⟨S200000x16, .f32⟩
  | 119 => ⟨S200000x1, .f32⟩
  | 120 => ⟨S_, .i32⟩
  | 121 => ⟨S5200000, .i32⟩
  | 122 => ⟨S5200000, .i1⟩
  | 123 => ⟨S_, .i32⟩
  | 124 => ⟨S5200000, .i32⟩
  | 125 => ⟨S5200000, .i32⟩
  | 126 => ⟨S5200000, .i32⟩
  | 127 => ⟨S5200000x1, .i32⟩
  | _ => ⟨S200000x3, .f32⟩

abbrev hbmTy0_1 (i : Nat) : BufTy := match i % 128 with
  | 0 => ⟨S5200000x1, .f32⟩
  | 1 => ⟨S5200000x1, .f32⟩
  | 2 => ⟨S5200000x1, .f32⟩
  | 3 => ⟨S_, .f32⟩
  | 4 => ⟨S200000x1, .f32⟩
  | 5 => ⟨S5200000x1, .i32⟩
  | 6 => ⟨S200000x1, .f32⟩
  | 7 => ⟨S1x1, .f32⟩
  | 8 => ⟨S200000x1, .f32⟩
  | 9 => ⟨S200000x1, .f32⟩
  | 10 => ⟨S_, .f32⟩
  | 11 => ⟨S200000, .f32⟩
  | 12 => ⟨S_, .f32⟩
  | 13 => ⟨S200000, .f32⟩
  | 14 => ⟨S200000, .f32⟩
  | 15 => ⟨S200000x1, .f32⟩
  | 16 => ⟨S200000x1, .f32⟩
  | 17 => ⟨S200000x1, .f32⟩
  | 18 => ⟨S_, .f32⟩
  | 19 => ⟨S200000, .f32⟩
  | 20 => ⟨S200000x1, .f32⟩
  | 21 => ⟨S200000x1, .f32⟩
  | 22 => ⟨S200000x1, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call4_cst : Ref sig .tc := ⟨.hbm, 138, rfl⟩
abbrev main_call4_v0 : Ref sig .tc := ⟨.hbm, 139, rfl⟩
abbrev main_call4_cst_0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_cst_1 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_v100 : Ref sig .tc := ⟨.hbm, 150, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S200000_S5200000_d0 : Shape.Concatenates [S5000000, S200000] S5200000 0
  slices_S2x5000000_S1x5000000_1_0 : S2x5000000.Slices ![1, 0] S1x5000000
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x1_0 : S200000.BroadcastsInDim S200000x1 (![0] : Fin 1 → Fin S200000x1.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S200000x3_S3x16_S200000x16_1_0_0_1_n_n_wf : DotDims.WF S200000x3 S3x16 S200000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []
  gather_S200000x1_S5200000x1_S5200000x1_1_0_n_n_0_1_11_wf : GatherDims.WF S200000x1 S5200000x1 S5200000x1 [1] [0] [] [0] [] 1 ![1, 1]
  scatter_S200000x1_S5200000x1_S5200000x1_1_0_0_1_wf : ScatterDims.WF S200000x1 S5200000x1 S5200000x1 [1] [0] [0] 1

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S200000x3_S3x16_S200000x16_1_0_0_1_n_n : DotDims S200000x3 S3x16 S200000x16 where
  lhsContracting := [1]
  rhsContracting := [0]
  lhsNonContracting := [0]
  rhsNonContracting := [1]
  lhsBatch := []
  rhsBatch := []
  wf := dot_S200000x3_S3x16_S200000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S5200000x1_S5200000x1_1_0_n_n_0_1_11 : GatherDims S200000x1 S5200000x1 S5200000x1 where
  offsetDims := [1]
  collapsedSliceDims := [0]
  operandBatchingDims := []
  startIndicesBatchingDims := []
  startIndexMap := [0]
  indexVectorDim := 1
  sliceSizes := ![1, 1]
  wf := gather_S200000x1_S5200000x1_S5200000x1_1_0_n_n_0_1_11_wf
def scatter_S200000x1_S5200000x1_S5200000x1_1_0_0_1 : ScatterDims S200000x1 S5200000x1 S5200000x1 where
  updateWindowDims := [1]
  insertedWindowDims := [0]
  scatterDimsToOperandDims := [0]
  indexVectorDim := 1
  wf := scatter_S200000x1_S5200000x1_S5200000x1_1_0_0_1_wf

class Facts : Prop extends Facts₀ where

variable [Facts]
-- ==== Proof.K.Dense0.lean ====
/- Region 0 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k0_pay1`). Here: each window's block at a point, what
   the body leaves in the output tile, the body's triple with a frame, the pipeline's proof data, and its body
   obligation at every point. -/
import proofs.«140952_j21595095564583_2_alg».proof.Proof.Gen.Kernel.Launch
import proofs.«140952_j21595095564583_2_alg».proof.Proof.Gen.Kernel.Skeleton
import proofs.«140952_j21595095564583_2_alg».proof.Proof.K.Points0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The output tile after the body -/

/-- The body reads and writes each of its three buffers whole: the rectangle at the origin of the buffer's own extent. -/
abbrev r0_0 : Rect S1024x3 := Rect.unit (s := S1024x3) ![0, 0] S1024x3.size inb_S1024x3_S1024x3_0_0
abbrev r0_1 : Rect S3x16 := Rect.unit (s := S3x16) ![0, 0] S3x16.size inb_S3x16_S3x16_0_0
abbrev r0_2 : Rect S1024x16 := Rect.unit (s := S1024x16) ![0, 0] S1024x16.size inb_S1024x16_S1024x16_0_0

/-- What the body leaves in the output tile, from the row tile `x0` and the weight block `x1`: its single store, the
    product of the two, laid over the tile. -/
def out0_2 (x0 : Vec F S1024x3 .f32) (x1 : Vec F S3x16 .f32) : Vec F S1024x16 .f32 :=
  View.canon [⟨r0_2, k0_pay1 (View.ld x0 r0_0) (View.ld x1 r0_1)⟩]

/-- Every index of the output tile lies in the stored rectangle: on each axis the rectangle starts at 0 and is as long
    as the tile. -/
theorem tile_in_store0 (y : S1024x16.Idx) : y ∈ (r0_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out0_2 xt wb`; what is read back after the store is the product because the store misses no index of the tile. -/
theorem dense_point0 (c : Dev nD) (E : Set ℕ) (i : grid0.Coords)
    (xbuf : Memref sig .tc .vmem S1024x3 .f32) (hx : xbuf.IsWhole) (wbuf : Memref sig .tc .vmem S3x16 .f32) (hw : wbuf.IsWhole)
    (obuf : Memref sig .tc .vmem S1024x16 .f32) (ho : obuf.IsWhole)
    (xt : Vec F S1024x3 .f32) (wb : Vec F S3x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc0__dense_kernel i xbuf hx wbuf hw obuf ho)
          (fun _ => (iprop(R ∗ owns (c : Thread nD τ) xbuf fullShare xt ∗ owns (c : Thread nD τ) wbuf fullShare wb
            ∗ owns (c : Thread nD τ) obuf fullShare (out0_2 xt wb)) : sProp 𝕄)) := by
  rw [cc0__dense_kernel_eq_skeleton]
  unfold cc0__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store0 y⟩
  · iexact Ho

/-! ## The pipeline's proof data -/

/-- The proof data of pipeline 0 on core `c`: the arrays as the region finds them; after the body at point `t` the row
    tile and the weight block still in their buffers and the output tile at their product; the invariant is the rest of
    the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the two input buffers -/

/-- The block a fetch at point `t` reads of window `w`'s array is `iblk0 V c w t`: the arrays are `V`'s. -/
theorem blockOf_eq0 (c : Dev nD) (w : Fin cfg0.W) (t : Fin cfg0.N) : (dat0 V c).blockOf w t = iblk0 V c w t := by
  unfold Dat.blockOf iblk0
  rw [A_eq0]

/-- The row tile of `x` is fetched at every point, and the fetch fills the whole buffer (the tile is never cut): the
    body finds the tile of its own point. -/
theorem rowtile_found0 (c : Dev nD) (t : Fin cfg0.N) (d) : (dat0 V c).before 0 t d = iblk0 V c 0 t :=
  calc (dat0 V c).before 0 t d
      = (dat0 V c).fetched 0 t d := (dat0 V c).before_fetched 0 t (fetch0_0 t) d
    _ = (dat0 V c).blockOf 0 t := rfl
    _ = iblk0 V c 0 t := blockOf_eq0 V c 0 t

/-- The weight block is fetched at the first point only. At a later point its block index has not moved and the body
    left the buffer as it found it, so the body finds there what a fetch at that point would have put: `W` again. -/
theorem weight_found0 (c : Dev nD) (t : Fin cfg0.N) (d) : (dat0 V c).before 1 t d = iblk0 V c 1 t :=
  calc (dat0 V c).before 1 t d
      = (dat0 V c).fetched 1 t d :=
        (dat0 V c).before_in_eq_fetched 1 rfl (fun _ => rfl) (fun _ _ _ => rfl)
          (fun s => by rw [after0_1, blockOf_eq0]) t d
    _ = (dat0 V c).blockOf 1 t := rfl
    _ = iblk0 V c 1 t := blockOf_eq0 V c 1 t

/-! ## The body obligation -/

/-- At every point: the two input buffers hold the row tile and the weight block of the point, the output buffer holds
    anything, so `dense_point0` applies with the invariant and the tallies owed as its frame (the body touches neither),
    and it leaves each buffer at what the proof data say. No window is idle at any point. -/
theorem body_obligation0 (c : Dev nD) : BodyObligation (dat0 (F := F) V c) (defs₀ (F := F)) Variants.none () Set.univ := by
  intro t
  rw [bigSep_W0, bigSep_W0]
  show iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)))
  simp only [rowtile_found0, weight_found0, after0_0, after0_1, after0_2]
  refine .trans ?_ (wp_mono _ _ _ fun _ => BI.sep_assoc)
  iintro ⟨HΦ, Htally, ⟨%_, Hx⟩, ⟨%_, Hw⟩, ⟨%stale, Hout⟩⟩
  iapply (dense_point0 c Set.univ _ _ _ _ _ _ _ (iblk0 V c 0 t) (iblk0 V c 1 t)
    iprop((dat0 V c).Φ t.castSucc ∗ (dat0 V c).owesAt () t.castSucc))
  isplitl [HΦ Htally]
  · isplitl [HΦ]
    · iexact HΦ
    · iexact Htally
  isplitl [Hx]
  · iexact Hx
  isplitl [Hw]
  · iexact Hw
  iexists (dat0 V c).before 2 t stale
  iexact Hout

end Regions

end Cert.Kernel.Gen
-- ==== Proof.K.Sched1.lean ====
/- The pipeline schedule of the first aggregation call of the word-level program. The two printed programs are the same
   text, so this call's windows have the index maps of the idealized program's first aggregation call on the same grid:
   each window is fetched, and the output tile written back, at the same points. The equalities hold by unfolding, at a
   symbolic point; the facts themselves are the idealized program's. -/
import proofs.«140952_j21595095564583_2_alg».proof.Proof.KI.Points1
import proofs.«140952_j21595095564583_2_alg».proof.Proof.Gen.Kernel
import Idealize.ShloMosaic.Lib.Pipeline.Kit

noncomputable section

namespace Cert.Kernel.Gen

open Idealize.ShloMosaic Idealize.ShloMosaic.TcCoe
open Idealize.SL Idealize.SL.Sem

/-- Window 0 is fetched at every point, as in the idealized program. -/
theorem fetch1_0 : ∀ t : Fin cfg1.N, (cfg1.win 0).fetch t = true :=
  fun t => (show (cfg1.win 0).fetch t = (Cert.KernelIdeal.cfg1.win 0).fetch t from rfl).trans (Cert.KernelIdeal.Gen.fetch1_0 t)
/-- Window 1 is fetched at every point, as in the idealized program. -/
theorem fetch1_1 : ∀ t : Fin cfg1.N, (cfg1.win 1).fetch t = true :=
  fun t => (show (cfg1.win 1).fetch t = (Cert.KernelIdeal.cfg1.win 1).fetch t from rfl).trans (Cert.KernelIdeal.Gen.fetch1_1 t)
/-- Window 2 is fetched at every point, as in the idealized program. -/
theorem fetch1_2 : ∀ t : Fin cfg1.N, (cfg1.win 2).fetch t = true :=
  fun t => (show (cfg1.win 2).fetch t = (Cert.KernelIdeal.cfg1.win 2).fetch t from rfl).trans (Cert.KernelIdeal.Gen.fetch1_2 t)
/-- Window 3 is fetched at every point, as in the idealized program. -/
theorem fetch1_3 : ∀ t : Fin cfg1.N, (cfg1.win 3).fetch t = true :=
  fun t => (show (cfg1.win 3).fetch t = (Cert.KernelIdeal.cfg1.win 3).fetch t from rfl).trans (Cert.KernelIdeal.Gen.fetch1_3 t)
/-- The output tile is written back at the last source tile of each row, t ≡ 195 (mod 196), as in the idealized program. -/
theorem flush1_4 : ∀ t : Fin cfg1.N, (cfg1.win 4).flush t = true ↔ t.val % 196 = 195 := fun t => by
  rw [show (cfg1.win 4).flush t = (Cert.KernelIdeal.cfg1.win 4).flush t from rfl]; exact Cert.KernelIdeal.Gen.flush1_4 t

end Cert.Kernel.Gen

end
-- ==== Proof.K.Agg1Runs.lean ====
/- The first graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.Kernel.Launch
import proofs.«140952_j21595095564583_2_alg».proof.Proof.Gen.Kernel.Skeleton
import proofs.«140952_j21595095564583_2_alg».proof.Proof.K.Points1
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input is fetched at every point and its block is never cut, so when the body runs its current staging
    buffer holds exactly the block — for any proof data over the entry arrays. One statement per input. -/
theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t := by
  rw [dat.before_fetched 0 t (fetch1_0 t) d]; unfold Dat.fetched Dat.blockOf iblk1; rw [hA]; rfl
theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t := by
  rw [dat.before_fetched 1 t (fetch1_1 t) d]; unfold Dat.fetched Dat.blockOf iblk1; rw [hA]; rfl
theorem before1_2_of {c : Dev nD} (dat : Dat τ (Elt F) Unit ℕ (UR sig nD τ) ℕ cfg1 c) (hA : dat.A 2 = V c (Pipeline.arrRef spec1 2))
    (t : Fin cfg1.N) (d) : dat.before 2 t d = iblk1 V c 2 t := by
  rw [dat.before_fetched 2 t (fetch1_2 t) d]; unfold Dat.fetched Dat.blockOf iblk1; rw [hA]; rfl
theorem before1_3_of {c : Dev nD} (dat : Dat τ (Elt F) Unit ℕ (UR sig nD τ) ℕ cfg1 c) (hA : dat.A 3 = V c (Pipeline.arrRef spec1 3))
    (t : Fin cfg1.N) (d) : dat.before 3 t d = iblk1 V c 3 t := by
  rw [dat.before_fetched 3 t (fetch1_3 t) d]; unfold Dat.fetched Dat.blockOf iblk1; rw [hA]; rfl

/-! ## First and last source tile -/

/-- The source coordinate of the flattened point `t` is `t % 196`: the source axis is the last one, of stride one. -/
theorem srcCoord1 (t : Fin cfg1.N) : ((grid1.coords t) 1).val = t.val % 196 := by
  have hs : grid1.stride 1 = 1 := rfl
  show t.val / grid1.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest1 : ∀ j : Fin 196,
    (Scalar.cmpi .ne (Scalar.extui (Scalar.cmpi .eq (BitVec.ofNat 32 j.val) 0#32)) 0#32) = 1#1 ↔ j.val = 0 := by decide +kernel
theorem lastTest1 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc1 (i : grid1.Coords) : Prop := (Scalar.cmpi .ne (Scalar.extui (Scalar.cmpi .eq (BitVec.ofNat 32 (i 1).val) 0#32)) 0#32) = 1#1
/-- which holds at the flattened points t with t % 196 = 0. -/
theorem firstSrc1_iff (t : Fin cfg1.N) : firstSrc1 (grid1.coords t) ↔ t.val % 196 = 0 := by
  rw [← srcCoord1 t]; exact firstTest1 ((grid1.coords t) 1)

/-- It copies the accumulator to the output tile under this one (j = 195), -/
abbrev lastSrc1 (i : grid1.Coords) : Prop := k1_cond2 i = 1#1
/-- which holds at the points with t % 196 = 195. -/
theorem lastSrc1_iff (t : Fin cfg1.N) : lastSrc1 (grid1.coords t) ↔ t.val % 196 = 195 := by
  rw [← srcCoord1 t]; exact lastTest1 ((grid1.coords t) 1)

/-- The two tests read off the flattened point. -/
theorem isFirst1 (t : Fin cfg1.N) (h : t.val % 196 = 0) : firstSrc1 (grid1.coords t) := (firstSrc1_iff t).mpr h
theorem notFirst1 (t : Fin cfg1.N) (h : ¬t.val % 196 = 0) : ¬firstSrc1 (grid1.coords t) := fun hf => h ((firstSrc1_iff t).mp hf)
theorem isLast1 (t : Fin cfg1.N) (h : t.val % 196 = 195) : lastSrc1 (grid1.coords t) := (lastSrc1_iff t).mpr h
theorem notLast1 (t : Fin cfg1.N) (h : ¬t.val % 196 = 195) : ¬lastSrc1 (grid1.coords t) := fun hl => h ((lastSrc1_iff t).mp hl)

/-! ## Where the output tile is untouched -/

/-- Off the last source tile the output window is idle: nothing is stored into it, -/
theorem outIdle1 (i : grid1.Coords) (h : ¬lastSrc1 i) : cfg1.idle 4 i = true := by
  show (!(k1_cond2 i == 1#1)) = true
  simp only [Bool.not_eq_true', beq_eq_false_iff_ne, ne_eq]; exact h
/-- and it is not written back there; -/
theorem outKept1 (t : Fin cfg1.N) (h : ¬lastSrc1 (grid1.coords t)) : (cfg1.win 4).flush t = false := by
  rw [Bool.eq_false_iff]; exact fun hf => h ((lastSrc1_iff t).mpr ((flush1_4 t).mp hf))
/-- on the last source tile it is live. -/
theorem outLive1 (i : grid1.Coords) (h : lastSrc1 i) : cfg1.idle 4 i = false := by
  show (!(k1_cond2 i == 1#1)) = false
  simp only [Bool.not_eq_false', beq_iff_eq]; exact h

/-! ## The memrefs the body is called on -/

/-- Each window's current staging memref at point `t`, as the pipeline passes it, and its wholeness. -/
abbrev ms1_0 (t : Fin cfg1.N) : Memref sig .tc .vmem S1024x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
/-- The accumulator: one whole scoped 1024 × 16 buffer of the call's own, carried from point to point. -/
abbrev acc1 : Memref sig .tc .vmem S1024x16 .f32 := Memref.whole cc1_scratch0
/-- The views through which the accumulator's and the output tile's contents are stated. -/
abbrev accView1 : View sig .tc .vmem S1024x16 .f32 := acc1.view
abbrev outView1 : View sig .tc .vmem S1024x16 .f32 := (Memref.whole cc1_stg4_0 : Memref sig .tc .vmem S1024x16 .f32).view

/-- What the call is handed beside its windows: the accumulator at some contents, every other scoped buffer that
    is no staging buffer of this call (unopened), and the generator register at some state. -/
theorem PhiA1_eq (c : Dev nD) :
    (Pipeline.ΦA spec1 c : sProp 𝕄)
      = iprop(iprop(iprop((∃ d, owns (c : Thread nD τ) acc1 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [acc1, owns_whole]; rfl

end Cert.Kernel.Gen

end
-- ==== Proof.K.Agg1RunA.lean ====
/- The aggregation body at a FIRST point (source tile j = 0, not the last): the accumulator, whatever it held, is
   zeroed, the contribution of this tile pair is added to it, and the output tile is not touched. -/
import proofs.«140952_j21595095564583_2_alg».proof.Proof.K.Agg1Runs

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun1_first (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun y E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg1RunB.lean ====
/- The aggregation body at an INNER point (source tile 0 < j < 195): the contribution of this tile pair is added to
   what the accumulator held; the output tile is not touched. -/
import proofs.«140952_j21595095564583_2_alg».proof.Proof.K.Agg1RunA

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun1_inner (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun y E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg1RunC.lean ====
/- The aggregation body at a LAST point (source tile j = 195): the contribution is added to what the accumulator
   held, and the sum is copied to the output tile. -/
import proofs.«140952_j21595095564583_2_alg».proof.Proof.K.Agg1RunB

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.Kernel.Gen

end
-- ==== Proof.K.Agg1.lean ====
/- The first graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.K.Agg1RunC

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover1_first (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) (y : S1024x16.Idx) :
    ∃ pc ∈ (aggRun1_first c i arg2 harg2 arg3 harg3 arg4 harg4 arg5 harg5 arg6 harg6 arg7 harg7 hfirst hlast x0 x1 x2 x3).1, y ∈ pc.1.set :=
  View.cover_of_tiledL (aggRun1_first c i arg2 harg2 arg3 harg3 arg4 harg4 arg5 harg5 arg6 harg6 arg7 harg7 hfirst hlast x0 x1 x2 x3).1 S1024x16.size (by sl_kernel_rfl) y

/-- The accumulator after a first point: its stores read back. -/
def sout1_A_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) : Vec F S1024x16 .f32 :=
  accView1.read (Elt F) (accView1.writes (Elt F) accView1.junk (aggRun1_first c i arg2 harg2 arg3 harg3 arg4 harg4 arg5 harg5 arg6 harg6 arg7 harg7 hfirst hlast x0 x1 x2 x3).1)

/-- The one store of an inner point covers the accumulator. -/
theorem accCover1_inner (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_inner c i arg2 harg2 arg3 harg3 arg4 harg4 arg5 harg5 arg6 harg6 arg7 harg7 hfirst hlast x0 x1 x2 x3 xs).1, y ∈ pc.1.set :=
  View.cover_of_tiledL (aggRun1_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout1_B_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  accView1.read (Elt F) (accView1.writes (Elt F) accView1.junk (aggRun1_inner c i arg2 harg2 arg3 harg3 arg4 harg4 arg5 harg5 arg6 harg6 arg7 harg7 hfirst hlast x0 x1 x2 x3 xs).1)

/-- At a last point the store into the accumulator covers it, -/
theorem accCover1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_last c i arg2 harg2 arg3 harg3 arg4 harg4 arg5 harg5 arg6 harg6 arg7 harg7 hfirst hlast x0 x1 x2 x3 xs).2.1, y ∈ pc.1.set :=
  View.cover_of_tiledL (aggRun1_last c i arg2 harg2 arg3 harg3 arg4 harg4 arg5 harg5 arg6 harg6 arg7 harg7 hfirst hlast x0 x1 x2 x3 xs).2.1 S1024x16.size (by sl_kernel_rfl) y

/-- and the store into the output tile covers that. -/
theorem outCover1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_last c i arg2 harg2 arg3 harg3 arg4 harg4 arg5 harg5 arg6 harg6 arg7 harg7 hfirst hlast x0 x1 x2 x3 xs).1, y ∈ pc.1.set :=
  View.cover_of_tiledL (aggRun1_last c i arg2 harg2 arg3 harg3 arg4 harg4 arg5 harg5 arg6 harg6 arg7 harg7 hfirst hlast x0 x1 x2 x3 xs).1 S1024x16.size (by sl_kernel_rfl) y

/-- The accumulator after a last point, -/
def sout1_C_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  accView1.read (Elt F) (accView1.writes (Elt F) accView1.junk (aggRun1_last c i arg2 harg2 arg3 harg3 arg4 harg4 arg5 harg5 arg6 harg6 arg7 harg7 hfirst hlast x0 x1 x2 x3 xs).2.1)

/-- and the output tile after it. -/
def out1_C_4 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  outView1.read (Elt F) (outView1.writes (Elt F) outView1.junk (aggRun1_last c i arg2 harg2 arg3 harg3 arg4 harg4 arg5 harg5 arg6 harg6 arg7 harg7 hfirst hlast x0 x1 x2 x3 xs).1)

/-! ## The same at a grid point: on the memrefs the pipeline passes there and the blocks the inputs stage -/

def accFirst1 (c : Dev nD) (t : Fin cfg1.N) (h0 : t.val % 196 = 0) : Vec F S1024x16 .f32 :=
  sout1_A_0 c (grid1.coords t) (ms1_0 t) (hs1_0 t) (ms1_1 t) (hs1_1 t) (ms1_2 t) (hs1_2 t) (ms1_3 t) (hs1_3 t) (ms1_4 t) (hs1_4 t) acc1 (Memref.isWhole_whole _)
    (isFirst1 t h0) (notLast1 t (by omega)) (iblk1 V c 0 t) (iblk1 V c 1 t) (iblk1 V c 2 t) (iblk1 V c 3 t)

def accInner1 (c : Dev nD) (t : Fin cfg1.N) (h0 : ¬t.val % 196 = 0) (h1 : ¬t.val % 196 = 195) (xs : Vec F S1024x16 .f32) : Vec F S1024x16 .f32 :=
  sout1_B_0 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t h0) (notLast1 t h1) (iblk1 V c 0 t) (iblk1 V c 1 t) (iblk1 V c 2 t) (iblk1 V c 3 t) xs

def accLast1 (c : Dev nD) (t : Fin cfg1.N) (h1 : t.val % 196 = 195) (xs : Vec F S1024x16 .f32) : Vec F S1024x16 .f32 :=
  sout1_C_0 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t (by omega)) (isLast1 t h1) (iblk1 V c 0 t) (iblk1 V c 1 t) (iblk1 V c 2 t) (iblk1 V c 3 t) xs

def outLast1 (c : Dev nD) (t : Fin cfg1.N) (h1 : t.val % 196 = 195) (xs : Vec F S1024x16 .f32) : Vec F S1024x16 .f32 :=
  out1_C_4 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t (by omega)) (isLast1 t h1) (iblk1 V c 0 t) (iblk1 V c 1 t) (iblk1 V c 2 t) (iblk1 V c 3 t) xs

/-- An output tile nothing was stored into. Off the last source tile the window is idle and is not written back, so
    these contents are never read. -/
def untouched1 : Vec F S1024x16 .f32 := outView1.read (Elt F) outView1.junk

/-! ## The accumulation, point by point -/

/-- What the output tile's staging buffer (first component) and the accumulator (second) hold after the body at
    position `n`: at a first point zero plus the contribution; otherwise what position `n - 1` left in the
    accumulator plus the contribution, which at a last point is also the output tile. -/
def outsAt1 (c : Dev nD) : (n : ℕ) → n < cfg1.N → Vec F S1024x16 .f32 × Vec F S1024x16 .f32
  | 0, hn => (untouched1, accFirst1 V c ⟨0, hn⟩ (Nat.zero_mod _))
  | n + 1, hn =>
    if h0 : (n + 1) % 196 = 0 then (untouched1, accFirst1 V c ⟨n + 1, hn⟩ h0)
    else if h1 : (n + 1) % 196 = 195 then
      (outLast1 V c ⟨n + 1, hn⟩ h1 (outsAt1 c n (Nat.lt_of_succ_lt hn)).2, accLast1 V c ⟨n + 1, hn⟩ h1 (outsAt1 c n (Nat.lt_of_succ_lt hn)).2)
    else (untouched1, accInner1 V c ⟨n + 1, hn⟩ h0 h1 (outsAt1 c n (Nat.lt_of_succ_lt hn)).2)

/-- At a first point. -/
theorem outsAt1_A (c : Dev nD) (t : Fin cfg1.N) (h0 : t.val % 196 = 0) :
    outsAt1 V c t.val t.isLt = (untouched1, accFirst1 V c t h0) := by
  obtain ⟨n, hn⟩ := t
  cases n with
  | zero => rfl
  | succ n => exact dif_pos h0

/-- At an inner point, over what the point before left. -/
theorem outsAt1_B (c : Dev nD) (t : Fin cfg1.N) (h0 : ¬t.val % 196 = 0) (h1 : ¬t.val % 196 = 195) :
    outsAt1 V c t.val t.isLt
      = (untouched1, accInner1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt1_C (c : Dev nD) (t : Fin cfg1.N) (h1 : t.val % 196 = 195) :
    outsAt1 V c t.val t.isLt
      = (outLast1 V c t h1 (outsAt1 V c (t.val - 1) (Nat.lt_of_le_of_lt (Nat.sub_le _ _) t.isLt)).2,
         accLast1 V c t h1 (outsAt1 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- At every position the invariant yields the accumulator at SOME contents (its named contents forgotten). -/
theorem PhiS1_forget (c : Dev nD) (n : ℕ) (h : n ≤ cfg1.N) :
    PhiS1 V c n h ⊢ iprop(iprop(iprop((∃ d, owns (c : Thread nD τ) acc1 fullShare d)) ∗ Pipeline.scopedRestBut (Ix := Unit) (Name := ℕ) (U := UR sig nD τ) (Lvl := ℕ) (Val := Elt F) spec1 c [cc1_scratch0]) ∗ (∃ r, prngReg c r)) := by
  cases n with
  | zero => rw [show PhiS1 V c 0 h = Pipeline.ΦA spec1 c from rfl, PhiA1_eq]
  | succ n =>
    rw [PhiS1_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt1`'s first component; the invariant `PhiS1`; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- When the body runs, each input's current buffer holds its block. -/
theorem before1_0 (c : Dev nD) (t : Fin cfg1.N) (d) : (dat1 V c).before 0 t d = iblk1 V c 0 t := before1_0_of V (dat1 V c) (A_eq1 V c 0) t d
theorem before1_1 (c : Dev nD) (t : Fin cfg1.N) (d) : (dat1 V c).before 1 t d = iblk1 V c 1 t := before1_1_of V (dat1 V c) (A_eq1 V c 1) t d
theorem before1_2 (c : Dev nD) (t : Fin cfg1.N) (d) : (dat1 V c).before 2 t d = iblk1 V c 2 t := before1_2_of V (dat1 V c) (A_eq1 V c 2) t d
theorem before1_3 (c : Dev nD) (t : Fin cfg1.N) (d) : (dat1 V c).before 3 t d = iblk1 V c 3 t := before1_3_of V (dat1 V c) (A_eq1 V c 3) t d

/-- And the body, which only reads them, leaves each there (the inputs are live at every point). -/
theorem leaves1_0 (c : Dev nD) (t : Fin cfg1.N) : (dat1 V c).leavesExact 0 t = owns (c : Thread nD τ) (ms1_0 t) fullShare (iblk1 V c 0 t) := by
  rw [← after1_0]
theorem leaves1_1 (c : Dev nD) (t : Fin cfg1.N) : (dat1 V c).leavesExact 1 t = owns (c : Thread nD τ) (ms1_1 t) fullShare (iblk1 V c 1 t) := by
  rw [← after1_1]
theorem leaves1_2 (c : Dev nD) (t : Fin cfg1.N) : (dat1 V c).leavesExact 2 t = owns (c : Thread nD τ) (ms1_2 t) fullShare (iblk1 V c 2 t) := by
  rw [← after1_2]
theorem leaves1_3 (c : Dev nD) (t : Fin cfg1.N) : (dat1 V c).leavesExact 3 t = owns (c : Thread nD τ) (ms1_3 t) fullShare (iblk1 V c 3 t) := by
  rw [← after1_3]

/-! ## The body's obligation -/

/-- What the body is called with at point `t`: the invariant, the core's debts, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 1600000 in
/-- At a first point: whatever the accumulator held is forgotten; the run zeroes it and adds the contribution; the
    output tile, idle there, goes back as it came. -/
theorem body_first1 (c : Dev nD) (t : Fin cfg1.N) (h0 : t.val % 196 = 0) :
    bodyPre1 V c t ⊢ wp frame (wpE (defs₀ (F := F)) Variants.none c none) Set.univ (bodyAt1 t) (fun _ => bodyPost1 V c t) := by
  have hl : ¬lastSrc1 (grid1.coords t) := notLast1 t (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (outIdle1 _ hl) (outKept1 t hl)]
  rw [outsAt1_A V c t h0]; unfold accFirst1 sout1_A_0; (try dsimp only)
  rw [PhiS1_castSucc V c t]
  iintro ⟨HΦ, Ho, ⟨%d0, H0⟩, ⟨%d1, H1⟩, ⟨%d2, H2⟩, ⟨%d3, H3⟩, ⟨%d4, H4⟩⟩
  icases (PhiS1_forget V c t.val (Nat.le_of_lt t.isLt)) $$ HΦ with ⟨⟨HA, HR⟩, Hg⟩
  iapply ((aggRun1_first c (grid1.coords t) _ _ _ _ _ _ _ _ _ _ _ _ (isFirst1 t h0) hl (iblk1 V c 0 t) (iblk1 V c 1 t) (iblk1 V c 2 t) (iblk1 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover1_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner1 (c : Dev nD) (t : Fin cfg1.N) (h0 : ¬t.val % 196 = 0) (h1 : ¬t.val % 196 = 195) :
    bodyPre1 V c t ⊢ wp frame (wpE (defs₀ (F := F)) Variants.none c none) Set.univ (bodyAt1 t) (fun _ => bodyPost1 V c t) := by
  have hl : ¬lastSrc1 (grid1.coords t) := notLast1 t h1
  have hz : t.val ≠ 0 := fun h => h0 (by rw [h])
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (outIdle1 _ hl) (outKept1 t hl)]
  rw [outsAt1_B V c t h0 h1]; unfold accInner1 sout1_B_0; (try dsimp only)
  rw [PhiS1_castSucc V c t, PhiS1_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun1_inner c (grid1.coords t) _ _ _ _ _ _ _ _ _ _ _ _ (notFirst1 t h0) hl (iblk1 V c 0 t) (iblk1 V c 1 t) (iblk1 V c 2 t) (iblk1 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover1_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last1 (c : Dev nD) (t : Fin cfg1.N) (h1 : t.val % 196 = 195) :
    bodyPre1 V c t ⊢ wp frame (wpE (defs₀ (F := F)) Variants.none c none) Set.univ (bodyAt1 t) (fun _ => bodyPost1 V c t) := by
  have hf : ¬firstSrc1 (grid1.coords t) := notFirst1 t (by omega)
  have hl : lastSrc1 (grid1.coords t) := isLast1 t h1
  have hz : t.val ≠ 0 := fun h => by rw [h] at h1; exact absurd h1 (by decide)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [show (dat1 V c).leavesExact 4 t = owns (c : Thread nD τ) (ms1_4 t) fullShare ((dat1 V c).after 4 t) from by
    unfold Dat.leavesExact; rw [outLive1 _ hl], after1_4]
  rw [outsAt1_C V c t h1]; unfold accLast1 outLast1 sout1_C_0 out1_C_4; (try dsimp only)
  rw [PhiS1_castSucc V c t, PhiS1_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun1_last c (grid1.coords t) _ _ _ _ _ _ _ _ _ _ _ _ hf hl (iblk1 V c 0 t) (iblk1 V c 1 t) (iblk1 V c 2 t) (iblk1 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover1_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover1_last c _ _ _ _ _ _ _ _ _ _ _ _ _ _ _ _ _ _ _ _)

/-- The body at any point: by the kind of point. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 196 = 0
  · exact body_first1 V c t h0
  · by_cases h1 : t.val % 196 = 195
    · exact body_last1 V c t h1
    · exact body_inner1 V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_forget V c _ _

end Cert.Kernel.Gen

end
-- ==== Proof.K.Dense2.lean ====
/- Region 2 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k2_pay1`). Here: each window's block at a point, what
   the body leaves in the output tile, the body's triple with a frame, the pipeline's proof data, and its body
   obligation at every point. -/
import proofs.«140952_j21595095564583_2_alg».proof.Proof.Gen.Kernel.Launch
import proofs.«140952_j21595095564583_2_alg».proof.Proof.Gen.Kernel.Skeleton
import proofs.«140952_j21595095564583_2_alg».proof.Proof.K.Points2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The output tile after the body -/

/-- The body reads and writes each of its three buffers whole: the rectangle at the origin of the buffer's own extent. -/
abbrev r2_0 : Rect S1024x16 := Rect.unit (s := S1024x16) ![0, 0] S1024x16.size inb_S1024x16_S1024x16_0_0
abbrev r2_1 : Rect S16x16 := Rect.unit (s := S16x16) ![0, 0] S16x16.size inb_S16x16_S16x16_0_0
abbrev r2_2 : Rect S1024x16 := Rect.unit (s := S1024x16) ![0, 0] S1024x16.size inb_S1024x16_S1024x16_0_0

/-- What the body leaves in the output tile, from the row tile `x0` and the weight block `x1`: its single store, the
    product of the two, laid over the tile. -/
def out2_2 (x0 : Vec F S1024x16 .f32) (x1 : Vec F S16x16 .f32) : Vec F S1024x16 .f32 :=
  View.canon [⟨r2_2, k2_pay1 (View.ld x0 r2_0) (View.ld x1 r2_1)⟩]

/-- Every index of the output tile lies in the stored rectangle: on each axis the rectangle starts at 0 and is as long
    as the tile. -/
theorem tile_in_store2 (y : S1024x16.Idx) : y ∈ (r2_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out2_2 xt wb`; what is read back after the store is the product because the store misses no index of the tile. -/
theorem dense_point2 (c : Dev nD) (E : Set ℕ) (i : grid2.Coords)
    (xbuf : Memref sig .tc .vmem S1024x16 .f32) (hx : xbuf.IsWhole) (wbuf : Memref sig .tc .vmem S16x16 .f32) (hw : wbuf.IsWhole)
    (obuf : Memref sig .tc .vmem S1024x16 .f32) (ho : obuf.IsWhole)
    (xt : Vec F S1024x16 .f32) (wb : Vec F S16x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc2__dense_kernel i xbuf hx wbuf hw obuf ho)
          (fun _ => (iprop(R ∗ owns (c : Thread nD τ) xbuf fullShare xt ∗ owns (c : Thread nD τ) wbuf fullShare wb
            ∗ owns (c : Thread nD τ) obuf fullShare (out2_2 xt wb)) : sProp 𝕄)) := by
  rw [cc2__dense_kernel_eq_skeleton]
  unfold cc2__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store2 y⟩
  · iexact Ho

/-! ## The pipeline's proof data -/

/-- The proof data of pipeline 2 on core `c`: the arrays as the region finds them; after the body at point `t` the row
    tile and the weight block still in their buffers and the output tile at their product; the invariant is the rest of
    the core's state, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## What the body finds in the two input buffers -/

/-- The block a fetch at point `t` reads of window `w`'s array is `iblk2 V c w t`: the arrays are `V`'s. -/
theorem blockOf_eq2 (c : Dev nD) (w : Fin cfg2.W) (t : Fin cfg2.N) : (dat2 V c).blockOf w t = iblk2 V c w t := by
  unfold Dat.blockOf iblk2
  rw [A_eq2]

/-- The row tile of `x` is fetched at every point, and the fetch fills the whole buffer (the tile is never cut): the
    body finds the tile of its own point. -/
theorem rowtile_found2 (c : Dev nD) (t : Fin cfg2.N) (d) : (dat2 V c).before 0 t d = iblk2 V c 0 t :=
  calc (dat2 V c).before 0 t d
      = (dat2 V c).fetched 0 t d := (dat2 V c).before_fetched 0 t (fetch2_0 t) d
    _ = (dat2 V c).blockOf 0 t := rfl
    _ = iblk2 V c 0 t := blockOf_eq2 V c 0 t

/-- The weight block is fetched at the first point only. At a later point its block index has not moved and the body
    left the buffer as it found it, so the body finds there what a fetch at that point would have put: `W` again. -/
theorem weight_found2 (c : Dev nD) (t : Fin cfg2.N) (d) : (dat2 V c).before 1 t d = iblk2 V c 1 t :=
  calc (dat2 V c).before 1 t d
      = (dat2 V c).fetched 1 t d :=
        (dat2 V c).before_in_eq_fetched 1 rfl (fun _ => rfl) (fun _ _ _ => rfl)
          (fun s => by rw [after2_1, blockOf_eq2]) t d
    _ = (dat2 V c).blockOf 1 t := rfl
    _ = iblk2 V c 1 t := blockOf_eq2 V c 1 t

/-! ## The body obligation -/

/-- At every point: the two input buffers hold the row tile and the weight block of the point, the output buffer holds
    anything, so `dense_point2` applies with the invariant and the tallies owed as its frame (the body touches neither),
    and it leaves each buffer at what the proof data say. No window is idle at any point. -/
theorem body_obligation2 (c : Dev nD) : BodyObligation (dat2 (F := F) V c) (defs₀ (F := F)) Variants.none () Set.univ := by
  intro t
  rw [bigSep_W2, bigSep_W2]
  show iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.castSucc ∗ (dat2 V c).owesAt () t.castSucc
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)))
  simp only [rowtile_found2, weight_found2, after2_0, after2_1, after2_2]
  refine .trans ?_ (wp_mono _ _ _ fun _ => BI.sep_assoc)
  iintro ⟨HΦ, Htally, ⟨%_, Hx⟩, ⟨%_, Hw⟩, ⟨%stale, Hout⟩⟩
  iapply (dense_point2 c Set.univ _ _ _ _ _ _ _ (iblk2 V c 0 t) (iblk2 V c 1 t)
    iprop((dat2 V c).Φ t.castSucc ∗ (dat2 V c).owesAt () t.castSucc))
  isplitl [HΦ Htally]
  · isplitl [HΦ]
    · iexact HΦ
    · iexact Htally
  isplitl [Hx]
  · iexact Hx
  isplitl [Hw]
  · iexact Hw
  iexists (dat2 V c).before 2 t stale
  iexact Hout

end Regions

end Cert.Kernel.Gen
-- ==== Proof.K.Sched3.lean ====
/- The pipeline schedule of aggregation call 3. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.K.Points1

noncomputable section

namespace Cert.Kernel.Gen

open Idealize.ShloMosaic Idealize.ShloMosaic.TcCoe
open Idealize.SL Idealize.SL.Sem

/-- Window 0 of call 3 is fetched where window 0 of call 1 is: at every point. -/
theorem fetch3_0 : ∀ t : Fin cfg3.N, (cfg3.win 0).fetch t = true :=
  fun t => (show (cfg3.win 0).fetch t = (cfg1.win 0).fetch t from rfl).trans (fetch1_0 t)
/-- Window 1 of call 3 is fetched where window 1 of call 1 is: at every point. -/
theorem fetch3_1 : ∀ t : Fin cfg3.N, (cfg3.win 1).fetch t = true :=
  fun t => (show (cfg3.win 1).fetch t = (cfg1.win 1).fetch t from rfl).trans (fetch1_1 t)
/-- Window 2 of call 3 is fetched where window 2 of call 1 is: at every point. -/
theorem fetch3_2 : ∀ t : Fin cfg3.N, (cfg3.win 2).fetch t = true :=
  fun t => (show (cfg3.win 2).fetch t = (cfg1.win 2).fetch t from rfl).trans (fetch1_2 t)
/-- Window 3 of call 3 is fetched where window 3 of call 1 is: at every point. -/
theorem fetch3_3 : ∀ t : Fin cfg3.N, (cfg3.win 3).fetch t = true :=
  fun t => (show (cfg3.win 3).fetch t = (cfg1.win 3).fetch t from rfl).trans (fetch1_3 t)
/-- The output tile of call 3 is written back where call 1's is: at the last source tile of each row, t ≡ 195 (mod 196). -/
theorem flush3_4 : ∀ t : Fin cfg3.N, (cfg3.win 4).flush t = true ↔ t.val % 196 = 195 := fun t => by
  rw [show (cfg3.win 4).flush t = (cfg1.win 4).flush t from rfl]; exact flush1_4 t

end Cert.Kernel.Gen

end
-- ==== Proof.K.Agg3Runs.lean ====
/- The second graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.Kernel.Launch
import proofs.«140952_j21595095564583_2_alg».proof.Proof.Gen.Kernel.Skeleton
import proofs.«140952_j21595095564583_2_alg».proof.Proof.K.Points3
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Every input is fetched at every point and its block is never cut, so when the body runs its current staging
    buffer holds exactly the block — for any proof data over the entry arrays. One statement per input. -/
theorem before3_0_of {c : Dev nD} (dat : Dat τ (Elt F) Unit ℕ (UR sig nD τ) ℕ cfg3 c) (hA : dat.A 0 = V c (Pipeline.arrRef spec3 0))
    (t : Fin cfg3.N) (d) : dat.before 0 t d = iblk3 V c 0 t := by
  rw [dat.before_fetched 0 t (fetch3_0 t) d]; unfold Dat.fetched Dat.blockOf iblk3; rw [hA]; rfl
theorem before3_1_of {c : Dev nD} (dat : Dat τ (Elt F) Unit ℕ (UR sig nD τ) ℕ cfg3 c) (hA : dat.A 1 = V c (Pipeline.arrRef spec3 1))
    (t : Fin cfg3.N) (d) : dat.before 1 t d = iblk3 V c 1 t := by
  rw [dat.before_fetched 1 t (fetch3_1 t) d]; unfold Dat.fetched Dat.blockOf iblk3; rw [hA]; rfl
theorem before3_2_of {c : Dev nD} (dat : Dat τ (Elt F) Unit ℕ (UR sig nD τ) ℕ cfg3 c) (hA : dat.A 2 = V c (Pipeline.arrRef spec3 2))
    (t : Fin cfg3.N) (d) : dat.before 2 t d = iblk3 V c 2 t := by
  rw [dat.before_fetched 2 t (fetch3_2 t) d]; unfold Dat.fetched Dat.blockOf iblk3; rw [hA]; rfl
theorem before3_3_of {c : Dev nD} (dat : Dat τ (Elt F) Unit ℕ (UR sig nD τ) ℕ cfg3 c) (hA : dat.A 3 = V c (Pipeline.arrRef spec3 3))
    (t : Fin cfg3.N) (d) : dat.before 3 t d = iblk3 V c 3 t := by
  rw [dat.before_fetched 3 t (fetch3_3 t) d]; unfold Dat.fetched Dat.blockOf iblk3; rw [hA]; rfl

/-! ## First and last source tile -/

/-- The source coordinate of the flattened point `t` is `t % 196`: the source axis is the last one, of stride one. -/
theorem srcCoord3 (t : Fin cfg3.N) : ((grid3.coords t) 1).val = t.val % 196 := by
  have hs : grid3.stride 1 = 1 := rfl
  show t.val / grid3.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest3 : ∀ j : Fin 196,
    (Scalar.cmpi .ne (Scalar.extui (Scalar.cmpi .eq (BitVec.ofNat 32 j.val) 0#32)) 0#32) = 1#1 ↔ j.val = 0 := by decide +kernel
theorem lastTest3 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc3 (i : grid3.Coords) : Prop := (Scalar.cmpi .ne (Scalar.extui (Scalar.cmpi .eq (BitVec.ofNat 32 (i 1).val) 0#32)) 0#32) = 1#1
/-- which holds at the flattened points t with t % 196 = 0. -/
theorem firstSrc3_iff (t : Fin cfg3.N) : firstSrc3 (grid3.coords t) ↔ t.val % 196 = 0 := by
  rw [← srcCoord3 t]; exact firstTest3 ((grid3.coords t) 1)

/-- It copies the accumulator to the output tile under this one (j = 195), -/
abbrev lastSrc3 (i : grid3.Coords) : Prop := k3_cond2 i = 1#1
/-- which holds at the points with t % 196 = 195. -/
theorem lastSrc3_iff (t : Fin cfg3.N) : lastSrc3 (grid3.coords t) ↔ t.val % 196 = 195 := by
  rw [← srcCoord3 t]; exact lastTest3 ((grid3.coords t) 1)

/-- The two tests read off the flattened point. -/
theorem isFirst3 (t : Fin cfg3.N) (h : t.val % 196 = 0) : firstSrc3 (grid3.coords t) := (firstSrc3_iff t).mpr h
theorem notFirst3 (t : Fin cfg3.N) (h : ¬t.val % 196 = 0) : ¬firstSrc3 (grid3.coords t) := fun hf => h ((firstSrc3_iff t).mp hf)
theorem isLast3 (t : Fin cfg3.N) (h : t.val % 196 = 195) : lastSrc3 (grid3.coords t) := (lastSrc3_iff t).mpr h
theorem notLast3 (t : Fin cfg3.N) (h : ¬t.val % 196 = 195) : ¬lastSrc3 (grid3.coords t) := fun hl => h ((lastSrc3_iff t).mp hl)

/-! ## Where the output tile is untouched -/

/-- Off the last source tile the output window is idle: nothing is stored into it, -/
theorem outIdle3 (i : grid3.Coords) (h : ¬lastSrc3 i) : cfg3.idle 4 i = true := by
  show (!(k3_cond2 i == 1#1)) = true
  simp only [Bool.not_eq_true', beq_eq_false_iff_ne, ne_eq]; exact h
/-- and it is not written back there; -/
theorem outKept3 (t : Fin cfg3.N) (h : ¬lastSrc3 (grid3.coords t)) : (cfg3.win 4).flush t = false := by
  rw [Bool.eq_false_iff]; exact fun hf => h ((lastSrc3_iff t).mpr ((flush3_4 t).mp hf))
/-- on the last source tile it is live. -/
theorem outLive3 (i : grid3.Coords) (h : lastSrc3 i) : cfg3.idle 4 i = false := by
  show (!(k3_cond2 i == 1#1)) = false
  simp only [Bool.not_eq_false', beq_iff_eq]; exact h

/-! ## The memrefs the body is called on -/

/-- Each window's current staging memref at point `t`, as the pipeline passes it, and its wholeness. -/
abbrev ms3_0 (t : Fin cfg3.N) : Memref sig .tc .vmem S1024x16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x512 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x512 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x16 .f32 := win3_4.stage (cfg3.slots t 4)
abbrev hs3_4 (t : Fin cfg3.N) : (ms3_4 t).IsWhole := hstage3_4 ((cfg3.slots t 4).cast nbuf3_4)
/-- The accumulator: one whole scoped 1024 × 16 buffer of the call's own, carried from point to point. -/
abbrev acc3 : Memref sig .tc .vmem S1024x16 .f32 := Memref.whole cc3_scratch0
/-- The views through which the accumulator's and the output tile's contents are stated. -/
abbrev accView3 : View sig .tc .vmem S1024x16 .f32 := acc3.view
abbrev outView3 : View sig .tc .vmem S1024x16 .f32 := (Memref.whole cc3_stg4_0 : Memref sig .tc .vmem S1024x16 .f32).view

/-- What the call is handed beside its windows: the accumulator at some contents, every other scoped buffer that
    is no staging buffer of this call (unopened), and the generator register at some state. -/
theorem PhiA3_eq (c : Dev nD) :
    (Pipeline.ΦA spec3 c : sProp 𝕄)
      = iprop(iprop(iprop((∃ d, owns (c : Thread nD τ) acc3 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [acc3, owns_whole]; rfl

end Cert.Kernel.Gen

end
-- ==== Proof.K.Agg3RunA.lean ====
/- The aggregation body at a FIRST point (source tile j = 0, not the last): the accumulator, whatever it held, is
   zeroed, the contribution of this tile pair is added to it, and the output tile is not touched. -/
import proofs.«140952_j21595095564583_2_alg».proof.Proof.K.Agg3Runs

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun3_first (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, fun y E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg3RunB.lean ====
/- The aggregation body at an INNER point (source tile 0 < j < 195): the contribution of this tile pair is added to
   what the accumulator held; the output tile is not touched. -/
import proofs.«140952_j21595095564583_2_alg».proof.Proof.K.Agg3RunA

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun3_inner (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, fun y E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg3RunC.lean ====
/- The aggregation body at a LAST point (source tile j = 195): the contribution is added to what the accumulator
   held, and the sum is copied to the output tile. -/
import proofs.«140952_j21595095564583_2_alg».proof.Proof.K.Agg3RunB

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, ?_, fun E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.Kernel.Gen

end
-- ==== Proof.K.Agg3.lean ====
/- The second graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.K.Agg3RunC

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover3_first (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) (y : S1024x16.Idx) :
    ∃ pc ∈ (aggRun3_first c i arg2 harg2 arg3 harg3 arg4 harg4 arg5 harg5 arg6 harg6 arg7 harg7 hfirst hlast x0 x1 x2 x3).1, y ∈ pc.1.set :=
  View.cover_of_tiledL (aggRun3_first c i arg2 harg2 arg3 harg3 arg4 harg4 arg5 harg5 arg6 harg6 arg7 harg7 hfirst hlast x0 x1 x2 x3).1 S1024x16.size (by sl_kernel_rfl) y

/-- The accumulator after a first point: its stores read back. -/
def sout3_A_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) : Vec F S1024x16 .f32 :=
  accView3.read (Elt F) (accView3.writes (Elt F) accView3.junk (aggRun3_first c i arg2 harg2 arg3 harg3 arg4 harg4 arg5 harg5 arg6 harg6 arg7 harg7 hfirst hlast x0 x1 x2 x3).1)

/-- The one store of an inner point covers the accumulator. -/
theorem accCover3_inner (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_inner c i arg2 harg2 arg3 harg3 arg4 harg4 arg5 harg5 arg6 harg6 arg7 harg7 hfirst hlast x0 x1 x2 x3 xs).1, y ∈ pc.1.set :=
  View.cover_of_tiledL (aggRun3_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout3_B_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  accView3.read (Elt F) (accView3.writes (Elt F) accView3.junk (aggRun3_inner c i arg2 harg2 arg3 harg3 arg4 harg4 arg5 harg5 arg6 harg6 arg7 harg7 hfirst hlast x0 x1 x2 x3 xs).1)

/-- At a last point the store into the accumulator covers it, -/
theorem accCover3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_last c i arg2 harg2 arg3 harg3 arg4 harg4 arg5 harg5 arg6 harg6 arg7 harg7 hfirst hlast x0 x1 x2 x3 xs).2.1, y ∈ pc.1.set :=
  View.cover_of_tiledL (aggRun3_last c i arg2 harg2 arg3 harg3 arg4 harg4 arg5 harg5 arg6 harg6 arg7 harg7 hfirst hlast x0 x1 x2 x3 xs).2.1 S1024x16.size (by sl_kernel_rfl) y

/-- and the store into the output tile covers that. -/
theorem outCover3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_last c i arg2 harg2 arg3 harg3 arg4 harg4 arg5 harg5 arg6 harg6 arg7 harg7 hfirst hlast x0 x1 x2 x3 xs).1, y ∈ pc.1.set :=
  View.cover_of_tiledL (aggRun3_last c i arg2 harg2 arg3 harg3 arg4 harg4 arg5 harg5 arg6 harg6 arg7 harg7 hfirst hlast x0 x1 x2 x3 xs).1 S1024x16.size (by sl_kernel_rfl) y

/-- The accumulator after a last point, -/
def sout3_C_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  accView3.read (Elt F) (accView3.writes (Elt F) accView3.junk (aggRun3_last c i arg2 harg2 arg3 harg3 arg4 harg4 arg5 harg5 arg6 harg6 arg7 harg7 hfirst hlast x0 x1 x2 x3 xs).2.1)

/-- and the output tile after it. -/
def out3_C_4 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  outView3.read (Elt F) (outView3.writes (Elt F) outView3.junk (aggRun3_last c i arg2 harg2 arg3 harg3 arg4 harg4 arg5 harg5 arg6 harg6 arg7 harg7 hfirst hlast x0 x1 x2 x3 xs).1)

/-! ## The same at a grid point: on the memrefs the pipeline passes there and the blocks the inputs stage -/

def accFirst3 (c : Dev nD) (t : Fin cfg3.N) (h0 : t.val % 196 = 0) : Vec F S1024x16 .f32 :=
  sout3_A_0 c (grid3.coords t) (ms3_0 t) (hs3_0 t) (ms3_1 t) (hs3_1 t) (ms3_2 t) (hs3_2 t) (ms3_3 t) (hs3_3 t) (ms3_4 t) (hs3_4 t) acc3 (Memref.isWhole_whole _)
    (isFirst3 t h0) (notLast3 t (by omega)) (iblk3 V c 0 t) (iblk3 V c 1 t) (iblk3 V c 2 t) (iblk3 V c 3 t)

def accInner3 (c : Dev nD) (t : Fin cfg3.N) (h0 : ¬t.val % 196 = 0) (h1 : ¬t.val % 196 = 195) (xs : Vec F S1024x16 .f32) : Vec F S1024x16 .f32 :=
  sout3_B_0 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t h0) (notLast3 t h1) (iblk3 V c 0 t) (iblk3 V c 1 t) (iblk3 V c 2 t) (iblk3 V c 3 t) xs

def accLast3 (c : Dev nD) (t : Fin cfg3.N) (h1 : t.val % 196 = 195) (xs : Vec F S1024x16 .f32) : Vec F S1024x16 .f32 :=
  sout3_C_0 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t (by omega)) (isLast3 t h1) (iblk3 V c 0 t) (iblk3 V c 1 t) (iblk3 V c 2 t) (iblk3 V c 3 t) xs

def outLast3 (c : Dev nD) (t : Fin cfg3.N) (h1 : t.val % 196 = 195) (xs : Vec F S1024x16 .f32) : Vec F S1024x16 .f32 :=
  out3_C_4 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t (by omega)) (isLast3 t h1) (iblk3 V c 0 t) (iblk3 V c 1 t) (iblk3 V c 2 t) (iblk3 V c 3 t) xs

/-- An output tile nothing was stored into. Off the last source tile the window is idle and is not written back, so
    these contents are never read. -/
def untouched3 : Vec F S1024x16 .f32 := outView3.read (Elt F) outView3.junk

/-! ## The accumulation, point by point -/

/-- What the output tile's staging buffer (first component) and the accumulator (second) hold after the body at
    position `n`: at a first point zero plus the contribution; otherwise what position `n - 1` left in the
    accumulator plus the contribution, which at a last point is also the output tile. -/
def outsAt3 (c : Dev nD) : (n : ℕ) → n < cfg3.N → Vec F S1024x16 .f32 × Vec F S1024x16 .f32
  | 0, hn => (untouched3, accFirst3 V c ⟨0, hn⟩ (Nat.zero_mod _))
  | n + 1, hn =>
    if h0 : (n + 1) % 196 = 0 then (untouched3, accFirst3 V c ⟨n + 1, hn⟩ h0)
    else if h1 : (n + 1) % 196 = 195 then
      (outLast3 V c ⟨n + 1, hn⟩ h1 (outsAt3 c n (Nat.lt_of_succ_lt hn)).2, accLast3 V c ⟨n + 1, hn⟩ h1 (outsAt3 c n (Nat.lt_of_succ_lt hn)).2)
    else (untouched3, accInner3 V c ⟨n + 1, hn⟩ h0 h1 (outsAt3 c n (Nat.lt_of_succ_lt hn)).2)

/-- At a first point. -/
theorem outsAt3_A (c : Dev nD) (t : Fin cfg3.N) (h0 : t.val % 196 = 0) :
    outsAt3 V c t.val t.isLt = (untouched3, accFirst3 V c t h0) := by
  obtain ⟨n, hn⟩ := t
  cases n with
  | zero => rfl
  | succ n => exact dif_pos h0

/-- At an inner point, over what the point before left. -/
theorem outsAt3_B (c : Dev nD) (t : Fin cfg3.N) (h0 : ¬t.val % 196 = 0) (h1 : ¬t.val % 196 = 195) :
    outsAt3 V c t.val t.isLt
      = (untouched3, accInner3 V c t h0 h1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt3_C (c : Dev nD) (t : Fin cfg3.N) (h1 : t.val % 196 = 195) :
    outsAt3 V c t.val t.isLt
      = (outLast3 V c t h1 (outsAt3 V c (t.val - 1) (Nat.lt_of_le_of_lt (Nat.sub_le _ _) t.isLt)).2,
         accLast3 V c t h1 (outsAt3 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- At every position the invariant yields the accumulator at SOME contents (its named contents forgotten). -/
theorem PhiS3_forget (c : Dev nD) (n : ℕ) (h : n ≤ cfg3.N) :
    PhiS3 V c n h ⊢ iprop(iprop(iprop((∃ d, owns (c : Thread nD τ) acc3 fullShare d)) ∗ Pipeline.scopedRestBut (Ix := Unit) (Name := ℕ) (U := UR sig nD τ) (Lvl := ℕ) (Val := Elt F) spec3 c [cc3_scratch0]) ∗ (∃ r, prngReg c r)) := by
  cases n with
  | zero => rw [show PhiS3 V c 0 h = Pipeline.ΦA spec3 c from rfl, PhiA3_eq]
  | succ n =>
    rw [PhiS3_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt3`'s first component; the invariant `PhiS3`; full shares,
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- When the body runs, each input's current buffer holds its block. -/
theorem before3_0 (c : Dev nD) (t : Fin cfg3.N) (d) : (dat3 V c).before 0 t d = iblk3 V c 0 t := before3_0_of V (dat3 V c) (A_eq3 V c 0) t d
theorem before3_1 (c : Dev nD) (t : Fin cfg3.N) (d) : (dat3 V c).before 1 t d = iblk3 V c 1 t := before3_1_of V (dat3 V c) (A_eq3 V c 1) t d
theorem before3_2 (c : Dev nD) (t : Fin cfg3.N) (d) : (dat3 V c).before 2 t d = iblk3 V c 2 t := before3_2_of V (dat3 V c) (A_eq3 V c 2) t d
theorem before3_3 (c : Dev nD) (t : Fin cfg3.N) (d) : (dat3 V c).before 3 t d = iblk3 V c 3 t := before3_3_of V (dat3 V c) (A_eq3 V c 3) t d

/-- And the body, which only reads them, leaves each there (the inputs are live at every point). -/
theorem leaves3_0 (c : Dev nD) (t : Fin cfg3.N) : (dat3 V c).leavesExact 0 t = owns (c : Thread nD τ) (ms3_0 t) fullShare (iblk3 V c 0 t) := by
  rw [← after3_0]
theorem leaves3_1 (c : Dev nD) (t : Fin cfg3.N) : (dat3 V c).leavesExact 1 t = owns (c : Thread nD τ) (ms3_1 t) fullShare (iblk3 V c 1 t) := by
  rw [← after3_1]
theorem leaves3_2 (c : Dev nD) (t : Fin cfg3.N) : (dat3 V c).leavesExact 2 t = owns (c : Thread nD τ) (ms3_2 t) fullShare (iblk3 V c 2 t) := by
  rw [← after3_2]
theorem leaves3_3 (c : Dev nD) (t : Fin cfg3.N) : (dat3 V c).leavesExact 3 t = owns (c : Thread nD τ) (ms3_3 t) fullShare (iblk3 V c 3 t) := by
  rw [← after3_3]

/-! ## The body's obligation -/

/-- What the body is called with at point `t`: the invariant, the core's debts, each window's current buffer, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 1600000 in
/-- At a first point: whatever the accumulator held is forgotten; the run zeroes it and adds the contribution; the
    output tile, idle there, goes back as it came. -/
theorem body_first3 (c : Dev nD) (t : Fin cfg3.N) (h0 : t.val % 196 = 0) :
    bodyPre3 V c t ⊢ wp frame (wpE (defs₀ (F := F)) Variants.none c none) Set.univ (bodyAt3 t) (fun _ => bodyPost3 V c t) := by
  have hl : ¬lastSrc3 (grid3.coords t) := notLast3 t (by omega)
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [Dat.leavesExact_idle (dat3 V c) 4 t (outIdle3 _ hl) (outKept3 t hl)]
  rw [outsAt3_A V c t h0]; unfold accFirst3 sout3_A_0; (try dsimp only)
  rw [PhiS3_castSucc V c t]
  iintro ⟨HΦ, Ho, ⟨%d0, H0⟩, ⟨%d1, H1⟩, ⟨%d2, H2⟩, ⟨%d3, H3⟩, ⟨%d4, H4⟩⟩
  icases (PhiS3_forget V c t.val (Nat.le_of_lt t.isLt)) $$ HΦ with ⟨⟨HA, HR⟩, Hg⟩
  iapply ((aggRun3_first c (grid3.coords t) _ _ _ _ _ _ _ _ _ _ _ _ (isFirst3 t h0) hl (iblk3 V c 0 t) (iblk3 V c 1 t) (iblk3 V c 2 t) (iblk3 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover3_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner3 (c : Dev nD) (t : Fin cfg3.N) (h0 : ¬t.val % 196 = 0) (h1 : ¬t.val % 196 = 195) :
    bodyPre3 V c t ⊢ wp frame (wpE (defs₀ (F := F)) Variants.none c none) Set.univ (bodyAt3 t) (fun _ => bodyPost3 V c t) := by
  have hl : ¬lastSrc3 (grid3.coords t) := notLast3 t h1
  have hz : t.val ≠ 0 := fun h => h0 (by rw [h])
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [Dat.leavesExact_idle (dat3 V c) 4 t (outIdle3 _ hl) (outKept3 t hl)]
  rw [outsAt3_B V c t h0 h1]; unfold accInner3 sout3_B_0; (try dsimp only)
  rw [PhiS3_castSucc V c t, PhiS3_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun3_inner c (grid3.coords t) _ _ _ _ _ _ _ _ _ _ _ _ (notFirst3 t h0) hl (iblk3 V c 0 t) (iblk3 V c 1 t) (iblk3 V c 2 t) (iblk3 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover3_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last3 (c : Dev nD) (t : Fin cfg3.N) (h1 : t.val % 196 = 195) :
    bodyPre3 V c t ⊢ wp frame (wpE (defs₀ (F := F)) Variants.none c none) Set.univ (bodyAt3 t) (fun _ => bodyPost3 V c t) := by
  have hf : ¬firstSrc3 (grid3.coords t) := notFirst3 t (by omega)
  have hl : lastSrc3 (grid3.coords t) := isLast3 t h1
  have hz : t.val ≠ 0 := fun h => by rw [h] at h1; exact absurd h1 (by decide)
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [show (dat3 V c).leavesExact 4 t = owns (c : Thread nD τ) (ms3_4 t) fullShare ((dat3 V c).after 4 t) from by
    unfold Dat.leavesExact; rw [outLive3 _ hl], after3_4]
  rw [outsAt3_C V c t h1]; unfold accLast3 outLast3 sout3_C_0 out3_C_4; (try dsimp only)
  rw [PhiS3_castSucc V c t, PhiS3_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun3_last c (grid3.coords t) _ _ _ _ _ _ _ _ _ _ _ _ hf hl (iblk3 V c 0 t) (iblk3 V c 1 t) (iblk3 V c 2 t) (iblk3 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover3_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover3_last c _ _ _ _ _ _ _ _ _ _ _ _ _ _ _ _ _ _ _ _)

/-- The body at any point: by the kind of point. -/
theorem sound_body3 (c : Dev nD) (t : Fin cfg3.N) : bodyPre3 V c t ⊢ wp frame (wpE (defs₀ (F := F)) Variants.none c none) Set.univ (bodyAt3 t) (fun _ => bodyPost3 V c t) := by
  by_cases h0 : t.val % 196 = 0
  · exact body_first3 V c t h0
  · by_cases h1 : t.val % 196 = 195
    · exact body_last3 V c t h1
    · exact body_inner3 V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl]
  exact Idealize.SL.BI.Entails.refl _

/-- After the last point the invariant gives it back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  exact PhiS3_forget V c _ _

end Cert.Kernel.Gen

end
-- ==== Proof.K.Dense4.lean ====
/- Region 4 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k4_pay1`). Here: each window's block at a point, what
   the body leaves in the output tile, the body's triple with a frame, the pipeline's proof data, and its body
   obligation at every point. -/
import proofs.«140952_j21595095564583_2_alg».proof.Proof.Gen.Kernel.Launch
import proofs.«140952_j21595095564583_2_alg».proof.Proof.Gen.Kernel.Skeleton
import proofs.«140952_j21595095564583_2_alg».proof.Proof.K.Points4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The output tile after the body -/

/-- The body reads and writes each of its three buffers whole: the rectangle at the origin of the buffer's own extent. -/
abbrev r4_0 : Rect S1024x16 := Rect.unit (s := S1024x16) ![0, 0] S1024x16.size inb_S1024x16_S1024x16_0_0
abbrev r4_1 : Rect S16x16 := Rect.unit (s := S16x16) ![0, 0] S16x16.size inb_S16x16_S16x16_0_0
abbrev r4_2 : Rect S1024x16 := Rect.unit (s := S1024x16) ![0, 0] S1024x16.size inb_S1024x16_S1024x16_0_0

/-- What the body leaves in the output tile, from the row tile `x0` and the weight block `x1`: its single store, the
    product of the two, laid over the tile. -/
def out4_2 (x0 : Vec F S1024x16 .f32) (x1 : Vec F S16x16 .f32) : Vec F S1024x16 .f32 :=
  View.canon [⟨r4_2, k4_pay1 (View.ld x0 r4_0) (View.ld x1 r4_1)⟩]

/-- Every index of the output tile lies in the stored rectangle: on each axis the rectangle starts at 0 and is as long
    as the tile. -/
theorem tile_in_store4 (y : S1024x16.Idx) : y ∈ (r4_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out4_2 xt wb`; what is read back after the store is the product because the store misses no index of the tile. -/
theorem dense_point4 (c : Dev nD) (E : Set ℕ) (i : grid4.Coords)
    (xbuf : Memref sig .tc .vmem S1024x16 .f32) (hx : xbuf.IsWhole) (wbuf : Memref sig .tc .vmem S16x16 .f32) (hw : wbuf.IsWhole)
    (obuf : Memref sig .tc .vmem S1024x16 .f32) (ho : obuf.IsWhole)
    (xt : Vec F S1024x16 .f32) (wb : Vec F S16x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc4__dense_kernel i xbuf hx wbuf hw obuf ho)
          (fun _ => (iprop(R ∗ owns (c : Thread nD τ) xbuf fullShare xt ∗ owns (c : Thread nD τ) wbuf fullShare wb
            ∗ owns (c : Thread nD τ) obuf fullShare (out4_2 xt wb)) : sProp 𝕄)) := by
  rw [cc4__dense_kernel_eq_skeleton]
  unfold cc4__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store4 y⟩
  · iexact Ho

/-! ## The pipeline's proof data -/

/-- The proof data of pipeline 4 on core `c`: the arrays as the region finds them; after the body at point `t` the row
    tile and the weight block still in their buffers and the output tile at their product; the invariant is the rest of
    the core's state, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## What the body finds in the two input buffers -/

/-- The block a fetch at point `t` reads of window `w`'s array is `iblk4 V c w t`: the arrays are `V`'s. -/
theorem blockOf_eq4 (c : Dev nD) (w : Fin cfg4.W) (t : Fin cfg4.N) : (dat4 V c).blockOf w t = iblk4 V c w t := by
  unfold Dat.blockOf iblk4
  rw [A_eq4]

/-- The row tile of `x` is fetched at every point, and the fetch fills the whole buffer (the tile is never cut): the
    body finds the tile of its own point. -/
theorem rowtile_found4 (c : Dev nD) (t : Fin cfg4.N) (d) : (dat4 V c).before 0 t d = iblk4 V c 0 t :=
  calc (dat4 V c).before 0 t d
      = (dat4 V c).fetched 0 t d := (dat4 V c).before_fetched 0 t (fetch4_0 t) d
    _ = (dat4 V c).blockOf 0 t := rfl
    _ = iblk4 V c 0 t := blockOf_eq4 V c 0 t

/-- The weight block is fetched at the first point only. At a later point its block index has not moved and the body
    left the buffer as it found it, so the body finds there what a fetch at that point would have put: `W` again. -/
theorem weight_found4 (c : Dev nD) (t : Fin cfg4.N) (d) : (dat4 V c).before 1 t d = iblk4 V c 1 t :=
  calc (dat4 V c).before 1 t d
      = (dat4 V c).fetched 1 t d :=
        (dat4 V c).before_in_eq_fetched 1 rfl (fun _ => rfl) (fun _ _ _ => rfl)
          (fun s => by rw [after4_1, blockOf_eq4]) t d
    _ = (dat4 V c).blockOf 1 t := rfl
    _ = iblk4 V c 1 t := blockOf_eq4 V c 1 t

/-! ## The body obligation -/

/-- At every point: the two input buffers hold the row tile and the weight block of the point, the output buffer holds
    anything, so `dense_point4` applies with the invariant and the tallies owed as its frame (the body touches neither),
    and it leaves each buffer at what the proof data say. No window is idle at any point. -/
theorem body_obligation4 (c : Dev nD) : BodyObligation (dat4 (F := F) V c) (defs₀ (F := F)) Variants.none () Set.univ := by
  intro t
  rw [bigSep_W4, bigSep_W4]
  show iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d)))
      ⊢ wp frame (wpE (defs₀ (F := F)) Variants.none c none) Set.univ (bodyAt4 t) (fun _ =>
          iprop((dat4 V c).Φ t.castSucc ∗ (dat4 V c).owesAt () t.castSucc
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)))
  simp only [rowtile_found4, weight_found4, after4_0, after4_1, after4_2]
  refine .trans ?_ (wp_mono _ _ _ fun _ => BI.sep_assoc)
  iintro ⟨HΦ, Htally, ⟨%_, Hx⟩, ⟨%_, Hw⟩, ⟨%stale, Hout⟩⟩
  iapply (dense_point4 c Set.univ _ _ _ _ _ _ _ (iblk4 V c 0 t) (iblk4 V c 1 t)
    iprop((dat4 V c).Φ t.castSucc ∗ (dat4 V c).owesAt () t.castSucc))
  isplitl [HΦ Htally]
  · isplitl [HΦ]
    · iexact HΦ
    · iexact Htally
  isplitl [Hx]
  · iexact Hx
  isplitl [Hw]
  · iexact Hw
  iexists (dat4 V c).before 2 t stale
  iexact Hout

end Regions

end Cert.Kernel.Gen
-- ==== Proof.K.Sched5.lean ====
/- The pipeline schedule of aggregation call 5. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.K.Points1

noncomputable section

namespace Cert.Kernel.Gen

open Idealize.ShloMosaic Idealize.ShloMosaic.TcCoe
open Idealize.SL Idealize.SL.Sem

/-- Window 0 of call 5 is fetched where window 0 of call 1 is: at every point. -/
theorem fetch5_0 : ∀ t : Fin cfg5.N, (cfg5.win 0).fetch t = true :=
  fun t => (show (cfg5.win 0).fetch t = (cfg1.win 0).fetch t from rfl).trans (fetch1_0 t)
/-- Window 1 of call 5 is fetched where window 1 of call 1 is: at every point. -/
theorem fetch5_1 : ∀ t : Fin cfg5.N, (cfg5.win 1).fetch t = true :=
  fun t => (show (cfg5.win 1).fetch t = (cfg1.win 1).fetch t from rfl).trans (fetch1_1 t)
/-- Window 2 of call 5 is fetched where window 2 of call 1 is: at every point. -/
theorem fetch5_2 : ∀ t : Fin cfg5.N, (cfg5.win 2).fetch t = true :=
  fun t => (show (cfg5.win 2).fetch t = (cfg1.win 2).fetch t from rfl).trans (fetch1_2 t)
/-- Window 3 of call 5 is fetched where window 3 of call 1 is: at every point. -/
theorem fetch5_3 : ∀ t : Fin cfg5.N, (cfg5.win 3).fetch t = true :=
  fun t => (show (cfg5.win 3).fetch t = (cfg1.win 3).fetch t from rfl).trans (fetch1_3 t)
/-- The output tile of call 5 is written back where call 1's is: at the last source tile of each row, t ≡ 195 (mod 196). -/
theorem flush5_4 : ∀ t : Fin cfg5.N, (cfg5.win 4).flush t = true ↔ t.val % 196 = 195 := fun t => by
  rw [show (cfg5.win 4).flush t = (cfg1.win 4).flush t from rfl]; exact flush1_4 t

end Cert.Kernel.Gen

end
-- ==== Proof.K.Agg5Runs.lean ====
/- The third graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.Kernel.Launch
import proofs.«140952_j21595095564583_2_alg».proof.Proof.Gen.Kernel.Skeleton
import proofs.«140952_j21595095564583_2_alg».proof.Proof.K.Points5
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Every input is fetched at every point and its block is never cut, so when the body runs its current staging
    buffer holds exactly the block — for any proof data over the entry arrays. One statement per input. -/
theorem before5_0_of {c : Dev nD} (dat : Dat τ (Elt F) Unit ℕ (UR sig nD τ) ℕ cfg5 c) (hA : dat.A 0 = V c (Pipeline.arrRef spec5 0))
    (t : Fin cfg5.N) (d) : dat.before 0 t d = iblk5 V c 0 t := by
  rw [dat.before_fetched 0 t (fetch5_0 t) d]; unfold Dat.fetched Dat.blockOf iblk5; rw [hA]; rfl
theorem before5_1_of {c : Dev nD} (dat : Dat τ (Elt F) Unit ℕ (UR sig nD τ) ℕ cfg5 c) (hA : dat.A 1 = V c (Pipeline.arrRef spec5 1))
    (t : Fin cfg5.N) (d) : dat.before 1 t d = iblk5 V c 1 t := by
  rw [dat.before_fetched 1 t (fetch5_1 t) d]; unfold Dat.fetched Dat.blockOf iblk5; rw [hA]; rfl
theorem before5_2_of {c : Dev nD} (dat : Dat τ (Elt F) Unit ℕ (UR sig nD τ) ℕ cfg5 c) (hA : dat.A 2 = V c (Pipeline.arrRef spec5 2))
    (t : Fin cfg5.N) (d) : dat.before 2 t d = iblk5 V c 2 t := by
  rw [dat.before_fetched 2 t (fetch5_2 t) d]; unfold Dat.fetched Dat.blockOf iblk5; rw [hA]; rfl
theorem before5_3_of {c : Dev nD} (dat : Dat τ (Elt F) Unit ℕ (UR sig nD τ) ℕ cfg5 c) (hA : dat.A 3 = V c (Pipeline.arrRef spec5 3))
    (t : Fin cfg5.N) (d) : dat.before 3 t d = iblk5 V c 3 t := by
  rw [dat.before_fetched 3 t (fetch5_3 t) d]; unfold Dat.fetched Dat.blockOf iblk5; rw [hA]; rfl

/-! ## First and last source tile -/

/-- The source coordinate of the flattened point `t` is `t % 196`: the source axis is the last one, of stride one. -/
theorem srcCoord5 (t : Fin cfg5.N) : ((grid5.coords t) 1).val = t.val % 196 := by
  have hs : grid5.stride 1 = 1 := rfl
  show t.val / grid5.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest5 : ∀ j : Fin 196,
    (Scalar.cmpi .ne (Scalar.extui (Scalar.cmpi .eq (BitVec.ofNat 32 j.val) 0#32)) 0#32) = 1#1 ↔ j.val = 0 := by decide +kernel
theorem lastTest5 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc5 (i : grid5.Coords) : Prop := (Scalar.cmpi .ne (Scalar.extui (Scalar.cmpi .eq (BitVec.ofNat 32 (i 1).val) 0#32)) 0#32) = 1#1
/-- which holds at the flattened points t with t % 196 = 0. -/
theorem firstSrc5_iff (t : Fin cfg5.N) : firstSrc5 (grid5.coords t) ↔ t.val % 196 = 0 := by
  rw [← srcCoord5 t]; exact firstTest5 ((grid5.coords t) 1)

/-- It copies the accumulator to the output tile under this one (j = 195), -/
abbrev lastSrc5 (i : grid5.Coords) : Prop := k5_cond2 i = 1#1
/-- which holds at the points with t % 196 = 195. -/
theorem lastSrc5_iff (t : Fin cfg5.N) : lastSrc5 (grid5.coords t) ↔ t.val % 196 = 195 := by
  rw [← srcCoord5 t]; exact lastTest5 ((grid5.coords t) 1)

/-- The two tests read off the flattened point. -/
theorem isFirst5 (t : Fin cfg5.N) (h : t.val % 196 = 0) : firstSrc5 (grid5.coords t) := (firstSrc5_iff t).mpr h
theorem notFirst5 (t : Fin cfg5.N) (h : ¬t.val % 196 = 0) : ¬firstSrc5 (grid5.coords t) := fun hf => h ((firstSrc5_iff t).mp hf)
theorem isLast5 (t : Fin cfg5.N) (h : t.val % 196 = 195) : lastSrc5 (grid5.coords t) := (lastSrc5_iff t).mpr h
theorem notLast5 (t : Fin cfg5.N) (h : ¬t.val % 196 = 195) : ¬lastSrc5 (grid5.coords t) := fun hl => h ((lastSrc5_iff t).mp hl)

/-! ## Where the output tile is untouched -/

/-- Off the last source tile the output window is idle: nothing is stored into it, -/
theorem outIdle5 (i : grid5.Coords) (h : ¬lastSrc5 i) : cfg5.idle 4 i = true := by
  show (!(k5_cond2 i == 1#1)) = true
  simp only [Bool.not_eq_true', beq_eq_false_iff_ne, ne_eq]; exact h
/-- and it is not written back there; -/
theorem outKept5 (t : Fin cfg5.N) (h : ¬lastSrc5 (grid5.coords t)) : (cfg5.win 4).flush t = false := by
  rw [Bool.eq_false_iff]; exact fun hf => h ((lastSrc5_iff t).mpr ((flush5_4 t).mp hf))
/-- on the last source tile it is live. -/
theorem outLive5 (i : grid5.Coords) (h : lastSrc5 i) : cfg5.idle 4 i = false := by
  show (!(k5_cond2 i == 1#1)) = false
  simp only [Bool.not_eq_false', beq_iff_eq]; exact h

/-! ## The memrefs the body is called on -/

/-- Each window's current staging memref at point `t`, as the pipeline passes it, and its wholeness. -/
abbrev ms5_0 (t : Fin cfg5.N) : Memref sig .tc .vmem S1024x16 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x1x512 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1x512 .i32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x16 .f32 := win5_4.stage (cfg5.slots t 4)
abbrev hs5_4 (t : Fin cfg5.N) : (ms5_4 t).IsWhole := hstage5_4 ((cfg5.slots t 4).cast nbuf5_4)
/-- The accumulator: one whole scoped 1024 × 16 buffer of the call's own, carried from point to point. -/
abbrev acc5 : Memref sig .tc .vmem S1024x16 .f32 := Memref.whole cc5_scratch0
/-- The views through which the accumulator's and the output tile's contents are stated. -/
abbrev accView5 : View sig .tc .vmem S1024x16 .f32 := acc5.view
abbrev outView5 : View sig .tc .vmem S1024x16 .f32 := (Memref.whole cc5_stg4_0 : Memref sig .tc .vmem S1024x16 .f32).view

/-- What the call is handed beside its windows: the accumulator at some contents, every other scoped buffer that
    is no staging buffer of this call (unopened), and the generator register at some state. -/
theorem PhiA5_eq (c : Dev nD) :
    (Pipeline.ΦA spec5 c : sProp 𝕄)
      = iprop(iprop(iprop((∃ d, owns (c : Thread nD τ) acc5 fullShare d))
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [acc5, owns_whole]; rfl

end Cert.Kernel.Gen

end
-- ==== Proof.K.Agg5RunA.lean ====
/- The aggregation body at a FIRST point (source tile j = 0, not the last): the accumulator, whatever it held, is
   zeroed, the contribution of this tile pair is added to it, and the output tile is not touched. -/
import proofs.«140952_j21595095564583_2_alg».proof.Proof.K.Agg5Runs

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun5_first (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, fun y E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg5RunB.lean ====
/- The aggregation body at an INNER point (source tile 0 < j < 195): the contribution of this tile pair is added to
   what the accumulator held; the output tile is not touched. -/
import proofs.«140952_j21595095564583_2_alg».proof.Proof.K.Agg5RunA

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun5_inner (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, fun y E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg5RunC.lean ====
/- The aggregation body at a LAST point (source tile j = 195): the contribution is added to what the accumulator
   held, and the sum is copied to the output tile. -/
import proofs.«140952_j21595095564583_2_alg».proof.Proof.K.Agg5RunB

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, ?_, fun E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.Kernel.Gen

end
-- ==== Proof.K.Agg5.lean ====
/- The third graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.K.Agg5RunC

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover5_first (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) (y : S1024x16.Idx) :
    ∃ pc ∈ (aggRun5_first c i arg2 harg2 arg3 harg3 arg4 harg4 arg5 harg5 arg6 harg6 arg7 harg7 hfirst hlast x0 x1 x2 x3).1, y ∈ pc.1.set :=
  View.cover_of_tiledL (aggRun5_first c i arg2 harg2 arg3 harg3 arg4 harg4 arg5 harg5 arg6 harg6 arg7 harg7 hfirst hlast x0 x1 x2 x3).1 S1024x16.size (by sl_kernel_rfl) y

/-- The accumulator after a first point: its stores read back. -/
def sout5_A_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) : Vec F S1024x16 .f32 :=
  accView5.read (Elt F) (accView5.writes (Elt F) accView5.junk (aggRun5_first c i arg2 harg2 arg3 harg3 arg4 harg4 arg5 harg5 arg6 harg6 arg7 harg7 hfirst hlast x0 x1 x2 x3).1)

/-- The one store of an inner point covers the accumulator. -/
theorem accCover5_inner (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_inner c i arg2 harg2 arg3 harg3 arg4 harg4 arg5 harg5 arg6 harg6 arg7 harg7 hfirst hlast x0 x1 x2 x3 xs).1, y ∈ pc.1.set :=
  View.cover_of_tiledL (aggRun5_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout5_B_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  accView5.read (Elt F) (accView5.writes (Elt F) accView5.junk (aggRun5_inner c i arg2 harg2 arg3 harg3 arg4 harg4 arg5 harg5 arg6 harg6 arg7 harg7 hfirst hlast x0 x1 x2 x3 xs).1)

/-- At a last point the store into the accumulator covers it, -/
theorem accCover5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_last c i arg2 harg2 arg3 harg3 arg4 harg4 arg5 harg5 arg6 harg6 arg7 harg7 hfirst hlast x0 x1 x2 x3 xs).2.1, y ∈ pc.1.set :=
  View.cover_of_tiledL (aggRun5_last c i arg2 harg2 arg3 harg3 arg4 harg4 arg5 harg5 arg6 harg6 arg7 harg7 hfirst hlast x0 x1 x2 x3 xs).2.1 S1024x16.size (by sl_kernel_rfl) y

/-- and the store into the output tile covers that. -/
theorem outCover5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_last c i arg2 harg2 arg3 harg3 arg4 harg4 arg5 harg5 arg6 harg6 arg7 harg7 hfirst hlast x0 x1 x2 x3 xs).1, y ∈ pc.1.set :=
  View.cover_of_tiledL (aggRun5_last c i arg2 harg2 arg3 harg3 arg4 harg4 arg5 harg5 arg6 harg6 arg7 harg7 hfirst hlast x0 x1 x2 x3 xs).1 S1024x16.size (by sl_kernel_rfl) y

/-- The accumulator after a last point, -/
def sout5_C_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  accView5.read (Elt F) (accView5.writes (Elt F) accView5.junk (aggRun5_last c i arg2 harg2 arg3 harg3 arg4 harg4 arg5 harg5 arg6 harg6 arg7 harg7 hfirst hlast x0 x1 x2 x3 xs).2.1)

/-- and the output tile after it. -/
def out5_C_4 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  outView5.read (Elt F) (outView5.writes (Elt F) outView5.junk (aggRun5_last c i arg2 harg2 arg3 harg3 arg4 harg4 arg5 harg5 arg6 harg6 arg7 harg7 hfirst hlast x0 x1 x2 x3 xs).1)

/-! ## The same at a grid point: on the memrefs the pipeline passes there and the blocks the inputs stage -/

def accFirst5 (c : Dev nD) (t : Fin cfg5.N) (h0 : t.val % 196 = 0) : Vec F S1024x16 .f32 :=
  sout5_A_0 c (grid5.coords t) (ms5_0 t) (hs5_0 t) (ms5_1 t) (hs5_1 t) (ms5_2 t) (hs5_2 t) (ms5_3 t) (hs5_3 t) (ms5_4 t) (hs5_4 t) acc5 (Memref.isWhole_whole _)
    (isFirst5 t h0) (notLast5 t (by omega)) (iblk5 V c 0 t) (iblk5 V c 1 t) (iblk5 V c 2 t) (iblk5 V c 3 t)

def accInner5 (c : Dev nD) (t : Fin cfg5.N) (h0 : ¬t.val % 196 = 0) (h1 : ¬t.val % 196 = 195) (xs : Vec F S1024x16 .f32) : Vec F S1024x16 .f32 :=
  sout5_B_0 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t h0) (notLast5 t h1) (iblk5 V c 0 t) (iblk5 V c 1 t) (iblk5 V c 2 t) (iblk5 V c 3 t) xs

def accLast5 (c : Dev nD) (t : Fin cfg5.N) (h1 : t.val % 196 = 195) (xs : Vec F S1024x16 .f32) : Vec F S1024x16 .f32 :=
  sout5_C_0 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t (by omega)) (isLast5 t h1) (iblk5 V c 0 t) (iblk5 V c 1 t) (iblk5 V c 2 t) (iblk5 V c 3 t) xs

def outLast5 (c : Dev nD) (t : Fin cfg5.N) (h1 : t.val % 196 = 195) (xs : Vec F S1024x16 .f32) : Vec F S1024x16 .f32 :=
  out5_C_4 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t (by omega)) (isLast5 t h1) (iblk5 V c 0 t) (iblk5 V c 1 t) (iblk5 V c 2 t) (iblk5 V c 3 t) xs

/-- An output tile nothing was stored into. Off the last source tile the window is idle and is not written back, so
    these contents are never read. -/
def untouched5 : Vec F S1024x16 .f32 := outView5.read (Elt F) outView5.junk

/-! ## The accumulation, point by point -/

/-- What the output tile's staging buffer (first component) and the accumulator (second) hold after the body at
    position `n`: at a first point zero plus the contribution; otherwise what position `n - 1` left in the
    accumulator plus the contribution, which at a last point is also the output tile. -/
def outsAt5 (c : Dev nD) : (n : ℕ) → n < cfg5.N → Vec F S1024x16 .f32 × Vec F S1024x16 .f32
  | 0, hn => (untouched5, accFirst5 V c ⟨0, hn⟩ (Nat.zero_mod _))
  | n + 1, hn =>
    if h0 : (n + 1) % 196 = 0 then (untouched5, accFirst5 V c ⟨n + 1, hn⟩ h0)
    else if h1 : (n + 1) % 196 = 195 then
      (outLast5 V c ⟨n + 1, hn⟩ h1 (outsAt5 c n (Nat.lt_of_succ_lt hn)).2, accLast5 V c ⟨n + 1, hn⟩ h1 (outsAt5 c n (Nat.lt_of_succ_lt hn)).2)
    else (untouched5, accInner5 V c ⟨n + 1, hn⟩ h0 h1 (outsAt5 c n (Nat.lt_of_succ_lt hn)).2)

/-- At a first point. -/
theorem outsAt5_A (c : Dev nD) (t : Fin cfg5.N) (h0 : t.val % 196 = 0) :
    outsAt5 V c t.val t.isLt = (untouched5, accFirst5 V c t h0) := by
  obtain ⟨n, hn⟩ := t
  cases n with
  | zero => rfl
  | succ n => exact dif_pos h0

/-- At an inner point, over what the point before left. -/
theorem outsAt5_B (c : Dev nD) (t : Fin cfg5.N) (h0 : ¬t.val % 196 = 0) (h1 : ¬t.val % 196 = 195) :
    outsAt5 V c t.val t.isLt
      = (untouched5, accInner5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt5_C (c : Dev nD) (t : Fin cfg5.N) (h1 : t.val % 196 = 195) :
    outsAt5 V c t.val t.isLt
      = (outLast5 V c t h1 (outsAt5 V c (t.val - 1) (Nat.lt_of_le_of_lt (Nat.sub_le _ _) t.isLt)).2,
         accLast5 V c t h1 (outsAt5 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS5 (c : Dev nD) : (n : ℕ) → n ≤ cfg5.N → sProp 𝕄
  | 0, _ => Pipeline.ΦA spec5 c
  | n + 1, hn => iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_succ (c : Dev nD) (n : ℕ) (hn : n < cfg5.N) :
    PhiS5 V c (n + 1) hn = iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) acc5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- At every position the invariant yields the accumulator at SOME contents (its named contents forgotten). -/
theorem PhiS5_forget (c : Dev nD) (n : ℕ) (h : n ≤ cfg5.N) :
    PhiS5 V c n h ⊢ iprop(iprop(iprop((∃ d, owns (c : Thread nD τ) acc5 fullShare d)) ∗ Pipeline.scopedRestBut (Ix := Unit) (Name := ℕ) (U := UR sig nD τ) (Lvl := ℕ) (Val := Elt F) spec5 c [cc5_scratch0]) ∗ (∃ r, prngReg c r)) := by
  cases n with
  | zero => rw [show PhiS5 V c 0 h = Pipeline.ΦA spec5 c from rfl, PhiA5_eq]
  | succ n =>
    rw [PhiS5_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt5`'s first component; the invariant `PhiS5`; full shares,
    nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- When the body runs, each input's current buffer holds its block. -/
theorem before5_0 (c : Dev nD) (t : Fin cfg5.N) (d) : (dat5 V c).before 0 t d = iblk5 V c 0 t := before5_0_of V (dat5 V c) (A_eq5 V c 0) t d
theorem before5_1 (c : Dev nD) (t : Fin cfg5.N) (d) : (dat5 V c).before 1 t d = iblk5 V c 1 t := before5_1_of V (dat5 V c) (A_eq5 V c 1) t d
theorem before5_2 (c : Dev nD) (t : Fin cfg5.N) (d) : (dat5 V c).before 2 t d = iblk5 V c 2 t := before5_2_of V (dat5 V c) (A_eq5 V c 2) t d
theorem before5_3 (c : Dev nD) (t : Fin cfg5.N) (d) : (dat5 V c).before 3 t d = iblk5 V c 3 t := before5_3_of V (dat5 V c) (A_eq5 V c 3) t d

/-- And the body, which only reads them, leaves each there (the inputs are live at every point). -/
theorem leaves5_0 (c : Dev nD) (t : Fin cfg5.N) : (dat5 V c).leavesExact 0 t = owns (c : Thread nD τ) (ms5_0 t) fullShare (iblk5 V c 0 t) := by
  rw [← after5_0]
theorem leaves5_1 (c : Dev nD) (t : Fin cfg5.N) : (dat5 V c).leavesExact 1 t = owns (c : Thread nD τ) (ms5_1 t) fullShare (iblk5 V c 1 t) := by
  rw [← after5_1]
theorem leaves5_2 (c : Dev nD) (t : Fin cfg5.N) : (dat5 V c).leavesExact 2 t = owns (c : Thread nD τ) (ms5_2 t) fullShare (iblk5 V c 2 t) := by
  rw [← after5_2]
theorem leaves5_3 (c : Dev nD) (t : Fin cfg5.N) : (dat5 V c).leavesExact 3 t = owns (c : Thread nD τ) (ms5_3 t) fullShare (iblk5 V c 3 t) := by
  rw [← after5_3]

/-! ## The body's obligation -/

/-- What the body is called with at point `t`: the invariant, the core's debts, each window's current buffer, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t
    ∗ (dat5 V c).leavesExact 3 t ∗ (dat5 V c).leavesExact 4 t)

set_option maxHeartbeats 1600000 in
/-- At a first point: whatever the accumulator held is forgotten; the run zeroes it and adds the contribution; the
    output tile, idle there, goes back as it came. -/
theorem body_first5 (c : Dev nD) (t : Fin cfg5.N) (h0 : t.val % 196 = 0) :
    bodyPre5 V c t ⊢ wp frame (wpE (defs₀ (F := F)) Variants.none c none) Set.univ (bodyAt5 t) (fun _ => bodyPost5 V c t) := by
  have hl : ¬lastSrc5 (grid5.coords t) := notLast5 t (by omega)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [Dat.leavesExact_idle (dat5 V c) 4 t (outIdle5 _ hl) (outKept5 t hl)]
  rw [outsAt5_A V c t h0]; unfold accFirst5 sout5_A_0; (try dsimp only)
  rw [PhiS5_castSucc V c t]
  iintro ⟨HΦ, Ho, ⟨%d0, H0⟩, ⟨%d1, H1⟩, ⟨%d2, H2⟩, ⟨%d3, H3⟩, ⟨%d4, H4⟩⟩
  icases (PhiS5_forget V c t.val (Nat.le_of_lt t.isLt)) $$ HΦ with ⟨⟨HA, HR⟩, Hg⟩
  iapply ((aggRun5_first c (grid5.coords t) _ _ _ _ _ _ _ _ _ _ _ _ (isFirst5 t h0) hl (iblk5 V c 0 t) (iblk5 V c 1 t) (iblk5 V c 2 t) (iblk5 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover5_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner5 (c : Dev nD) (t : Fin cfg5.N) (h0 : ¬t.val % 196 = 0) (h1 : ¬t.val % 196 = 195) :
    bodyPre5 V c t ⊢ wp frame (wpE (defs₀ (F := F)) Variants.none c none) Set.univ (bodyAt5 t) (fun _ => bodyPost5 V c t) := by
  have hl : ¬lastSrc5 (grid5.coords t) := notLast5 t h1
  have hz : t.val ≠ 0 := fun h => h0 (by rw [h])
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [Dat.leavesExact_idle (dat5 V c) 4 t (outIdle5 _ hl) (outKept5 t hl)]
  rw [outsAt5_B V c t h0 h1]; unfold accInner5 sout5_B_0; (try dsimp only)
  rw [PhiS5_castSucc V c t, PhiS5_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun5_inner c (grid5.coords t) _ _ _ _ _ _ _ _ _ _ _ _ (notFirst5 t h0) hl (iblk5 V c 0 t) (iblk5 V c 1 t) (iblk5 V c 2 t) (iblk5 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover5_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last5 (c : Dev nD) (t : Fin cfg5.N) (h1 : t.val % 196 = 195) :
    bodyPre5 V c t ⊢ wp frame (wpE (defs₀ (F := F)) Variants.none c none) Set.univ (bodyAt5 t) (fun _ => bodyPost5 V c t) := by
  have hf : ¬firstSrc5 (grid5.coords t) := notFirst5 t (by omega)
  have hl : lastSrc5 (grid5.coords t) := isLast5 t h1
  have hz : t.val ≠ 0 := fun h => by rw [h] at h1; exact absurd h1 (by decide)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [show (dat5 V c).leavesExact 4 t = owns (c : Thread nD τ) (ms5_4 t) fullShare ((dat5 V c).after 4 t) from by
    unfold Dat.leavesExact; rw [outLive5 _ hl], after5_4]
  rw [outsAt5_C V c t h1]; unfold accLast5 outLast5 sout5_C_0 out5_C_4; (try dsimp only)
  rw [PhiS5_castSucc V c t, PhiS5_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun5_last c (grid5.coords t) _ _ _ _ _ _ _ _ _ _ _ _ hf hl (iblk5 V c 0 t) (iblk5 V c 1 t) (iblk5 V c 2 t) (iblk5 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover5_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover5_last c _ _ _ _ _ _ _ _ _ _ _ _ _ _ _ _ _ _ _ _)

/-- The body at any point: by the kind of point. -/
theorem sound_body5 (c : Dev nD) (t : Fin cfg5.N) : bodyPre5 V c t ⊢ wp frame (wpE (defs₀ (F := F)) Variants.none c none) Set.univ (bodyAt5 t) (fun _ => bodyPost5 V c t) := by
  by_cases h0 : t.val % 196 = 0
  · exact body_first5 V c t h0
  · by_cases h1 : t.val % 196 = 195
    · exact body_last5 V c t h1
    · exact body_inner5 V c t h0 h1

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl]
  exact Idealize.SL.BI.Entails.refl _

/-- After the last point the invariant gives it back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  exact PhiS5_forget V c _ _

end Cert.Kernel.Gen

end
-- ==== Proof.K.Dense6.lean ====
/- Region 6 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k6_pay1`). Here: each window's block at a point, what
   the body leaves in the output tile, the body's triple with a frame, the pipeline's proof data, and its body
   obligation at every point. -/
import proofs.«140952_j21595095564583_2_alg».proof.Proof.Gen.Kernel.Launch
import proofs.«140952_j21595095564583_2_alg».proof.Proof.Gen.Kernel.Skeleton
import proofs.«140952_j21595095564583_2_alg».proof.Proof.K.Points6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The output tile after the body -/

/-- The body reads and writes each of its three buffers whole: the rectangle at the origin of the buffer's own extent. -/
abbrev r6_0 : Rect S1024x16 := Rect.unit (s := S1024x16) ![0, 0] S1024x16.size inb_S1024x16_S1024x16_0_0
abbrev r6_1 : Rect S16x1 := Rect.unit (s := S16x1) ![0, 0] S16x1.size inb_S16x1_S16x1_0_0
abbrev r6_2 : Rect S1024x1 := Rect.unit (s := S1024x1) ![0, 0] S1024x1.size inb_S1024x1_S1024x1_0_0

/-- What the body leaves in the output tile, from the row tile `x0` and the weight block `x1`: its single store, the
    product of the two, laid over the tile. -/
def out6_2 (x0 : Vec F S1024x16 .f32) (x1 : Vec F S16x1 .f32) : Vec F S1024x1 .f32 :=
  View.canon [⟨r6_2, k6_pay1 (View.ld x0 r6_0) (View.ld x1 r6_1)⟩]

/-- Every index of the output tile lies in the stored rectangle: on each axis the rectangle starts at 0 and is as long
    as the tile. -/
theorem tile_in_store6 (y : S1024x1.Idx) : y ∈ (r6_2).set := by
  refine Rect.mem_set_unit.mpr fun a => ?_
  have h0 : (![0, 0] : Fin S1024x1.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out6_2 xt wb`; what is read back after the store is the product because the store misses no index of the tile. -/
theorem dense_point6 (c : Dev nD) (E : Set ℕ) (i : grid6.Coords)
    (xbuf : Memref sig .tc .vmem S1024x16 .f32) (hx : xbuf.IsWhole) (wbuf : Memref sig .tc .vmem S16x1 .f32) (hw : wbuf.IsWhole)
    (obuf : Memref sig .tc .vmem S1024x1 .f32) (ho : obuf.IsWhole)
    (xt : Vec F S1024x16 .f32) (wb : Vec F S16x1 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc6__dense_kernel i xbuf hx wbuf hw obuf ho)
          (fun _ => (iprop(R ∗ owns (c : Thread nD τ) xbuf fullShare xt ∗ owns (c : Thread nD τ) wbuf fullShare wb
            ∗ owns (c : Thread nD τ) obuf fullShare (out6_2 xt wb)) : sProp 𝕄)) := by
  rw [cc6__dense_kernel_eq_skeleton]
  unfold cc6__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store6 y⟩
  · iexact Ho

/-! ## The pipeline's proof data -/

/-- The proof data of pipeline 6 on core `c`: the arrays as the region finds them; after the body at point `t` the row
    tile and the weight block still in their buffers and the output tile at their product; the invariant is the rest of
    the core's state, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-! ## What the body finds in the two input buffers -/

/-- The block a fetch at point `t` reads of window `w`'s array is `iblk6 V c w t`: the arrays are `V`'s. -/
theorem blockOf_eq6 (c : Dev nD) (w : Fin cfg6.W) (t : Fin cfg6.N) : (dat6 V c).blockOf w t = iblk6 V c w t := by
  unfold Dat.blockOf iblk6
  rw [A_eq6]

/-- The row tile of `x` is fetched at every point, and the fetch fills the whole buffer (the tile is never cut): the
    body finds the tile of its own point. -/
theorem rowtile_found6 (c : Dev nD) (t : Fin cfg6.N) (d) : (dat6 V c).before 0 t d = iblk6 V c 0 t :=
  calc (dat6 V c).before 0 t d
      = (dat6 V c).fetched 0 t d := (dat6 V c).before_fetched 0 t (fetch6_0 t) d
    _ = (dat6 V c).blockOf 0 t := rfl
    _ = iblk6 V c 0 t := blockOf_eq6 V c 0 t

/-- The weight block is fetched at the first point only. At a later point its block index has not moved and the body
    left the buffer as it found it, so the body finds there what a fetch at that point would have put: `W` again. -/
theorem weight_found6 (c : Dev nD) (t : Fin cfg6.N) (d) : (dat6 V c).before 1 t d = iblk6 V c 1 t :=
  calc (dat6 V c).before 1 t d
      = (dat6 V c).fetched 1 t d :=
        (dat6 V c).before_in_eq_fetched 1 rfl (fun _ => rfl) (fun _ _ _ => rfl)
          (fun s => by rw [after6_1, blockOf_eq6]) t d
    _ = (dat6 V c).blockOf 1 t := rfl
    _ = iblk6 V c 1 t := blockOf_eq6 V c 1 t

/-! ## The body obligation -/

/-- At every point: the two input buffers hold the row tile and the weight block of the point, the output buffer holds
    anything, so `dense_point6` applies with the invariant and the tallies owed as its frame (the body touches neither),
    and it leaves each buffer at what the proof data say. No window is idle at any point. -/
theorem body_obligation6 (c : Dev nD) : BodyObligation (dat6 (F := F) V c) (defs₀ (F := F)) Variants.none () Set.univ := by
  intro t
  rw [bigSep_W6, bigSep_W6]
  show iprop((dat6 V c).Φ t.castSucc ∗ (dat6 V c).owesAt () t.castSucc
        ∗ (∃ d, owns (c : Thread nD τ) (st6_0 t) fullShare ((dat6 V c).before 0 t d))
        ∗ (∃ d, owns (c : Thread nD τ) (st6_1 t) fullShare ((dat6 V c).before 1 t d))
        ∗ (∃ d, owns (c : Thread nD τ) (st6_2 t) fullShare ((dat6 V c).before 2 t d)))
      ⊢ wp frame (wpE (defs₀ (F := F)) Variants.none c none) Set.univ (bodyAt6 t) (fun _ =>
          iprop((dat6 V c).Φ t.castSucc ∗ (dat6 V c).owesAt () t.castSucc
            ∗ owns (c : Thread nD τ) (st6_0 t) fullShare ((dat6 V c).after 0 t)
            ∗ owns (c : Thread nD τ) (st6_1 t) fullShare ((dat6 V c).after 1 t)
            ∗ owns (c : Thread nD τ) (st6_2 t) fullShare ((dat6 V c).after 2 t)))
  simp only [rowtile_found6, weight_found6, after6_0, after6_1, after6_2]
  refine .trans ?_ (wp_mono _ _ _ fun _ => BI.sep_assoc)
  iintro ⟨HΦ, Htally, ⟨%_, Hx⟩, ⟨%_, Hw⟩, ⟨%stale, Hout⟩⟩
  iapply (dense_point6 c Set.univ _ _ _ _ _ _ _ (iblk6 V c 0 t) (iblk6 V c 1 t)
    iprop((dat6 V c).Φ t.castSucc ∗ (dat6 V c).owesAt () t.castSucc))
  isplitl [HΦ Htally]
  · isplitl [HΦ]
    · iexact HΦ
    · iexact Htally
  isplitl [Hx]
  · iexact Hx
  isplitl [Hw]
  · iexact Hw
  iexists (dat6 V c).before 2 t stale
  iexact Hout

end Regions

end Cert.Kernel.Gen
-- ==== Proof.K.Sched7.lean ====
/- The pipeline schedule of aggregation call 7. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.K.Points1

noncomputable section

namespace Cert.Kernel.Gen

open Idealize.ShloMosaic Idealize.ShloMosaic.TcCoe
open Idealize.SL Idealize.SL.Sem

/-- Window 0 of call 7 is fetched where window 0 of call 1 is: at every point. -/
theorem fetch7_0 : ∀ t : Fin cfg7.N, (cfg7.win 0).fetch t = true :=
  fun t => (show (cfg7.win 0).fetch t = (cfg1.win 0).fetch t from rfl).trans (fetch1_0 t)
/-- Window 1 of call 7 is fetched where window 1 of call 1 is: at every point. -/
theorem fetch7_1 : ∀ t : Fin cfg7.N, (cfg7.win 1).fetch t = true :=
  fun t => (show (cfg7.win 1).fetch t = (cfg1.win 1).fetch t from rfl).trans (fetch1_1 t)
/-- Window 2 of call 7 is fetched where window 2 of call 1 is: at every point. -/
theorem fetch7_2 : ∀ t : Fin cfg7.N, (cfg7.win 2).fetch t = true :=
  fun t => (show (cfg7.win 2).fetch t = (cfg1.win 2).fetch t from rfl).trans (fetch1_2 t)
/-- Window 3 of call 7 is fetched where window 3 of call 1 is: at every point. -/
theorem fetch7_3 : ∀ t : Fin cfg7.N, (cfg7.win 3).fetch t = true :=
  fun t => (show (cfg7.win 3).fetch t = (cfg1.win 3).fetch t from rfl).trans (fetch1_3 t)
/-- The output tile of call 7 is written back where call 1's is: at the last source tile of each row, t ≡ 195 (mod 196). -/
theorem flush7_4 : ∀ t : Fin cfg7.N, (cfg7.win 4).flush t = true ↔ t.val % 196 = 195 := fun t => by
  rw [show (cfg7.win 4).flush t = (cfg1.win 4).flush t from rfl]; exact flush1_4 t

end Cert.Kernel.Gen

end
-- ==== Proof.K.Agg7Runs.lean ====
/- The fourth graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.Kernel.Launch
import proofs.«140952_j21595095564583_2_alg».proof.Proof.Gen.Kernel.Skeleton
import proofs.«140952_j21595095564583_2_alg».proof.Proof.K.Points7
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Every input is fetched at every point and its block is never cut, so when the body runs its current staging
    buffer holds exactly the block — for any proof data over the entry arrays. One statement per input. -/
theorem before7_0_of {c : Dev nD} (dat : Dat τ (Elt F) Unit ℕ (UR sig nD τ) ℕ cfg7 c) (hA : dat.A 0 = V c (Pipeline.arrRef spec7 0))
    (t : Fin cfg7.N) (d) : dat.before 0 t d = iblk7 V c 0 t := by
  rw [dat.before_fetched 0 t (fetch7_0 t) d]; unfold Dat.fetched Dat.blockOf iblk7; rw [hA]; rfl
theorem before7_1_of {c : Dev nD} (dat : Dat τ (Elt F) Unit ℕ (UR sig nD τ) ℕ cfg7 c) (hA : dat.A 1 = V c (Pipeline.arrRef spec7 1))
    (t : Fin cfg7.N) (d) : dat.before 1 t d = iblk7 V c 1 t := by
  rw [dat.before_fetched 1 t (fetch7_1 t) d]; unfold Dat.fetched Dat.blockOf iblk7; rw [hA]; rfl
theorem before7_2_of {c : Dev nD} (dat : Dat τ (Elt F) Unit ℕ (UR sig nD τ) ℕ cfg7 c) (hA : dat.A 2 = V c (Pipeline.arrRef spec7 2))
    (t : Fin cfg7.N) (d) : dat.before 2 t d = iblk7 V c 2 t := by
  rw [dat.before_fetched 2 t (fetch7_2 t) d]; unfold Dat.fetched Dat.blockOf iblk7; rw [hA]; rfl
theorem before7_3_of {c : Dev nD} (dat : Dat τ (Elt F) Unit ℕ (UR sig nD τ) ℕ cfg7 c) (hA : dat.A 3 = V c (Pipeline.arrRef spec7 3))
    (t : Fin cfg7.N) (d) : dat.before 3 t d = iblk7 V c 3 t := by
  rw [dat.before_fetched 3 t (fetch7_3 t) d]; unfold Dat.fetched Dat.blockOf iblk7; rw [hA]; rfl

/-! ## First and last source tile -/

/-- The source coordinate of the flattened point `t` is `t % 196`: the source axis is the last one, of stride one. -/
theorem srcCoord7 (t : Fin cfg7.N) : ((grid7.coords t) 1).val = t.val % 196 := by
  have hs : grid7.stride 1 = 1 := rfl
  show t.val / grid7.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest7 : ∀ j : Fin 196,
    (Scalar.cmpi .ne (Scalar.extui (Scalar.cmpi .eq (BitVec.ofNat 32 j.val) 0#32)) 0#32) = 1#1 ↔ j.val = 0 := by decide +kernel
theorem lastTest7 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc7 (i : grid7.Coords) : Prop := (Scalar.cmpi .ne (Scalar.extui (Scalar.cmpi .eq (BitVec.ofNat 32 (i 1).val) 0#32)) 0#32) = 1#1
/-- which holds at the flattened points t with t % 196 = 0. -/
theorem firstSrc7_iff (t : Fin cfg7.N) : firstSrc7 (grid7.coords t) ↔ t.val % 196 = 0 := by
  rw [← srcCoord7 t]; exact firstTest7 ((grid7.coords t) 1)

/-- It copies the accumulator to the output tile under this one (j = 195), -/
abbrev lastSrc7 (i : grid7.Coords) : Prop := k7_cond2 i = 1#1
/-- which holds at the points with t % 196 = 195. -/
theorem lastSrc7_iff (t : Fin cfg7.N) : lastSrc7 (grid7.coords t) ↔ t.val % 196 = 195 := by
  rw [← srcCoord7 t]; exact lastTest7 ((grid7.coords t) 1)

/-- The two tests read off the flattened point. -/
theorem isFirst7 (t : Fin cfg7.N) (h : t.val % 196 = 0) : firstSrc7 (grid7.coords t) := (firstSrc7_iff t).mpr h
theorem notFirst7 (t : Fin cfg7.N) (h : ¬t.val % 196 = 0) : ¬firstSrc7 (grid7.coords t) := fun hf => h ((firstSrc7_iff t).mp hf)
theorem isLast7 (t : Fin cfg7.N) (h : t.val % 196 = 195) : lastSrc7 (grid7.coords t) := (lastSrc7_iff t).mpr h
theorem notLast7 (t : Fin cfg7.N) (h : ¬t.val % 196 = 195) : ¬lastSrc7 (grid7.coords t) := fun hl => h ((lastSrc7_iff t).mp hl)

/-! ## Where the output tile is untouched -/

/-- Off the last source tile the output window is idle: nothing is stored into it, -/
theorem outIdle7 (i : grid7.Coords) (h : ¬lastSrc7 i) : cfg7.idle 4 i = true := by
  show (!(k7_cond2 i == 1#1)) = true
  simp only [Bool.not_eq_true', beq_eq_false_iff_ne, ne_eq]; exact h
/-- and it is not written back there; -/
theorem outKept7 (t : Fin cfg7.N) (h : ¬lastSrc7 (grid7.coords t)) : (cfg7.win 4).flush t = false := by
  rw [Bool.eq_false_iff]; exact fun hf => h ((lastSrc7_iff t).mpr ((flush7_4 t).mp hf))
/-- on the last source tile it is live. -/
theorem outLive7 (i : grid7.Coords) (h : lastSrc7 i) : cfg7.idle 4 i = false := by
  show (!(k7_cond2 i == 1#1)) = false
  simp only [Bool.not_eq_false', beq_iff_eq]; exact h

/-! ## The memrefs the body is called on -/

/-- Each window's current staging memref at point `t`, as the pipeline passes it, and its wholeness. -/
abbrev ms7_0 (t : Fin cfg7.N) : Memref sig .tc .vmem S1024x1 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x1x512 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1x512 .i32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1024x1 .f32 := win7_4.stage (cfg7.slots t 4)
abbrev hs7_4 (t : Fin cfg7.N) : (ms7_4 t).IsWhole := hstage7_4 ((cfg7.slots t 4).cast nbuf7_4)
/-- The accumulator: one whole scoped 1024 × 1 buffer of the call's own, carried from point to point. -/
abbrev acc7 : Memref sig .tc .vmem S1024x1 .f32 := Memref.whole cc7_scratch0
/-- The views through which the accumulator's and the output tile's contents are stated. -/
abbrev accView7 : View sig .tc .vmem S1024x1 .f32 := acc7.view
abbrev outView7 : View sig .tc .vmem S1024x1 .f32 := (Memref.whole cc7_stg4_0 : Memref sig .tc .vmem S1024x1 .f32).view

/-- What the call is handed beside its windows: the accumulator at some contents, every other scoped buffer that
    is no staging buffer of this call (unopened), and the generator register at some state. -/
theorem PhiA7_eq (c : Dev nD) :
    (Pipeline.ΦA spec7 c : sProp 𝕄)
      = iprop(iprop(iprop((∃ d, owns (c : Thread nD τ) acc7 fullShare d))
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [acc7, owns_whole]; rfl

end Cert.Kernel.Gen

end
-- ==== Proof.K.Agg7RunA.lean ====
/- The aggregation body at a FIRST point (source tile j = 0, not the last): the accumulator, whatever it held, is
   zeroed, the contribution of this tile pair is added to it, and the output tile is not touched. -/
import proofs.«140952_j21595095564583_2_alg».proof.Proof.K.Agg7Runs

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun7_first (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) :
    { Lacc : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, fun y E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg7RunB.lean ====
/- The aggregation body at an INNER point (source tile 0 < j < 195): the contribution of this tile pair is added to
   what the accumulator held; the output tile is not touched. -/
import proofs.«140952_j21595095564583_2_alg».proof.Proof.K.Agg7RunA

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun7_inner (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) :
    { Lacc : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, fun y E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.Kernel.Gen

end
-- ==== Proof.K.Agg7RunC.lean ====
/- The aggregation body at a LAST point (source tile j = 195): the contribution is added to what the accumulator
   held, and the sum is copied to the output tile. -/
import proofs.«140952_j21595095564583_2_alg».proof.Proof.K.Agg7RunB

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) :
    Σ' (Lout : List (View.Piece (Elt F) S1024x1 .f32)), { Lacc : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, ?_, fun E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.Kernel.Gen

end
-- ==== Proof.K.Agg7.lean ====
/- The fourth graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.K.Agg7RunC

-- a 1024-row tile: structural recursion over the long axis needs the depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover7_first (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) (y : S1024x1.Idx) :
    ∃ pc ∈ (aggRun7_first c i arg2 harg2 arg3 harg3 arg4 harg4 arg5 harg5 arg6 harg6 arg7 harg7 hfirst hlast x0 x1 x2 x3).1, y ∈ pc.1.set :=
  View.cover_of_tiledL (aggRun7_first c i arg2 harg2 arg3 harg3 arg4 harg4 arg5 harg5 arg6 harg6 arg7 harg7 hfirst hlast x0 x1 x2 x3).1 S1024x1.size (by sl_kernel_rfl) y

/-- The accumulator after a first point: its stores read back. -/
def sout7_A_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) : Vec F S1024x1 .f32 :=
  accView7.read (Elt F) (accView7.writes (Elt F) accView7.junk (aggRun7_first c i arg2 harg2 arg3 harg3 arg4 harg4 arg5 harg5 arg6 harg6 arg7 harg7 hfirst hlast x0 x1 x2 x3).1)

/-- The one store of an inner point covers the accumulator. -/
theorem accCover7_inner (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_inner c i arg2 harg2 arg3 harg3 arg4 harg4 arg5 harg5 arg6 harg6 arg7 harg7 hfirst hlast x0 x1 x2 x3 xs).1, y ∈ pc.1.set :=
  View.cover_of_tiledL (aggRun7_inner c i arg2 harg2 arg3 harg3 arg4 harg4 arg5 harg5 arg6 harg6 arg7 harg7 hfirst hlast x0 x1 x2 x3 xs).1 S1024x1.size (by sl_kernel_rfl) y

/-- The accumulator after an inner point, over the contents `xs` the point before left. -/
def sout7_B_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  accView7.read (Elt F) (accView7.writes (Elt F) accView7.junk (aggRun7_inner c i arg2 harg2 arg3 harg3 arg4 harg4 arg5 harg5 arg6 harg6 arg7 harg7 hfirst hlast x0 x1 x2 x3 xs).1)

/-- At a last point the store into the accumulator covers it, -/
theorem accCover7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_last c i arg2 harg2 arg3 harg3 arg4 harg4 arg5 harg5 arg6 harg6 arg7 harg7 hfirst hlast x0 x1 x2 x3 xs).2.1, y ∈ pc.1.set :=
  View.cover_of_tiledL (aggRun7_last c i arg2 harg2 arg3 harg3 arg4 harg4 arg5 harg5 arg6 harg6 arg7 harg7 hfirst hlast x0 x1 x2 x3 xs).2.1 S1024x1.size (by sl_kernel_rfl) y

/-- and the store into the output tile covers that. -/
theorem outCover7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_last c i arg2 harg2 arg3 harg3 arg4 harg4 arg5 harg5 arg6 harg6 arg7 harg7 hfirst hlast x0 x1 x2 x3 xs).1, y ∈ pc.1.set :=
  View.cover_of_tiledL (aggRun7_last c i arg2 harg2 arg3 harg3 arg4 harg4 arg5 harg5 arg6 harg6 arg7 harg7 hfirst hlast x0 x1 x2 x3 xs).1 S1024x1.size (by sl_kernel_rfl) y

/-- The accumulator after a last point, -/
def sout7_C_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  accView7.read (Elt F) (accView7.writes (Elt F) accView7.junk (aggRun7_last c i arg2 harg2 arg3 harg3 arg4 harg4 arg5 harg5 arg6 harg6 arg7 harg7 hfirst hlast x0 x1 x2 x3 xs).2.1)

/-- and the output tile after it. -/
def out7_C_4 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  outView7.read (Elt F) (outView7.writes (Elt F) outView7.junk (aggRun7_last c i arg2 harg2 arg3 harg3 arg4 harg4 arg5 harg5 arg6 harg6 arg7 harg7 hfirst hlast x0 x1 x2 x3 xs).1)

/-! ## The same at a grid point: on the memrefs the pipeline passes there and the blocks the inputs stage -/

def accFirst7 (c : Dev nD) (t : Fin cfg7.N) (h0 : t.val % 196 = 0) : Vec F S1024x1 .f32 :=
  sout7_A_0 c (grid7.coords t) (ms7_0 t) (hs7_0 t) (ms7_1 t) (hs7_1 t) (ms7_2 t) (hs7_2 t) (ms7_3 t) (hs7_3 t) (ms7_4 t) (hs7_4 t) acc7 (Memref.isWhole_whole _)
    (isFirst7 t h0) (notLast7 t (by omega)) (iblk7 V c 0 t) (iblk7 V c 1 t) (iblk7 V c 2 t) (iblk7 V c 3 t)

def accInner7 (c : Dev nD) (t : Fin cfg7.N) (h0 : ¬t.val % 196 = 0) (h1 : ¬t.val % 196 = 195) (xs : Vec F S1024x1 .f32) : Vec F S1024x1 .f32 :=
  sout7_B_0 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t h0) (notLast7 t h1) (iblk7 V c 0 t) (iblk7 V c 1 t) (iblk7 V c 2 t) (iblk7 V c 3 t) xs

def accLast7 (c : Dev nD) (t : Fin cfg7.N) (h1 : t.val % 196 = 195) (xs : Vec F S1024x1 .f32) : Vec F S1024x1 .f32 :=
  sout7_C_0 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t (by omega)) (isLast7 t h1) (iblk7 V c 0 t) (iblk7 V c 1 t) (iblk7 V c 2 t) (iblk7 V c 3 t) xs

def outLast7 (c : Dev nD) (t : Fin cfg7.N) (h1 : t.val % 196 = 195) (xs : Vec F S1024x1 .f32) : Vec F S1024x1 .f32 :=
  out7_C_4 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t (by omega)) (isLast7 t h1) (iblk7 V c 0 t) (iblk7 V c 1 t) (iblk7 V c 2 t) (iblk7 V c 3 t) xs

/-- An output tile nothing was stored into. Off the last source tile the window is idle and is not written back, so
    these contents are never read. -/
def untouched7 : Vec F S1024x1 .f32 := outView7.read (Elt F) outView7.junk

/-! ## The accumulation, point by point -/

/-- What the output tile's staging buffer (first component) and the accumulator (second) hold after the body at
    position `n`: at a first point zero plus the contribution; otherwise what position `n - 1` left in the
    accumulator plus the contribution, which at a last point is also the output tile. -/
def outsAt7 (c : Dev nD) : (n : ℕ) → n < cfg7.N → Vec F S1024x1 .f32 × Vec F S1024x1 .f32
  | 0, hn => (untouched7, accFirst7 V c ⟨0, hn⟩ (Nat.zero_mod _))
  | n + 1, hn =>
    if h0 : (n + 1) % 196 = 0 then (untouched7, accFirst7 V c ⟨n + 1, hn⟩ h0)
    else if h1 : (n + 1) % 196 = 195 then
      (outLast7 V c ⟨n + 1, hn⟩ h1 (outsAt7 c n (Nat.lt_of_succ_lt hn)).2, accLast7 V c ⟨n + 1, hn⟩ h1 (outsAt7 c n (Nat.lt_of_succ_lt hn)).2)
    else (untouched7, accInner7 V c ⟨n + 1, hn⟩ h0 h1 (outsAt7 c n (Nat.lt_of_succ_lt hn)).2)

/-- At a first point. -/
theorem outsAt7_A (c : Dev nD) (t : Fin cfg7.N) (h0 : t.val % 196 = 0) :
    outsAt7 V c t.val t.isLt = (untouched7, accFirst7 V c t h0) := by
  obtain ⟨n, hn⟩ := t
  cases n with
  | zero => rfl
  | succ n => exact dif_pos h0

/-- At an inner point, over what the point before left. -/
theorem outsAt7_B (c : Dev nD) (t : Fin cfg7.N) (h0 : ¬t.val % 196 = 0) (h1 : ¬t.val % 196 = 195) :
    outsAt7 V c t.val t.isLt
      = (untouched7, accInner7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt7_C (c : Dev nD) (t : Fin cfg7.N) (h1 : t.val % 196 = 195) :
    outsAt7 V c t.val t.isLt
      = (outLast7 V c t h1 (outsAt7 V c (t.val - 1) (Nat.lt_of_le_of_lt (Nat.sub_le _ _) t.isLt)).2,
         accLast7 V c t h1 (outsAt7 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS7 (c : Dev nD) : (n : ℕ) → n ≤ cfg7.N → sProp 𝕄
  | 0, _ => Pipeline.ΦA spec7 c
  | n + 1, hn => iprop(iprop(owns (c : Thread nD τ) acc7 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_succ (c : Dev nD) (n : ℕ) (hn : n < cfg7.N) :
    PhiS7 V c (n + 1) hn = iprop(iprop(owns (c : Thread nD τ) acc7 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) acc7 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- At every position the invariant yields the accumulator at SOME contents (its named contents forgotten). -/
theorem PhiS7_forget (c : Dev nD) (n : ℕ) (h : n ≤ cfg7.N) :
    PhiS7 V c n h ⊢ iprop(iprop(iprop((∃ d, owns (c : Thread nD τ) acc7 fullShare d)) ∗ Pipeline.scopedRestBut (Ix := Unit) (Name := ℕ) (U := UR sig nD τ) (Lvl := ℕ) (Val := Elt F) spec7 c [cc7_scratch0]) ∗ (∃ r, prngReg c r)) := by
  cases n with
  | zero => rw [show PhiS7 V c 0 h = Pipeline.ΦA spec7 c from rfl, PhiA7_eq]
  | succ n =>
    rw [PhiS7_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt7`'s first component; the invariant `PhiS7`; full shares,
    nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]

/-- When the body runs, each input's current buffer holds its block. -/
theorem before7_0 (c : Dev nD) (t : Fin cfg7.N) (d) : (dat7 V c).before 0 t d = iblk7 V c 0 t := before7_0_of V (dat7 V c) (A_eq7 V c 0) t d
theorem before7_1 (c : Dev nD) (t : Fin cfg7.N) (d) : (dat7 V c).before 1 t d = iblk7 V c 1 t := before7_1_of V (dat7 V c) (A_eq7 V c 1) t d
theorem before7_2 (c : Dev nD) (t : Fin cfg7.N) (d) : (dat7 V c).before 2 t d = iblk7 V c 2 t := before7_2_of V (dat7 V c) (A_eq7 V c 2) t d
theorem before7_3 (c : Dev nD) (t : Fin cfg7.N) (d) : (dat7 V c).before 3 t d = iblk7 V c 3 t := before7_3_of V (dat7 V c) (A_eq7 V c 3) t d

/-- And the body, which only reads them, leaves each there (the inputs are live at every point). -/
theorem leaves7_0 (c : Dev nD) (t : Fin cfg7.N) : (dat7 V c).leavesExact 0 t = owns (c : Thread nD τ) (ms7_0 t) fullShare (iblk7 V c 0 t) := by
  rw [← after7_0]
theorem leaves7_1 (c : Dev nD) (t : Fin cfg7.N) : (dat7 V c).leavesExact 1 t = owns (c : Thread nD τ) (ms7_1 t) fullShare (iblk7 V c 1 t) := by
  rw [← after7_1]
theorem leaves7_2 (c : Dev nD) (t : Fin cfg7.N) : (dat7 V c).leavesExact 2 t = owns (c : Thread nD τ) (ms7_2 t) fullShare (iblk7 V c 2 t) := by
  rw [← after7_2]
theorem leaves7_3 (c : Dev nD) (t : Fin cfg7.N) : (dat7 V c).leavesExact 3 t = owns (c : Thread nD τ) (ms7_3 t) fullShare (iblk7 V c 3 t) := by
  rw [← after7_3]

/-! ## The body's obligation -/

/-- What the body is called with at point `t`: the invariant, the core's debts, each window's current buffer, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t
    ∗ (dat7 V c).leavesExact 3 t ∗ (dat7 V c).leavesExact 4 t)

set_option maxHeartbeats 1600000 in
/-- At a first point: whatever the accumulator held is forgotten; the run zeroes it and adds the contribution; the
    output tile, idle there, goes back as it came. -/
theorem body_first7 (c : Dev nD) (t : Fin cfg7.N) (h0 : t.val % 196 = 0) :
    bodyPre7 V c t ⊢ wp frame (wpE (defs₀ (F := F)) Variants.none c none) Set.univ (bodyAt7 t) (fun _ => bodyPost7 V c t) := by
  have hl : ¬lastSrc7 (grid7.coords t) := notLast7 t (by omega)
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [Dat.leavesExact_idle (dat7 V c) 4 t (outIdle7 _ hl) (outKept7 t hl)]
  rw [outsAt7_A V c t h0]; unfold accFirst7 sout7_A_0; (try dsimp only)
  rw [PhiS7_castSucc V c t]
  iintro ⟨HΦ, Ho, ⟨%d0, H0⟩, ⟨%d1, H1⟩, ⟨%d2, H2⟩, ⟨%d3, H3⟩, ⟨%d4, H4⟩⟩
  icases (PhiS7_forget V c t.val (Nat.le_of_lt t.isLt)) $$ HΦ with ⟨⟨HA, HR⟩, Hg⟩
  iapply ((aggRun7_first c (grid7.coords t) _ _ _ _ _ _ _ _ _ _ _ _ (isFirst7 t h0) hl (iblk7 V c 0 t) (iblk7 V c 1 t) (iblk7 V c 2 t) (iblk7 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover7_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner7 (c : Dev nD) (t : Fin cfg7.N) (h0 : ¬t.val % 196 = 0) (h1 : ¬t.val % 196 = 195) :
    bodyPre7 V c t ⊢ wp frame (wpE (defs₀ (F := F)) Variants.none c none) Set.univ (bodyAt7 t) (fun _ => bodyPost7 V c t) := by
  have hl : ¬lastSrc7 (grid7.coords t) := notLast7 t h1
  have hz : t.val ≠ 0 := fun h => h0 (by rw [h])
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [Dat.leavesExact_idle (dat7 V c) 4 t (outIdle7 _ hl) (outKept7 t hl)]
  rw [outsAt7_B V c t h0 h1]; unfold accInner7 sout7_B_0; (try dsimp only)
  rw [PhiS7_castSucc V c t, PhiS7_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun7_inner c (grid7.coords t) _ _ _ _ _ _ _ _ _ _ _ _ (notFirst7 t h0) hl (iblk7 V c 0 t) (iblk7 V c 1 t) (iblk7 V c 2 t) (iblk7 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover7_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last7 (c : Dev nD) (t : Fin cfg7.N) (h1 : t.val % 196 = 195) :
    bodyPre7 V c t ⊢ wp frame (wpE (defs₀ (F := F)) Variants.none c none) Set.univ (bodyAt7 t) (fun _ => bodyPost7 V c t) := by
  have hf : ¬firstSrc7 (grid7.coords t) := notFirst7 t (by omega)
  have hl : lastSrc7 (grid7.coords t) := isLast7 t h1
  have hz : t.val ≠ 0 := fun h => by rw [h] at h1; exact absurd h1 (by decide)
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [show (dat7 V c).leavesExact 4 t = owns (c : Thread nD τ) (ms7_4 t) fullShare ((dat7 V c).after 4 t) from by
    unfold Dat.leavesExact; rw [outLive7 _ hl], after7_4]
  rw [outsAt7_C V c t h1]; unfold accLast7 outLast7 sout7_C_0 out7_C_4; (try dsimp only)
  rw [PhiS7_castSucc V c t, PhiS7_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun7_last c (grid7.coords t) _ _ _ _ _ _ _ _ _ _ _ _ hf hl (iblk7 V c 0 t) (iblk7 V c 1 t) (iblk7 V c 2 t) (iblk7 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover7_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover7_last c _ _ _ _ _ _ _ _ _ _ _ _ _ _ _ _ _ _ _ _)

/-- The body at any point: by the kind of point. -/
theorem sound_body7 (c : Dev nD) (t : Fin cfg7.N) : bodyPre7 V c t ⊢ wp frame (wpE (defs₀ (F := F)) Variants.none c none) Set.univ (bodyAt7 t) (fun _ => bodyPost7 V c t) := by
  by_cases h0 : t.val % 196 = 0
  · exact body_first7 V c t h0
  · by_cases h1 : t.val % 196 = 195
    · exact body_last7 V c t h1
    · exact body_inner7 V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the call is the invariant before the first point. -/
theorem hin7 (c : Dev nD) : Pipeline.ΦA spec7 c ⊢ (dat7 V c).Φ 0 := by
  rw [show (dat7 V c).Φ 0 = PhiS7 V c 0 (Nat.zero_le _) from rfl]
  exact Idealize.SL.BI.Entails.refl _

/-- After the last point the invariant gives it back: the accumulator's contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl, PhiA7_eq]
  exact PhiS7_forget V c _ _

end Cert.Kernel.Gen

end
-- ==== Proof.K.Frame.lean ====
import proofs.«140952_j21595095564583_2_alg».proof.Proof.Gen.Kernel.Regions
import proofs.«140952_j21595095564583_2_alg».proof.Proof.K.Dense0
import proofs.«140952_j21595095564583_2_alg».proof.Proof.K.Agg1
import proofs.«140952_j21595095564583_2_alg».proof.Proof.K.Dense2
import proofs.«140952_j21595095564583_2_alg».proof.Proof.K.Agg3
import proofs.«140952_j21595095564583_2_alg».proof.Proof.K.Dense4
import proofs.«140952_j21595095564583_2_alg».proof.Proof.K.Agg5
import proofs.«140952_j21595095564583_2_alg».proof.Proof.K.Dense6
import proofs.«140952_j21595095564583_2_alg».proof.Proof.K.Agg7
import Idealize.ShloMosaic.Lib.Pipeline.RegionsLoop
import Idealize.ShloMosaic.Lib.Pipeline.Regions
import Idealize.ShloMosaic.Lib.Pipeline.Frame
import Idealize.ShloMosaic.Lib.Pipeline.Kit

/-! # The run of the four-layer graph convolution: what the eight kernel regions leave, and the frame

Each layer is a dense product (regions 0, 2, 4, 6) followed by an aggregation over the edges (regions 1, 3, 5, 7);
between two layers the host adds the self term and the bias and applies the rectifier, and after the last it slices
and takes the log-softmax. A region's output array after all its write-backs is the fold `Dat.arrAt · N` of its proof
data at the contents the region is entered from; those contents contain the earlier regions' outputs, so the outputs
are defined in a chain, each from the ones before it. The chain is then shown to be the generated valuations
`V17 … V30` at these outputs, every region is given as a segment record between two of those valuations, and the
conditional frame is applied. -/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' outputs, in a chain -/

/-- A family of valuations read at the TensorCore's references: the form a region's proof data take their entry
    contents in. -/
abbrev atTc (W : Dev nD → Valuation τ sig (Elt F)) : (c : Dev nD) → (b : Ref sig .tc) → Buf (Elt F) ((c : Thread nD τ).loc b) :=
  fun c b => W c b

/-- Layer 1's product `x · W₁`, as region 0 leaves it: entered from the contents after the host prefix. -/
def lin0 (c : Dev nD) : Buf (Elt F) ((c : Thread nD τ).loc main_v99) :=
  (dat0 (atTc (V16 m)) c).arrAt 2 cfg0.N
/-- The contents region 1 is entered from: region 0's entry contents with the product in place. -/
def S17 (c : Dev nD) : Valuation τ sig (Elt F) := Function.update (V16 m c) main_v99 (lin0 m c)
/-- Layer 1's aggregate over the edges, as region 1 leaves it. -/
def agg1 (c : Dev nD) : Buf (Elt F) ((c : Thread nD τ).loc main_v100) :=
  (dat1 (atTc (S17 m)) c).arrAt 4 cfg1.N
def S18 (c : Dev nD) : Valuation τ sig (Elt F) := Function.update (S17 m c) main_v100 (agg1 m c)
/-- After the host's self term, bias and rectifier: layer 2's input. -/
def S19 (c : Dev nD) : Valuation τ sig (Elt F) := StableHlo.after hostOps2 (S18 m c)
def S20 (c : Dev nD) : Valuation τ sig (Elt F) := StableHlo.after hostOps2_1 (S19 m c)
/-- Layer 2's product, as region 2 leaves it. -/
def lin2 (c : Dev nD) : Buf (Elt F) ((c : Thread nD τ).loc main_v108) :=
  (dat2 (atTc (S20 m)) c).arrAt 2 cfg2.N
def S21 (c : Dev nD) : Valuation τ sig (Elt F) := Function.update (S20 m c) main_v108 (lin2 m c)
/-- Layer 2's aggregate, as region 3 leaves it. -/
def agg3 (c : Dev nD) : Buf (Elt F) ((c : Thread nD τ).loc main_v109) :=
  (dat3 (atTc (S21 m)) c).arrAt 4 cfg3.N
def S22 (c : Dev nD) : Valuation τ sig (Elt F) := Function.update (S21 m c) main_v109 (agg3 m c)
def S23 (c : Dev nD) : Valuation τ sig (Elt F) := StableHlo.after hostOps4 (S22 m c)
def S24 (c : Dev nD) : Valuation τ sig (Elt F) := StableHlo.after hostOps4_1 (S23 m c)
/-- Layer 3's product, as region 4 leaves it. -/
def lin4 (c : Dev nD) : Buf (Elt F) ((c : Thread nD τ).loc main_v117) :=
  (dat4 (atTc (S24 m)) c).arrAt 2 cfg4.N
def S25 (c : Dev nD) : Valuation τ sig (Elt F) := Function.update (S24 m c) main_v117 (lin4 m c)
/-- Layer 3's aggregate, as region 5 leaves it. -/
def agg5 (c : Dev nD) : Buf (Elt F) ((c : Thread nD τ).loc main_v118) :=
  (dat5 (atTc (S25 m)) c).arrAt 4 cfg5.N
def S26 (c : Dev nD) : Valuation τ sig (Elt F) := Function.update (S25 m c) main_v118 (agg5 m c)
def S27 (c : Dev nD) : Valuation τ sig (Elt F) := StableHlo.after hostOps6 (S26 m c)
def S28 (c : Dev nD) : Valuation τ sig (Elt F) := StableHlo.after hostOps6_1 (S27 m c)
/-- Layer 4's product (one column), as region 6 leaves it. -/
def lin6 (c : Dev nD) : Buf (Elt F) ((c : Thread nD τ).loc main_v126) :=
  (dat6 (atTc (S28 m)) c).arrAt 2 cfg6.N
def S29 (c : Dev nD) : Valuation τ sig (Elt F) := Function.update (S28 m c) main_v126 (lin6 m c)
/-- Layer 4's aggregate, as region 7 leaves it. -/
def agg7 (c : Dev nD) : Buf (Elt F) ((c : Thread nD τ).loc main_v127) :=
  (dat7 (atTc (S29 m)) c).arrAt 4 cfg7.N

/-- What the regions leave, at the reference each writes (each of the eight is written by exactly one region, so the
    item number is not read); elsewhere the launch contents, which nothing reads. -/
def outs : Outs (F := F) := fun _ r c =>
  if h : r = main_v99 then h ▸ lin0 m c
  else if h : r = main_v100 then h ▸ agg1 m c
  else if h : r = main_v108 then h ▸ lin2 m c
  else if h : r = main_v109 then h ▸ agg3 m c
  else if h : r = main_v117 then h ▸ lin4 m c
  else if h : r = main_v118 then h ▸ agg5 m c
  else if h : r = main_v126 then h ▸ lin6 m c
  else if h : r = main_v127 then h ▸ agg7 m c
  else m ((c : Thread nD τ).loc r)

theorem outs_v99 (J : ℕ) (c : Dev nD) : outs m J main_v99 c = lin0 m c := by
  unfold outs; rw [dif_pos rfl]
theorem outs_v100 (J : ℕ) (c : Dev nD) : outs m J main_v100 c = agg1 m c := by
  unfold outs
  rw [dif_neg (by decide : ¬ (main_v100 : Ref sig .tc) = main_v99), dif_pos rfl]
theorem outs_v108 (J : ℕ) (c : Dev nD) : outs m J main_v108 c = lin2 m c := by
  unfold outs
  rw [dif_neg (by decide : ¬ (main_v108 : Ref sig .tc) = main_v99), dif_neg (by decide : ¬ (main_v108 : Ref sig .tc) = main_v100),
    dif_pos rfl]
theorem outs_v109 (J : ℕ) (c : Dev nD) : outs m J main_v109 c = agg3 m c := by
  unfold outs
  rw [dif_neg (by decide : ¬ (main_v109 : Ref sig .tc) = main_v99), dif_neg (by decide : ¬ (main_v109 : Ref sig .tc) = main_v100),
    dif_neg (by decide : ¬ (main_v109 : Ref sig .tc) = main_v108), dif_pos rfl]
theorem outs_v117 (J : ℕ) (c : Dev nD) : outs m J main_v117 c = lin4 m c := by
  unfold outs
  rw [dif_neg (by decide : ¬ (main_v117 : Ref sig .tc) = main_v99), dif_neg (by decide : ¬ (main_v117 : Ref sig .tc) = main_v100),
    dif_neg (by decide : ¬ (main_v117 : Ref sig .tc) = main_v108), dif_neg (by decide : ¬ (main_v117 : Ref sig .tc) = main_v109),
    dif_pos rfl]
theorem outs_v118 (J : ℕ) (c : Dev nD) : outs m J main_v118 c = agg5 m c := by
  unfold outs
  rw [dif_neg (by decide : ¬ (main_v118 : Ref sig .tc) = main_v99), dif_neg (by decide : ¬ (main_v118 : Ref sig .tc) = main_v100),
    dif_neg (by decide : ¬ (main_v118 : Ref sig .tc) = main_v108), dif_neg (by decide : ¬ (main_v118 : Ref sig .tc) = main_v109),
    dif_neg (by decide : ¬ (main_v118 : Ref sig .tc) = main_v117), dif_pos rfl]
theorem outs_v126 (J : ℕ) (c : Dev nD) : outs m J main_v126 c = lin6 m c := by
  unfold outs
  rw [dif_neg (by decide : ¬ (main_v126 : Ref sig .tc) = main_v99), dif_neg (by decide : ¬ (main_v126 : Ref sig .tc) = main_v100),
    dif_neg (by decide : ¬ (main_v126 : Ref sig .tc) = main_v108), dif_neg (by decide : ¬ (main_v126 : Ref sig .tc) = main_v109),
    dif_neg (by decide : ¬ (main_v126 : Ref sig .tc) = main_v117), dif_neg (by decide : ¬ (main_v126 : Ref sig .tc) = main_v118),
    dif_pos rfl]
theorem outs_v127 (J : ℕ) (c : Dev nD) : outs m J main_v127 c = agg7 m c := by
  unfold outs
  rw [dif_neg (by decide : ¬ (main_v127 : Ref sig .tc) = main_v99), dif_neg (by decide : ¬ (main_v127 : Ref sig .tc) = main_v100),
    dif_neg (by decide : ¬ (main_v127 : Ref sig .tc) = main_v108), dif_neg (by decide : ¬ (main_v127 : Ref sig .tc) = main_v109),
    dif_neg (by decide : ¬ (main_v127 : Ref sig .tc) = main_v117), dif_neg (by decide : ¬ (main_v127 : Ref sig .tc) = main_v118),
    dif_neg (by decide : ¬ (main_v127 : Ref sig .tc) = main_v126), dif_pos rfl]

/-! ## The chain is the generated valuations at these outputs -/

theorem V17_eq (c : Dev nD) : V17 m (outs m) c = S17 m c := by
  show Function.update (V16 m c) main_v99 (outs m 17 main_v99 c) = Function.update (V16 m c) main_v99 (lin0 m c)
  rw [outs_v99]
theorem V18_eq (c : Dev nD) : V18 m (outs m) c = S18 m c := by
  show Function.update (V17 m (outs m) c) main_v100 (outs m 18 main_v100 c) = Function.update (S17 m c) main_v100 (agg1 m c)
  rw [V17_eq, outs_v100]
theorem V19_eq (c : Dev nD) : V19 m (outs m) c = S19 m c := congrArg (StableHlo.after hostOps2) (V18_eq m c)
theorem V20_eq (c : Dev nD) : V20 m (outs m) c = S20 m c := congrArg (StableHlo.after hostOps2_1) (V19_eq m c)
theorem V21_eq (c : Dev nD) : V21 m (outs m) c = S21 m c := by
  show Function.update (V20 m (outs m) c) main_v108 (outs m 21 main_v108 c) = Function.update (S20 m c) main_v108 (lin2 m c)
  rw [V20_eq, outs_v108]
theorem V22_eq (c : Dev nD) : V22 m (outs m) c = S22 m c := by
  show Function.update (V21 m (outs m) c) main_v109 (outs m 22 main_v109 c) = Function.update (S21 m c) main_v109 (agg3 m c)
  rw [V21_eq, outs_v109]
theorem V23_eq (c : Dev nD) : V23 m (outs m) c = S23 m c := congrArg (StableHlo.after hostOps4) (V22_eq m c)
theorem V24_eq (c : Dev nD) : V24 m (outs m) c = S24 m c := congrArg (StableHlo.after hostOps4_1) (V23_eq m c)
theorem V25_eq (c : Dev nD) : V25 m (outs m) c = S25 m c := by
  show Function.update (V24 m (outs m) c) main_v117 (outs m 25 main_v117 c) = Function.update (S24 m c) main_v117 (lin4 m c)
  rw [V24_eq, outs_v117]
theorem V26_eq (c : Dev nD) : V26 m (outs m) c = S26 m c := by
  show Function.update (V25 m (outs m) c) main_v118 (outs m 26 main_v118 c) = Function.update (S25 m c) main_v118 (agg5 m c)
  rw [V25_eq, outs_v118]
theorem V27_eq (c : Dev nD) : V27 m (outs m) c = S27 m c := congrArg (StableHlo.after hostOps6) (V26_eq m c)
theorem V28_eq (c : Dev nD) : V28 m (outs m) c = S28 m c := congrArg (StableHlo.after hostOps6_1) (V27_eq m c)
theorem V29_eq (c : Dev nD) : V29 m (outs m) c = S29 m c := by
  show Function.update (V28 m (outs m) c) main_v126 (outs m 29 main_v126 c) = Function.update (S28 m c) main_v126 (lin6 m c)
  rw [V28_eq, outs_v126]

/-- The same, as the families the proof data are stated at. -/
theorem atTc17 : atTc (V17 m (outs m)) = atTc (S17 m) := by funext c b; show V17 m (outs m) c b = S17 m c b; rw [V17_eq]
theorem atTc20 : atTc (V20 m (outs m)) = atTc (S20 m) := by funext c b; show V20 m (outs m) c b = S20 m c b; rw [V20_eq]
theorem atTc21 : atTc (V21 m (outs m)) = atTc (S21 m) := by funext c b; show V21 m (outs m) c b = S21 m c b; rw [V21_eq]
theorem atTc24 : atTc (V24 m (outs m)) = atTc (S24 m) := by funext c b; show V24 m (outs m) c b = S24 m c b; rw [V24_eq]
theorem atTc25 : atTc (V25 m (outs m)) = atTc (S25 m) := by funext c b; show V25 m (outs m) c b = S25 m c b; rw [V25_eq]
theorem atTc28 : atTc (V28 m (outs m)) = atTc (S28 m) := by funext c b; show V28 m (outs m) c b = S28 m c b; rw [V28_eq]
theorem atTc29 : atTc (V29 m (outs m)) = atTc (S29 m) := by funext c b; show V29 m (outs m) c b = S29 m c b; rw [V29_eq]

/-! ## The proof data family and the rest state -/

/-- Every pipeline's proof data, each at the contents its region is entered from. -/
def pdats : (p : Fin 8) → (c : Dev nD) → Dat τ (Elt F) Unit ℕ (UR sig nD τ) ℕ (cfgs p) c
  | ⟨0, _⟩ => fun c => dat0 (atTc (V16 m)) c
  | ⟨1, _⟩ => fun c => dat1 (atTc (V17 m (outs m))) c
  | ⟨2, _⟩ => fun c => dat2 (atTc (V20 m (outs m))) c
  | ⟨3, _⟩ => fun c => dat3 (atTc (V21 m (outs m))) c
  | ⟨4, _⟩ => fun c => dat4 (atTc (V24 m (outs m))) c
  | ⟨5, _⟩ => fun c => dat5 (atTc (V25 m (outs m))) c
  | ⟨6, _⟩ => fun c => dat6 (atTc (V28 m (outs m))) c
  | ⟨7, _⟩ => fun c => dat7 (atTc (V29 m (outs m))) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- The same rest at every one of the nine boundaries between regions. -/
abbrev E : Fin 9 → Dev nD → sProp 𝕄 := fun _ c => R c

/-! ## What each region's arrays hold when it is left -/

/-- Region 0: the output array holds the product, the two inputs what they held. -/
theorem hF0 (c : Dev nD) (w : Fin cfg0.W) :
    (pdats m 0 c).arrAt w cfg0.N = atTc (V17 m (outs m)) c (Pipeline.arrRef spec0 w) :=
  match w with
  | ⟨0, _⟩ => ((dat0 (atTc (V16 m)) c).arrAt_in 0 rfl _).trans ((A_eq0 (atTc (V16 m)) c 0).trans (V17_of m (outs m) c main_v98 (by decide)).symm)
  | ⟨1, _⟩ => ((dat0 (atTc (V16 m)) c).arrAt_in 1 rfl _).trans ((A_eq0 (atTc (V16 m)) c 1).trans (V17_of m (outs m) c main_arg2 (by decide)).symm)
  | ⟨2, _⟩ => by
      show (dat0 (atTc (V16 m)) c).arrAt 2 cfg0.N = Function.update (V16 m c) main_v99 (outs m 17 main_v99 c) main_v99
      rw [Function.update_self, outs_v99, lin0]
theorem hrest0 (c : Dev nD) : ∀ b, b ∉ Finset.univ.image (Pipeline.arrRef spec0) → atTc (V17 m (outs m)) c b = atTc (V16 m) c b :=
  fun b hb => V17_of m (outs m) c b fun hm => hb (Finset.mem_image.mpr ⟨2, Finset.mem_univ _, (List.mem_singleton.mp hm).symm⟩)

/-- Region 1, window by window: an input array holds at the exit what it held at entry (it is never written), which the
    next valuation leaves unchanged; the output array holds the aggregate. -/
theorem hF1_0 (c : Dev nD) : (dat1 (atTc (V17 m (outs m))) c).arrAt 0 cfg1.N = V18 m (outs m) c main_v99 :=
  ((dat1 (atTc (V17 m (outs m))) c).arrAt_in 0 rfl cfg1.N).trans
    ((A_eq1 (atTc (V17 m (outs m))) c 0).trans (V18_of m (outs m) c main_v99 (by decide)).symm)
theorem hF1_1 (c : Dev nD) : (dat1 (atTc (V17 m (outs m))) c).arrAt 1 cfg1.N = V18 m (outs m) c main_v93 :=
  ((dat1 (atTc (V17 m (outs m))) c).arrAt_in 1 rfl cfg1.N).trans
    ((A_eq1 (atTc (V17 m (outs m))) c 1).trans (V18_of m (outs m) c main_v93 (by decide)).symm)
theorem hF1_2 (c : Dev nD) : (dat1 (atTc (V17 m (outs m))) c).arrAt 2 cfg1.N = V18 m (outs m) c main_v94 :=
  ((dat1 (atTc (V17 m (outs m))) c).arrAt_in 2 rfl cfg1.N).trans
    ((A_eq1 (atTc (V17 m (outs m))) c 2).trans (V18_of m (outs m) c main_v94 (by decide)).symm)
theorem hF1_3 (c : Dev nD) : (dat1 (atTc (V17 m (outs m))) c).arrAt 3 cfg1.N = V18 m (outs m) c main_v95 :=
  ((dat1 (atTc (V17 m (outs m))) c).arrAt_in 3 rfl cfg1.N).trans
    ((A_eq1 (atTc (V17 m (outs m))) c 3).trans (V18_of m (outs m) c main_v95 (by decide)).symm)
theorem hF1_4 (c : Dev nD) : (dat1 (atTc (V17 m (outs m))) c).arrAt 4 cfg1.N = V18 m (outs m) c main_v100 := by
  show (dat1 (atTc (V17 m (outs m))) c).arrAt 4 cfg1.N = Function.update (V17 m (outs m) c) main_v100 (outs m 18 main_v100 c) main_v100
  rw [Function.update_self, outs_v100, agg1, atTc17]
theorem hF1 (c : Dev nD) (w : Fin cfg1.W) :
    (pdats m 1 c).arrAt w cfg1.N = atTc (V18 m (outs m)) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
theorem hrest1 (c : Dev nD) : ∀ b, b ∉ Finset.univ.image (Pipeline.arrRef spec1) → atTc (V18 m (outs m)) c b = atTc (V17 m (outs m)) c b :=
  fun b hb => V18_of m (outs m) c b fun hm => hb (Finset.mem_image.mpr ⟨4, Finset.mem_univ _, (List.mem_singleton.mp hm).symm⟩)

/-- Region 2: the output array holds layer 2's product, the two inputs what they held. -/
theorem hF2 (c : Dev nD) (w : Fin cfg2.W) :
    (pdats m 2 c).arrAt w cfg2.N = atTc (V21 m (outs m)) c (Pipeline.arrRef spec2 w) :=
  match w with
  | ⟨0, _⟩ => ((dat2 (atTc (V20 m (outs m))) c).arrAt_in 0 rfl _).trans ((A_eq2 (atTc (V20 m (outs m))) c 0).trans (V21_of m (outs m) c main_v107 (by decide)).symm)
  | ⟨1, _⟩ => ((dat2 (atTc (V20 m (outs m))) c).arrAt_in 1 rfl _).trans ((A_eq2 (atTc (V20 m (outs m))) c 1).trans (V21_of m (outs m) c main_arg4 (by decide)).symm)
  | ⟨2, _⟩ => by
      show (dat2 (atTc (V20 m (outs m))) c).arrAt 2 cfg2.N = Function.update (V20 m (outs m) c) main_v108 (outs m 21 main_v108 c) main_v108
      rw [Function.update_self, outs_v108, lin2, atTc20]
theorem hrest2 (c : Dev nD) : ∀ b, b ∉ Finset.univ.image (Pipeline.arrRef spec2) → atTc (V21 m (outs m)) c b = atTc (V20 m (outs m)) c b :=
  fun b hb => V21_of m (outs m) c b fun hm => hb (Finset.mem_image.mpr ⟨2, Finset.mem_univ _, (List.mem_singleton.mp hm).symm⟩)

/-- Region 3, window by window: the inputs as entered, the output at layer 2's aggregate. -/
theorem hF3_0 (c : Dev nD) : (dat3 (atTc (V21 m (outs m))) c).arrAt 0 cfg3.N = V22 m (outs m) c main_v108 :=
  ((dat3 (atTc (V21 m (outs m))) c).arrAt_in 0 rfl cfg3.N).trans
    ((A_eq3 (atTc (V21 m (outs m))) c 0).trans (V22_of m (outs m) c main_v108 (by decide)).symm)
theorem hF3_1 (c : Dev nD) : (dat3 (atTc (V21 m (outs m))) c).arrAt 1 cfg3.N = V22 m (outs m) c main_v93 :=
  ((dat3 (atTc (V21 m (outs m))) c).arrAt_in 1 rfl cfg3.N).trans
    ((A_eq3 (atTc (V21 m (outs m))) c 1).trans (V22_of m (outs m) c main_v93 (by decide)).symm)
theorem hF3_2 (c : Dev nD) : (dat3 (atTc (V21 m (outs m))) c).arrAt 2 cfg3.N = V22 m (outs m) c main_v94 :=
  ((dat3 (atTc (V21 m (outs m))) c).arrAt_in 2 rfl cfg3.N).trans
    ((A_eq3 (atTc (V21 m (outs m))) c 2).trans (V22_of m (outs m) c main_v94 (by decide)).symm)
theorem hF3_3 (c : Dev nD) : (dat3 (atTc (V21 m (outs m))) c).arrAt 3 cfg3.N = V22 m (outs m) c main_v95 :=
  ((dat3 (atTc (V21 m (outs m))) c).arrAt_in 3 rfl cfg3.N).trans
    ((A_eq3 (atTc (V21 m (outs m))) c 3).trans (V22_of m (outs m) c main_v95 (by decide)).symm)
theorem hF3_4 (c : Dev nD) : (dat3 (atTc (V21 m (outs m))) c).arrAt 4 cfg3.N = V22 m (outs m) c main_v109 := by
  show (dat3 (atTc (V21 m (outs m))) c).arrAt 4 cfg3.N = Function.update (V21 m (outs m) c) main_v109 (outs m 22 main_v109 c) main_v109
  rw [Function.update_self, outs_v109, agg3, atTc21]
theorem hF3 (c : Dev nD) (w : Fin cfg3.W) :
    (pdats m 3 c).arrAt w cfg3.N = atTc (V22 m (outs m)) c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
theorem hrest3 (c : Dev nD) : ∀ b, b ∉ Finset.univ.image (Pipeline.arrRef spec3) → atTc (V22 m (outs m)) c b = atTc (V21 m (outs m)) c b :=
  fun b hb => V22_of m (outs m) c b fun hm => hb (Finset.mem_image.mpr ⟨4, Finset.mem_univ _, (List.mem_singleton.mp hm).symm⟩)

/-- Region 4: the output array holds layer 3's product, the two inputs what they held. -/
theorem hF4 (c : Dev nD) (w : Fin cfg4.W) :
    (pdats m 4 c).arrAt w cfg4.N = atTc (V25 m (outs m)) c (Pipeline.arrRef spec4 w) :=
  match w with
  | ⟨0, _⟩ => ((dat4 (atTc (V24 m (outs m))) c).arrAt_in 0 rfl _).trans ((A_eq4 (atTc (V24 m (outs m))) c 0).trans (V25_of m (outs m) c main_v116 (by decide)).symm)
  | ⟨1, _⟩ => ((dat4 (atTc (V24 m (outs m))) c).arrAt_in 1 rfl _).trans ((A_eq4 (atTc (V24 m (outs m))) c 1).trans (V25_of m (outs m) c main_arg6 (by decide)).symm)
  | ⟨2, _⟩ => by
      show (dat4 (atTc (V24 m (outs m))) c).arrAt 2 cfg4.N = Function.update (V24 m (outs m) c) main_v117 (outs m 25 main_v117 c) main_v117
      rw [Function.update_self, outs_v117, lin4, atTc24]
theorem hrest4 (c : Dev nD) : ∀ b, b ∉ Finset.univ.image (Pipeline.arrRef spec4) → atTc (V25 m (outs m)) c b = atTc (V24 m (outs m)) c b :=
  fun b hb => V25_of m (outs m) c b fun hm => hb (Finset.mem_image.mpr ⟨2, Finset.mem_univ _, (List.mem_singleton.mp hm).symm⟩)

/-- Region 5, window by window: the inputs as entered, the output at layer 3's aggregate. -/
theorem hF5_0 (c : Dev nD) : (dat5 (atTc (V25 m (outs m))) c).arrAt 0 cfg5.N = V26 m (outs m) c main_v117 :=
  ((dat5 (atTc (V25 m (outs m))) c).arrAt_in 0 rfl cfg5.N).trans
    ((A_eq5 (atTc (V25 m (outs m))) c 0).trans (V26_of m (outs m) c main_v117 (by decide)).symm)
theorem hF5_1 (c : Dev nD) : (dat5 (atTc (V25 m (outs m))) c).arrAt 1 cfg5.N = V26 m (outs m) c main_v93 :=
  ((dat5 (atTc (V25 m (outs m))) c).arrAt_in 1 rfl cfg5.N).trans
    ((A_eq5 (atTc (V25 m (outs m))) c 1).trans (V26_of m (outs m) c main_v93 (by decide)).symm)
theorem hF5_2 (c : Dev nD) : (dat5 (atTc (V25 m (outs m))) c).arrAt 2 cfg5.N = V26 m (outs m) c main_v94 :=
  ((dat5 (atTc (V25 m (outs m))) c).arrAt_in 2 rfl cfg5.N).trans
    ((A_eq5 (atTc (V25 m (outs m))) c 2).trans (V26_of m (outs m) c main_v94 (by decide)).symm)
theorem hF5_3 (c : Dev nD) : (dat5 (atTc (V25 m (outs m))) c).arrAt 3 cfg5.N = V26 m (outs m) c main_v95 :=
  ((dat5 (atTc (V25 m (outs m))) c).arrAt_in 3 rfl cfg5.N).trans
    ((A_eq5 (atTc (V25 m (outs m))) c 3).trans (V26_of m (outs m) c main_v95 (by decide)).symm)
theorem hF5_4 (c : Dev nD) : (dat5 (atTc (V25 m (outs m))) c).arrAt 4 cfg5.N = V26 m (outs m) c main_v118 := by
  show (dat5 (atTc (V25 m (outs m))) c).arrAt 4 cfg5.N = Function.update (V25 m (outs m) c) main_v118 (outs m 26 main_v118 c) main_v118
  rw [Function.update_self, outs_v118, agg5, atTc25]
theorem hF5 (c : Dev nD) (w : Fin cfg5.W) :
    (pdats m 5 c).arrAt w cfg5.N = atTc (V26 m (outs m)) c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
theorem hrest5 (c : Dev nD) : ∀ b, b ∉ Finset.univ.image (Pipeline.arrRef spec5) → atTc (V26 m (outs m)) c b = atTc (V25 m (outs m)) c b :=
  fun b hb => V26_of m (outs m) c b fun hm => hb (Finset.mem_image.mpr ⟨4, Finset.mem_univ _, (List.mem_singleton.mp hm).symm⟩)

/-- Region 6: the output array holds layer 4's product, the two inputs what they held. -/
theorem hF6 (c : Dev nD) (w : Fin cfg6.W) :
    (pdats m 6 c).arrAt w cfg6.N = atTc (V29 m (outs m)) c (Pipeline.arrRef spec6 w) :=
  match w with
  | ⟨0, _⟩ => ((dat6 (atTc (V28 m (outs m))) c).arrAt_in 0 rfl _).trans ((A_eq6 (atTc (V28 m (outs m))) c 0).trans (V29_of m (outs m) c main_v125 (by decide)).symm)
  | ⟨1, _⟩ => ((dat6 (atTc (V28 m (outs m))) c).arrAt_in 1 rfl _).trans ((A_eq6 (atTc (V28 m (outs m))) c 1).trans (V29_of m (outs m) c main_arg8 (by decide)).symm)
  | ⟨2, _⟩ => by
      show (dat6 (atTc (V28 m (outs m))) c).arrAt 2 cfg6.N = Function.update (V28 m (outs m) c) main_v126 (outs m 29 main_v126 c) main_v126
      rw [Function.update_self, outs_v126, lin6, atTc28]
theorem hrest6 (c : Dev nD) : ∀ b, b ∉ Finset.univ.image (Pipeline.arrRef spec6) → atTc (V29 m (outs m)) c b = atTc (V28 m (outs m)) c b :=
  fun b hb => V29_of m (outs m) c b fun hm => hb (Finset.mem_image.mpr ⟨2, Finset.mem_univ _, (List.mem_singleton.mp hm).symm⟩)

/-- Region 7, window by window: the inputs as entered, the output at layer 4's aggregate. -/
theorem hF7_0 (c : Dev nD) : (dat7 (atTc (V29 m (outs m))) c).arrAt 0 cfg7.N = V30 m (outs m) c main_v126 :=
  ((dat7 (atTc (V29 m (outs m))) c).arrAt_in 0 rfl cfg7.N).trans
    ((A_eq7 (atTc (V29 m (outs m))) c 0).trans (V30_of m (outs m) c main_v126 (by decide)).symm)
theorem hF7_1 (c : Dev nD) : (dat7 (atTc (V29 m (outs m))) c).arrAt 1 cfg7.N = V30 m (outs m) c main_v93 :=
  ((dat7 (atTc (V29 m (outs m))) c).arrAt_in 1 rfl cfg7.N).trans
    ((A_eq7 (atTc (V29 m (outs m))) c 1).trans (V30_of m (outs m) c main_v93 (by decide)).symm)
theorem hF7_2 (c : Dev nD) : (dat7 (atTc (V29 m (outs m))) c).arrAt 2 cfg7.N = V30 m (outs m) c main_v94 :=
  ((dat7 (atTc (V29 m (outs m))) c).arrAt_in 2 rfl cfg7.N).trans
    ((A_eq7 (atTc (V29 m (outs m))) c 2).trans (V30_of m (outs m) c main_v94 (by decide)).symm)
theorem hF7_3 (c : Dev nD) : (dat7 (atTc (V29 m (outs m))) c).arrAt 3 cfg7.N = V30 m (outs m) c main_v95 :=
  ((dat7 (atTc (V29 m (outs m))) c).arrAt_in 3 rfl cfg7.N).trans
    ((A_eq7 (atTc (V29 m (outs m))) c 3).trans (V30_of m (outs m) c main_v95 (by decide)).symm)
theorem hF7_4 (c : Dev nD) : (dat7 (atTc (V29 m (outs m))) c).arrAt 4 cfg7.N = V30 m (outs m) c main_v127 := by
  show (dat7 (atTc (V29 m (outs m))) c).arrAt 4 cfg7.N = Function.update (V29 m (outs m) c) main_v127 (outs m 30 main_v127 c) main_v127
  rw [Function.update_self, outs_v127, agg7, atTc29]
theorem hF7 (c : Dev nD) (w : Fin cfg7.W) :
    (pdats m 7 c).arrAt w cfg7.N = atTc (V30 m (outs m)) c (Pipeline.arrRef spec7 w) :=
  match w with
  | ⟨0, _⟩ => hF7_0 m c
  | ⟨1, _⟩ => hF7_1 m c
  | ⟨2, _⟩ => hF7_2 m c
  | ⟨3, _⟩ => hF7_3 m c
  | ⟨4, _⟩ => hF7_4 m c
theorem hrest7 (c : Dev nD) : ∀ b, b ∉ Finset.univ.image (Pipeline.arrRef spec7) → atTc (V30 m (outs m)) c b = atTc (V29 m (outs m)) c b :=
  fun b hb => V30_of m (outs m) c b fun hm => hb (Finset.mem_image.mpr ⟨4, Finset.mem_univ _, (List.mem_singleton.mp hm).symm⟩)

/-! ## The regions as segments

Every region is entered from all the unscoped buffers at the valuation before it beside the rest `R`, and left at the
valuation after it beside `R`. At entry its arrays are split out of the unscoped buffers; at exit they are put back at
the next valuation, which has the output array at the region's output and every other buffer unchanged. The generator
register goes into the region's invariant and comes back; nothing is owed; no region has a semaphore of its own. -/

-- the library's lemmas over `pin pcs a p` unify with the printed configuration only when unification may unfold plain
-- definitions in a metavariable's type
set_option backward.isDefEq.respectTransparency.types false in
/-- Region 0, the first layer's dense product: from `V16` to `V17`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (V16 m)) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V16 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V16 m) c) (atTc (V17 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the first layer's aggregation over the edges: from `V17` to `V18`. Its invariant is the data's own;
    the class invariant passes into it at the first point and out of it at the last. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (V17 m (outs m))) c).loose
  hwaits := Pipeline.hwaits_of_owed_zero _ _ _ _ L lv 1 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (V17 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V17 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (V17 m (outs m))) c)
    unfold Pipeline.ΦA
    iintro ⟨Hp, -, Hr⟩
    isplitl [Hr]; · iexact Hr
    iexact Hp
  hout c := by
    rw [Pipeline.ownSems0_none]
    refine BIBase.Entails.trans (hout1 (atTc (V17 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V17 m (outs m)) c) (atTc (V18 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the second layer's dense product: from `V20` to `V21`. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (V20 m (outs m))) c).loose
  hwaits := Pipeline.hwaits_of_owed_zero _ _ _ _ L lv 2 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (V20 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V20 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V20 m (outs m)) c) (atTc (V21 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, the second layer's aggregation: from `V21` to `V22`. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (atTc (V21 m (outs m))) c).loose
  hwaits := Pipeline.hwaits_of_owed_zero _ _ _ _ L lv 3 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (V21 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V21 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (V21 m (outs m))) c)
    unfold Pipeline.ΦA
    iintro ⟨Hp, -, Hr⟩
    isplitl [Hr]; · iexact Hr
    iexact Hp
  hout c := by
    rw [Pipeline.ownSems0_none]
    refine BIBase.Entails.trans (hout3 (atTc (V21 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V21 m (outs m)) c) (atTc (V22 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4, the third layer's dense product: from `V24` to `V25`. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (atTc (V24 m (outs m))) c).loose
  hwaits := Pipeline.hwaits_of_owed_zero _ _ _ _ L lv 4 fun _ _ => rfl
  pre c := iprop(StableHlo.held (c : Thread nD τ) (Pipeline.ucRefs τ sig) (V24 m (outs m) c) ∗ R c)
  post c := iprop(StableHlo.held (c : Thread nD τ) (Pipeline.ucRefs τ sig) (V25 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atTc (V24 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (V24 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (V24 m (outs m)) c) (atTc (V25 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5, the third layer's aggregation: from `V25` to `V26`. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (atTc (V25 m (outs m))) c).loose
  hwaits := Pipeline.hwaits_of_owed_zero _ _ _ _ L lv 5 fun _ _ => rfl
  pre c := iprop(StableHlo.held (c : Thread nD τ) (Pipeline.ucRefs τ sig) (V25 m (outs m) c) ∗ R c)
  post c := iprop(StableHlo.held (c : Thread nD τ) (Pipeline.ucRefs τ sig) (V26 m (outs m) c) ∗ R c)
  X c := iprop(∃ r, prngReg c r)
  Y c := iprop(∃ r, prngReg c r)
  Z c := Pipeline.unscopedRest (Ix := Unit) (Name := ℕ) (U := UR sig nD τ) (Lvl := ℕ) spec5 c (atTc (V25 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (V25 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (atTc (V25 m (outs m))) c)
    unfold Pipeline.ΦA
    iintro ⟨Hp, -, Hr⟩
    isplitl [Hr]; · iexact Hr
    iexact Hp
  hout c := by
    rw [Pipeline.ownSems0_none]
    refine BIBase.Entails.trans (hout5 (atTc (V25 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (V25 m (outs m)) c) (atTc (V26 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6, the last layer's dense product (sixteen columns to one): from `V28` to `V29`. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (atTc (V28 m (outs m))) c).loose
  hwaits := Pipeline.hwaits_of_owed_zero _ _ _ _ L lv 6 fun _ _ => rfl
  pre c := iprop(StableHlo.held (c : Thread nD τ) (Pipeline.ucRefs τ sig) (V28 m (outs m) c) ∗ R c)
  post c := iprop(StableHlo.held (c : Thread nD τ) (Pipeline.ucRefs τ sig) (V29 m (outs m) c) ∗ R c)
  X c := iprop(∃ r, prngReg c r)
  Y c := iprop(∃ r, prngReg c r)
  Z c := Pipeline.unscopedRest (Ix := Unit) (Name := ℕ) (U := UR sig nD τ) (Lvl := ℕ) spec6 c (atTc (V28 m (outs m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (V28 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (V28 m (outs m)) c) (atTc (V29 m (outs m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7, the last layer's aggregation (one column): from `V29` to `V30`. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (atTc (V29 m (outs m))) c).loose
  hwaits := Pipeline.hwaits_of_owed_zero _ _ _ _ L lv 7 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec7 c (atTc (V29 m (outs m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (V29 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (atTc (V29 m (outs m))) c)
    unfold Pipeline.ΦA
    iintro ⟨Hp, -, Hr⟩
    isplitl [Hr]; · iexact Hr
    iexact Hp
  hout c := by
    rw [Pipeline.ownSems0_none]
    refine BIBase.Entails.trans (hout7 (atTc (V29 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (V29 m (outs m)) c) (atTc (V30 m (outs m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element is the pipeline library's at every staging cell; no ghost resource rides beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest: the generator register at its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest owes nothing. -/
theorem hE8 (c : Dev nD) : E (F := F) 8 c ⊢ (iprop(∃ W, owes (c : Thread nD τ) (0 : CellTallies nD τ sig Unit) W) : sProp 𝕄) := by
  iintro ⟨-, HO⟩; iexact HO

set_option backward.isDefEq.respectTransparency.types false in
/-- THE FRAME: from any memory with zero counters every weakly fair execution of @main terminates and every final
    memory holds each of the ten arguments as launched — the conditional frame at the eight records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (Ix := Unit) (U := UR sig nD τ) (Lvl := ℕ) m emb₁ () Variants.none L lv (fun _ _ => rfl) ρ (outs m) (pdats m) 0 (fun _ => iprop(emp))
    (initOf (Pipeline.cells cfgs cellOf_inj) (Pipeline.launchToks cfgs cellOf_inj)) hu₀ E (hE0 ρ) hE8
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

/-! ## The run's value -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN'S VALUE: the same launch, the last thread state read once more — every final memory holds, at the result
    `main_v134`, the last valuation's contents there (the log-softmax of the sliced last layer, computed by the host
    from the regions' outputs), and each argument as launched. -/
theorem run_val : θ_run defs (onTc (τ := τ) (main (F := F))) ⟨m, fun _ => 0, ρ⟩ (fun r => ∀ c : Dev nD,
      r.2.mem ((c.tc : Thread nD τ).loc main_v134) = V32 m (outs m) c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ Variants.none L lv m ρ main
    (segs m (outs m) Variants.none L lv E () (pdats m) (reg0 m) (reg1 m) (reg2 m) (reg3 m) (reg4 m) (reg5 m) (reg6 m) (reg7 m))
    (fun c Q => by
      rewrite [main_chain c, Seg.run_eq_chain,
        show (segs m (outs m) Variants.none L lv E () (pdats m) (reg0 m) (reg1 m) (reg2 m) (reg3 m) (reg4 m) (reg5 m) (reg6 m) (reg7 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          Prog.lift (.customCall (Pipeline.entry 0) ()), Prog.lift (.customCall (Pipeline.entry 1) ()),
          StableHlo.seq hostOps2, StableHlo.seq hostOps2_1,
          Prog.lift (.customCall (Pipeline.entry 2) ()), Prog.lift (.customCall (Pipeline.entry 3) ()),
          StableHlo.seq hostOps4, StableHlo.seq hostOps4_1,
          Prog.lift (.customCall (Pipeline.entry 4) ()), Prog.lift (.customCall (Pipeline.entry 5) ()),
          StableHlo.seq hostOps6, StableHlo.seq hostOps6_1,
          Prog.lift (.customCall (Pipeline.entry 6) ()), Prog.lift (.customCall (Pipeline.entry 7) ()),
          StableHlo.seq hostOps8, StableHlo.seq hostOps8_1 ] from rfl]
      exact .rfl)
    (fun c => by simp only [segs, Seg.pipes_host, Seg.pipes_region, Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m (outs m) c))
    (hch := fun c => ⟨.rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, sep_mono .rfl (hE8 c)⟩)
    (hinit := ?_)
    (QY := fun c s => s.mem ((c.tc : Thread nD τ).loc main_v134) = V32 m (outs m) c main_v134
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch: each core makes its first thread state from what it is dealt — the unscoped buffers held at the launch
    -- contents, the generator register at its launch state, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (V32 m (outs m) c) s') $$ [Hh HSI]
    · isplitl [Hh] <;> iassumption
    icases Hr with ⟨%h, HSI⟩
    imodintro
    isplitr
    · ipureintro
      exact ⟨h (Proc.devRef .tc main_v134) (mem_uc main_v134 (by decide)),
        (h (Proc.devRef .tc main_arg0) (mem_uc main_arg0 (by decide))).trans (V32_main_arg0 m (outs m) c),
        (h (Proc.devRef .tc main_arg1) (mem_uc main_arg1 (by decide))).trans (V32_main_arg1 m (outs m) c),
        (h (Proc.devRef .tc main_arg2) (mem_uc main_arg2 (by decide))).trans (V32_main_arg2 m (outs m) c),
        (h (Proc.devRef .tc main_arg3) (mem_uc main_arg3 (by decide))).trans (V32_main_arg3 m (outs m) c),
        (h (Proc.devRef .tc main_arg4) (mem_uc main_arg4 (by decide))).trans (V32_main_arg4 m (outs m) c),
        (h (Proc.devRef .tc main_arg5) (mem_uc main_arg5 (by decide))).trans (V32_main_arg5 m (outs m) c),
        (h (Proc.devRef .tc main_arg6) (mem_uc main_arg6 (by decide))).trans (V32_main_arg6 m (outs m) c),
        (h (Proc.devRef .tc main_arg7) (mem_uc main_arg7 (by decide))).trans (V32_main_arg7 m (outs m) c),
        (h (Proc.devRef .tc main_arg8) (mem_uc main_arg8 (by decide))).trans (V32_main_arg8 m (outs m) c),
        (h (Proc.devRef .tc main_arg9) (mem_uc main_arg9 (by decide))).trans (V32_main_arg9 m (outs m) c)⟩
    · iexact HSI

end Cert.Kernel.Gen

end
-- ==== Proof.KI.Dense0.lean ====
/- Region 0 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k0_pay1`). Here: each window's block at a point, what
   the body leaves in the output tile, the body's triple with a frame, the pipeline's proof data, and its body
   obligation at every point. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The output tile after the body -/

/-- The body reads and writes each of its three buffers whole: the rectangle at the origin of the buffer's own extent. -/
abbrev r0_0 : Rect S1024x3 := Rect.unit (s := S1024x3) ![0, 0] S1024x3.size inb_S1024x3_S1024x3_0_0
abbrev r0_1 : Rect S3x16 := Rect.unit (s := S3x16) ![0, 0] S3x16.size inb_S3x16_S3x16_0_0
abbrev r0_2 : Rect S1024x16 := Rect.unit (s := S1024x16) ![0, 0] S1024x16.size inb_S1024x16_S1024x16_0_0

/-- What the body leaves in the output tile, from the row tile `x0` and the weight block `x1`: its single store, the
    product of the two, laid over the tile. -/
def out0_2 (x0 : Vec F S1024x3 .f32) (x1 : Vec F S3x16 .f32) : Vec F S1024x16 .f32 :=
  View.canon [⟨r0_2, k0_pay1 (View.ld x0 r0_0) (View.ld x1 r0_1)⟩]

/-- Every index of the output tile lies in the stored rectangle: on each axis the rectangle starts at 0 and is as long
    as the tile. -/
theorem tile_in_store0 (y : S1024x16.Idx) : y ∈ (r0_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out0_2 xt wb`; what is read back after the store is the product because the store misses no index of the tile. -/
theorem dense_point0 (c : Dev nD) (E : Set ℕ) (i : grid0.Coords)
    (xbuf : Memref sig .tc .vmem S1024x3 .f32) (hx : xbuf.IsWhole) (wbuf : Memref sig .tc .vmem S3x16 .f32) (hw : wbuf.IsWhole)
    (obuf : Memref sig .tc .vmem S1024x16 .f32) (ho : obuf.IsWhole)
    (xt : Vec F S1024x3 .f32) (wb : Vec F S3x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc0__dense_kernel i xbuf hx wbuf hw obuf ho)
          (fun _ => (iprop(R ∗ owns (c : Thread nD τ) xbuf fullShare xt ∗ owns (c : Thread nD τ) wbuf fullShare wb
            ∗ owns (c : Thread nD τ) obuf fullShare (out0_2 xt wb)) : sProp 𝕄)) := by
  rw [cc0__dense_kernel_eq_skeleton]
  unfold cc0__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store0 y⟩
  · iexact Ho

/-! ## The pipeline's proof data -/

/-- The proof data of pipeline 0 on core `c`: the arrays as the region finds them; after the body at point `t` the row
    tile and the weight block still in their buffers and the output tile at their product; the invariant is the rest of
    the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the two input buffers -/

/-- The block a fetch at point `t` reads of window `w`'s array is `iblk0 V c w t`: the arrays are `V`'s. -/
theorem blockOf_eq0 (c : Dev nD) (w : Fin cfg0.W) (t : Fin cfg0.N) : (dat0 V c).blockOf w t = iblk0 V c w t := by
  unfold Dat.blockOf iblk0
  rw [A_eq0]

/-- The row tile of `x` is fetched at every point, and the fetch fills the whole buffer (the tile is never cut): the
    body finds the tile of its own point. -/
theorem rowtile_found0 (c : Dev nD) (t : Fin cfg0.N) (d) : (dat0 V c).before 0 t d = iblk0 V c 0 t :=
  calc (dat0 V c).before 0 t d
      = (dat0 V c).fetched 0 t d := (dat0 V c).before_fetched 0 t (fetch0_0 t) d
    _ = (dat0 V c).blockOf 0 t := rfl
    _ = iblk0 V c 0 t := blockOf_eq0 V c 0 t

/-- The weight block is fetched at the first point only. At a later point its block index has not moved and the body
    left the buffer as it found it, so the body finds there what a fetch at that point would have put: `W` again. -/
theorem weight_found0 (c : Dev nD) (t : Fin cfg0.N) (d) : (dat0 V c).before 1 t d = iblk0 V c 1 t :=
  calc (dat0 V c).before 1 t d
      = (dat0 V c).fetched 1 t d :=
        (dat0 V c).before_in_eq_fetched 1 rfl (fun _ => rfl) (fun _ _ _ => rfl)
          (fun s => by rw [after0_1, blockOf_eq0]) t d
    _ = (dat0 V c).blockOf 1 t := rfl
    _ = iblk0 V c 1 t := blockOf_eq0 V c 1 t

/-! ## The body obligation -/

/-- At every point: the two input buffers hold the row tile and the weight block of the point, the output buffer holds
    anything, so `dense_point0` applies with the invariant and the tallies owed as its frame (the body touches neither),
    and it leaves each buffer at what the proof data say. No window is idle at any point. -/
theorem body_obligation0 (c : Dev nD) : BodyObligation (dat0 (F := F) V c) (defs₀ (F := F)) Variants.none () Set.univ := by
  intro t
  rw [bigSep_W0, bigSep_W0]
  show iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)))
  simp only [rowtile_found0, weight_found0, after0_0, after0_1, after0_2]
  refine .trans ?_ (wp_mono _ _ _ fun _ => BI.sep_assoc)
  iintro ⟨HΦ, Htally, ⟨%_, Hx⟩, ⟨%_, Hw⟩, ⟨%stale, Hout⟩⟩
  iapply (dense_point0 c Set.univ _ _ _ _ _ _ _ (iblk0 V c 0 t) (iblk0 V c 1 t)
    iprop((dat0 V c).Φ t.castSucc ∗ (dat0 V c).owesAt () t.castSucc))
  isplitl [HΦ Htally]
  · isplitl [HΦ]
    · iexact HΦ
    · iexact Htally
  isplitl [Hx]
  · iexact Hx
  isplitl [Hw]
  · iexact Hw
  iexists (dat0 V c).before 2 t stale
  iexact Hout

end Regions

end Cert.KernelIdeal.Gen
-- ==== Proof.KI.Agg1Runs.lean ====
/- The first graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points1
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input is fetched at every point and its block is never cut, so when the body runs its current staging
    buffer holds exactly the block — for any proof data over the entry arrays. One statement per input. -/
theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t := by
  rw [dat.before_fetched 0 t (fetch1_0 t) d]; unfold Dat.fetched Dat.blockOf iblk1; rw [hA]; rfl
theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t := by
  rw [dat.before_fetched 1 t (fetch1_1 t) d]; unfold Dat.fetched Dat.blockOf iblk1; rw [hA]; rfl
theorem before1_2_of {c : Dev nD} (dat : Dat τ (Elt F) Unit ℕ (UR sig nD τ) ℕ cfg1 c) (hA : dat.A 2 = V c (Pipeline.arrRef spec1 2))
    (t : Fin cfg1.N) (d) : dat.before 2 t d = iblk1 V c 2 t := by
  rw [dat.before_fetched 2 t (fetch1_2 t) d]; unfold Dat.fetched Dat.blockOf iblk1; rw [hA]; rfl
theorem before1_3_of {c : Dev nD} (dat : Dat τ (Elt F) Unit ℕ (UR sig nD τ) ℕ cfg1 c) (hA : dat.A 3 = V c (Pipeline.arrRef spec1 3))
    (t : Fin cfg1.N) (d) : dat.before 3 t d = iblk1 V c 3 t := by
  rw [dat.before_fetched 3 t (fetch1_3 t) d]; unfold Dat.fetched Dat.blockOf iblk1; rw [hA]; rfl

/-! ## First and last source tile -/

/-- The source coordinate of the flattened point `t` is `t % 196`: the source axis is the last one, of stride one. -/
theorem srcCoord1 (t : Fin cfg1.N) : ((grid1.coords t) 1).val = t.val % 196 := by
  have hs : grid1.stride 1 = 1 := rfl
  show t.val / grid1.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest1 : ∀ j : Fin 196,
    (Scalar.cmpi .ne (Scalar.extui (Scalar.cmpi .eq (BitVec.ofNat 32 j.val) 0#32)) 0#32) = 1#1 ↔ j.val = 0 := by decide +kernel
theorem lastTest1 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc1 (i : grid1.Coords) : Prop := (Scalar.cmpi .ne (Scalar.extui (Scalar.cmpi .eq (BitVec.ofNat 32 (i 1).val) 0#32)) 0#32) = 1#1
/-- which holds at the flattened points t with t % 196 = 0. -/
theorem firstSrc1_iff (t : Fin cfg1.N) : firstSrc1 (grid1.coords t) ↔ t.val % 196 = 0 := by
  rw [← srcCoord1 t]; exact firstTest1 ((grid1.coords t) 1)

/-- It copies the accumulator to the output tile under this one (j = 195), -/
abbrev lastSrc1 (i : grid1.Coords) : Prop := k1_cond2 i = 1#1
/-- which holds at the points with t % 196 = 195. -/
theorem lastSrc1_iff (t : Fin cfg1.N) : lastSrc1 (grid1.coords t) ↔ t.val % 196 = 195 := by
  rw [← srcCoord1 t]; exact lastTest1 ((grid1.coords t) 1)

/-- The two tests read off the flattened point. -/
theorem isFirst1 (t : Fin cfg1.N) (h : t.val % 196 = 0) : firstSrc1 (grid1.coords t) := (firstSrc1_iff t).mpr h
theorem notFirst1 (t : Fin cfg1.N) (h : ¬t.val % 196 = 0) : ¬firstSrc1 (grid1.coords t) := fun hf => h ((firstSrc1_iff t).mp hf)
theorem isLast1 (t : Fin cfg1.N) (h : t.val % 196 = 195) : lastSrc1 (grid1.coords t) := (lastSrc1_iff t).mpr h
theorem notLast1 (t : Fin cfg1.N) (h : ¬t.val % 196 = 195) : ¬lastSrc1 (grid1.coords t) := fun hl => h ((lastSrc1_iff t).mp hl)

/-! ## Where the output tile is untouched -/

/-- Off the last source tile the output window is idle: nothing is stored into it, -/
theorem outIdle1 (i : grid1.Coords) (h : ¬lastSrc1 i) : cfg1.idle 4 i = true := by
  show (!(k1_cond2 i == 1#1)) = true
  simp only [Bool.not_eq_true', beq_eq_false_iff_ne, ne_eq]; exact h
/-- and it is not written back there; -/
theorem outKept1 (t : Fin cfg1.N) (h : ¬lastSrc1 (grid1.coords t)) : (cfg1.win 4).flush t = false := by
  rw [Bool.eq_false_iff]; exact fun hf => h ((lastSrc1_iff t).mpr ((flush1_4 t).mp hf))
/-- on the last source tile it is live. -/
theorem outLive1 (i : grid1.Coords) (h : lastSrc1 i) : cfg1.idle 4 i = false := by
  show (!(k1_cond2 i == 1#1)) = false
  simp only [Bool.not_eq_false', beq_iff_eq]; exact h

/-! ## The memrefs the body is called on -/

/-- Each window's current staging memref at point `t`, as the pipeline passes it, and its wholeness. -/
abbrev ms1_0 (t : Fin cfg1.N) : Memref sig .tc .vmem S1024x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
/-- The accumulator: one whole scoped 1024 × 16 buffer of the call's own, carried from point to point. -/
abbrev acc1 : Memref sig .tc .vmem S1024x16 .f32 := Memref.whole cc1_scratch0
/-- The views through which the accumulator's and the output tile's contents are stated. -/
abbrev accView1 : View sig .tc .vmem S1024x16 .f32 := acc1.view
abbrev outView1 : View sig .tc .vmem S1024x16 .f32 := (Memref.whole cc1_stg4_0 : Memref sig .tc .vmem S1024x16 .f32).view

/-- What the call is handed beside its windows: the accumulator at some contents, every other scoped buffer that
    is no staging buffer of this call (unopened), and the generator register at some state. -/
theorem PhiA1_eq (c : Dev nD) :
    (Pipeline.ΦA spec1 c : sProp 𝕄)
      = iprop(iprop(iprop((∃ d, owns (c : Thread nD τ) acc1 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [acc1, owns_whole]; rfl

end Cert.KernelIdeal.Gen

end
-- ==== Proof.KI.Agg1RunA.lean ====
/- The aggregation body at a FIRST point (source tile j = 0, not the last): the accumulator, whatever it held, is
   zeroed, the contribution of this tile pair is added to it, and the output tile is not touched. -/
import proofs.«140952_j21595095564583_2_alg».proof.Proof.KI.Agg1Runs

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun1_first (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun y E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg1RunB.lean ====
/- The aggregation body at an INNER point (source tile 0 < j < 195): the contribution of this tile pair is added to
   what the accumulator held; the output tile is not touched. -/
import proofs.«140952_j21595095564583_2_alg».proof.Proof.KI.Agg1RunA

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun1_inner (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun y E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg1RunC.lean ====
/- The aggregation body at a LAST point (source tile j = 195): the contribution is added to what the accumulator
   held, and the sum is copied to the output tile. -/
import proofs.«140952_j21595095564583_2_alg».proof.Proof.KI.Agg1RunB

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.KernelIdeal.Gen

end
-- ==== Proof.KI.Agg1.lean ====
/- The first graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.KI.Agg1RunC

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover1_first (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) (y : S1024x16.Idx) :
    ∃ pc ∈ (aggRun1_first c i arg2 harg2 arg3 harg3 arg4 harg4 arg5 harg5 arg6 harg6 arg7 harg7 hfirst hlast x0 x1 x2 x3).1, y ∈ pc.1.set :=
  View.cover_of_tiledL (aggRun1_first c i arg2 harg2 arg3 harg3 arg4 harg4 arg5 harg5 arg6 harg6 arg7 harg7 hfirst hlast x0 x1 x2 x3).1 S1024x16.size (by sl_kernel_rfl) y

/-- The accumulator after a first point: its stores read back. -/
def sout1_A_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) : Vec F S1024x16 .f32 :=
  accView1.read (Elt F) (accView1.writes (Elt F) accView1.junk (aggRun1_first c i arg2 harg2 arg3 harg3 arg4 harg4 arg5 harg5 arg6 harg6 arg7 harg7 hfirst hlast x0 x1 x2 x3).1)

/-- The one store of an inner point covers the accumulator. -/
theorem accCover1_inner (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_inner c i arg2 harg2 arg3 harg3 arg4 harg4 arg5 harg5 arg6 harg6 arg7 harg7 hfirst hlast x0 x1 x2 x3 xs).1, y ∈ pc.1.set :=
  View.cover_of_tiledL (aggRun1_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout1_B_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  accView1.read (Elt F) (accView1.writes (Elt F) accView1.junk (aggRun1_inner c i arg2 harg2 arg3 harg3 arg4 harg4 arg5 harg5 arg6 harg6 arg7 harg7 hfirst hlast x0 x1 x2 x3 xs).1)

/-- At a last point the store into the accumulator covers it, -/
theorem accCover1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_last c i arg2 harg2 arg3 harg3 arg4 harg4 arg5 harg5 arg6 harg6 arg7 harg7 hfirst hlast x0 x1 x2 x3 xs).2.1, y ∈ pc.1.set :=
  View.cover_of_tiledL (aggRun1_last c i arg2 harg2 arg3 harg3 arg4 harg4 arg5 harg5 arg6 harg6 arg7 harg7 hfirst hlast x0 x1 x2 x3 xs).2.1 S1024x16.size (by sl_kernel_rfl) y

/-- and the store into the output tile covers that. -/
theorem outCover1_last (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun1_last c i arg2 harg2 arg3 harg3 arg4 harg4 arg5 harg5 arg6 harg6 arg7 harg7 hfirst hlast x0 x1 x2 x3 xs).1, y ∈ pc.1.set :=
  View.cover_of_tiledL (aggRun1_last c i arg2 harg2 arg3 harg3 arg4 harg4 arg5 harg5 arg6 harg6 arg7 harg7 hfirst hlast x0 x1 x2 x3 xs).1 S1024x16.size (by sl_kernel_rfl) y

/-- The accumulator after a last point, -/
def sout1_C_0 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  accView1.read (Elt F) (accView1.writes (Elt F) accView1.junk (aggRun1_last c i arg2 harg2 arg3 harg3 arg4 harg4 arg5 harg5 arg6 harg6 arg7 harg7 hfirst hlast x0 x1 x2 x3 xs).2.1)

/-- and the output tile after it. -/
def out1_C_4 (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) : Vec F S1024x16 .f32 :=
  outView1.read (Elt F) (outView1.writes (Elt F) outView1.junk (aggRun1_last c i arg2 harg2 arg3 harg3 arg4 harg4 arg5 harg5 arg6 harg6 arg7 harg7 hfirst hlast x0 x1 x2 x3 xs).1)

/-! ## The same at a grid point: on the memrefs the pipeline passes there and the blocks the inputs stage -/

def accFirst1 (c : Dev nD) (t : Fin cfg1.N) (h0 : t.val % 196 = 0) : Vec F S1024x16 .f32 :=
  sout1_A_0 c (grid1.coords t) (ms1_0 t) (hs1_0 t) (ms1_1 t) (hs1_1 t) (ms1_2 t) (hs1_2 t) (ms1_3 t) (hs1_3 t) (ms1_4 t) (hs1_4 t) acc1 (Memref.isWhole_whole _)
    (isFirst1 t h0) (notLast1 t (by omega)) (iblk1 V c 0 t) (iblk1 V c 1 t) (iblk1 V c 2 t) (iblk1 V c 3 t)

def accInner1 (c : Dev nD) (t : Fin cfg1.N) (h0 : ¬t.val % 196 = 0) (h1 : ¬t.val % 196 = 195) (xs : Vec F S1024x16 .f32) : Vec F S1024x16 .f32 :=
  sout1_B_0 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t h0) (notLast1 t h1) (iblk1 V c 0 t) (iblk1 V c 1 t) (iblk1 V c 2 t) (iblk1 V c 3 t) xs

def accLast1 (c : Dev nD) (t : Fin cfg1.N) (h1 : t.val % 196 = 195) (xs : Vec F S1024x16 .f32) : Vec F S1024x16 .f32 :=
  sout1_C_0 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t (by omega)) (isLast1 t h1) (iblk1 V c 0 t) (iblk1 V c 1 t) (iblk1 V c 2 t) (iblk1 V c 3 t) xs

def outLast1 (c : Dev nD) (t : Fin cfg1.N) (h1 : t.val % 196 = 195) (xs : Vec F S1024x16 .f32) : Vec F S1024x16 .f32 :=
  out1_C_4 c (grid1.coords t) (ms1_0 t) (hs1_0 t) (ms1_1 t) (hs1_1 t) (ms1_2 t) (hs1_2 t) (ms1_3 t) (hs1_3 t) (ms1_4 t) (hs1_4 t) acc1 (Memref.isWhole_whole _)
    (notFirst1 t (by omega)) (isLast1 t h1) (iblk1 V c 0 t) (iblk1 V c 1 t) (iblk1 V c 2 t) (iblk1 V c 3 t) xs

/-- An output tile nothing was stored into. Off the last source tile the window is idle and is not written back, so
    these contents are never read. -/
def untouched1 : Vec F S1024x16 .f32 := outView1.read (Elt F) outView1.junk

/-! ## The accumulation, point by point -/

/-- What the output tile's staging buffer (first component) and the accumulator (second) hold after the body at
    position `n`: at a first point zero plus the contribution; otherwise what position `n - 1` left in the
    accumulator plus the contribution, which at a last point is also the output tile. -/
def outsAt1 (c : Dev nD) : (n : ℕ) → n < cfg1.N → Vec F S1024x16 .f32 × Vec F S1024x16 .f32
  | 0, hn => (untouched1, accFirst1 V c ⟨0, hn⟩ (Nat.zero_mod _))
  | n + 1, hn =>
    if h0 : (n + 1) % 196 = 0 then (untouched1, accFirst1 V c ⟨n + 1, hn⟩ h0)
    else if h1 : (n + 1) % 196 = 195 then
      (outLast1 V c ⟨n + 1, hn⟩ h1 (outsAt1 c n (Nat.lt_of_succ_lt hn)).2, accLast1 V c ⟨n + 1, hn⟩ h1 (outsAt1 c n (Nat.lt_of_succ_lt hn)).2)
    else (untouched1, accInner1 V c ⟨n + 1, hn⟩ h0 h1 (outsAt1 c n (Nat.lt_of_succ_lt hn)).2)

/-- At a first point. -/
theorem outsAt1_A (c : Dev nD) (t : Fin cfg1.N) (h0 : t.val % 196 = 0) :
    outsAt1 V c t.val t.isLt = (untouched1, accFirst1 V c t h0) := by
  obtain ⟨n, hn⟩ := t
  cases n with
  | zero => rfl
  | succ n => exact dif_pos h0

/-- At an inner point, over what the point before left. -/
theorem outsAt1_B (c : Dev nD) (t : Fin cfg1.N) (h0 : ¬t.val % 196 = 0) (h1 : ¬t.val % 196 = 195) :
    outsAt1 V c t.val t.isLt
      = (untouched1, accInner1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt1_C (c : Dev nD) (t : Fin cfg1.N) (h1 : t.val % 196 = 195) :
    outsAt1 V c t.val t.isLt
      = (outLast1 V c t h1 (outsAt1 V c (t.val - 1) (Nat.lt_of_le_of_lt (Nat.sub_le _ _) t.isLt)).2,
         accLast1 V c t h1 (outsAt1 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- At every position the invariant yields the accumulator at SOME contents (its named contents forgotten). -/
theorem PhiS1_forget (c : Dev nD) (n : ℕ) (h : n ≤ cfg1.N) :
    PhiS1 V c n h ⊢ iprop(iprop(iprop((∃ d, owns (c : Thread nD τ) acc1 fullShare d)) ∗ Pipeline.scopedRestBut (Ix := Unit) (Name := ℕ) (U := UR sig nD τ) (Lvl := ℕ) (Val := Elt F) spec1 c [cc1_scratch0]) ∗ (∃ r, prngReg c r)) := by
  cases n with
  | zero => rw [show PhiS1 V c 0 h = Pipeline.ΦA spec1 c from rfl, PhiA1_eq]
  | succ n =>
    rw [PhiS1_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt1`'s first component; the invariant `PhiS1`; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- When the body runs, each input's current buffer holds its block. -/
theorem before1_0 (c : Dev nD) (t : Fin cfg1.N) (d) : (dat1 V c).before 0 t d = iblk1 V c 0 t := before1_0_of V (dat1 V c) (A_eq1 V c 0) t d
theorem before1_1 (c : Dev nD) (t : Fin cfg1.N) (d) : (dat1 V c).before 1 t d = iblk1 V c 1 t := before1_1_of V (dat1 V c) (A_eq1 V c 1) t d
theorem before1_2 (c : Dev nD) (t : Fin cfg1.N) (d) : (dat1 V c).before 2 t d = iblk1 V c 2 t := before1_2_of V (dat1 V c) (A_eq1 V c 2) t d
theorem before1_3 (c : Dev nD) (t : Fin cfg1.N) (d) : (dat1 V c).before 3 t d = iblk1 V c 3 t := before1_3_of V (dat1 V c) (A_eq1 V c 3) t d

/-- And the body, which only reads them, leaves each there (the inputs are live at every point). -/
theorem leaves1_0 (c : Dev nD) (t : Fin cfg1.N) : (dat1 V c).leavesExact 0 t = owns (c : Thread nD τ) (ms1_0 t) fullShare (iblk1 V c 0 t) := by
  rw [← after1_0]
theorem leaves1_1 (c : Dev nD) (t : Fin cfg1.N) : (dat1 V c).leavesExact 1 t = owns (c : Thread nD τ) (ms1_1 t) fullShare (iblk1 V c 1 t) := by
  rw [← after1_1]
theorem leaves1_2 (c : Dev nD) (t : Fin cfg1.N) : (dat1 V c).leavesExact 2 t = owns (c : Thread nD τ) (ms1_2 t) fullShare (iblk1 V c 2 t) := by
  rw [← after1_2]
theorem leaves1_3 (c : Dev nD) (t : Fin cfg1.N) : (dat1 V c).leavesExact 3 t = owns (c : Thread nD τ) (ms1_3 t) fullShare (iblk1 V c 3 t) := by
  rw [← after1_3]

/-! ## The body's obligation -/

/-- What the body is called with at point `t`: the invariant, the core's debts, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 1600000 in
/-- At a first point: whatever the accumulator held is forgotten; the run zeroes it and adds the contribution; the
    output tile, idle there, goes back as it came. -/
theorem body_first1 (c : Dev nD) (t : Fin cfg1.N) (h0 : t.val % 196 = 0) :
    bodyPre1 V c t ⊢ wp frame (wpE (defs₀ (F := F)) Variants.none c none) Set.univ (bodyAt1 t) (fun _ => bodyPost1 V c t) := by
  have hl : ¬lastSrc1 (grid1.coords t) := notLast1 t (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (outIdle1 _ hl) (outKept1 t hl)]
  rw [outsAt1_A V c t h0]; unfold accFirst1 sout1_A_0; (try dsimp only)
  rw [PhiS1_castSucc V c t]
  iintro ⟨HΦ, Ho, ⟨%d0, H0⟩, ⟨%d1, H1⟩, ⟨%d2, H2⟩, ⟨%d3, H3⟩, ⟨%d4, H4⟩⟩
  icases (PhiS1_forget V c t.val (Nat.le_of_lt t.isLt)) $$ HΦ with ⟨⟨HA, HR⟩, Hg⟩
  iapply ((aggRun1_first c (grid1.coords t) _ _ _ _ _ _ _ _ _ _ _ _ (isFirst1 t h0) hl (iblk1 V c 0 t) (iblk1 V c 1 t) (iblk1 V c 2 t) (iblk1 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover1_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner1 (c : Dev nD) (t : Fin cfg1.N) (h0 : ¬t.val % 196 = 0) (h1 : ¬t.val % 196 = 195) :
    bodyPre1 V c t ⊢ wp frame (wpE (defs₀ (F := F)) Variants.none c none) Set.univ (bodyAt1 t) (fun _ => bodyPost1 V c t) := by
  have hl : ¬lastSrc1 (grid1.coords t) := notLast1 t h1
  have hz : t.val ≠ 0 := fun h => h0 (by rw [h])
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (outIdle1 _ hl) (outKept1 t hl)]
  rw [outsAt1_B V c t h0 h1]; unfold accInner1 sout1_B_0; (try dsimp only)
  rw [PhiS1_castSucc V c t, PhiS1_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun1_inner c (grid1.coords t) _ _ _ _ _ _ _ _ _ _ _ _ (notFirst1 t h0) hl (iblk1 V c 0 t) (iblk1 V c 1 t) (iblk1 V c 2 t) (iblk1 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover1_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last1 (c : Dev nD) (t : Fin cfg1.N) (h1 : t.val % 196 = 195) :
    bodyPre1 V c t ⊢ wp frame (wpE (defs₀ (F := F)) Variants.none c none) Set.univ (bodyAt1 t) (fun _ => bodyPost1 V c t) := by
  have hf : ¬firstSrc1 (grid1.coords t) := notFirst1 t (by omega)
  have hl : lastSrc1 (grid1.coords t) := isLast1 t h1
  have hz : t.val ≠ 0 := fun h => by rw [h] at h1; exact absurd h1 (by decide)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [show (dat1 V c).leavesExact 4 t = owns (c : Thread nD τ) (ms1_4 t) fullShare ((dat1 V c).after 4 t) from by
    unfold Dat.leavesExact; rw [outLive1 _ hl], after1_4]
  rw [outsAt1_C V c t h1]; unfold accLast1 outLast1 sout1_C_0 out1_C_4; (try dsimp only)
  rw [PhiS1_castSucc V c t, PhiS1_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun1_last c (grid1.coords t) _ _ _ _ _ _ _ _ _ _ _ _ hf hl (iblk1 V c 0 t) (iblk1 V c 1 t) (iblk1 V c 2 t) (iblk1 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover1_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover1_last c _ _ _ _ _ _ _ _ _ _ _ _ _ _ _ _ _ _ _ _)

/-- The body at any point: by the kind of point. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 196 = 0
  · exact body_first1 V c t h0
  · by_cases h1 : t.val % 196 = 195
    · exact body_last1 V c t h1
    · exact body_inner1 V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_forget V c _ _

end Cert.KernelIdeal.Gen

end
-- ==== Proof.KI.Dense2.lean ====
/- Region 2 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k2_pay1`). Here: each window's block at a point, what
   the body leaves in the output tile, the body's triple with a frame, the pipeline's proof data, and its body
   obligation at every point. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The output tile after the body -/

/-- The body reads and writes each of its three buffers whole: the rectangle at the origin of the buffer's own extent. -/
abbrev r2_0 : Rect S1024x16 := Rect.unit (s := S1024x16) ![0, 0] S1024x16.size inb_S1024x16_S1024x16_0_0
abbrev r2_1 : Rect S16x16 := Rect.unit (s := S16x16) ![0, 0] S16x16.size inb_S16x16_S16x16_0_0
abbrev r2_2 : Rect S1024x16 := Rect.unit (s := S1024x16) ![0, 0] S1024x16.size inb_S1024x16_S1024x16_0_0

/-- What the body leaves in the output tile, from the row tile `x0` and the weight block `x1`: its single store, the
    product of the two, laid over the tile. -/
def out2_2 (x0 : Vec F S1024x16 .f32) (x1 : Vec F S16x16 .f32) : Vec F S1024x16 .f32 :=
  View.canon [⟨r2_2, k2_pay1 (View.ld x0 r2_0) (View.ld x1 r2_1)⟩]

/-- Every index of the output tile lies in the stored rectangle: on each axis the rectangle starts at 0 and is as long
    as the tile. -/
theorem tile_in_store2 (y : S1024x16.Idx) : y ∈ (r2_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out2_2 xt wb`; what is read back after the store is the product because the store misses no index of the tile. -/
theorem dense_point2 (c : Dev nD) (E : Set ℕ) (i : grid2.Coords)
    (xbuf : Memref sig .tc .vmem S1024x16 .f32) (hx : xbuf.IsWhole) (wbuf : Memref sig .tc .vmem S16x16 .f32) (hw : wbuf.IsWhole)
    (obuf : Memref sig .tc .vmem S1024x16 .f32) (ho : obuf.IsWhole)
    (xt : Vec F S1024x16 .f32) (wb : Vec F S16x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc2__dense_kernel i xbuf hx wbuf hw obuf ho)
          (fun _ => (iprop(R ∗ owns (c : Thread nD τ) xbuf fullShare xt ∗ owns (c : Thread nD τ) wbuf fullShare wb
            ∗ owns (c : Thread nD τ) obuf fullShare (out2_2 xt wb)) : sProp 𝕄)) := by
  rw [cc2__dense_kernel_eq_skeleton]
  unfold cc2__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store2 y⟩
  · iexact Ho

/-! ## The pipeline's proof data -/

/-- The proof data of pipeline 2 on core `c`: the arrays as the region finds them; after the body at point `t` the row
    tile and the weight block still in their buffers and the output tile at their product; the invariant is the rest of
    the core's state, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## What the body finds in the two input buffers -/

/-- The block a fetch at point `t` reads of window `w`'s array is `iblk2 V c w t`: the arrays are `V`'s. -/
theorem blockOf_eq2 (c : Dev nD) (w : Fin cfg2.W) (t : Fin cfg2.N) : (dat2 V c).blockOf w t = iblk2 V c w t := by
  unfold Dat.blockOf iblk2
  rw [A_eq2]

/-- The row tile of `x` is fetched at every point, and the fetch fills the whole buffer (the tile is never cut): the
    body finds the tile of its own point. -/
theorem rowtile_found2 (c : Dev nD) (t : Fin cfg2.N) (d) : (dat2 V c).before 0 t d = iblk2 V c 0 t :=
  calc (dat2 V c).before 0 t d
      = (dat2 V c).fetched 0 t d := (dat2 V c).before_fetched 0 t (fetch2_0 t) d
    _ = (dat2 V c).blockOf 0 t := rfl
    _ = iblk2 V c 0 t := blockOf_eq2 V c 0 t

/-- The weight block is fetched at the first point only. At a later point its block index has not moved and the body
    left the buffer as it found it, so the body finds there what a fetch at that point would have put: `W` again. -/
theorem weight_found2 (c : Dev nD) (t : Fin cfg2.N) (d) : (dat2 V c).before 1 t d = iblk2 V c 1 t :=
  calc (dat2 V c).before 1 t d
      = (dat2 V c).fetched 1 t d :=
        (dat2 V c).before_in_eq_fetched 1 rfl (fun _ => rfl) (fun _ _ _ => rfl)
          (fun s => by rw [after2_1, blockOf_eq2]) t d
    _ = (dat2 V c).blockOf 1 t := rfl
    _ = iblk2 V c 1 t := blockOf_eq2 V c 1 t

/-! ## The body obligation -/

/-- At every point: the two input buffers hold the row tile and the weight block of the point, the output buffer holds
    anything, so `dense_point2` applies with the invariant and the tallies owed as its frame (the body touches neither),
    and it leaves each buffer at what the proof data say. No window is idle at any point. -/
theorem body_obligation2 (c : Dev nD) : BodyObligation (dat2 (F := F) V c) (defs₀ (F := F)) Variants.none () Set.univ := by
  intro t
  rw [bigSep_W2, bigSep_W2]
  show iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.castSucc ∗ (dat2 V c).owesAt () t.castSucc
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)))
  simp only [rowtile_found2, weight_found2, after2_0, after2_1, after2_2]
  refine .trans ?_ (wp_mono _ _ _ fun _ => BI.sep_assoc)
  iintro ⟨HΦ, Htally, ⟨%_, Hx⟩, ⟨%_, Hw⟩, ⟨%stale, Hout⟩⟩
  iapply (dense_point2 c Set.univ _ _ _ _ _ _ _ (iblk2 V c 0 t) (iblk2 V c 1 t)
    iprop((dat2 V c).Φ t.castSucc ∗ (dat2 V c).owesAt () t.castSucc))
  isplitl [HΦ Htally]
  · isplitl [HΦ]
    · iexact HΦ
    · iexact Htally
  isplitl [Hx]
  · iexact Hx
  isplitl [Hw]
  · iexact Hw
  iexists (dat2 V c).before 2 t stale
  iexact Hout

end Regions

end Cert.KernelIdeal.Gen
-- ==== Proof.KI.Sched3.lean ====
/- The pipeline schedule of aggregation call 3. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.KI.Points1

noncomputable section

namespace Cert.KernelIdeal.Gen

open Idealize.ShloMosaic Idealize.ShloMosaic.TcCoe
open Idealize.SL Idealize.SL.Sem

/-- Window 0 of call 3 is fetched where window 0 of call 1 is: at every point. -/
theorem fetch3_0 : ∀ t : Fin cfg3.N, (cfg3.win 0).fetch t = true :=
  fun t => (show (cfg3.win 0).fetch t = (cfg1.win 0).fetch t from rfl).trans (fetch1_0 t)
/-- Window 1 of call 3 is fetched where window 1 of call 1 is: at every point. -/
theorem fetch3_1 : ∀ t : Fin cfg3.N, (cfg3.win 1).fetch t = true :=
  fun t => (show (cfg3.win 1).fetch t = (cfg1.win 1).fetch t from rfl).trans (fetch1_1 t)
/-- Window 2 of call 3 is fetched where window 2 of call 1 is: at every point. -/
theorem fetch3_2 : ∀ t : Fin cfg3.N, (cfg3.win 2).fetch t = true :=
  fun t => (show (cfg3.win 2).fetch t = (cfg1.win 2).fetch t from rfl).trans (fetch1_2 t)
/-- Window 3 of call 3 is fetched where window 3 of call 1 is: at every point. -/
theorem fetch3_3 : ∀ t : Fin cfg3.N, (cfg3.win 3).fetch t = true :=
  fun t => (show (cfg3.win 3).fetch t = (cfg1.win 3).fetch t from rfl).trans (fetch1_3 t)
/-- The output tile of call 3 is written back where call 1's is: at the last source tile of each row, t ≡ 195 (mod 196). -/
theorem flush3_4 : ∀ t : Fin cfg3.N, (cfg3.win 4).flush t = true ↔ t.val % 196 = 195 := fun t => by
  rw [show (cfg3.win 4).flush t = (cfg1.win 4).flush t from rfl]; exact flush1_4 t

end Cert.KernelIdeal.Gen

end
-- ==== Proof.KI.Agg3Runs.lean ====
/- The second graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points3
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Every input is fetched at every point and its block is never cut, so when the body runs its current staging
    buffer holds exactly the block — for any proof data over the entry arrays. One statement per input. -/
theorem before3_0_of {c : Dev nD} (dat : Dat τ (Elt F) Unit ℕ (UR sig nD τ) ℕ cfg3 c) (hA : dat.A 0 = V c (Pipeline.arrRef spec3 0))
    (t : Fin cfg3.N) (d) : dat.before 0 t d = iblk3 V c 0 t := by
  rw [dat.before_fetched 0 t (fetch3_0 t) d]; unfold Dat.fetched Dat.blockOf iblk3; rw [hA]; rfl
theorem before3_1_of {c : Dev nD} (dat : Dat τ (Elt F) Unit ℕ (UR sig nD τ) ℕ cfg3 c) (hA : dat.A 1 = V c (Pipeline.arrRef spec3 1))
    (t : Fin cfg3.N) (d) : dat.before 1 t d = iblk3 V c 1 t := by
  rw [dat.before_fetched 1 t (fetch3_1 t) d]; unfold Dat.fetched Dat.blockOf iblk3; rw [hA]; rfl
theorem before3_2_of {c : Dev nD} (dat : Dat τ (Elt F) Unit ℕ (UR sig nD τ) ℕ cfg3 c) (hA : dat.A 2 = V c (Pipeline.arrRef spec3 2))
    (t : Fin cfg3.N) (d) : dat.before 2 t d = iblk3 V c 2 t := by
  rw [dat.before_fetched 2 t (fetch3_2 t) d]; unfold Dat.fetched Dat.blockOf iblk3; rw [hA]; rfl
theorem before3_3_of {c : Dev nD} (dat : Dat τ (Elt F) Unit ℕ (UR sig nD τ) ℕ cfg3 c) (hA : dat.A 3 = V c (Pipeline.arrRef spec3 3))
    (t : Fin cfg3.N) (d) : dat.before 3 t d = iblk3 V c 3 t := by
  rw [dat.before_fetched 3 t (fetch3_3 t) d]; unfold Dat.fetched Dat.blockOf iblk3; rw [hA]; rfl

/-! ## First and last source tile -/

/-- The source coordinate of the flattened point `t` is `t % 196`: the source axis is the last one, of stride one. -/
theorem srcCoord3 (t : Fin cfg3.N) : ((grid3.coords t) 1).val = t.val % 196 := by
  have hs : grid3.stride 1 = 1 := rfl
  show t.val / grid3.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest3 : ∀ j : Fin 196,
    (Scalar.cmpi .ne (Scalar.extui (Scalar.cmpi .eq (BitVec.ofNat 32 j.val) 0#32)) 0#32) = 1#1 ↔ j.val = 0 := by decide +kernel
theorem lastTest3 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc3 (i : grid3.Coords) : Prop := (Scalar.cmpi .ne (Scalar.extui (Scalar.cmpi .eq (BitVec.ofNat 32 (i 1).val) 0#32)) 0#32) = 1#1
/-- which holds at the flattened points t with t % 196 = 0. -/
theorem firstSrc3_iff (t : Fin cfg3.N) : firstSrc3 (grid3.coords t) ↔ t.val % 196 = 0 := by
  rw [← srcCoord3 t]; exact firstTest3 ((grid3.coords t) 1)

/-- It copies the accumulator to the output tile under this one (j = 195), -/
abbrev lastSrc3 (i : grid3.Coords) : Prop := k3_cond2 i = 1#1
/-- which holds at the points with t % 196 = 195. -/
theorem lastSrc3_iff (t : Fin cfg3.N) : lastSrc3 (grid3.coords t) ↔ t.val % 196 = 195 := by
  rw [← srcCoord3 t]; exact lastTest3 ((grid3.coords t) 1)

/-- The two tests read off the flattened point. -/
theorem isFirst3 (t : Fin cfg3.N) (h : t.val % 196 = 0) : firstSrc3 (grid3.coords t) := (firstSrc3_iff t).mpr h
theorem notFirst3 (t : Fin cfg3.N) (h : ¬t.val % 196 = 0) : ¬firstSrc3 (grid3.coords t) := fun hf => h ((firstSrc3_iff t).mp hf)
theorem isLast3 (t : Fin cfg3.N) (h : t.val % 196 = 195) : lastSrc3 (grid3.coords t) := (lastSrc3_iff t).mpr h
theorem notLast3 (t : Fin cfg3.N) (h : ¬t.val % 196 = 195) : ¬lastSrc3 (grid3.coords t) := fun hl => h ((lastSrc3_iff t).mp hl)

/-! ## Where the output tile is untouched -/

/-- Off the last source tile the output window is idle: nothing is stored into it, -/
theorem outIdle3 (i : grid3.Coords) (h : ¬lastSrc3 i) : cfg3.idle 4 i = true := by
  show (!(k3_cond2 i == 1#1)) = true
  simp only [Bool.not_eq_true', beq_eq_false_iff_ne, ne_eq]; exact h
/-- and it is not written back there; -/
theorem outKept3 (t : Fin cfg3.N) (h : ¬lastSrc3 (grid3.coords t)) : (cfg3.win 4).flush t = false := by
  rw [Bool.eq_false_iff]; exact fun hf => h ((lastSrc3_iff t).mpr ((flush3_4 t).mp hf))
/-- on the last source tile it is live. -/
theorem outLive3 (i : grid3.Coords) (h : lastSrc3 i) : cfg3.idle 4 i = false := by
  show (!(k3_cond2 i == 1#1)) = false
  simp only [Bool.not_eq_false', beq_iff_eq]; exact h

/-! ## The memrefs the body is called on -/

/-- Each window's current staging memref at point `t`, as the pipeline passes it, and its wholeness. -/
abbrev ms3_0 (t : Fin cfg3.N) : Memref sig .tc .vmem S1024x16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x512 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x512 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x16 .f32 := win3_4.stage (cfg3.slots t 4)
abbrev hs3_4 (t : Fin cfg3.N) : (ms3_4 t).IsWhole := hstage3_4 ((cfg3.slots t 4).cast nbuf3_4)
/-- The accumulator: one whole scoped 1024 × 16 buffer of the call's own, carried from point to point. -/
abbrev acc3 : Memref sig .tc .vmem S1024x16 .f32 := Memref.whole cc3_scratch0
/-- The views through which the accumulator's and the output tile's contents are stated. -/
abbrev accView3 : View sig .tc .vmem S1024x16 .f32 := acc3.view
abbrev outView3 : View sig .tc .vmem S1024x16 .f32 := (Memref.whole cc3_stg4_0 : Memref sig .tc .vmem S1024x16 .f32).view

/-- What the call is handed beside its windows: the accumulator at some contents, every other scoped buffer that
    is no staging buffer of this call (unopened), and the generator register at some state. -/
theorem PhiA3_eq (c : Dev nD) :
    (Pipeline.ΦA spec3 c : sProp 𝕄)
      = iprop(iprop(iprop((∃ d, owns (c : Thread nD τ) acc3 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [acc3, owns_whole]; rfl

end Cert.KernelIdeal.Gen

end
-- ==== Proof.KI.Agg3RunA.lean ====
/- The aggregation body at a FIRST point (source tile j = 0, not the last): the accumulator, whatever it held, is
   zeroed, the contribution of this tile pair is added to it, and the output tile is not touched. -/
import proofs.«140952_j21595095564583_2_alg».proof.Proof.KI.Agg3Runs

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun3_first (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, fun y E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg3RunB.lean ====
/- The aggregation body at an INNER point (source tile 0 < j < 195): the contribution of this tile pair is added to
   what the accumulator held; the output tile is not touched. -/
import proofs.«140952_j21595095564583_2_alg».proof.Proof.KI.Agg3RunA

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun3_inner (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, fun y E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg3RunC.lean ====
/- The aggregation body at a LAST point (source tile j = 195): the contribution is added to what the accumulator
   held, and the sum is copied to the output tile. -/
import proofs.«140952_j21595095564583_2_alg».proof.Proof.KI.Agg3RunB

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc3__agg_kernel i arg2 harg2 arg3 harg3 arg4 harg4 arg5 harg5 arg6 harg6 arg7 harg7) K } := by
  refine ⟨?_, ?_, fun E K => ?run⟩
  case run =>
    simp only [cc3__agg_kernel_eq_skeleton]; unfold cc3__agg_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.KernelIdeal.Gen

end
-- ==== Proof.KI.Agg3.lean ====
/- The second graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.KI.Agg3RunC

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover3_first (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) (y : S1024x16.Idx) :
    ∃ pc ∈ (aggRun3_first c i arg2 harg2 arg3 harg3 arg4 harg4 arg5 harg5 arg6 harg6 arg7 harg7 hfirst hlast x0 x1 x2 x3).1, y ∈ pc.1.set :=
  View.cover_of_tiledL (aggRun3_first c i arg2 harg2 arg3 harg3 arg4 harg4 arg5 harg5 arg6 harg6 arg7 harg7 hfirst hlast x0 x1 x2 x3).1 S1024x16.size (by sl_kernel_rfl) y

/-- The accumulator after a first point: its stores read back. -/
def sout3_A_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) : Vec F S1024x16 .f32 :=
  accView3.read (Elt F) (accView3.writes (Elt F) accView3.junk (aggRun3_first c i arg2 harg2 arg3 harg3 arg4 harg4 arg5 harg5 arg6 harg6 arg7 harg7 hfirst hlast x0 x1 x2 x3).1)

/-- The one store of an inner point covers the accumulator. -/
theorem accCover3_inner (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_inner c i arg2 harg2 arg3 harg3 arg4 harg4 arg5 harg5 arg6 harg6 arg7 harg7 hfirst hlast x0 x1 x2 x3 xs).1, y ∈ pc.1.set :=
  View.cover_of_tiledL (aggRun3_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout3_B_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  accView3.read (Elt F) (accView3.writes (Elt F) accView3.junk (aggRun3_inner c i arg2 harg2 arg3 harg3 arg4 harg4 arg5 harg5 arg6 harg6 arg7 harg7 hfirst hlast x0 x1 x2 x3 xs).1)

/-- At a last point the store into the accumulator covers it, -/
theorem accCover3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_last c i arg2 harg2 arg3 harg3 arg4 harg4 arg5 harg5 arg6 harg6 arg7 harg7 hfirst hlast x0 x1 x2 x3 xs).2.1, y ∈ pc.1.set :=
  View.cover_of_tiledL (aggRun3_last c i arg2 harg2 arg3 harg3 arg4 harg4 arg5 harg5 arg6 harg6 arg7 harg7 hfirst hlast x0 x1 x2 x3 xs).2.1 S1024x16.size (by sl_kernel_rfl) y

/-- and the store into the output tile covers that. -/
theorem outCover3_last (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun3_last c i arg2 harg2 arg3 harg3 arg4 harg4 arg5 harg5 arg6 harg6 arg7 harg7 hfirst hlast x0 x1 x2 x3 xs).1, y ∈ pc.1.set :=
  View.cover_of_tiledL (aggRun3_last c i arg2 harg2 arg3 harg3 arg4 harg4 arg5 harg5 arg6 harg6 arg7 harg7 hfirst hlast x0 x1 x2 x3 xs).1 S1024x16.size (by sl_kernel_rfl) y

/-- The accumulator after a last point, -/
def sout3_C_0 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  accView3.read (Elt F) (accView3.writes (Elt F) accView3.junk (aggRun3_last c i arg2 harg2 arg3 harg3 arg4 harg4 arg5 harg5 arg6 harg6 arg7 harg7 hfirst hlast x0 x1 x2 x3 xs).2.1)

/-- and the output tile after it. -/
def out3_C_4 (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) : Vec F S1024x16 .f32 :=
  outView3.read (Elt F) (outView3.writes (Elt F) outView3.junk (aggRun3_last c i arg2 harg2 arg3 harg3 arg4 harg4 arg5 harg5 arg6 harg6 arg7 harg7 hfirst hlast x0 x1 x2 x3 xs).1)

/-! ## The same at a grid point: on the memrefs the pipeline passes there and the blocks the inputs stage -/

def accFirst3 (c : Dev nD) (t : Fin cfg3.N) (h0 : t.val % 196 = 0) : Vec F S1024x16 .f32 :=
  sout3_A_0 c (grid3.coords t) (ms3_0 t) (hs3_0 t) (ms3_1 t) (hs3_1 t) (ms3_2 t) (hs3_2 t) (ms3_3 t) (hs3_3 t) (ms3_4 t) (hs3_4 t) acc3 (Memref.isWhole_whole _)
    (isFirst3 t h0) (notLast3 t (by omega)) (iblk3 V c 0 t) (iblk3 V c 1 t) (iblk3 V c 2 t) (iblk3 V c 3 t)

def accInner3 (c : Dev nD) (t : Fin cfg3.N) (h0 : ¬t.val % 196 = 0) (h1 : ¬t.val % 196 = 195) (xs : Vec F S1024x16 .f32) : Vec F S1024x16 .f32 :=
  sout3_B_0 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t h0) (notLast3 t h1) (iblk3 V c 0 t) (iblk3 V c 1 t) (iblk3 V c 2 t) (iblk3 V c 3 t) xs

def accLast3 (c : Dev nD) (t : Fin cfg3.N) (h1 : t.val % 196 = 195) (xs : Vec F S1024x16 .f32) : Vec F S1024x16 .f32 :=
  sout3_C_0 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t (by omega)) (isLast3 t h1) (iblk3 V c 0 t) (iblk3 V c 1 t) (iblk3 V c 2 t) (iblk3 V c 3 t) xs

def outLast3 (c : Dev nD) (t : Fin cfg3.N) (h1 : t.val % 196 = 195) (xs : Vec F S1024x16 .f32) : Vec F S1024x16 .f32 :=
  out3_C_4 c (grid3.coords t) (ms3_0 t) (hs3_0 t) (ms3_1 t) (hs3_1 t) (ms3_2 t) (hs3_2 t) (ms3_3 t) (hs3_3 t) (ms3_4 t) (hs3_4 t) acc3 (Memref.isWhole_whole _)
    (notFirst3 t (by omega)) (isLast3 t h1) (iblk3 V c 0 t) (iblk3 V c 1 t) (iblk3 V c 2 t) (iblk3 V c 3 t) xs

/-- An output tile nothing was stored into. Off the last source tile the window is idle and is not written back, so
    these contents are never read. -/
def untouched3 : Vec F S1024x16 .f32 := outView3.read (Elt F) outView3.junk

/-! ## The accumulation, point by point -/

/-- What the output tile's staging buffer (first component) and the accumulator (second) hold after the body at
    position `n`: at a first point zero plus the contribution; otherwise what position `n - 1` left in the
    accumulator plus the contribution, which at a last point is also the output tile. -/
def outsAt3 (c : Dev nD) : (n : ℕ) → n < cfg3.N → Vec F S1024x16 .f32 × Vec F S1024x16 .f32
  | 0, hn => (untouched3, accFirst3 V c ⟨0, hn⟩ (Nat.zero_mod _))
  | n + 1, hn =>
    if h0 : (n + 1) % 196 = 0 then (untouched3, accFirst3 V c ⟨n + 1, hn⟩ h0)
    else if h1 : (n + 1) % 196 = 195 then
      (outLast3 V c ⟨n + 1, hn⟩ h1 (outsAt3 c n (Nat.lt_of_succ_lt hn)).2, accLast3 V c ⟨n + 1, hn⟩ h1 (outsAt3 c n (Nat.lt_of_succ_lt hn)).2)
    else (untouched3, accInner3 V c ⟨n + 1, hn⟩ h0 h1 (outsAt3 c n (Nat.lt_of_succ_lt hn)).2)

/-- At a first point. -/
theorem outsAt3_A (c : Dev nD) (t : Fin cfg3.N) (h0 : t.val % 196 = 0) :
    outsAt3 V c t.val t.isLt = (untouched3, accFirst3 V c t h0) := by
  obtain ⟨n, hn⟩ := t
  cases n with
  | zero => rfl
  | succ n => exact dif_pos h0

/-- At an inner point, over what the point before left. -/
theorem outsAt3_B (c : Dev nD) (t : Fin cfg3.N) (h0 : ¬t.val % 196 = 0) (h1 : ¬t.val % 196 = 195) :
    outsAt3 V c t.val t.isLt
      = (untouched3, accInner3 V c t h0 h1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt3_C (c : Dev nD) (t : Fin cfg3.N) (h1 : t.val % 196 = 195) :
    outsAt3 V c t.val t.isLt
      = (outLast3 V c t h1 (outsAt3 V c (t.val - 1) (Nat.lt_of_le_of_lt (Nat.sub_le _ _) t.isLt)).2,
         accLast3 V c t h1 (outsAt3 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- At every position the invariant yields the accumulator at SOME contents (its named contents forgotten). -/
theorem PhiS3_forget (c : Dev nD) (n : ℕ) (h : n ≤ cfg3.N) :
    PhiS3 V c n h ⊢ iprop(iprop(iprop((∃ d, owns (c : Thread nD τ) acc3 fullShare d)) ∗ Pipeline.scopedRestBut (Ix := Unit) (Name := ℕ) (U := UR sig nD τ) (Lvl := ℕ) (Val := Elt F) spec3 c [cc3_scratch0]) ∗ (∃ r, prngReg c r)) := by
  cases n with
  | zero => rw [show PhiS3 V c 0 h = Pipeline.ΦA spec3 c from rfl, PhiA3_eq]
  | succ n =>
    rw [PhiS3_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt3`'s first component; the invariant `PhiS3`; full shares,
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- When the body runs, each input's current buffer holds its block. -/
theorem before3_0 (c : Dev nD) (t : Fin cfg3.N) (d) : (dat3 V c).before 0 t d = iblk3 V c 0 t := before3_0_of V (dat3 V c) (A_eq3 V c 0) t d
theorem before3_1 (c : Dev nD) (t : Fin cfg3.N) (d) : (dat3 V c).before 1 t d = iblk3 V c 1 t := before3_1_of V (dat3 V c) (A_eq3 V c 1) t d
theorem before3_2 (c : Dev nD) (t : Fin cfg3.N) (d) : (dat3 V c).before 2 t d = iblk3 V c 2 t := before3_2_of V (dat3 V c) (A_eq3 V c 2) t d
theorem before3_3 (c : Dev nD) (t : Fin cfg3.N) (d) : (dat3 V c).before 3 t d = iblk3 V c 3 t := before3_3_of V (dat3 V c) (A_eq3 V c 3) t d

/-- And the body, which only reads them, leaves each there (the inputs are live at every point). -/
theorem leaves3_0 (c : Dev nD) (t : Fin cfg3.N) : (dat3 V c).leavesExact 0 t = owns (c : Thread nD τ) (ms3_0 t) fullShare (iblk3 V c 0 t) := by
  rw [← after3_0]
theorem leaves3_1 (c : Dev nD) (t : Fin cfg3.N) : (dat3 V c).leavesExact 1 t = owns (c : Thread nD τ) (ms3_1 t) fullShare (iblk3 V c 1 t) := by
  rw [← after3_1]
theorem leaves3_2 (c : Dev nD) (t : Fin cfg3.N) : (dat3 V c).leavesExact 2 t = owns (c : Thread nD τ) (ms3_2 t) fullShare (iblk3 V c 2 t) := by
  rw [← after3_2]
theorem leaves3_3 (c : Dev nD) (t : Fin cfg3.N) : (dat3 V c).leavesExact 3 t = owns (c : Thread nD τ) (ms3_3 t) fullShare (iblk3 V c 3 t) := by
  rw [← after3_3]

/-! ## The body's obligation -/

/-- What the body is called with at point `t`: the invariant, the core's debts, each window's current buffer, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 1600000 in
/-- At a first point: whatever the accumulator held is forgotten; the run zeroes it and adds the contribution; the
    output tile, idle there, goes back as it came. -/
theorem body_first3 (c : Dev nD) (t : Fin cfg3.N) (h0 : t.val % 196 = 0) :
    bodyPre3 V c t ⊢ wp frame (wpE (defs₀ (F := F)) Variants.none c none) Set.univ (bodyAt3 t) (fun _ => bodyPost3 V c t) := by
  have hl : ¬lastSrc3 (grid3.coords t) := notLast3 t (by omega)
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [Dat.leavesExact_idle (dat3 V c) 4 t (outIdle3 _ hl) (outKept3 t hl)]
  rw [outsAt3_A V c t h0]; unfold accFirst3 sout3_A_0; (try dsimp only)
  rw [PhiS3_castSucc V c t]
  iintro ⟨HΦ, Ho, ⟨%d0, H0⟩, ⟨%d1, H1⟩, ⟨%d2, H2⟩, ⟨%d3, H3⟩, ⟨%d4, H4⟩⟩
  icases (PhiS3_forget V c t.val (Nat.le_of_lt t.isLt)) $$ HΦ with ⟨⟨HA, HR⟩, Hg⟩
  iapply ((aggRun3_first c (grid3.coords t) _ _ _ _ _ _ _ _ _ _ _ _ (isFirst3 t h0) hl (iblk3 V c 0 t) (iblk3 V c 1 t) (iblk3 V c 2 t) (iblk3 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover3_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner3 (c : Dev nD) (t : Fin cfg3.N) (h0 : ¬t.val % 196 = 0) (h1 : ¬t.val % 196 = 195) :
    bodyPre3 V c t ⊢ wp frame (wpE (defs₀ (F := F)) Variants.none c none) Set.univ (bodyAt3 t) (fun _ => bodyPost3 V c t) := by
  have hl : ¬lastSrc3 (grid3.coords t) := notLast3 t h1
  have hz : t.val ≠ 0 := fun h => h0 (by rw [h])
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [Dat.leavesExact_idle (dat3 V c) 4 t (outIdle3 _ hl) (outKept3 t hl)]
  rw [outsAt3_B V c t h0 h1]; unfold accInner3 sout3_B_0; (try dsimp only)
  rw [PhiS3_castSucc V c t, PhiS3_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun3_inner c (grid3.coords t) _ _ _ _ _ _ _ _ _ _ _ _ (notFirst3 t h0) hl (iblk3 V c 0 t) (iblk3 V c 1 t) (iblk3 V c 2 t) (iblk3 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover3_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last3 (c : Dev nD) (t : Fin cfg3.N) (h1 : t.val % 196 = 195) :
    bodyPre3 V c t ⊢ wp frame (wpE (defs₀ (F := F)) Variants.none c none) Set.univ (bodyAt3 t) (fun _ => bodyPost3 V c t) := by
  have hf : ¬firstSrc3 (grid3.coords t) := notFirst3 t (by omega)
  have hl : lastSrc3 (grid3.coords t) := isLast3 t h1
  have hz : t.val ≠ 0 := fun h => by rw [h] at h1; exact absurd h1 (by decide)
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  rw [show (dat3 V c).leavesExact 4 t = owns (c : Thread nD τ) (ms3_4 t) fullShare ((dat3 V c).after 4 t) from by
    unfold Dat.leavesExact; rw [outLive3 _ hl], after3_4]
  rw [outsAt3_C V c t h1]; unfold accLast3 outLast3 sout3_C_0 out3_C_4; (try dsimp only)
  rw [PhiS3_castSucc V c t, PhiS3_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun3_last c (grid3.coords t) _ _ _ _ _ _ _ _ _ _ _ _ hf hl (iblk3 V c 0 t) (iblk3 V c 1 t) (iblk3 V c 2 t) (iblk3 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover3_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover3_last c _ _ _ _ _ _ _ _ _ _ _ _ _ _ _ _ _ _ _ _)

/-- The body at any point: by the kind of point. -/
theorem sound_body3 (c : Dev nD) (t : Fin cfg3.N) : bodyPre3 V c t ⊢ wp frame (wpE (defs₀ (F := F)) Variants.none c none) Set.univ (bodyAt3 t) (fun _ => bodyPost3 V c t) := by
  by_cases h0 : t.val % 196 = 0
  · exact body_first3 V c t h0
  · by_cases h1 : t.val % 196 = 195
    · exact body_last3 V c t h1
    · exact body_inner3 V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl]
  exact Idealize.SL.BI.Entails.refl _

/-- After the last point the invariant gives it back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  exact PhiS3_forget V c _ _

end Cert.KernelIdeal.Gen

end
-- ==== Proof.KI.Dense4.lean ====
/- Region 4 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k4_pay1`). Here: each window's block at a point, what
   the body leaves in the output tile, the body's triple with a frame, the pipeline's proof data, and its body
   obligation at every point. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The output tile after the body -/

/-- The body reads and writes each of its three buffers whole: the rectangle at the origin of the buffer's own extent. -/
abbrev r4_0 : Rect S1024x16 := Rect.unit (s := S1024x16) ![0, 0] S1024x16.size inb_S1024x16_S1024x16_0_0
abbrev r4_1 : Rect S16x16 := Rect.unit (s := S16x16) ![0, 0] S16x16.size inb_S16x16_S16x16_0_0
abbrev r4_2 : Rect S1024x16 := Rect.unit (s := S1024x16) ![0, 0] S1024x16.size inb_S1024x16_S1024x16_0_0

/-- What the body leaves in the output tile, from the row tile `x0` and the weight block `x1`: its single store, the
    product of the two, laid over the tile. -/
def out4_2 (x0 : Vec F S1024x16 .f32) (x1 : Vec F S16x16 .f32) : Vec F S1024x16 .f32 :=
  View.canon [⟨r4_2, k4_pay1 (View.ld x0 r4_0) (View.ld x1 r4_1)⟩]

/-- Every index of the output tile lies in the stored rectangle: on each axis the rectangle starts at 0 and is as long
    as the tile. -/
theorem tile_in_store4 (y : S1024x16.Idx) : y ∈ (r4_2).set := by
  refine Rect.mem_set_unit.mpr fun a => ?_
  have h0 : (![0, 0] : Fin S1024x16.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out4_2 xt wb`; what is read back after the store is the product because the store misses no index of the tile. -/
theorem dense_point4 (c : Dev nD) (E : Set ℕ) (i : grid4.Coords)
    (xbuf : Memref sig .tc .vmem S1024x16 .f32) (hx : xbuf.IsWhole) (wbuf : Memref sig .tc .vmem S16x16 .f32) (hw : wbuf.IsWhole)
    (obuf : Memref sig .tc .vmem S1024x16 .f32) (ho : obuf.IsWhole)
    (xt : Vec F S1024x16 .f32) (wb : Vec F S16x16 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc4__dense_kernel i xbuf hx wbuf hw obuf ho)
          (fun _ => (iprop(R ∗ owns (c : Thread nD τ) xbuf fullShare xt ∗ owns (c : Thread nD τ) wbuf fullShare wb
            ∗ owns (c : Thread nD τ) obuf fullShare (out4_2 xt wb)) : sProp 𝕄)) := by
  rw [cc4__dense_kernel_eq_skeleton]
  unfold cc4__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store4 y⟩
  · iexact Ho

/-! ## The pipeline's proof data -/

/-- The proof data of pipeline 4 on core `c`: the arrays as the region finds them; after the body at point `t` the row
    tile and the weight block still in their buffers and the output tile at their product; the invariant is the rest of
    the core's state, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## What the body finds in the two input buffers -/

/-- The block a fetch at point `t` reads of window `w`'s array is `iblk4 V c w t`: the arrays are `V`'s. -/
theorem blockOf_eq4 (c : Dev nD) (w : Fin cfg4.W) (t : Fin cfg4.N) : (dat4 V c).blockOf w t = iblk4 V c w t := by
  unfold Dat.blockOf iblk4
  rw [A_eq4]

/-- The row tile of `x` is fetched at every point, and the fetch fills the whole buffer (the tile is never cut): the
    body finds the tile of its own point. -/
theorem rowtile_found4 (c : Dev nD) (t : Fin cfg4.N) (d) : (dat4 V c).before 0 t d = iblk4 V c 0 t :=
  calc (dat4 V c).before 0 t d
      = (dat4 V c).fetched 0 t d := (dat4 V c).before_fetched 0 t (fetch4_0 t) d
    _ = (dat4 V c).blockOf 0 t := rfl
    _ = iblk4 V c 0 t := blockOf_eq4 V c 0 t

/-- The weight block is fetched at the first point only. At a later point its block index has not moved and the body
    left the buffer as it found it, so the body finds there what a fetch at that point would have put: `W` again. -/
theorem weight_found4 (c : Dev nD) (t : Fin cfg4.N) (d) : (dat4 V c).before 1 t d = iblk4 V c 1 t :=
  calc (dat4 V c).before 1 t d
      = (dat4 V c).fetched 1 t d :=
        (dat4 V c).before_in_eq_fetched 1 rfl (fun _ => rfl) (fun _ _ _ => rfl)
          (fun s => by rw [after4_1, blockOf_eq4]) t d
    _ = (dat4 V c).blockOf 1 t := rfl
    _ = iblk4 V c 1 t := blockOf_eq4 V c 1 t

/-! ## The body obligation -/

/-- At every point: the two input buffers hold the row tile and the weight block of the point, the output buffer holds
    anything, so `dense_point4` applies with the invariant and the tallies owed as its frame (the body touches neither),
    and it leaves each buffer at what the proof data say. No window is idle at any point. -/
theorem body_obligation4 (c : Dev nD) : BodyObligation (dat4 (F := F) V c) (defs₀ (F := F)) Variants.none () Set.univ := by
  intro t
  rw [bigSep_W4, bigSep_W4]
  show iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d)))
      ⊢ wp frame (wpE (defs₀ (F := F)) Variants.none c none) Set.univ (bodyAt4 t) (fun _ =>
          iprop((dat4 V c).Φ t.castSucc ∗ (dat4 V c).owesAt () t.castSucc
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)))
  simp only [rowtile_found4, weight_found4, after4_0, after4_1, after4_2]
  refine .trans ?_ (wp_mono _ _ _ fun _ => BI.sep_assoc)
  iintro ⟨HΦ, Htally, ⟨%_, Hx⟩, ⟨%_, Hw⟩, ⟨%stale, Hout⟩⟩
  iapply (dense_point4 c Set.univ _ _ _ _ _ _ _ (iblk4 V c 0 t) (iblk4 V c 1 t)
    iprop((dat4 V c).Φ t.castSucc ∗ (dat4 V c).owesAt () t.castSucc))
  isplitl [HΦ Htally]
  · isplitl [HΦ]
    · iexact HΦ
    · iexact Htally
  isplitl [Hx]
  · iexact Hx
  isplitl [Hw]
  · iexact Hw
  iexists (dat4 V c).before 2 t stale
  iexact Hout

end Regions

end Cert.KernelIdeal.Gen
-- ==== Proof.KI.Sched5.lean ====
/- The pipeline schedule of aggregation call 5. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.KI.Points1

noncomputable section

namespace Cert.KernelIdeal.Gen

open Idealize.ShloMosaic Idealize.ShloMosaic.TcCoe
open Idealize.SL Idealize.SL.Sem

/-- Window 0 of call 5 is fetched where window 0 of call 1 is: at every point. -/
theorem fetch5_0 : ∀ t : Fin cfg5.N, (cfg5.win 0).fetch t = true :=
  fun t => (show (cfg5.win 0).fetch t = (cfg1.win 0).fetch t from rfl).trans (fetch1_0 t)
/-- Window 1 of call 5 is fetched where window 1 of call 1 is: at every point. -/
theorem fetch5_1 : ∀ t : Fin cfg5.N, (cfg5.win 1).fetch t = true :=
  fun t => (show (cfg5.win 1).fetch t = (cfg1.win 1).fetch t from rfl).trans (fetch1_1 t)
/-- Window 2 of call 5 is fetched where window 2 of call 1 is: at every point. -/
theorem fetch5_2 : ∀ t : Fin cfg5.N, (cfg5.win 2).fetch t = true :=
  fun t => (show (cfg5.win 2).fetch t = (cfg1.win 2).fetch t from rfl).trans (fetch1_2 t)
/-- Window 3 of call 5 is fetched where window 3 of call 1 is: at every point. -/
theorem fetch5_3 : ∀ t : Fin cfg5.N, (cfg5.win 3).fetch t = true :=
  fun t => (show (cfg5.win 3).fetch t = (cfg1.win 3).fetch t from rfl).trans (fetch1_3 t)
/-- The output tile of call 5 is written back where call 1's is: at the last source tile of each row, t ≡ 195 (mod 196). -/
theorem flush5_4 : ∀ t : Fin cfg5.N, (cfg5.win 4).flush t = true ↔ t.val % 196 = 195 := fun t => by
  rw [show (cfg5.win 4).flush t = (cfg1.win 4).flush t from rfl]; exact flush1_4 t

end Cert.KernelIdeal.Gen

end
-- ==== Proof.KI.Agg5Runs.lean ====
/- The third graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points5
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Every input is fetched at every point and its block is never cut, so when the body runs its current staging
    buffer holds exactly the block — for any proof data over the entry arrays. One statement per input. -/
theorem before5_0_of {c : Dev nD} (dat : Dat τ (Elt F) Unit ℕ (UR sig nD τ) ℕ cfg5 c) (hA : dat.A 0 = V c (Pipeline.arrRef spec5 0))
    (t : Fin cfg5.N) (d) : dat.before 0 t d = iblk5 V c 0 t := by
  rw [dat.before_fetched 0 t (fetch5_0 t) d]; unfold Dat.fetched Dat.blockOf iblk5; rw [hA]; rfl
theorem before5_1_of {c : Dev nD} (dat : Dat τ (Elt F) Unit ℕ (UR sig nD τ) ℕ cfg5 c) (hA : dat.A 1 = V c (Pipeline.arrRef spec5 1))
    (t : Fin cfg5.N) (d) : dat.before 1 t d = iblk5 V c 1 t := by
  rw [dat.before_fetched 1 t (fetch5_1 t) d]; unfold Dat.fetched Dat.blockOf iblk5; rw [hA]; rfl
theorem before5_2_of {c : Dev nD} (dat : Dat τ (Elt F) Unit ℕ (UR sig nD τ) ℕ cfg5 c) (hA : dat.A 2 = V c (Pipeline.arrRef spec5 2))
    (t : Fin cfg5.N) (d) : dat.before 2 t d = iblk5 V c 2 t := by
  rw [dat.before_fetched 2 t (fetch5_2 t) d]; unfold Dat.fetched Dat.blockOf iblk5; rw [hA]; rfl
theorem before5_3_of {c : Dev nD} (dat : Dat τ (Elt F) Unit ℕ (UR sig nD τ) ℕ cfg5 c) (hA : dat.A 3 = V c (Pipeline.arrRef spec5 3))
    (t : Fin cfg5.N) (d) : dat.before 3 t d = iblk5 V c 3 t := by
  rw [dat.before_fetched 3 t (fetch5_3 t) d]; unfold Dat.fetched Dat.blockOf iblk5; rw [hA]; rfl

/-! ## First and last source tile -/

/-- The source coordinate of the flattened point `t` is `t % 196`: the source axis is the last one, of stride one. -/
theorem srcCoord5 (t : Fin cfg5.N) : ((grid5.coords t) 1).val = t.val % 196 := by
  have hs : grid5.stride 1 = 1 := rfl
  show t.val / grid5.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest5 : ∀ j : Fin 196,
    (Scalar.cmpi .ne (Scalar.extui (Scalar.cmpi .eq (BitVec.ofNat 32 j.val) 0#32)) 0#32) = 1#1 ↔ j.val = 0 := by decide +kernel
theorem lastTest5 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc5 (i : grid5.Coords) : Prop := (Scalar.cmpi .ne (Scalar.extui (Scalar.cmpi .eq (BitVec.ofNat 32 (i 1).val) 0#32)) 0#32) = 1#1
/-- which holds at the flattened points t with t % 196 = 0. -/
theorem firstSrc5_iff (t : Fin cfg5.N) : firstSrc5 (grid5.coords t) ↔ t.val % 196 = 0 := by
  rw [← srcCoord5 t]; exact firstTest5 ((grid5.coords t) 1)

/-- It copies the accumulator to the output tile under this one (j = 195), -/
abbrev lastSrc5 (i : grid5.Coords) : Prop := k5_cond2 i = 1#1
/-- which holds at the points with t % 196 = 195. -/
theorem lastSrc5_iff (t : Fin cfg5.N) : lastSrc5 (grid5.coords t) ↔ t.val % 196 = 195 := by
  rw [← srcCoord5 t]; exact lastTest5 ((grid5.coords t) 1)

/-- The two tests read off the flattened point. -/
theorem isFirst5 (t : Fin cfg5.N) (h : t.val % 196 = 0) : firstSrc5 (grid5.coords t) := (firstSrc5_iff t).mpr h
theorem notFirst5 (t : Fin cfg5.N) (h : ¬t.val % 196 = 0) : ¬firstSrc5 (grid5.coords t) := fun hf => h ((firstSrc5_iff t).mp hf)
theorem isLast5 (t : Fin cfg5.N) (h : t.val % 196 = 195) : lastSrc5 (grid5.coords t) := (lastSrc5_iff t).mpr h
theorem notLast5 (t : Fin cfg5.N) (h : ¬t.val % 196 = 195) : ¬lastSrc5 (grid5.coords t) := fun hl => h ((lastSrc5_iff t).mp hl)

/-! ## Where the output tile is untouched -/

/-- Off the last source tile the output window is idle: nothing is stored into it, -/
theorem outIdle5 (i : grid5.Coords) (h : ¬lastSrc5 i) : cfg5.idle 4 i = true := by
  show (!(k5_cond2 i == 1#1)) = true
  simp only [Bool.not_eq_true', beq_eq_false_iff_ne, ne_eq]; exact h
/-- and it is not written back there; -/
theorem outKept5 (t : Fin cfg5.N) (h : ¬lastSrc5 (grid5.coords t)) : (cfg5.win 4).flush t = false := by
  rw [Bool.eq_false_iff]; exact fun hf => h ((lastSrc5_iff t).mpr ((flush5_4 t).mp hf))
/-- on the last source tile it is live. -/
theorem outLive5 (i : grid5.Coords) (h : lastSrc5 i) : cfg5.idle 4 i = false := by
  show (!(k5_cond2 i == 1#1)) = false
  simp only [Bool.not_eq_false', beq_iff_eq]; exact h

/-! ## The memrefs the body is called on -/

/-- Each window's current staging memref at point `t`, as the pipeline passes it, and its wholeness. -/
abbrev ms5_0 (t : Fin cfg5.N) : Memref sig .tc .vmem S1024x16 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x1x512 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1x512 .i32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x16 .f32 := win5_4.stage (cfg5.slots t 4)
abbrev hs5_4 (t : Fin cfg5.N) : (ms5_4 t).IsWhole := hstage5_4 ((cfg5.slots t 4).cast nbuf5_4)
/-- The accumulator: one whole scoped 1024 × 16 buffer of the call's own, carried from point to point. -/
abbrev acc5 : Memref sig .tc .vmem S1024x16 .f32 := Memref.whole cc5_scratch0
/-- The views through which the accumulator's and the output tile's contents are stated. -/
abbrev accView5 : View sig .tc .vmem S1024x16 .f32 := acc5.view
abbrev outView5 : View sig .tc .vmem S1024x16 .f32 := (Memref.whole cc5_stg4_0 : Memref sig .tc .vmem S1024x16 .f32).view

/-- What the call is handed beside its windows: the accumulator at some contents, every other scoped buffer that
    is no staging buffer of this call (unopened), and the generator register at some state. -/
theorem PhiA5_eq (c : Dev nD) :
    (Pipeline.ΦA spec5 c : sProp 𝕄)
      = iprop(iprop(iprop((∃ d, owns (c : Thread nD τ) acc5 fullShare d))
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [acc5, owns_whole]; rfl

end Cert.KernelIdeal.Gen

end
-- ==== Proof.KI.Agg5RunA.lean ====
/- The aggregation body at a FIRST point (source tile j = 0, not the last): the accumulator, whatever it held, is
   zeroed, the contribution of this tile pair is added to it, and the output tile is not touched. -/
import proofs.«140952_j21595095564583_2_alg».proof.Proof.KI.Agg5Runs

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun5_first (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, fun y E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg5RunB.lean ====
/- The aggregation body at an INNER point (source tile 0 < j < 195): the contribution of this tile pair is added to
   what the accumulator held; the output tile is not touched. -/
import proofs.«140952_j21595095564583_2_alg».proof.Proof.KI.Agg5RunA

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun5_inner (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) :
    { Lacc : List (View.Piece (Elt F) S1024x16 .f32) //
      ∀ (y : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, fun y E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg5RunC.lean ====
/- The aggregation body at a LAST point (source tile j = 195): the contribution is added to what the accumulator
   held, and the sum is copied to the output tile. -/
import proofs.«140952_j21595095564583_2_alg».proof.Proof.KI.Agg5RunB

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) :
    Σ' (Lout : List (View.Piece (Elt F) S1024x16 .f32)), { Lacc : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc5__agg_kernel i arg2 harg2 arg3 harg3 arg4 harg4 arg5 harg5 arg6 harg6 arg7 harg7) K } := by
  refine ⟨?_, ?_, fun E K => ?run⟩
  case run =>
    simp only [cc5__agg_kernel_eq_skeleton]; unfold cc5__agg_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.KernelIdeal.Gen

end
-- ==== Proof.KI.Agg5.lean ====
/- The third graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.KI.Agg5RunC

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover5_first (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) (y : S1024x16.Idx) :
    ∃ pc ∈ (aggRun5_first c i arg2 harg2 arg3 harg3 arg4 harg4 arg5 harg5 arg6 harg6 arg7 harg7 hfirst hlast x0 x1 x2 x3).1, y ∈ pc.1.set :=
  View.cover_of_tiledL (aggRun5_first c i arg2 harg2 arg3 harg3 arg4 harg4 arg5 harg5 arg6 harg6 arg7 harg7 hfirst hlast x0 x1 x2 x3).1 S1024x16.size (by sl_kernel_rfl) y

/-- The accumulator after a first point: its stores read back. -/
def sout5_A_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) : Vec F S1024x16 .f32 :=
  accView5.read (Elt F) (accView5.writes (Elt F) accView5.junk (aggRun5_first c i arg2 harg2 arg3 harg3 arg4 harg4 arg5 harg5 arg6 harg6 arg7 harg7 hfirst hlast x0 x1 x2 x3).1)

/-- The one store of an inner point covers the accumulator. -/
theorem accCover5_inner (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_inner c i arg2 harg2 arg3 harg3 arg4 harg4 arg5 harg5 arg6 harg6 arg7 harg7 hfirst hlast x0 x1 x2 x3 xs).1, y ∈ pc.1.set :=
  View.cover_of_tiledL (aggRun5_inner c i arg2 harg2 arg3 harg3 arg4 harg4 arg5 harg5 arg6 harg6 arg7 harg7 hfirst hlast x0 x1 x2 x3 xs).1 S1024x16.size (by sl_kernel_rfl) y

/-- The accumulator after an inner point, over the contents `xs` the point before left. -/
def sout5_B_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  accView5.read (Elt F) (accView5.writes (Elt F) accView5.junk (aggRun5_inner c i arg2 harg2 arg3 harg3 arg4 harg4 arg5 harg5 arg6 harg6 arg7 harg7 hfirst hlast x0 x1 x2 x3 xs).1)

/-- At a last point the store into the accumulator covers it, -/
theorem accCover5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_last c i arg2 harg2 arg3 harg3 arg4 harg4 arg5 harg5 arg6 harg6 arg7 harg7 hfirst hlast x0 x1 x2 x3 xs).2.1, y ∈ pc.1.set :=
  View.cover_of_tiledL (aggRun5_last c i arg2 harg2 arg3 harg3 arg4 harg4 arg5 harg5 arg6 harg6 arg7 harg7 hfirst hlast x0 x1 x2 x3 xs).2.1 S1024x16.size (by sl_kernel_rfl) y

/-- and the store into the output tile covers that. -/
theorem outCover5_last (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) (y : S1024x16.Idx) :
    ∃ pc ∈ (aggRun5_last c i arg2 harg2 arg3 harg3 arg4 harg4 arg5 harg5 arg6 harg6 arg7 harg7 hfirst hlast x0 x1 x2 x3 xs).1, y ∈ pc.1.set :=
  View.cover_of_tiledL (aggRun5_last c i arg2 harg2 arg3 harg3 arg4 harg4 arg5 harg5 arg6 harg6 arg7 harg7 hfirst hlast x0 x1 x2 x3 xs).1 S1024x16.size (by sl_kernel_rfl) y

/-- The accumulator after a last point, -/
def sout5_C_0 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  accView5.read (Elt F) (accView5.writes (Elt F) accView5.junk (aggRun5_last c i arg2 harg2 arg3 harg3 arg4 harg4 arg5 harg5 arg6 harg6 arg7 harg7 hfirst hlast x0 x1 x2 x3 xs).2.1)

/-- and the output tile after it. -/
def out5_C_4 (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) : Vec F S1024x16 .f32 :=
  outView5.read (Elt F) (outView5.writes (Elt F) outView5.junk (aggRun5_last c i arg2 harg2 arg3 harg3 arg4 harg4 arg5 harg5 arg6 harg6 arg7 harg7 hfirst hlast x0 x1 x2 x3 xs).1)

/-! ## The same at a grid point: on the memrefs the pipeline passes there and the blocks the inputs stage -/

def accFirst5 (c : Dev nD) (t : Fin cfg5.N) (h0 : t.val % 196 = 0) : Vec F S1024x16 .f32 :=
  sout5_A_0 c (grid5.coords t) (ms5_0 t) (hs5_0 t) (ms5_1 t) (hs5_1 t) (ms5_2 t) (hs5_2 t) (ms5_3 t) (hs5_3 t) (ms5_4 t) (hs5_4 t) acc5 (Memref.isWhole_whole _)
    (isFirst5 t h0) (notLast5 t (by omega)) (iblk5 V c 0 t) (iblk5 V c 1 t) (iblk5 V c 2 t) (iblk5 V c 3 t)

def accInner5 (c : Dev nD) (t : Fin cfg5.N) (h0 : ¬t.val % 196 = 0) (h1 : ¬t.val % 196 = 195) (xs : Vec F S1024x16 .f32) : Vec F S1024x16 .f32 :=
  sout5_B_0 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t h0) (notLast5 t h1) (iblk5 V c 0 t) (iblk5 V c 1 t) (iblk5 V c 2 t) (iblk5 V c 3 t) xs

def accLast5 (c : Dev nD) (t : Fin cfg5.N) (h1 : t.val % 196 = 195) (xs : Vec F S1024x16 .f32) : Vec F S1024x16 .f32 :=
  sout5_C_0 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t (by omega)) (isLast5 t h1) (iblk5 V c 0 t) (iblk5 V c 1 t) (iblk5 V c 2 t) (iblk5 V c 3 t) xs

def outLast5 (c : Dev nD) (t : Fin cfg5.N) (h1 : t.val % 196 = 195) (xs : Vec F S1024x16 .f32) : Vec F S1024x16 .f32 :=
  out5_C_4 c (grid5.coords t) (ms5_0 t) (hs5_0 t) (ms5_1 t) (hs5_1 t) (ms5_2 t) (hs5_2 t) (ms5_3 t) (hs5_3 t) (ms5_4 t) (hs5_4 t) acc5 (Memref.isWhole_whole _)
    (notFirst5 t (by omega)) (isLast5 t h1) (iblk5 V c 0 t) (iblk5 V c 1 t) (iblk5 V c 2 t) (iblk5 V c 3 t) xs

/-- An output tile nothing was stored into. Off the last source tile the window is idle and is not written back, so
    these contents are never read. -/
def untouched5 : Vec F S1024x16 .f32 := outView5.read (Elt F) outView5.junk

/-! ## The accumulation, point by point -/

/-- What the output tile's staging buffer (first component) and the accumulator (second) hold after the body at
    position `n`: at a first point zero plus the contribution; otherwise what position `n - 1` left in the
    accumulator plus the contribution, which at a last point is also the output tile. -/
def outsAt5 (c : Dev nD) : (n : ℕ) → n < cfg5.N → Vec F S1024x16 .f32 × Vec F S1024x16 .f32
  | 0, hn => (untouched5, accFirst5 V c ⟨0, hn⟩ (Nat.zero_mod _))
  | n + 1, hn =>
    if h0 : (n + 1) % 196 = 0 then (untouched5, accFirst5 V c ⟨n + 1, hn⟩ h0)
    else if h1 : (n + 1) % 196 = 195 then
      (outLast5 V c ⟨n + 1, hn⟩ h1 (outsAt5 c n (Nat.lt_of_succ_lt hn)).2, accLast5 V c ⟨n + 1, hn⟩ h1 (outsAt5 c n (Nat.lt_of_succ_lt hn)).2)
    else (untouched5, accInner5 V c ⟨n + 1, hn⟩ h0 h1 (outsAt5 c n (Nat.lt_of_succ_lt hn)).2)

/-- At a first point. -/
theorem outsAt5_A (c : Dev nD) (t : Fin cfg5.N) (h0 : t.val % 196 = 0) :
    outsAt5 V c t.val t.isLt = (untouched5, accFirst5 V c t h0) := by
  obtain ⟨n, hn⟩ := t
  cases n with
  | zero => rfl
  | succ n => exact dif_pos h0

/-- At an inner point, over what the point before left. -/
theorem outsAt5_B (c : Dev nD) (t : Fin cfg5.N) (h0 : ¬t.val % 196 = 0) (h1 : ¬t.val % 196 = 195) :
    outsAt5 V c t.val t.isLt
      = (untouched5, accInner5 V c t h0 h1 (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt5_C (c : Dev nD) (t : Fin cfg5.N) (h1 : t.val % 196 = 195) :
    outsAt5 V c t.val t.isLt
      = (outLast5 V c t h1 (outsAt5 V c (t.val - 1) (Nat.lt_of_le_of_lt (Nat.sub_le _ _) t.isLt)).2,
         accLast5 V c t h1 (outsAt5 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS5 (c : Dev nD) : (n : ℕ) → n ≤ cfg5.N → sProp 𝕄
  | 0, _ => Pipeline.ΦA spec5 c
  | n + 1, hn => iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_succ (c : Dev nD) (n : ℕ) (hn : n < cfg5.N) :
    PhiS5 V c (n + 1) hn = iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) acc5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- At every position the invariant yields the accumulator at SOME contents (its named contents forgotten). -/
theorem PhiS5_forget (c : Dev nD) (n : ℕ) (h : n ≤ cfg5.N) :
    PhiS5 V c n h ⊢ iprop(iprop(iprop((∃ d, owns (c : Thread nD τ) acc5 fullShare d)) ∗ Pipeline.scopedRestBut (Ix := Unit) (Name := ℕ) (U := UR sig nD τ) (Lvl := ℕ) (Val := Elt F) spec5 c [cc5_scratch0]) ∗ (∃ r, prngReg c r)) := by
  cases n with
  | zero => rw [show PhiS5 V c 0 h = Pipeline.ΦA spec5 c from rfl, PhiA5_eq]
  | succ n =>
    rw [PhiS5_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt5`'s first component; the invariant `PhiS5`; full shares,
    nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- When the body runs, each input's current buffer holds its block. -/
theorem before5_0 (c : Dev nD) (t : Fin cfg5.N) (d) : (dat5 V c).before 0 t d = iblk5 V c 0 t := before5_0_of V (dat5 V c) (A_eq5 V c 0) t d
theorem before5_1 (c : Dev nD) (t : Fin cfg5.N) (d) : (dat5 V c).before 1 t d = iblk5 V c 1 t := before5_1_of V (dat5 V c) (A_eq5 V c 1) t d
theorem before5_2 (c : Dev nD) (t : Fin cfg5.N) (d) : (dat5 V c).before 2 t d = iblk5 V c 2 t := before5_2_of V (dat5 V c) (A_eq5 V c 2) t d
theorem before5_3 (c : Dev nD) (t : Fin cfg5.N) (d) : (dat5 V c).before 3 t d = iblk5 V c 3 t := before5_3_of V (dat5 V c) (A_eq5 V c 3) t d

/-- And the body, which only reads them, leaves each there (the inputs are live at every point). -/
theorem leaves5_0 (c : Dev nD) (t : Fin cfg5.N) : (dat5 V c).leavesExact 0 t = owns (c : Thread nD τ) (ms5_0 t) fullShare (iblk5 V c 0 t) := by
  rw [← after5_0]
theorem leaves5_1 (c : Dev nD) (t : Fin cfg5.N) : (dat5 V c).leavesExact 1 t = owns (c : Thread nD τ) (ms5_1 t) fullShare (iblk5 V c 1 t) := by
  rw [← after5_1]
theorem leaves5_2 (c : Dev nD) (t : Fin cfg5.N) : (dat5 V c).leavesExact 2 t = owns (c : Thread nD τ) (ms5_2 t) fullShare (iblk5 V c 2 t) := by
  rw [← after5_2]
theorem leaves5_3 (c : Dev nD) (t : Fin cfg5.N) : (dat5 V c).leavesExact 3 t = owns (c : Thread nD τ) (ms5_3 t) fullShare (iblk5 V c 3 t) := by
  rw [← after5_3]

/-! ## The body's obligation -/

/-- What the body is called with at point `t`: the invariant, the core's debts, each window's current buffer, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t
    ∗ (dat5 V c).leavesExact 3 t ∗ (dat5 V c).leavesExact 4 t)

set_option maxHeartbeats 1600000 in
/-- At a first point: whatever the accumulator held is forgotten; the run zeroes it and adds the contribution; the
    output tile, idle there, goes back as it came. -/
theorem body_first5 (c : Dev nD) (t : Fin cfg5.N) (h0 : t.val % 196 = 0) :
    bodyPre5 V c t ⊢ wp frame (wpE (defs₀ (F := F)) Variants.none c none) Set.univ (bodyAt5 t) (fun _ => bodyPost5 V c t) := by
  have hl : ¬lastSrc5 (grid5.coords t) := notLast5 t (by omega)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [Dat.leavesExact_idle (dat5 V c) 4 t (outIdle5 _ hl) (outKept5 t hl)]
  rw [outsAt5_A V c t h0]; unfold accFirst5 sout5_A_0; (try dsimp only)
  rw [PhiS5_castSucc V c t]
  iintro ⟨HΦ, Ho, ⟨%d0, H0⟩, ⟨%d1, H1⟩, ⟨%d2, H2⟩, ⟨%d3, H3⟩, ⟨%d4, H4⟩⟩
  icases (PhiS5_forget V c t.val (Nat.le_of_lt t.isLt)) $$ HΦ with ⟨⟨HA, HR⟩, Hg⟩
  iapply ((aggRun5_first c (grid5.coords t) _ _ _ _ _ _ _ _ _ _ _ _ (isFirst5 t h0) hl (iblk5 V c 0 t) (iblk5 V c 1 t) (iblk5 V c 2 t) (iblk5 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover5_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner5 (c : Dev nD) (t : Fin cfg5.N) (h0 : ¬t.val % 196 = 0) (h1 : ¬t.val % 196 = 195) :
    bodyPre5 V c t ⊢ wp frame (wpE (defs₀ (F := F)) Variants.none c none) Set.univ (bodyAt5 t) (fun _ => bodyPost5 V c t) := by
  have hl : ¬lastSrc5 (grid5.coords t) := notLast5 t h1
  have hz : t.val ≠ 0 := fun h => h0 (by rw [h])
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [Dat.leavesExact_idle (dat5 V c) 4 t (outIdle5 _ hl) (outKept5 t hl)]
  rw [outsAt5_B V c t h0 h1]; unfold accInner5 sout5_B_0; (try dsimp only)
  rw [PhiS5_castSucc V c t, PhiS5_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun5_inner c (grid5.coords t) _ _ _ _ _ _ _ _ _ _ _ _ (notFirst5 t h0) hl (iblk5 V c 0 t) (iblk5 V c 1 t) (iblk5 V c 2 t) (iblk5 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover5_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last5 (c : Dev nD) (t : Fin cfg5.N) (h1 : t.val % 196 = 195) :
    bodyPre5 V c t ⊢ wp frame (wpE (defs₀ (F := F)) Variants.none c none) Set.univ (bodyAt5 t) (fun _ => bodyPost5 V c t) := by
  have hf : ¬firstSrc5 (grid5.coords t) := notFirst5 t (by omega)
  have hl : lastSrc5 (grid5.coords t) := isLast5 t h1
  have hz : t.val ≠ 0 := fun h => by rw [h] at h1; exact absurd h1 (by decide)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3]
  rw [show (dat5 V c).leavesExact 4 t = owns (c : Thread nD τ) (ms5_4 t) fullShare ((dat5 V c).after 4 t) from by
    unfold Dat.leavesExact; rw [outLive5 _ hl], after5_4]
  rw [outsAt5_C V c t h1]; unfold accLast5 outLast5 sout5_C_0 out5_C_4; (try dsimp only)
  rw [PhiS5_castSucc V c t, PhiS5_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun5_last c (grid5.coords t) _ _ _ _ _ _ _ _ _ _ _ _ hf hl (iblk5 V c 0 t) (iblk5 V c 1 t) (iblk5 V c 2 t) (iblk5 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover5_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover5_last c _ _ _ _ _ _ _ _ _ _ _ _ _ _ _ _ _ _ _ _)

/-- The body at any point: by the kind of point. -/
theorem sound_body5 (c : Dev nD) (t : Fin cfg5.N) : bodyPre5 V c t ⊢ wp frame (wpE (defs₀ (F := F)) Variants.none c none) Set.univ (bodyAt5 t) (fun _ => bodyPost5 V c t) := by
  by_cases h0 : t.val % 196 = 0
  · exact body_first5 V c t h0
  · by_cases h1 : t.val % 196 = 195
    · exact body_last5 V c t h1
    · exact body_inner5 V c t h0 h1

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl]
  exact Idealize.SL.BI.Entails.refl _

/-- After the last point the invariant gives it back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  exact PhiS5_forget V c _ _

end Cert.KernelIdeal.Gen

end
-- ==== Proof.KI.Dense6.lean ====
/- Region 6 of @main: one tiled dense product `x · W` over a grid of 196 points, stated at a PARAMETER `V`, the
   TensorCore's buffer contents when the region is entered. Window 0 carries the row tile of `x` at the point, window 1
   carries the weight block `W` whole (its block index is the same at every point), window 2 carries the row tile of the
   result. At a point the body reads the row tile and the weight block and leaves in the output tile their product, each
   operand rounded to bf16 and the sums taken in f32 from zero (`k6_pay1`). Here: each window's block at a point, what
   the body leaves in the output tile, the body's triple with a frame, the pipeline's proof data, and its body
   obligation at every point. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- terms over the long axis of a row tile are as deep as the axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The output tile after the body -/

/-- The body reads and writes each of its three buffers whole: the rectangle at the origin of the buffer's own extent. -/
abbrev r6_0 : Rect S1024x16 := Rect.unit (s := S1024x16) ![0, 0] S1024x16.size inb_S1024x16_S1024x16_0_0
abbrev r6_1 : Rect S16x1 := Rect.unit (s := S16x1) ![0, 0] S16x1.size inb_S16x1_S16x1_0_0
abbrev r6_2 : Rect S1024x1 := Rect.unit (s := S1024x1) ![0, 0] S1024x1.size inb_S1024x1_S1024x1_0_0

/-- What the body leaves in the output tile, from the row tile `x0` and the weight block `x1`: its single store, the
    product of the two, laid over the tile. -/
def out6_2 (x0 : Vec F S1024x16 .f32) (x1 : Vec F S16x1 .f32) : Vec F S1024x1 .f32 :=
  View.canon [⟨r6_2, k6_pay1 (View.ld x0 r6_0) (View.ld x1 r6_1)⟩]

/-- Every index of the output tile lies in the stored rectangle: on each axis the rectangle starts at 0 and is as long
    as the tile. -/
theorem tile_in_store6 (y : S1024x1.Idx) : y ∈ (r6_2).set := by
  refine Rect.mem_set_unit.mpr fun a => ?_
  have h0 : (![0, 0] : Fin S1024x1.rank → ℕ) a = 0 := by
    fin_cases a <;> rfl
  rw [h0]
  exact ⟨Nat.zero_le _, by rw [Nat.zero_add]; exact (y a).isLt⟩

/-! ## The body's triple -/

set_option maxHeartbeats 1000000 in
/-- The body on three whole buffers — the first two holding a row tile `xt` and a weight block `wb`, the third
    anything — beside any frame `R`: it reads `xt`, reads `wb`, reads the third buffer without using the value, and
    stores the product over all of it. It ends with the frame and the two inputs as they were and the third buffer at
    `out6_2 xt wb`; what is read back after the store is the product because the store misses no index of the tile. -/
theorem dense_point6 (c : Dev nD) (E : Set ℕ) (i : grid6.Coords)
    (xbuf : Memref sig .tc .vmem S1024x16 .f32) (hx : xbuf.IsWhole) (wbuf : Memref sig .tc .vmem S16x1 .f32) (hw : wbuf.IsWhole)
    (obuf : Memref sig .tc .vmem S1024x1 .f32) (ho : obuf.IsWhole)
    (xt : Vec F S1024x16 .f32) (wb : Vec F S16x1 .f32) (R : sProp 𝕄) :
    iprop(R ∗ owns (c : Thread nD τ) xbuf fullShare xt ∗ owns (c : Thread nD τ) wbuf fullShare wb ∗ (∃ old, owns (c : Thread nD τ) obuf fullShare old))
      ⊢ wp frame (wpE (defs₀ (F := F)) Variants.none c none) E (cc6__dense_kernel i xbuf hx wbuf hw obuf ho)
          (fun _ => (iprop(R ∗ owns (c : Thread nD τ) xbuf fullShare xt ∗ owns (c : Thread nD τ) wbuf fullShare wb
            ∗ owns (c : Thread nD τ) obuf fullShare (out6_2 xt wb)) : sProp 𝕄)) := by
  rw [cc6__dense_kernel_eq_skeleton]
  unfold cc6__dense_kernel_skel owns
  iintro ⟨HR, ⟨%fx, %hfx, Hx⟩, ⟨%fw, %hfw, Hw⟩, ⟨%old, %fo, -, Ho⟩⟩
  subst hfx hfw
  sl_exec
  sl_step
  isplitl [HR]
  · iexact HR
  isplitl [Hx]
  · iexists fx
    isplitr
    · ipureintro; rfl
    · iexact Hx
  isplitl [Hw]
  · iexists fw
    isplitr
    · ipureintro; rfl
    · iexact Hw
  iexists _
  isplitr
  · ipureintro
    exact View.read_writes_eq_canon obuf.view fo _ fun y => ⟨_, List.mem_cons_self, tile_in_store6 y⟩
  · iexact Ho

/-! ## The pipeline's proof data -/

/-- The proof data of pipeline 6 on core `c`: the arrays as the region finds them; after the body at point `t` the row
    tile and the weight block still in their buffers and the output tile at their product; the invariant is the rest of
    the core's state, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-! ## What the body finds in the two input buffers -/

/-- The block a fetch at point `t` reads of window `w`'s array is `iblk6 V c w t`: the arrays are `V`'s. -/
theorem blockOf_eq6 (c : Dev nD) (w : Fin cfg6.W) (t : Fin cfg6.N) : (dat6 V c).blockOf w t = iblk6 V c w t := by
  unfold Dat.blockOf iblk6
  rw [A_eq6]

/-- The row tile of `x` is fetched at every point, and the fetch fills the whole buffer (the tile is never cut): the
    body finds the tile of its own point. -/
theorem rowtile_found6 (c : Dev nD) (t : Fin cfg6.N) (d) : (dat6 V c).before 0 t d = iblk6 V c 0 t :=
  calc (dat6 V c).before 0 t d
      = (dat6 V c).fetched 0 t d := (dat6 V c).before_fetched 0 t (fetch6_0 t) d
    _ = (dat6 V c).blockOf 0 t := rfl
    _ = iblk6 V c 0 t := blockOf_eq6 V c 0 t

/-- The weight block is fetched at the first point only. At a later point its block index has not moved and the body
    left the buffer as it found it, so the body finds there what a fetch at that point would have put: `W` again. -/
theorem weight_found6 (c : Dev nD) (t : Fin cfg6.N) (d) : (dat6 V c).before 1 t d = iblk6 V c 1 t :=
  calc (dat6 V c).before 1 t d
      = (dat6 V c).fetched 1 t d :=
        (dat6 V c).before_in_eq_fetched 1 rfl (fun _ => rfl) (fun _ _ _ => rfl)
          (fun s => by rw [after6_1, blockOf_eq6]) t d
    _ = (dat6 V c).blockOf 1 t := rfl
    _ = iblk6 V c 1 t := blockOf_eq6 V c 1 t

/-! ## The body obligation -/

/-- At every point: the two input buffers hold the row tile and the weight block of the point, the output buffer holds
    anything, so `dense_point6` applies with the invariant and the tallies owed as its frame (the body touches neither),
    and it leaves each buffer at what the proof data say. No window is idle at any point. -/
theorem body_obligation6 (c : Dev nD) : BodyObligation (dat6 (F := F) V c) (defs₀ (F := F)) Variants.none () Set.univ := by
  intro t
  rw [bigSep_W6, bigSep_W6]
  show iprop((dat6 V c).Φ t.castSucc ∗ (dat6 V c).owesAt () t.castSucc
        ∗ (∃ d, owns (c : Thread nD τ) (st6_0 t) fullShare ((dat6 V c).before 0 t d))
        ∗ (∃ d, owns (c : Thread nD τ) (st6_1 t) fullShare ((dat6 V c).before 1 t d))
        ∗ (∃ d, owns (c : Thread nD τ) (st6_2 t) fullShare ((dat6 V c).before 2 t d)))
      ⊢ wp frame (wpE (defs₀ (F := F)) Variants.none c none) Set.univ (bodyAt6 t) (fun _ =>
          iprop((dat6 V c).Φ t.castSucc ∗ (dat6 V c).owesAt () t.castSucc
            ∗ owns (c : Thread nD τ) (st6_0 t) fullShare ((dat6 V c).after 0 t)
            ∗ owns (c : Thread nD τ) (st6_1 t) fullShare ((dat6 V c).after 1 t)
            ∗ owns (c : Thread nD τ) (st6_2 t) fullShare ((dat6 V c).after 2 t)))
  simp only [rowtile_found6, weight_found6, after6_0, after6_1, after6_2]
  refine .trans ?_ (wp_mono _ _ _ fun _ => BI.sep_assoc)
  iintro ⟨HΦ, Htally, ⟨%_, Hx⟩, ⟨%_, Hw⟩, ⟨%stale, Hout⟩⟩
  iapply (dense_point6 c Set.univ _ _ _ _ _ _ _ (iblk6 V c 0 t) (iblk6 V c 1 t)
    iprop((dat6 V c).Φ t.castSucc ∗ (dat6 V c).owesAt () t.castSucc))
  isplitl [HΦ Htally]
  · isplitl [HΦ]
    · iexact HΦ
    · iexact Htally
  isplitl [Hx]
  · iexact Hx
  isplitl [Hw]
  · iexact Hw
  iexists (dat6 V c).before 2 t stale
  iexact Hout

end Regions

end Cert.KernelIdeal.Gen
-- ==== Proof.KI.Sched7.lean ====
/- The pipeline schedule of aggregation call 7. Its five windows have the index maps of the first aggregation call's
   windows on the same 196 × 196 grid — the same expressions of the grid point: the rows tile at (j, 0), the three edge
   tiles at (196·i + j, 0, 0), the output tile at (i, 0) — so each window is fetched, and the output tile written back,
   at exactly the points where the first call's is. The equalities hold by unfolding, at a symbolic point; the facts
   themselves are the first call's. -/
import proofs.«140952_j21595095564583_2_alg».proof.Proof.KI.Points1

noncomputable section

namespace Cert.KernelIdeal.Gen

open Idealize.ShloMosaic Idealize.ShloMosaic.TcCoe
open Idealize.SL Idealize.SL.Sem

/-- Window 0 of call 7 is fetched where window 0 of call 1 is: at every point. -/
theorem fetch7_0 : ∀ t : Fin cfg7.N, (cfg7.win 0).fetch t = true :=
  fun t => (show (cfg7.win 0).fetch t = (cfg1.win 0).fetch t from rfl).trans (fetch1_0 t)
/-- Window 1 of call 7 is fetched where window 1 of call 1 is: at every point. -/
theorem fetch7_1 : ∀ t : Fin cfg7.N, (cfg7.win 1).fetch t = true :=
  fun t => (show (cfg7.win 1).fetch t = (cfg1.win 1).fetch t from rfl).trans (fetch1_1 t)
/-- Window 2 of call 7 is fetched where window 2 of call 1 is: at every point. -/
theorem fetch7_2 : ∀ t : Fin cfg7.N, (cfg7.win 2).fetch t = true :=
  fun t => (show (cfg7.win 2).fetch t = (cfg1.win 2).fetch t from rfl).trans (fetch1_2 t)
/-- Window 3 of call 7 is fetched where window 3 of call 1 is: at every point. -/
theorem fetch7_3 : ∀ t : Fin cfg7.N, (cfg7.win 3).fetch t = true :=
  fun t => (show (cfg7.win 3).fetch t = (cfg1.win 3).fetch t from rfl).trans (fetch1_3 t)
/-- The output tile of call 7 is written back where call 1's is: at the last source tile of each row, t ≡ 195 (mod 196). -/
theorem flush7_4 : ∀ t : Fin cfg7.N, (cfg7.win 4).flush t = true ↔ t.val % 196 = 195 := fun t => by
  rw [show (cfg7.win 4).flush t = (cfg1.win 4).flush t from rfl]; exact flush1_4 t

end Cert.KernelIdeal.Gen

end
-- ==== Proof.KI.Agg7Runs.lean ====
/- The fourth graph-aggregation call (grid 196 × 196 over destination tile i and source tile j): what its three
   kinds of grid point share. A point is FIRST when j = 0 (the accumulator is zeroed before the
   contribution is added), LAST when j = 195 (the accumulator is also copied to the output tile), INNER
   otherwise. Here: the input blocks as read off the arrays, the two conditions in closed form over the
   flattened point t (j = t % 196), where the output window is idle, and the invariant's shape with the
   accumulator named. -/
import proofs.«140952_j21595095564583_2_alg».proof.Proof.Gen.KernelIdeal.Launch
import proofs.«140952_j21595095564583_2_alg».proof.Proof.Gen.KernelIdeal.Skeleton
import proofs.«140952_j21595095564583_2_alg».proof.Proof.KI.Points7
import Idealize.ShloMosaic.Lib.Pipeline.FrameBody
import Idealize.ShloMosaic.Lib.Ring
import Idealize.ShloMosaic.Lib.Tactic

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## The blocks the four inputs stage -/

/-- Window `w`'s block at point `t` (the feature tile of source j; the source-index, destination-index and
    weight rows of tile pair (i, j)), read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Every input is fetched at every point and its block is never cut, so when the body runs its current staging
    buffer holds exactly the block — for any proof data over the entry arrays. One statement per input. -/
theorem before7_0_of {c : Dev nD} (dat : Dat τ (Elt F) Unit ℕ (UR sig nD τ) ℕ cfg7 c) (hA : dat.A 0 = V c (Pipeline.arrRef spec7 0))
    (t : Fin cfg7.N) (d) : dat.before 0 t d = iblk7 V c 0 t := by
  rw [dat.before_fetched 0 t (fetch7_0 t) d]; unfold Dat.fetched Dat.blockOf iblk7; rw [hA]; rfl
theorem before7_1_of {c : Dev nD} (dat : Dat τ (Elt F) Unit ℕ (UR sig nD τ) ℕ cfg7 c) (hA : dat.A 1 = V c (Pipeline.arrRef spec7 1))
    (t : Fin cfg7.N) (d) : dat.before 1 t d = iblk7 V c 1 t := by
  rw [dat.before_fetched 1 t (fetch7_1 t) d]; unfold Dat.fetched Dat.blockOf iblk7; rw [hA]; rfl
theorem before7_2_of {c : Dev nD} (dat : Dat τ (Elt F) Unit ℕ (UR sig nD τ) ℕ cfg7 c) (hA : dat.A 2 = V c (Pipeline.arrRef spec7 2))
    (t : Fin cfg7.N) (d) : dat.before 2 t d = iblk7 V c 2 t := by
  rw [dat.before_fetched 2 t (fetch7_2 t) d]; unfold Dat.fetched Dat.blockOf iblk7; rw [hA]; rfl
theorem before7_3_of {c : Dev nD} (dat : Dat τ (Elt F) Unit ℕ (UR sig nD τ) ℕ cfg7 c) (hA : dat.A 3 = V c (Pipeline.arrRef spec7 3))
    (t : Fin cfg7.N) (d) : dat.before 3 t d = iblk7 V c 3 t := by
  rw [dat.before_fetched 3 t (fetch7_3 t) d]; unfold Dat.fetched Dat.blockOf iblk7; rw [hA]; rfl

/-! ## First and last source tile -/

/-- The source coordinate of the flattened point `t` is `t % 196`: the source axis is the last one, of stride one. -/
theorem srcCoord7 (t : Fin cfg7.N) : ((grid7.coords t) 1).val = t.val % 196 := by
  have hs : grid7.stride 1 = 1 := rfl
  show t.val / grid7.stride 1 % 196 = t.val % 196
  rw [hs, Nat.div_one]

/-- The body's two tests of a source coordinate `j < 196`, as it computes them in 32-bit words (compare, widen the
    bit, compare with zero): the first holds exactly at `j = 0`, the second exactly at `j = 195`. Decided over the
    196 coordinates. -/
theorem firstTest7 : ∀ j : Fin 196,
    (Scalar.cmpi .ne (Scalar.extui (Scalar.cmpi .eq (BitVec.ofNat 32 j.val) 0#32)) 0#32) = 1#1 ↔ j.val = 0 := by decide +kernel
theorem lastTest7 : ∀ j : Fin 196,
    (Scalar.cmpi .ne (Scalar.extui (Scalar.cmpi .eq (BitVec.ofNat 32 j.val) 195#32)) 0#32) = 1#1 ↔ j.val = 195 := by decide +kernel

/-- The body zeroes the accumulator under this test of the source coordinate (j = 0), -/
abbrev firstSrc7 (i : grid7.Coords) : Prop := (Scalar.cmpi .ne (Scalar.extui (Scalar.cmpi .eq (BitVec.ofNat 32 (i 1).val) 0#32)) 0#32) = 1#1
/-- which holds at the flattened points t with t % 196 = 0. -/
theorem firstSrc7_iff (t : Fin cfg7.N) : firstSrc7 (grid7.coords t) ↔ t.val % 196 = 0 := by
  rw [← srcCoord7 t]; exact firstTest7 ((grid7.coords t) 1)

/-- It copies the accumulator to the output tile under this one (j = 195), -/
abbrev lastSrc7 (i : grid7.Coords) : Prop := k7_cond2 i = 1#1
/-- which holds at the points with t % 196 = 195. -/
theorem lastSrc7_iff (t : Fin cfg7.N) : lastSrc7 (grid7.coords t) ↔ t.val % 196 = 195 := by
  rw [← srcCoord7 t]; exact lastTest7 ((grid7.coords t) 1)

/-- The two tests read off the flattened point. -/
theorem isFirst7 (t : Fin cfg7.N) (h : t.val % 196 = 0) : firstSrc7 (grid7.coords t) := (firstSrc7_iff t).mpr h
theorem notFirst7 (t : Fin cfg7.N) (h : ¬t.val % 196 = 0) : ¬firstSrc7 (grid7.coords t) := fun hf => h ((firstSrc7_iff t).mp hf)
theorem isLast7 (t : Fin cfg7.N) (h : t.val % 196 = 195) : lastSrc7 (grid7.coords t) := (lastSrc7_iff t).mpr h
theorem notLast7 (t : Fin cfg7.N) (h : ¬t.val % 196 = 195) : ¬lastSrc7 (grid7.coords t) := fun hl => h ((lastSrc7_iff t).mp hl)

/-! ## Where the output tile is untouched -/

/-- Off the last source tile the output window is idle: nothing is stored into it, -/
theorem outIdle7 (i : grid7.Coords) (h : ¬lastSrc7 i) : cfg7.idle 4 i = true := by
  show (!(k7_cond2 i == 1#1)) = true
  simp only [Bool.not_eq_true', beq_eq_false_iff_ne, ne_eq]; exact h
/-- and it is not written back there; -/
theorem outKept7 (t : Fin cfg7.N) (h : ¬lastSrc7 (grid7.coords t)) : (cfg7.win 4).flush t = false := by
  rw [Bool.eq_false_iff]; exact fun hf => h ((lastSrc7_iff t).mpr ((flush7_4 t).mp hf))
/-- on the last source tile it is live. -/
theorem outLive7 (i : grid7.Coords) (h : lastSrc7 i) : cfg7.idle 4 i = false := by
  show (!(k7_cond2 i == 1#1)) = false
  simp only [Bool.not_eq_false', beq_iff_eq]; exact h

/-! ## The memrefs the body is called on -/

/-- Each window's current staging memref at point `t`, as the pipeline passes it, and its wholeness. -/
abbrev ms7_0 (t : Fin cfg7.N) : Memref sig .tc .vmem S1024x1 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x1x512 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1x512 .i32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1024x1 .f32 := win7_4.stage (cfg7.slots t 4)
abbrev hs7_4 (t : Fin cfg7.N) : (ms7_4 t).IsWhole := hstage7_4 ((cfg7.slots t 4).cast nbuf7_4)
/-- The accumulator: one whole scoped 1024 × 1 buffer of the call's own, carried from point to point. -/
abbrev acc7 : Memref sig .tc .vmem S1024x1 .f32 := Memref.whole cc7_scratch0
/-- The views through which the accumulator's and the output tile's contents are stated. -/
abbrev accView7 : View sig .tc .vmem S1024x1 .f32 := acc7.view
abbrev outView7 : View sig .tc .vmem S1024x1 .f32 := (Memref.whole cc7_stg4_0 : Memref sig .tc .vmem S1024x1 .f32).view

/-- What the call is handed beside its windows: the accumulator at some contents, every other scoped buffer that
    is no staging buffer of this call (unopened), and the generator register at some state. -/
theorem PhiA7_eq (c : Dev nD) :
    (Pipeline.ΦA spec7 c : sProp 𝕄)
      = iprop(iprop(iprop((∃ d, owns (c : Thread nD τ) acc7 fullShare d))
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [acc7, owns_whole]; rfl

end Cert.KernelIdeal.Gen

end
-- ==== Proof.KI.Agg7RunA.lean ====
/- The aggregation body at a FIRST point (source tile j = 0, not the last): the accumulator, whatever it held, is
   zeroed, the contribution of this tile pair is added to it, and the output tile is not touched. -/
import proofs.«140952_j21595095564583_2_alg».proof.Proof.KI.Agg7Runs

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

-- the run's proof term is large: closing the definition walks it past the default budget
set_option maxHeartbeats 1000000 in
/-- On whole memrefs — the four inputs at their blocks `x0 … x3`, the output tile at any `y`, the accumulator at
    anything — the body at a first point runs to: the inputs and the output tile as they were, the accumulator with
    the stores `Lacc` written (the zero fill, then zero plus the contribution). The stores are what the symbolic run
    of the skeleton meets; they are the witness. -/
noncomputable def aggRun7_first (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) :
    { Lacc : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, fun y E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg7RunB.lean ====
/- The aggregation body at an INNER point (source tile 0 < j < 195): the contribution of this tile pair is added to
   what the accumulator held; the output tile is not touched. -/
import proofs.«140952_j21595095564583_2_alg».proof.Proof.KI.Agg7RunA

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at any `y`, the accumulator at `xs` (what the
    point before left) — the body at an inner point runs to: inputs and output tile as they were, the accumulator
    with the one store `Lacc` written (`xs` plus the contribution). -/
noncomputable def aggRun7_inner (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) :
    { Lacc : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare y ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, fun y E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HA

end Cert.KernelIdeal.Gen

end
-- ==== Proof.KI.Agg7RunC.lean ====
/- The aggregation body at a LAST point (source tile j = 195): the contribution is added to what the accumulator
   held, and the sum is copied to the output tile. -/
import proofs.«140952_j21595095564583_2_alg».proof.Proof.KI.Agg7RunB

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

set_option maxHeartbeats 1000000 in
/-- On whole memrefs — the inputs at their blocks, the output tile at anything, the accumulator at `xs` — the body
    at a last point runs to: inputs as they were, the accumulator with `Lacc` written (`xs` plus the contribution)
    and the output tile with `Lout` written (the accumulator read back). -/
noncomputable def aggRun7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) :
    Σ' (Lout : List (View.Piece (Elt F) S1024x1 .f32)), { Lacc : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f Lout) ∗ (∃ f, arg7.view.loc (c : Thread nD τ) ↦[arg7.view.set]{fullShare} arg7.view.writes (Elt F) f Lacc)) -∗ K ⟨⟩))
          ⊢ wp frame (wpE (defs₀ (F := F)) Variants.none c none) E (cc7__agg_kernel i arg2 harg2 arg3 harg3 arg4 harg4 arg5 harg5 arg6 harg6 arg7 harg7) K } := by
  refine ⟨?_, ?_, fun E K => ?run⟩
  case run =>
    simp only [cc7__agg_kernel_eq_skeleton]; unfold cc7__agg_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%d4, %f4, -, H4⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HA

end Cert.KernelIdeal.Gen

end
-- ==== Proof.KI.Agg7.lean ====
/- The fourth graph-aggregation call, point by point: what the accumulator and the output tile hold after each grid
   point, the invariant that carries the accumulator from one point to the next, and the body's obligation at
   every point. At a first point (j = 0) the accumulator becomes zero plus the tile pair's contribution; at an inner
   point, what it held plus the contribution; at a last point (j = 195) the same, and the output tile receives
   it. Everything is stated over arbitrary entry contents `V` of the buffers. -/
import proofs.«140952_j21595095564583_2_alg».proof.Proof.KI.Agg7RunC

-- a 1024-row tile: structural recursion over the long axis needs the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of every TensorCore buffer when the aggregation is entered, per core. -/
variable (V : (c : Dev nD) → (b : Ref sig .tc) → Buf (Elt F) ((c : Thread nD τ).loc b))

/-! ## What one point leaves -/

/-- The stores of a first point cover the accumulator (each is a whole-tile store). -/
theorem accCover7_first (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) (y : S1024x1.Idx) :
    ∃ pc ∈ (aggRun7_first c i arg2 harg2 arg3 harg3 arg4 harg4 arg5 harg5 arg6 harg6 arg7 harg7 hfirst hlast x0 x1 x2 x3).1, y ∈ pc.1.set :=
  View.cover_of_tiledL (aggRun7_first c i arg2 harg2 arg3 harg3 arg4 harg4 arg5 harg5 arg6 harg6 arg7 harg7 hfirst hlast x0 x1 x2 x3).1 S1024x1.size (by sl_kernel_rfl) y

/-- The accumulator after a first point: its stores read back. -/
def sout7_A_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) : Vec F S1024x1 .f32 :=
  accView7.read (Elt F) (accView7.writes (Elt F) accView7.junk (aggRun7_first c i arg2 harg2 arg3 harg3 arg4 harg4 arg5 harg5 arg6 harg6 arg7 harg7 hfirst hlast x0 x1 x2 x3).1)

/-- The one store of an inner point covers the accumulator. -/
theorem accCover7_inner (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_inner c i arg2 harg2 arg3 harg3 arg4 harg4 arg5 harg5 arg6 harg6 arg7 harg7 hfirst hlast x0 x1 x2 x3 xs).1, y ∈ pc.1.set :=
  View.cover_of_tiledL (aggRun7_inner c i arg2 harg2 arg3 harg3 arg4 harg4 arg5 harg5 arg6 harg6 arg7 harg7 hfirst hlast x0 x1 x2 x3 xs).1 S1024x1.size (by sl_kernel_rfl) y

/-- The accumulator after an inner point, over the contents `xs` the point before left. -/
def sout7_B_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  accView7.read (Elt F) (accView7.writes (Elt F) accView7.junk (aggRun7_inner c i arg2 harg2 arg3 harg3 arg4 harg4 arg5 harg5 arg6 harg6 arg7 harg7 hfirst hlast x0 x1 x2 x3 xs).1)

/-- At a last point the store into the accumulator covers it, -/
theorem accCover7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_last c i arg2 harg2 arg3 harg3 arg4 harg4 arg5 harg5 arg6 harg6 arg7 harg7 hfirst hlast x0 x1 x2 x3 xs).2.1, y ∈ pc.1.set :=
  View.cover_of_tiledL (aggRun7_last c i arg2 harg2 arg3 harg3 arg4 harg4 arg5 harg5 arg6 harg6 arg7 harg7 hfirst hlast x0 x1 x2 x3 xs).2.1 S1024x1.size (by sl_kernel_rfl) y

/-- and the store into the output tile covers that. -/
theorem outCover7_last (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) (y : S1024x1.Idx) :
    ∃ pc ∈ (aggRun7_last c i arg2 harg2 arg3 harg3 arg4 harg4 arg5 harg5 arg6 harg6 arg7 harg7 hfirst hlast x0 x1 x2 x3 xs).1, y ∈ pc.1.set :=
  View.cover_of_tiledL (aggRun7_last c i arg2 harg2 arg3 harg3 arg4 harg4 arg5 harg5 arg6 harg6 arg7 harg7 hfirst hlast x0 x1 x2 x3 xs).1 S1024x1.size (by sl_kernel_rfl) y

/-- The accumulator after a last point, -/
def sout7_C_0 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  accView7.read (Elt F) (accView7.writes (Elt F) accView7.junk (aggRun7_last c i arg2 harg2 arg3 harg3 arg4 harg4 arg5 harg5 arg6 harg6 arg7 harg7 hfirst hlast x0 x1 x2 x3 xs).2.1)

/-- and the output tile after it. -/
def out7_C_4 (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) : Vec F S1024x1 .f32 :=
  outView7.read (Elt F) (outView7.writes (Elt F) outView7.junk (aggRun7_last c i arg2 harg2 arg3 harg3 arg4 harg4 arg5 harg5 arg6 harg6 arg7 harg7 hfirst hlast x0 x1 x2 x3 xs).1)

/-! ## The same at a grid point: on the memrefs the pipeline passes there and the blocks the inputs stage -/

def accFirst7 (c : Dev nD) (t : Fin cfg7.N) (h0 : t.val % 196 = 0) : Vec F S1024x1 .f32 :=
  sout7_A_0 c (grid7.coords t) (ms7_0 t) (hs7_0 t) (ms7_1 t) (hs7_1 t) (ms7_2 t) (hs7_2 t) (ms7_3 t) (hs7_3 t) (ms7_4 t) (hs7_4 t) acc7 (Memref.isWhole_whole _)
    (isFirst7 t h0) (notLast7 t (by omega)) (iblk7 V c 0 t) (iblk7 V c 1 t) (iblk7 V c 2 t) (iblk7 V c 3 t)

def accInner7 (c : Dev nD) (t : Fin cfg7.N) (h0 : ¬t.val % 196 = 0) (h1 : ¬t.val % 196 = 195) (xs : Vec F S1024x1 .f32) : Vec F S1024x1 .f32 :=
  sout7_B_0 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t h0) (notLast7 t h1) (iblk7 V c 0 t) (iblk7 V c 1 t) (iblk7 V c 2 t) (iblk7 V c 3 t) xs

def accLast7 (c : Dev nD) (t : Fin cfg7.N) (h1 : t.val % 196 = 195) (xs : Vec F S1024x1 .f32) : Vec F S1024x1 .f32 :=
  sout7_C_0 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t (by omega)) (isLast7 t h1) (iblk7 V c 0 t) (iblk7 V c 1 t) (iblk7 V c 2 t) (iblk7 V c 3 t) xs

def outLast7 (c : Dev nD) (t : Fin cfg7.N) (h1 : t.val % 196 = 195) (xs : Vec F S1024x1 .f32) : Vec F S1024x1 .f32 :=
  out7_C_4 c (grid7.coords t) (ms7_0 t) (hs7_0 t) (ms7_1 t) (hs7_1 t) (ms7_2 t) (hs7_2 t) (ms7_3 t) (hs7_3 t) (ms7_4 t) (hs7_4 t) acc7 (Memref.isWhole_whole _)
    (notFirst7 t (by omega)) (isLast7 t h1) (iblk7 V c 0 t) (iblk7 V c 1 t) (iblk7 V c 2 t) (iblk7 V c 3 t) xs

/-- An output tile nothing was stored into. Off the last source tile the window is idle and is not written back, so
    these contents are never read. -/
def untouched7 : Vec F S1024x1 .f32 := outView7.read (Elt F) outView7.junk

/-! ## The accumulation, point by point -/

/-- What the output tile's staging buffer (first component) and the accumulator (second) hold after the body at
    position `n`: at a first point zero plus the contribution; otherwise what position `n - 1` left in the
    accumulator plus the contribution, which at a last point is also the output tile. -/
def outsAt7 (c : Dev nD) : (n : ℕ) → n < cfg7.N → Vec F S1024x1 .f32 × Vec F S1024x1 .f32
  | 0, hn => (untouched7, accFirst7 V c ⟨0, hn⟩ (Nat.zero_mod _))
  | n + 1, hn =>
    if h0 : (n + 1) % 196 = 0 then (untouched7, accFirst7 V c ⟨n + 1, hn⟩ h0)
    else if h1 : (n + 1) % 196 = 195 then
      (outLast7 V c ⟨n + 1, hn⟩ h1 (outsAt7 c n (Nat.lt_of_succ_lt hn)).2, accLast7 V c ⟨n + 1, hn⟩ h1 (outsAt7 c n (Nat.lt_of_succ_lt hn)).2)
    else (untouched7, accInner7 V c ⟨n + 1, hn⟩ h0 h1 (outsAt7 c n (Nat.lt_of_succ_lt hn)).2)

/-- At a first point. -/
theorem outsAt7_A (c : Dev nD) (t : Fin cfg7.N) (h0 : t.val % 196 = 0) :
    outsAt7 V c t.val t.isLt = (untouched7, accFirst7 V c t h0) := by
  obtain ⟨n, hn⟩ := t
  cases n with
  | zero => rfl
  | succ n => exact dif_pos h0

/-- At an inner point, over what the point before left. -/
theorem outsAt7_B (c : Dev nD) (t : Fin cfg7.N) (h0 : ¬t.val % 196 = 0) (h1 : ¬t.val % 196 = 195) :
    outsAt7 V c t.val t.isLt
      = (untouched7, accInner7 V c t h0 h1 (outsAt7 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

/-- At a last point, over what the point before left. -/
theorem outsAt7_C (c : Dev nD) (t : Fin cfg7.N) (h1 : t.val % 196 = 195) :
    outsAt7 V c t.val t.isLt
      = (outLast7 V c t h1 (outsAt7 V c (t.val - 1) (Nat.lt_of_le_of_lt (Nat.sub_le _ _) t.isLt)).2,
         accLast7 V c t h1 (outsAt7 V c (t.val - 1) (Nat.lt_of_le_of_lt (Nat.sub_le _ _) t.isLt)).2) := by
  obtain ⟨n, hn⟩ := t
  cases n with
  | zero => exact absurd ((Nat.zero_mod 196).symm.trans h1) (by decide)
  | succ n => exact (dif_neg (by dsimp only at h1; omega)).trans (dif_pos h1)

/-! ## The invariant between points -/

/-- Before position `n`: at the call's entry what the launch hands over (the accumulator at anything); afterwards
    the accumulator at what position `n - 1` left in it. Beside it, always, the other scoped buffers unopened and
    the generator register at some state. -/
def PhiS7 (c : Dev nD) : (n : ℕ) → n ≤ cfg7.N → sProp 𝕄
  | 0, _ => Pipeline.ΦA spec7 c
  | n + 1, hn => iprop(iprop(owns (c : Thread nD τ) acc7 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_succ (c : Dev nD) (n : ℕ) (hn : n < cfg7.N) :
    PhiS7 V c (n + 1) hn = iprop(iprop(owns (c : Thread nD τ) acc7 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) acc7 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- At every position the invariant yields the accumulator at SOME contents (its named contents forgotten). -/
theorem PhiS7_forget (c : Dev nD) (n : ℕ) (h : n ≤ cfg7.N) :
    PhiS7 V c n h ⊢ iprop(iprop(iprop((∃ d, owns (c : Thread nD τ) acc7 fullShare d)) ∗ Pipeline.scopedRestBut (Ix := Unit) (Name := ℕ) (U := UR sig nD τ) (Lvl := ℕ) (Val := Elt F) spec7 c [cc7_scratch0]) ∗ (∃ r, prngReg c r)) := by
  cases n with
  | zero => rw [show PhiS7 V c 0 h = Pipeline.ΦA spec7 c from rfl, PhiA7_eq]
  | succ n =>
    rw [PhiS7_succ]
    iintro ⟨⟨HA, HR⟩, Hg⟩
    isplitl [HA HR]
    · isplitl [HA]
      · iexists _; iexact HA
      iexact HR
    iexact Hg

/-! ## The proof data -/

/-- The call's proof data on core `c`: the arrays as the call finds them; after the body at point `t` each input's
    buffer at its block and the output tile's at `outsAt7`'s first component; the invariant `PhiS7`; full shares,
    nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]

/-- When the body runs, each input's current buffer holds its block. -/
theorem before7_0 (c : Dev nD) (t : Fin cfg7.N) (d) : (dat7 V c).before 0 t d = iblk7 V c 0 t := before7_0_of V (dat7 V c) (A_eq7 V c 0) t d
theorem before7_1 (c : Dev nD) (t : Fin cfg7.N) (d) : (dat7 V c).before 1 t d = iblk7 V c 1 t := before7_1_of V (dat7 V c) (A_eq7 V c 1) t d
theorem before7_2 (c : Dev nD) (t : Fin cfg7.N) (d) : (dat7 V c).before 2 t d = iblk7 V c 2 t := before7_2_of V (dat7 V c) (A_eq7 V c 2) t d
theorem before7_3 (c : Dev nD) (t : Fin cfg7.N) (d) : (dat7 V c).before 3 t d = iblk7 V c 3 t := before7_3_of V (dat7 V c) (A_eq7 V c 3) t d

/-- And the body, which only reads them, leaves each there (the inputs are live at every point). -/
theorem leaves7_0 (c : Dev nD) (t : Fin cfg7.N) : (dat7 V c).leavesExact 0 t = owns (c : Thread nD τ) (ms7_0 t) fullShare (iblk7 V c 0 t) := by
  rw [← after7_0]
theorem leaves7_1 (c : Dev nD) (t : Fin cfg7.N) : (dat7 V c).leavesExact 1 t = owns (c : Thread nD τ) (ms7_1 t) fullShare (iblk7 V c 1 t) := by
  rw [← after7_1]
theorem leaves7_2 (c : Dev nD) (t : Fin cfg7.N) : (dat7 V c).leavesExact 2 t = owns (c : Thread nD τ) (ms7_2 t) fullShare (iblk7 V c 2 t) := by
  rw [← after7_2]
theorem leaves7_3 (c : Dev nD) (t : Fin cfg7.N) : (dat7 V c).leavesExact 3 t = owns (c : Thread nD τ) (ms7_3 t) fullShare (iblk7 V c 3 t) := by
  rw [← after7_3]

/-! ## The body's obligation -/

/-- What the body is called with at point `t`: the invariant, the core's debts, each window's current buffer, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t
    ∗ (dat7 V c).leavesExact 3 t ∗ (dat7 V c).leavesExact 4 t)

set_option maxHeartbeats 1600000 in
/-- At a first point: whatever the accumulator held is forgotten; the run zeroes it and adds the contribution; the
    output tile, idle there, goes back as it came. -/
theorem body_first7 (c : Dev nD) (t : Fin cfg7.N) (h0 : t.val % 196 = 0) :
    bodyPre7 V c t ⊢ wp frame (wpE (defs₀ (F := F)) Variants.none c none) Set.univ (bodyAt7 t) (fun _ => bodyPost7 V c t) := by
  have hl : ¬lastSrc7 (grid7.coords t) := notLast7 t (by omega)
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [Dat.leavesExact_idle (dat7 V c) 4 t (outIdle7 _ hl) (outKept7 t hl)]
  rw [outsAt7_A V c t h0]; unfold accFirst7 sout7_A_0; (try dsimp only)
  rw [PhiS7_castSucc V c t]
  iintro ⟨HΦ, Ho, ⟨%d0, H0⟩, ⟨%d1, H1⟩, ⟨%d2, H2⟩, ⟨%d3, H3⟩, ⟨%d4, H4⟩⟩
  icases (PhiS7_forget V c t.val (Nat.le_of_lt t.isLt)) $$ HΦ with ⟨⟨HA, HR⟩, Hg⟩
  iapply ((aggRun7_first c (grid7.coords t) _ _ _ _ _ _ _ _ _ _ _ _ (isFirst7 t h0) hl (iblk7 V c 0 t) (iblk7 V c 1 t) (iblk7 V c 2 t) (iblk7 V c 3 t)).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover7_first c _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At an inner point: the accumulator comes at what the point before left, and goes back at that plus the
    contribution; the output tile, idle, goes back as it came. -/
theorem body_inner7 (c : Dev nD) (t : Fin cfg7.N) (h0 : ¬t.val % 196 = 0) (h1 : ¬t.val % 196 = 195) :
    bodyPre7 V c t ⊢ wp frame (wpE (defs₀ (F := F)) Variants.none c none) Set.univ (bodyAt7 t) (fun _ => bodyPost7 V c t) := by
  have hl : ¬lastSrc7 (grid7.coords t) := notLast7 t h1
  have hz : t.val ≠ 0 := fun h => h0 (by rw [h])
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [Dat.leavesExact_idle (dat7 V c) 4 t (outIdle7 _ hl) (outKept7 t hl)]
  rw [outsAt7_B V c t h0 h1]; unfold accInner7 sout7_B_0; (try dsimp only)
  rw [PhiS7_castSucc V c t, PhiS7_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun7_inner c (grid7.coords t) _ _ _ _ _ _ _ _ _ _ _ _ (notFirst7 t h0) hl (iblk7 V c 0 t) (iblk7 V c 1 t) (iblk7 V c 2 t) (iblk7 V c 3 t) _).2 _ Set.univ _)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, ⟨%ea, HA⟩⟩
  isplitl [HA HR Hg]
  · isplitl [HA HR]
    · isplitl [HA]
      · unfold owns; iexists _; isplitr
        swap; · iexact HA
        ipureintro; exact View.read_writes_of_cover _ _ _ _ _ (accCover7_inner c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- At a last point: the accumulator as at an inner point, and the output tile, live there, goes back at the
    accumulator's new contents. -/
theorem body_last7 (c : Dev nD) (t : Fin cfg7.N) (h1 : t.val % 196 = 195) :
    bodyPre7 V c t ⊢ wp frame (wpE (defs₀ (F := F)) Variants.none c none) Set.univ (bodyAt7 t) (fun _ => bodyPost7 V c t) := by
  have hf : ¬firstSrc7 (grid7.coords t) := notFirst7 t (by omega)
  have hl : lastSrc7 (grid7.coords t) := isLast7 t h1
  have hz : t.val ≠ 0 := fun h => by rw [h] at h1; exact absurd h1 (by decide)
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3]
  rw [show (dat7 V c).leavesExact 4 t = owns (c : Thread nD τ) (ms7_4 t) fullShare ((dat7 V c).after 4 t) from by
    unfold Dat.leavesExact; rw [outLive7 _ hl], after7_4]
  rw [outsAt7_C V c t h1]; unfold accLast7 outLast7 sout7_C_0 out7_C_4; (try dsimp only)
  rw [PhiS7_castSucc V c t, PhiS7_pos V c _ _ hz]
  iintro ⟨⟨⟨HA, HR⟩, Hg⟩, Ho, ⟨%d0, H0⟩, ⟨%d1, H1⟩, ⟨%d2, H2⟩, ⟨%d3, H3⟩, ⟨%d4, H4⟩⟩
  iapply ((aggRun7_last c (grid7.coords t) _ _ _ _ _ _ _ _ _ _ _ _ hf hl (iblk7 V c 0 t) (iblk7 V c 1 t) (iblk7 V c 2 t) (iblk7 V c 3 t) _).2.2 Set.univ _)
  isplitl [H0]; · iexact H0
  isplitl [H1]; · iexact H1
  isplitl [H2]; · iexact H2
  isplitl [H3]; · iexact H3
  isplitl [H4]; · iexists _; iexact H4
  isplitl [HA]; · iexact HA
  iintro ⟨H0, H1, H2, H3, ⟨%e4, H4⟩, ⟨%ea, HA⟩⟩
  isplitl [HA HR Hg]
  · isplitl [HA HR]
    · isplitl [HA]
      · unfold owns; iexists _; isplitr
        swap; · iexact HA
        ipureintro; exact View.read_writes_of_cover _ _ _ _ _ (accCover7_last c _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outCover7_last c _ _ _ _ _ _ _ _ _ _ _ _ _ _ _ _ _ _ _ _)

/-- The body at any point: by the kind of point. -/
theorem sound_body7 (c : Dev nD) (t : Fin cfg7.N) : bodyPre7 V c t ⊢ wp frame (wpE (defs₀ (F := F)) Variants.none c none) Set.univ (bodyAt7 t) (fun _ => bodyPost7 V c t) := by
  by_cases h0 : t.val % 196 = 0
  · exact body_first7 V c t h0
  · by_cases h1 : t.val % 196 = 195
    · exact body_last7 V c t h1
    · exact body_inner7 V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the call is the invariant before the first point. -/
theorem hin7 (c : Dev nD) : Pipeline.ΦA spec7 c ⊢ (dat7 V c).Φ 0 := by
  rw [show (dat7 V c).Φ 0 = PhiS7 V c 0 (Nat.zero_le _) from rfl]
  exact Idealize.SL.BI.Entails.refl _

/-- After the last point the invariant gives it back: the accumulator's contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl, PhiA7_eq]
  exact PhiS7_forget V c _ _

end Cert.KernelIdeal.Gen

end
-- ==== Proof.KI.Frame.lean ====
import proofs.«140952_j21595095564583_2_alg».proof.Proof.Gen.KernelIdeal.Regions
import proofs.«140952_j21595095564583_2_alg».proof.Proof.KI.Dense0
import proofs.«140952_j21595095564583_2_alg».proof.Proof.KI.Agg1
import proofs.«140952_j21595095564583_2_alg».proof.Proof.KI.Dense2
import proofs.«140952_j21595095564583_2_alg».proof.Proof.KI.Agg3
import proofs.«140952_j21595095564583_2_alg».proof.Proof.KI.Dense4
import proofs.«140952_j21595095564583_2_alg».proof.Proof.KI.Agg5
import proofs.«140952_j21595095564583_2_alg».proof.Proof.KI.Dense6
import proofs.«140952_j21595095564583_2_alg».proof.Proof.KI.Agg7
import Idealize.ShloMosaic.Lib.Pipeline.RegionsLoop
import Idealize.ShloMosaic.Lib.Pipeline.Regions
import Idealize.ShloMosaic.Lib.Pipeline.Frame
import Idealize.ShloMosaic.Lib.Pipeline.Kit

/-! # The run of the four-layer graph convolution: what the eight kernel regions leave, and the frame

Each layer is a dense product (regions 0, 2, 4, 6) followed by an aggregation over the edges (regions 1, 3, 5, 7);
between two layers the host adds the self term and the bias and applies the rectifier, and after the last it slices
and takes the log-softmax. A region's output array after all its write-backs is the fold `Dat.arrAt · N` of its proof
data at the contents the region is entered from; those contents contain the earlier regions' outputs, so the outputs
are defined in a chain, each from the ones before it. The chain is then shown to be the generated valuations
`V17 … V30` at these outputs, every region is given as a segment record between two of those valuations, and the
conditional frame is applied. -/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' outputs, in a chain -/

/-- A family of valuations read at the TensorCore's references: the form a region's proof data take their entry
    contents in. -/
abbrev atTc (W : Dev nD → Valuation τ sig (Elt F)) : (c : Dev nD) → (b : Ref sig .tc) → Buf (Elt F) ((c : Thread nD τ).loc b) :=
  fun c b => W c b

/-- Layer 1's product `x · W₁`, as region 0 leaves it: entered from the contents after the host prefix. -/
def lin0 (c : Dev nD) : Buf (Elt F) ((c : Thread nD τ).loc main_v99) :=
  (dat0 (atTc (V16 m)) c).arrAt 2 cfg0.N
/-- The contents region 1 is entered from: region 0's entry contents with the product in place. -/
def S17 (c : Dev nD) : Valuation τ sig (Elt F) := Function.update (V16 m c) main_v99 (lin0 m c)
/-- Layer 1's aggregate over the edges, as region 1 leaves it. -/
def agg1 (c : Dev nD) : Buf (Elt F) ((c : Thread nD τ).loc main_v100) :=
  (dat1 (atTc (S17 m)) c).arrAt 4 cfg1.N
def S18 (c : Dev nD) : Valuation τ sig (Elt F) := Function.update (S17 m c) main_v100 (agg1 m c)
/-- After the host's self term, bias and rectifier: layer 2's input. -/
def S19 (c : Dev nD) : Valuation τ sig (Elt F) := StableHlo.after hostOps2 (S18 m c)
def S20 (c : Dev nD) : Valuation τ sig (Elt F) := StableHlo.after hostOps2_1 (S19 m c)
/-- Layer 2's product, as region 2 leaves it. -/
def lin2 (c : Dev nD) : Buf (Elt F) ((c : Thread nD τ).loc main_v108) :=
  (dat2 (atTc (S20 m)) c).arrAt 2 cfg2.N
def S21 (c : Dev nD) : Valuation τ sig (Elt F) := Function.update (S20 m c) main_v108 (lin2 m c)
/-- Layer 2's aggregate, as region 3 leaves it. -/
def agg3 (c : Dev nD) : Buf (Elt F) ((c : Thread nD τ).loc main_v109) :=
  (dat3 (atTc (S21 m)) c).arrAt 4 cfg3.N
def S22 (c : Dev nD) : Valuation τ sig (Elt F) := Function.update (S21 m c) main_v109 (agg3 m c)
def S23 (c : Dev nD) : Valuation τ sig (Elt F) := StableHlo.after hostOps4 (S22 m c)
def S24 (c : Dev nD) : Valuation τ sig (Elt F) := StableHlo.after hostOps4_1 (S23 m c)
/-- Layer 3's product, as region 4 leaves it. -/
def lin4 (c : Dev nD) : Buf (Elt F) ((c : Thread nD τ).loc main_v117) :=
  (dat4 (atTc (S24 m)) c).arrAt 2 cfg4.N
def S25 (c : Dev nD) : Valuation τ sig (Elt F) := Function.update (S24 m c) main_v117 (lin4 m c)
/-- Layer 3's aggregate, as region 5 leaves it. -/
def agg5 (c : Dev nD) : Buf (Elt F) ((c : Thread nD τ).loc main_v118) :=
  (dat5 (atTc (S25 m)) c).arrAt 4 cfg5.N
def S26 (c : Dev nD) : Valuation τ sig (Elt F) := Function.update (S25 m c) main_v118 (agg5 m c)
def S27 (c : Dev nD) : Valuation τ sig (Elt F) := StableHlo.after hostOps6 (S26 m c)
def S28 (c : Dev nD) : Valuation τ sig (Elt F) := StableHlo.after hostOps6_1 (S27 m c)
/-- Layer 4's product (one column), as region 6 leaves it. -/
def lin6 (c : Dev nD) : Buf (Elt F) ((c : Thread nD τ).loc main_v126) :=
  (dat6 (atTc (S28 m)) c).arrAt 2 cfg6.N
def S29 (c : Dev nD) : Valuation τ sig (Elt F) := Function.update (S28 m c) main_v126 (lin6 m c)
/-- Layer 4's aggregate, as region 7 leaves it. -/
def agg7 (c : Dev nD) : Buf (Elt F) ((c : Thread nD τ).loc main_v127) :=
  (dat7 (atTc (S29 m)) c).arrAt 4 cfg7.N

/-- What the regions leave, at the reference each writes (each of the eight is written by exactly one region, so the
    item number is not read); elsewhere the launch contents, which nothing reads. -/
def outs : Outs (F := F) := fun _ r c =>
  if h : r = main_v99 then h ▸ lin0 m c
  else if h : r = main_v100 then h ▸ agg1 m c
  else if h : r = main_v108 then h ▸ lin2 m c
  else if h : r = main_v109 then h ▸ agg3 m c
  else if h : r = main_v117 then h ▸ lin4 m c
  else if h : r = main_v118 then h ▸ agg5 m c
  else if h : r = main_v126 then h ▸ lin6 m c
  else if h : r = main_v127 then h ▸ agg7 m c
  else m ((c : Thread nD τ).loc r)

theorem outs_v99 (J : ℕ) (c : Dev nD) : outs m J main_v99 c = lin0 m c := by
  unfold outs; rw [dif_pos rfl]
theorem outs_v100 (J : ℕ) (c : Dev nD) : outs m J main_v100 c = agg1 m c := by
  unfold outs
  rw [dif_neg (by decide : ¬ (main_v100 : Ref sig .tc) = main_v99), dif_pos rfl]
theorem outs_v108 (J : ℕ) (c : Dev nD) : outs m J main_v108 c = lin2 m c := by
  unfold outs
  rw [dif_neg (by decide : ¬ (main_v108 : Ref sig .tc) = main_v99), dif_neg (by decide : ¬ (main_v108 : Ref sig .tc) = main_v100),
    dif_pos rfl]
theorem outs_v109 (J : ℕ) (c : Dev nD) : outs m J main_v109 c = agg3 m c := by
  unfold outs
  rw [dif_neg (by decide : ¬ (main_v109 : Ref sig .tc) = main_v99), dif_neg (by decide : ¬ (main_v109 : Ref sig .tc) = main_v100),
    dif_neg (by decide : ¬ (main_v109 : Ref sig .tc) = main_v108), dif_pos rfl]
theorem outs_v117 (J : ℕ) (c : Dev nD) : outs m J main_v117 c = lin4 m c := by
  unfold outs
  rw [dif_neg (by decide : ¬ (main_v117 : Ref sig .tc) = main_v99), dif_neg (by decide : ¬ (main_v117 : Ref sig .tc) = main_v100),
    dif_neg (by decide : ¬ (main_v117 : Ref sig .tc) = main_v108), dif_neg (by decide : ¬ (main_v117 : Ref sig .tc) = main_v109),
    dif_pos rfl]
theorem outs_v118 (J : ℕ) (c : Dev nD) : outs m J main_v118 c = agg5 m c := by
  unfold outs
  rw [dif_neg (by decide : ¬ (main_v118 : Ref sig .tc) = main_v99), dif_neg (by decide : ¬ (main_v118 : Ref sig .tc) = main_v100),
    dif_neg (by decide : ¬ (main_v118 : Ref sig .tc) = main_v108), dif_neg (by decide : ¬ (main_v118 : Ref sig .tc) = main_v109),
    dif_neg (by decide : ¬ (main_v118 : Ref sig .tc) = main_v117), dif_pos rfl]
theorem outs_v126 (J : ℕ) (c : Dev nD) : outs m J main_v126 c = lin6 m c := by
  unfold outs
  rw [dif_neg (by decide : ¬ (main_v126 : Ref sig .tc) = main_v99), dif_neg (by decide : ¬ (main_v126 : Ref sig .tc) = main_v100),
    dif_neg (by decide : ¬ (main_v126 : Ref sig .tc) = main_v108), dif_neg (by decide : ¬ (main_v126 : Ref sig .tc) = main_v109),
    dif_neg (by decide : ¬ (main_v126 : Ref sig .tc) = main_v117), dif_neg (by decide : ¬ (main_v126 : Ref sig .tc) = main_v118),
    dif_pos rfl]
theorem outs_v127 (J : ℕ) (c : Dev nD) : outs m J main_v127 c = agg7 m c := by
  unfold outs
  rw [dif_neg (by decide : ¬ (main_v127 : Ref sig .tc) = main_v99), dif_neg (by decide : ¬ (main_v127 : Ref sig .tc) = main_v100),
    dif_neg (by decide : ¬ (main_v127 : Ref sig .tc) = main_v108), dif_neg (by decide : ¬ (main_v127 : Ref sig .tc) = main_v109),
    dif_neg (by decide : ¬ (main_v127 : Ref sig .tc) = main_v117), dif_neg (by decide : ¬ (main_v127 : Ref sig .tc) = main_v118),
    dif_neg (by decide : ¬ (main_v127 : Ref sig .tc) = main_v126), dif_pos rfl]

/-! ## The chain is the generated valuations at these outputs -/

theorem V17_eq (c : Dev nD) : V17 m (outs m) c = S17 m c := by
  show Function.update (V16 m c) main_v99 (outs m 17 main_v99 c) = Function.update (V16 m c) main_v99 (lin0 m c)
  rw [outs_v99]
theorem V18_eq (c : Dev nD) : V18 m (outs m) c = S18 m c := by
  show Function.update (V17 m (outs m) c) main_v100 (outs m 18 main_v100 c) = Function.update (S17 m c) main_v100 (agg1 m c)
  rw [V17_eq, outs_v100]
theorem V19_eq (c : Dev nD) : V19 m (outs m) c = S19 m c := congrArg (StableHlo.after hostOps2) (V18_eq m c)
theorem V20_eq (c : Dev nD) : V20 m (outs m) c = S20 m c := congrArg (StableHlo.after hostOps2_1) (V19_eq m c)
theorem V21_eq (c : Dev nD) : V21 m (outs m) c = S21 m c := by
  show Function.update (V20 m (outs m) c) main_v108 (outs m 21 main_v108 c) = Function.update (S20 m c) main_v108 (lin2 m c)
  rw [V20_eq, outs_v108]
theorem V22_eq (c : Dev nD) : V22 m (outs m) c = S22 m c := by
  show Function.update (V21 m (outs m) c) main_v109 (outs m 22 main_v109 c) = Function.update (S21 m c) main_v109 (agg3 m c)
  rw [V21_eq, outs_v109]
theorem V23_eq (c : Dev nD) : V23 m (outs m) c = S23 m c := congrArg (StableHlo.after hostOps4) (V22_eq m c)
theorem V24_eq (c : Dev nD) : V24 m (outs m) c = S24 m c := congrArg (StableHlo.after hostOps4_1) (V23_eq m c)
theorem V25_eq (c : Dev nD) : V25 m (outs m) c = S25 m c := by
  show Function.update (V24 m (outs m) c) main_v117 (outs m 25 main_v117 c) = Function.update (S24 m c) main_v117 (lin4 m c)
  rw [V24_eq, outs_v117]
theorem V26_eq (c : Dev nD) : V26 m (outs m) c = S26 m c := by
  show Function.update (V25 m (outs m) c) main_v118 (outs m 26 main_v118 c) = Function.update (S25 m c) main_v118 (agg5 m c)
  rw [V25_eq, outs_v118]
theorem V27_eq (c : Dev nD) : V27 m (outs m) c = S27 m c := congrArg (StableHlo.after hostOps6) (V26_eq m c)
theorem V28_eq (c : Dev nD) : V28 m (outs m) c = S28 m c := congrArg (StableHlo.after hostOps6_1) (V27_eq m c)
theorem V29_eq (c : Dev nD) : V29 m (outs m) c = S29 m c := by
  show Function.update (V28 m (outs m) c) main_v126 (outs m 29 main_v126 c) = Function.update (S28 m c) main_v126 (lin6 m c)
  rw [V28_eq, outs_v126]

/-- The same, as the families the proof data are stated at. -/
theorem atTc17 : atTc (V17 m (outs m)) = atTc (S17 m) := by funext c b; show V17 m (outs m) c b = S17 m c b; rw [V17_eq]
theorem atTc20 : atTc (V20 m (outs m)) = atTc (S20 m) := by funext c b; show V20 m (outs m) c b = S20 m c b; rw [V20_eq]
theorem atTc21 : atTc (V21 m (outs m)) = atTc (S21 m) := by funext c b; show V21 m (outs m) c b = S21 m c b; rw [V21_eq]
theorem atTc24 : atTc (V24 m (outs m)) = atTc (S24 m) := by funext c b; show V24 m (outs m) c b = S24 m c b; rw [V24_eq]
theorem atTc25 : atTc (V25 m (outs m)) = atTc (S25 m) := by funext c b; show V25 m (outs m) c b = S25 m c b; rw [V25_eq]
theorem atTc28 : atTc (V28 m (outs m)) = atTc (S28 m) := by funext c b; show V28 m (outs m) c b = S28 m c b; rw [V28_eq]
theorem atTc29 : atTc (V29 m (outs m)) = atTc (S29 m) := by funext c b; show V29 m (outs m) c b = S29 m c b; rw [V29_eq]

/-! ## The proof data family and the rest state -/

/-- Every pipeline's proof data, each at the contents its region is entered from. -/
def pdats : (p : Fin 8) → (c : Dev nD) → Dat τ (Elt F) Unit ℕ (UR sig nD τ) ℕ (cfgs p) c
  | ⟨0, _⟩ => fun c => dat0 (atTc (V16 m)) c
  | ⟨1, _⟩ => fun c => dat1 (atTc (V17 m (outs m))) c
  | ⟨2, _⟩ => fun c => dat2 (atTc (V20 m (outs m))) c
  | ⟨3, _⟩ => fun c => dat3 (atTc (V21 m (outs m))) c
  | ⟨4, _⟩ => fun c => dat4 (atTc (V24 m (outs m))) c
  | ⟨5, _⟩ => fun c => dat5 (atTc (V25 m (outs m))) c
  | ⟨6, _⟩ => fun c => dat6 (atTc (V28 m (outs m))) c
  | ⟨7, _⟩ => fun c => dat7 (atTc (V29 m (outs m))) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- The same rest at every one of the nine boundaries between regions. -/
abbrev E : Fin 9 → Dev nD → sProp 𝕄 := fun _ c => R c

/-! ## What each region's arrays hold when it is left -/

/-- Region 0: the output array holds the product, the two inputs what they held. -/
theorem hF0 (c : Dev nD) (w : Fin cfg0.W) :
    (pdats m 0 c).arrAt w cfg0.N = atTc (V17 m (outs m)) c (Pipeline.arrRef spec0 w) :=
  match w with
  | ⟨0, _⟩ => ((dat0 (atTc (V16 m)) c).arrAt_in 0 rfl _).trans ((A_eq0 (atTc (V16 m)) c 0).trans (V17_of m (outs m) c main_v98 (by decide)).symm)
  | ⟨1, _⟩ => ((dat0 (atTc (V16 m)) c).arrAt_in 1 rfl _).trans ((A_eq0 (atTc (V16 m)) c 1).trans (V17_of m (outs m) c main_arg2 (by decide)).symm)
  | ⟨2, _⟩ => by
      show (dat0 (atTc (V16 m)) c).arrAt 2 cfg0.N = Function.update (V16 m c) main_v99 (outs m 17 main_v99 c) main_v99
      rw [Function.update_self, outs_v99, lin0]
theorem hrest0 (c : Dev nD) : ∀ b, b ∉ Finset.univ.image (Pipeline.arrRef spec0) → atTc (V17 m (outs m)) c b = atTc (V16 m) c b :=
  fun b hb => V17_of m (outs m) c b fun hm => hb (Finset.mem_image.mpr ⟨2, Finset.mem_univ _, (List.mem_singleton.mp hm).symm⟩)

/-- Region 1, window by window: an input array holds at the exit what it held at entry (it is never written), which the
    next valuation leaves unchanged; the output array holds the aggregate. -/
theorem hF1_0 (c : Dev nD) : (dat1 (atTc (V17 m (outs m))) c).arrAt 0 cfg1.N = V18 m (outs m) c main_v99 :=
  ((dat1 (atTc (V17 m (outs m))) c).arrAt_in 0 rfl cfg1.N).trans
    ((A_eq1 (atTc (V17 m (outs m))) c 0).trans (V18_of m (outs m) c main_v99 (by decide)).symm)
theorem hF1_1 (c : Dev nD) : (dat1 (atTc (V17 m (outs m))) c).arrAt 1 cfg1.N = V18 m (outs m) c main_v93 :=
  ((dat1 (atTc (V17 m (outs m))) c).arrAt_in 1 rfl cfg1.N).trans
    ((A_eq1 (atTc (V17 m (outs m))) c 1).trans (V18_of m (outs m) c main_v93 (by decide)).symm)
theorem hF1_2 (c : Dev nD) : (dat1 (atTc (V17 m (outs m))) c).arrAt 2 cfg1.N = V18 m (outs m) c main_v94 :=
  ((dat1 (atTc (V17 m (outs m))) c).arrAt_in 2 rfl cfg1.N).trans
    ((A_eq1 (atTc (V17 m (outs m))) c 2).trans (V18_of m (outs m) c main_v94 (by decide)).symm)
theorem hF1_3 (c : Dev nD) : (dat1 (atTc (V17 m (outs m))) c).arrAt 3 cfg1.N = V18 m (outs m) c main_v95 :=
  ((dat1 (atTc (V17 m (outs m))) c).arrAt_in 3 rfl cfg1.N).trans
    ((A_eq1 (atTc (V17 m (outs m))) c 3).trans (V18_of m (outs m) c main_v95 (by decide)).symm)
theorem hF1_4 (c : Dev nD) : (dat1 (atTc (V17 m (outs m))) c).arrAt 4 cfg1.N = V18 m (outs m) c main_v100 := by
  show (dat1 (atTc (V17 m (outs m))) c).arrAt 4 cfg1.N = Function.update (V17 m (outs m) c) main_v100 (outs m 18 main_v100 c) main_v100
  rw [Function.update_self, outs_v100, agg1, atTc17]
theorem hF1 (c : Dev nD) (w : Fin cfg1.W) :
    (pdats m 1 c).arrAt w cfg1.N = atTc (V18 m (outs m)) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
theorem hrest1 (c : Dev nD) : ∀ b, b ∉ Finset.univ.image (Pipeline.arrRef spec1) → atTc (V18 m (outs m)) c b = atTc (V17 m (outs m)) c b :=
  fun b hb => V18_of m (outs m) c b fun hm => hb (Finset.mem_image.mpr ⟨4, Finset.mem_univ _, (List.mem_singleton.mp hm).symm⟩)

/-- Region 2: the output array holds layer 2's product, the two inputs what they held. -/
theorem hF2 (c : Dev nD) (w : Fin cfg2.W) :
    (pdats m 2 c).arrAt w cfg2.N = atTc (V21 m (outs m)) c (Pipeline.arrRef spec2 w) :=
  match w with
  | ⟨0, _⟩ => ((dat2 (atTc (V20 m (outs m))) c).arrAt_in 0 rfl _).trans ((A_eq2 (atTc (V20 m (outs m))) c 0).trans (V21_of m (outs m) c main_v107 (by decide)).symm)
  | ⟨1, _⟩ => ((dat2 (atTc (V20 m (outs m))) c).arrAt_in 1 rfl _).trans ((A_eq2 (atTc (V20 m (outs m))) c 1).trans (V21_of m (outs m) c main_arg4 (by decide)).symm)
  | ⟨2, _⟩ => by
      show (dat2 (atTc (V20 m (outs m))) c).arrAt 2 cfg2.N = Function.update (V20 m (outs m) c) main_v108 (outs m 21 main_v108 c) main_v108
      rw [Function.update_self, outs_v108, lin2, atTc20]
theorem hrest2 (c : Dev nD) : ∀ b, b ∉ Finset.univ.image (Pipeline.arrRef spec2) → atTc (V21 m (outs m)) c b = atTc (V20 m (outs m)) c b :=
  fun b hb => V21_of m (outs m) c b fun hm => hb (Finset.mem_image.mpr ⟨2, Finset.mem_univ _, (List.mem_singleton.mp hm).symm⟩)

/-- Region 3, window by window: the inputs as entered, the output at layer 2's aggregate. -/
theorem hF3_0 (c : Dev nD) : (dat3 (atTc (V21 m (outs m))) c).arrAt 0 cfg3.N = V22 m (outs m) c main_v108 :=
  ((dat3 (atTc (V21 m (outs m))) c).arrAt_in 0 rfl cfg3.N).trans
    ((A_eq3 (atTc (V21 m (outs m))) c 0).trans (V22_of m (outs m) c main_v108 (by decide)).symm)
theorem hF3_1 (c : Dev nD) : (dat3 (atTc (V21 m (outs m))) c).arrAt 1 cfg3.N = V22 m (outs m) c main_v93 :=
  ((dat3 (atTc (V21 m (outs m))) c).arrAt_in 1 rfl cfg3.N).trans
    ((A_eq3 (atTc (V21 m (outs m))) c 1).trans (V22_of m (outs m) c main_v93 (by decide)).symm)
theorem hF3_2 (c : Dev nD) : (dat3 (atTc (V21 m (outs m))) c).arrAt 2 cfg3.N = V22 m (outs m) c main_v94 :=
  ((dat3 (atTc (V21 m (outs m))) c).arrAt_in 2 rfl cfg3.N).trans
    ((A_eq3 (atTc (V21 m (outs m))) c 2).trans (V22_of m (outs m) c main_v94 (by decide)).symm)
theorem hF3_3 (c : Dev nD) : (dat3 (atTc (V21 m (outs m))) c).arrAt 3 cfg3.N = V22 m (outs m) c main_v95 :=
  ((dat3 (atTc (V21 m (outs m))) c).arrAt_in 3 rfl cfg3.N).trans
    ((A_eq3 (atTc (V21 m (outs m))) c 3).trans (V22_of m (outs m) c main_v95 (by decide)).symm)
theorem hF3_4 (c : Dev nD) : (dat3 (atTc (V21 m (outs m))) c).arrAt 4 cfg3.N = V22 m (outs m) c main_v109 := by
  show (dat3 (atTc (V21 m (outs m))) c).arrAt 4 cfg3.N = Function.update (V21 m (outs m) c) main_v109 (outs m 22 main_v109 c) main_v109
  rw [Function.update_self, outs_v109, agg3, atTc21]
theorem hF3 (c : Dev nD) (w : Fin cfg3.W) :
    (pdats m 3 c).arrAt w cfg3.N = atTc (V22 m (outs m)) c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
theorem hrest3 (c : Dev nD) : ∀ b, b ∉ Finset.univ.image (Pipeline.arrRef spec3) → atTc (V22 m (outs m)) c b = atTc (V21 m (outs m)) c b :=
  fun b hb => V22_of m (outs m) c b fun hm => hb (Finset.mem_image.mpr ⟨4, Finset.mem_univ _, (List.mem_singleton.mp hm).symm⟩)

/-- Region 4: the output array holds layer 3's product, the two inputs what they held. -/
theorem hF4 (c : Dev nD) (w : Fin cfg4.W) :
    (pdats m 4 c).arrAt w cfg4.N = atTc (V25 m (outs m)) c (Pipeline.arrRef spec4 w) :=
  match w with
  | ⟨0, _⟩ => ((dat4 (atTc (V24 m (outs m))) c).arrAt_in 0 rfl _).trans ((A_eq4 (atTc (V24 m (outs m))) c 0).trans (V25_of m (outs m) c main_v116 (by decide)).symm)
  | ⟨1, _⟩ => ((dat4 (atTc (V24 m (outs m))) c).arrAt_in 1 rfl _).trans ((A_eq4 (atTc (V24 m (outs m))) c 1).trans (V25_of m (outs m) c main_arg6 (by decide)).symm)
  | ⟨2, _⟩ => by
      show (dat4 (atTc (V24 m (outs m))) c).arrAt 2 cfg4.N = Function.update (V24 m (outs m) c) main_v117 (outs m 25 main_v117 c) main_v117
      rw [Function.update_self, outs_v117, lin4, atTc24]
theorem hrest4 (c : Dev nD) : ∀ b, b ∉ Finset.univ.image (Pipeline.arrRef spec4) → atTc (V25 m (outs m)) c b = atTc (V24 m (outs m)) c b :=
  fun b hb => V25_of m (outs m) c b fun hm => hb (Finset.mem_image.mpr ⟨2, Finset.mem_univ _, (List.mem_singleton.mp hm).symm⟩)

/-- Region 5, window by window: the inputs as entered, the output at layer 3's aggregate. -/
theorem hF5_0 (c : Dev nD) : (dat5 (atTc (V25 m (outs m))) c).arrAt 0 cfg5.N = V26 m (outs m) c main_v117 :=
  ((dat5 (atTc (V25 m (outs m))) c).arrAt_in 0 rfl cfg5.N).trans
    ((A_eq5 (atTc (V25 m (outs m))) c 0).trans (V26_of m (outs m) c main_v117 (by decide)).symm)
theorem hF5_1 (c : Dev nD) : (dat5 (atTc (V25 m (outs m))) c).arrAt 1 cfg5.N = V26 m (outs m) c main_v93 :=
  ((dat5 (atTc (V25 m (outs m))) c).arrAt_in 1 rfl cfg5.N).trans
    ((A_eq5 (atTc (V25 m (outs m))) c 1).trans (V26_of m (outs m) c main_v93 (by decide)).symm)
theorem hF5_2 (c : Dev nD) : (dat5 (atTc (V25 m (outs m))) c).arrAt 2 cfg5.N = V26 m (outs m) c main_v94 :=
  ((dat5 (atTc (V25 m (outs m))) c).arrAt_in 2 rfl cfg5.N).trans
    ((A_eq5 (atTc (V25 m (outs m))) c 2).trans (V26_of m (outs m) c main_v94 (by decide)).symm)
theorem hF5_3 (c : Dev nD) : (dat5 (atTc (V25 m (outs m))) c).arrAt 3 cfg5.N = V26 m (outs m) c main_v95 :=
  ((dat5 (atTc (V25 m (outs m))) c).arrAt_in 3 rfl cfg5.N).trans
    ((A_eq5 (atTc (V25 m (outs m))) c 3).trans (V26_of m (outs m) c main_v95 (by decide)).symm)
theorem hF5_4 (c : Dev nD) : (dat5 (atTc (V25 m (outs m))) c).arrAt 4 cfg5.N = V26 m (outs m) c main_v118 := by
  show (dat5 (atTc (V25 m (outs m))) c).arrAt 4 cfg5.N = Function.update (V25 m (outs m) c) main_v118 (outs m 26 main_v118 c) main_v118
  rw [Function.update_self, outs_v118, agg5, atTc25]
theorem hF5 (c : Dev nD) (w : Fin cfg5.W) :
    (pdats m 5 c).arrAt w cfg5.N = atTc (V26 m (outs m)) c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
theorem hrest5 (c : Dev nD) : ∀ b, b ∉ Finset.univ.image (Pipeline.arrRef spec5) → atTc (V26 m (outs m)) c b = atTc (V25 m (outs m)) c b :=
  fun b hb => V26_of m (outs m) c b fun hm => hb (Finset.mem_image.mpr ⟨4, Finset.mem_univ _, (List.mem_singleton.mp hm).symm⟩)

/-- Region 6: the output array holds layer 4's product, the two inputs what they held. -/
theorem hF6 (c : Dev nD) (w : Fin cfg6.W) :
    (pdats m 6 c).arrAt w cfg6.N = atTc (V29 m (outs m)) c (Pipeline.arrRef spec6 w) :=
  match w with
  | ⟨0, _⟩ => ((dat6 (atTc (V28 m (outs m))) c).arrAt_in 0 rfl _).trans ((A_eq6 (atTc (V28 m (outs m))) c 0).trans (V29_of m (outs m) c main_v125 (by decide)).symm)
  | ⟨1, _⟩ => ((dat6 (atTc (V28 m (outs m))) c).arrAt_in 1 rfl _).trans ((A_eq6 (atTc (V28 m (outs m))) c 1).trans (V29_of m (outs m) c main_arg8 (by decide)).symm)
  | ⟨2, _⟩ => by
      show (dat6 (atTc (V28 m (outs m))) c).arrAt 2 cfg6.N = Function.update (V28 m (outs m) c) main_v126 (outs m 29 main_v126 c) main_v126
      rw [Function.update_self, outs_v126, lin6, atTc28]
theorem hrest6 (c : Dev nD) : ∀ b, b ∉ Finset.univ.image (Pipeline.arrRef spec6) → atTc (V29 m (outs m)) c b = atTc (V28 m (outs m)) c b :=
  fun b hb => V29_of m (outs m) c b fun hm => hb (Finset.mem_image.mpr ⟨2, Finset.mem_univ _, (List.mem_singleton.mp hm).symm⟩)

/-- Region 7, window by window: the inputs as entered, the output at layer 4's aggregate. -/
theorem hF7_0 (c : Dev nD) : (dat7 (atTc (V29 m (outs m))) c).arrAt 0 cfg7.N = V30 m (outs m) c main_v126 :=
  ((dat7 (atTc (V29 m (outs m))) c).arrAt_in 0 rfl cfg7.N).trans
    ((A_eq7 (atTc (V29 m (outs m))) c 0).trans (V30_of m (outs m) c main_v126 (by decide)).symm)
theorem hF7_1 (c : Dev nD) : (dat7 (atTc (V29 m (outs m))) c).arrAt 1 cfg7.N = V30 m (outs m) c main_v93 :=
  ((dat7 (atTc (V29 m (outs m))) c).arrAt_in 1 rfl cfg7.N).trans
    ((A_eq7 (atTc (V29 m (outs m))) c 1).trans (V30_of m (outs m) c main_v93 (by decide)).symm)
theorem hF7_2 (c : Dev nD) : (dat7 (atTc (V29 m (outs m))) c).arrAt 2 cfg7.N = V30 m (outs m) c main_v94 :=
  ((dat7 (atTc (V29 m (outs m))) c).arrAt_in 2 rfl cfg7.N).trans
    ((A_eq7 (atTc (V29 m (outs m))) c 2).trans (V30_of m (outs m) c main_v94 (by decide)).symm)
theorem hF7_3 (c : Dev nD) : (dat7 (atTc (V29 m (outs m))) c).arrAt 3 cfg7.N = V30 m (outs m) c main_v95 :=
  ((dat7 (atTc (V29 m (outs m))) c).arrAt_in 3 rfl cfg7.N).trans
    ((A_eq7 (atTc (V29 m (outs m))) c 3).trans (V30_of m (outs m) c main_v95 (by decide)).symm)
theorem hF7_4 (c : Dev nD) : (dat7 (atTc (V29 m (outs m))) c).arrAt 4 cfg7.N = V30 m (outs m) c main_v127 := by
  show (dat7 (atTc (V29 m (outs m))) c).arrAt 4 cfg7.N = Function.update (V29 m (outs m) c) main_v127 (outs m 30 main_v127 c) main_v127
  rw [Function.update_self, outs_v127, agg7, atTc29]
theorem hF7 (c : Dev nD) (w : Fin cfg7.W) :
    (pdats m 7 c).arrAt w cfg7.N = atTc (V30 m (outs m)) c (Pipeline.arrRef spec7 w) :=
  match w with
  | ⟨0, _⟩ => hF7_0 m c
  | ⟨1, _⟩ => hF7_1 m c
  | ⟨2, _⟩ => hF7_2 m c
  | ⟨3, _⟩ => hF7_3 m c
  | ⟨4, _⟩ => hF7_4 m c
theorem hrest7 (c : Dev nD) : ∀ b, b ∉ Finset.univ.image (Pipeline.arrRef spec7) → atTc (V30 m (outs m)) c b = atTc (V29 m (outs m)) c b :=
  fun b hb => V30_of m (outs m) c b fun hm => hb (Finset.mem_image.mpr ⟨4, Finset.mem_univ _, (List.mem_singleton.mp hm).symm⟩)

/-! ## The regions as segments

Every region is entered from all the unscoped buffers at the valuation before it beside the rest `R`, and left at the
valuation after it beside `R`. At entry its arrays are split out of the unscoped buffers; at exit they are put back at
the next valuation, which has the output array at the region's output and every other buffer unchanged. The generator
register goes into the region's invariant and comes back; nothing is owed; no region has a semaphore of its own. -/

-- the library's lemmas over `pin pcs a p` unify with the printed configuration only when unification may unfold plain
-- definitions in a metavariable's type
set_option backward.isDefEq.respectTransparency.types false in
/-- Region 0, the first layer's dense product: from `V16` to `V17`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (V16 m)) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V16 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V16 m) c) (atTc (V17 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the first layer's aggregation over the edges: from `V17` to `V18`. Its invariant is the data's own;
    the class invariant passes into it at the first point and out of it at the last. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (V17 m (outs m))) c).loose
  hwaits := Pipeline.hwaits_of_owed_zero _ _ _ _ L lv 1 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (V17 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V17 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (V17 m (outs m))) c)
    unfold Pipeline.ΦA
    iintro ⟨Hp, -, Hr⟩
    isplitl [Hr]; · iexact Hr
    iexact Hp
  hout c := by
    rw [Pipeline.ownSems0_none]
    refine BIBase.Entails.trans (hout1 (atTc (V17 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V17 m (outs m)) c) (atTc (V18 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the second layer's dense product: from `V20` to `V21`. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (V20 m (outs m))) c).loose
  hwaits := Pipeline.hwaits_of_owed_zero _ _ _ _ L lv 2 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (V20 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V20 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V20 m (outs m)) c) (atTc (V21 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, the second layer's aggregation: from `V21` to `V22`. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (atTc (V21 m (outs m))) c).loose
  hwaits := Pipeline.hwaits_of_owed_zero _ _ _ _ L lv 3 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (V21 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V21 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (V21 m (outs m))) c)
    unfold Pipeline.ΦA
    iintro ⟨Hp, -, Hr⟩
    isplitl [Hr]; · iexact Hr
    iexact Hp
  hout c := by
    rw [Pipeline.ownSems0_none]
    refine BIBase.Entails.trans (hout3 (atTc (V21 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V21 m (outs m)) c) (atTc (V22 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4, the third layer's dense product: from `V24` to `V25`. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (atTc (V24 m (outs m))) c).loose
  hwaits := Pipeline.hwaits_of_owed_zero _ _ _ _ L lv 4 fun _ _ => rfl
  pre c := iprop(StableHlo.held (c : Thread nD τ) (Pipeline.ucRefs τ sig) (V24 m (outs m) c) ∗ R c)
  post c := iprop(StableHlo.held (c : Thread nD τ) (Pipeline.ucRefs τ sig) (V25 m (outs m) c) ∗ R c)
  X c := iprop(∃ r, prngReg c r)
  Y c := iprop(∃ r, prngReg c r)
  Z c := Pipeline.unscopedRest (Ix := Unit) (Name := ℕ) (U := UR sig nD τ) (Lvl := ℕ) spec4 c (atTc (V24 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (V24 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (V24 m (outs m)) c) (atTc (V25 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5, the third layer's aggregation: from `V25` to `V26`. -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (atTc (V25 m (outs m))) c).loose
  hwaits := Pipeline.hwaits_of_owed_zero _ _ _ _ L lv 5 fun _ _ => rfl
  pre c := iprop(StableHlo.held (c : Thread nD τ) (Pipeline.ucRefs τ sig) (V25 m (outs m) c) ∗ R c)
  post c := iprop(StableHlo.held (c : Thread nD τ) (Pipeline.ucRefs τ sig) (V26 m (outs m) c) ∗ R c)
  X c := iprop(∃ r, prngReg c r)
  Y c := iprop(∃ r, prngReg c r)
  Z c := Pipeline.unscopedRest (Ix := Unit) (Name := ℕ) (U := UR sig nD τ) (Lvl := ℕ) spec5 c (atTc (V25 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (V25 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (atTc (V25 m (outs m))) c)
    unfold Pipeline.ΦA
    iintro ⟨Hp, -, Hr⟩
    isplitl [Hr]; · iexact Hr
    iexact Hp
  hout c := by
    rw [Pipeline.ownSems0_none]
    refine BIBase.Entails.trans (hout5 (atTc (V25 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (V25 m (outs m)) c) (atTc (V26 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6, the last layer's dense product (sixteen columns to one): from `V28` to `V29`. -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (atTc (V28 m (outs m))) c).loose
  hwaits := Pipeline.hwaits_of_owed_zero _ _ _ _ L lv 6 fun _ _ => rfl
  pre c := iprop(StableHlo.held (c : Thread nD τ) (Pipeline.ucRefs τ sig) (V28 m (outs m) c) ∗ R c)
  post c := iprop(StableHlo.held (c : Thread nD τ) (Pipeline.ucRefs τ sig) (V29 m (outs m) c) ∗ R c)
  X c := iprop(∃ r, prngReg c r)
  Y c := iprop(∃ r, prngReg c r)
  Z c := Pipeline.unscopedRest (Ix := Unit) (Name := ℕ) (U := UR sig nD τ) (Lvl := ℕ) spec6 c (atTc (V28 m (outs m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (V28 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (V28 m (outs m)) c) (atTc (V29 m (outs m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7, the last layer's aggregation (one column): from `V29` to `V30`. -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (atTc (V29 m (outs m))) c).loose
  hwaits := Pipeline.hwaits_of_owed_zero _ _ _ _ L lv 7 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec7 c (atTc (V29 m (outs m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (V29 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (atTc (V29 m (outs m))) c)
    unfold Pipeline.ΦA
    iintro ⟨Hp, -, Hr⟩
    isplitl [Hr]; · iexact Hr
    iexact Hp
  hout c := by
    rw [Pipeline.ownSems0_none]
    refine BIBase.Entails.trans (hout7 (atTc (V29 m (outs m))) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (V29 m (outs m)) c) (atTc (V30 m (outs m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element is the pipeline library's at every staging cell; no ghost resource rides beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest: the generator register at its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest owes nothing. -/
theorem hE8 (c : Dev nD) : E (F := F) 8 c ⊢ (iprop(∃ W, owes (c : Thread nD τ) (0 : CellTallies nD τ sig Unit) W) : sProp 𝕄) := by
  iintro ⟨-, HO⟩; iexact HO

set_option backward.isDefEq.respectTransparency.types false in
/-- THE FRAME: from any memory with zero counters every weakly fair execution of @main terminates and every final
    memory holds each of the ten arguments as launched — the conditional frame at the eight records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (Ix := Unit) (U := UR sig nD τ) (Lvl := ℕ) m emb₁ () Variants.none L lv (fun _ _ => rfl) ρ (outs m) (pdats m) 0 (fun _ => iprop(emp))
    (initOf (Pipeline.cells cfgs cellOf_inj) (Pipeline.launchToks cfgs cellOf_inj)) hu₀ E (hE0 ρ) hE8
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

/-! ## The run's value -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN'S VALUE: the same launch, the last thread state read once more — every final memory holds, at the result
    `main_v134`, the last valuation's contents there (the log-softmax of the sliced last layer, computed by the host
    from the regions' outputs), and each argument as launched. -/
theorem run_val : θ_run defs (onTc (τ := τ) (main (F := F))) ⟨m, fun _ => 0, ρ⟩ (fun r => ∀ c : Dev nD,
      r.2.mem ((c.tc : Thread nD τ).loc main_v134) = V32 m (outs m) c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ Variants.none L lv m ρ main
    (segs m (outs m) Variants.none L lv E () (pdats m) (reg0 m) (reg1 m) (reg2 m) (reg3 m) (reg4 m) (reg5 m) (reg6 m) (reg7 m))
    (fun c Q => by
      rewrite [main_chain c, Seg.run_eq_chain,
        show (segs m (outs m) Variants.none L lv E () (pdats m) (reg0 m) (reg1 m) (reg2 m) (reg3 m) (reg4 m) (reg5 m) (reg6 m) (reg7 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          Prog.lift (.customCall (Pipeline.entry 0) ()), Prog.lift (.customCall (Pipeline.entry 1) ()),
          StableHlo.seq hostOps2, StableHlo.seq hostOps2_1,
          Prog.lift (.customCall (Pipeline.entry 2) ()), Prog.lift (.customCall (Pipeline.entry 3) ()),
          StableHlo.seq hostOps4, StableHlo.seq hostOps4_1,
          Prog.lift (.customCall (Pipeline.entry 4) ()), Prog.lift (.customCall (Pipeline.entry 5) ()),
          StableHlo.seq hostOps6, StableHlo.seq hostOps6_1,
          Prog.lift (.customCall (Pipeline.entry 6) ()), Prog.lift (.customCall (Pipeline.entry 7) ()),
          StableHlo.seq hostOps8, StableHlo.seq hostOps8_1 ] from rfl]
      exact .rfl)
    (fun c => by simp only [segs, Seg.pipes_host, Seg.pipes_region, Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m (outs m) c))
    (hch := fun c => ⟨.rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, sep_mono .rfl (hE8 c)⟩)
    (hinit := ?_)
    (QY := fun c s => s.mem ((c.tc : Thread nD τ).loc main_v134) = V32 m (outs m) c main_v134
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch: each core makes its first thread state from what it is dealt — the unscoped buffers held at the launch
    -- contents, the generator register at its launch state, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (V32 m (outs m) c) s') $$ [Hh HSI]
    · isplitl [Hh] <;> iassumption
    icases Hr with ⟨%h, HSI⟩
    imodintro
    isplitr
    · ipureintro
      exact ⟨h (Proc.devRef .tc main_v134) (mem_uc main_v134 (by decide)),
        (h (Proc.devRef .tc main_arg0) (mem_uc main_arg0 (by decide))).trans (V32_main_arg0 m (outs m) c),
        (h (Proc.devRef .tc main_arg1) (mem_uc main_arg1 (by decide))).trans (V32_main_arg1 m (outs m) c),
        (h (Proc.devRef .tc main_arg2) (mem_uc main_arg2 (by decide))).trans (V32_main_arg2 m (outs m) c),
        (h (Proc.devRef .tc main_arg3) (mem_uc main_arg3 (by decide))).trans (V32_main_arg3 m (outs m) c),
        (h (Proc.devRef .tc main_arg4) (mem_uc main_arg4 (by decide))).trans (V32_main_arg4 m (outs m) c),
        (h (Proc.devRef .tc main_arg5) (mem_uc main_arg5 (by decide))).trans (V32_main_arg5 m (outs m) c),
        (h (Proc.devRef .tc main_arg6) (mem_uc main_arg6 (by decide))).trans (V32_main_arg6 m (outs m) c),
        (h (Proc.devRef .tc main_arg7) (mem_uc main_arg7 (by decide))).trans (V32_main_arg7 m (outs m) c),
        (h (Proc.devRef .tc main_arg8) (mem_uc main_arg8 (by decide))).trans (V32_main_arg8 m (outs m) c),
        (h (Proc.devRef .tc main_arg9) (mem_uc main_arg9 (by decide))).trans (V32_main_arg9 m (outs m) c)⟩
    · iexact HSI

end Cert.KernelIdeal.Gen

end
-- ==== Proof.LibFinite.lean ====
/-
  Finiteness at the extended-real instance.

  At the instance where a float is an extended real and every float operation is the exact
  textbook one, a value is FINITE when it is (the image of) a real number.  This module defines
  that predicate on single values (`IsReal`) and on whole arrays (`AllReal`), the companion
  predicate "every entry is zero" (`AllZero`), and proves one preservation lemma per operation:
  elementwise arithmetic, selection, changes of format, constants, integer-to-float conversion,
  every re-indexing (broadcasts, reshapes, slices, padding, gather), scatter (accumulating and
  overwriting), a four-operand sort, and the two contractions (a finite sum of products of reals
  is a real).  Two composite facts close the module: the normaliser
  `where (deg > 0) (rsqrt deg) 0` is finite for EVERY `deg`, and `log_softmax` over an axis of
  extent one is identically zero on finite input.

  Every lemma has its hypotheses and its conclusion in the form `AllReal _` / `IsReal _` /
  `AllZero _`, so that it can be used by `apply`.
-/
import Idealize.ShloMosaic.PureOps
import Idealize.ShloMosaic.PureOps.Ideal
import Idealize.ShloMosaic.PureOps.Ideal.Laws
import Idealize.ShloMosaic.PureOps.Reduce
import Mathlib.Data.EReal.Operations
import Mathlib.Data.EReal.Inv
import Mathlib.Analysis.SpecialFunctions.Log.Basic
import Mathlib.Analysis.SpecialFunctions.Exp

noncomputable section

namespace Cert.LibFinite

open Idealize.ShloMosaic
open scoped BigOperators

/-! ## The predicates -/

/-- An extended real that is a real number. -/
def IsReal (x : EReal) : Prop := ∃ r : ℝ, x = (r : EReal)

/-- An array of extended reals all of whose entries are real numbers. -/
def AllReal {ι : Type} (v : ι → EReal) : Prop := ∀ i, IsReal (v i)

/-- An array of extended reals all of whose entries are zero. -/
def AllZero {ι : Type} (v : ι → EReal) : Prop := ∀ i, v i = 0

/-! ## Single values -/

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_iff {x : EReal} : IsReal x ↔ x ≠ ⊥ ∧ x ≠ ⊤ := by
  constructor
  · intro h; exact ⟨h.ne_bot, h.ne_top⟩
  · rintro ⟨hb, ht⟩; exact ⟨x.toReal, (EReal.coe_toReal ht hb).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
/-- A finite sum of real numbers is a real number. -/
theorem isReal_sum {κ : Type} (t : Finset κ) {f : κ → EReal} (hf : ∀ k ∈ t, IsReal (f k)) : IsReal (∑ k ∈ t, f k) := by
  classical
  induction t using Finset.induction_on with
  | empty => rw [Finset.sum_empty]; exact isReal_zero
  | insert a t ha ih =>
    rw [Finset.sum_insert ha]
    exact (hf a (Finset.mem_insert_self a t)).add (ih fun k hk => hf k (Finset.mem_insert_of_mem hk))

theorem AllZero.allReal {ι : Type} {v : ι → EReal} (h : AllZero v) : AllReal v := fun i => by rw [h i]; exact isReal_zero

/-! ## Elementwise operations -/

section Elementwise
variable {s : Shape} {φ : FTy}

theorem allReal_addf {x y : FVec Ideal s φ} (hx : AllReal x) (hy : AllReal y) : AllReal (addf (F := Ideal) x y) := fun i => (hx i).add (hy i)
theorem allReal_subf {x y : FVec Ideal s φ} (hx : AllReal x) (hy : AllReal y) : AllReal (subf (F := Ideal) x y) := fun i => (hx i).sub (hy i)
theorem allReal_mulf {x y : FVec Ideal s φ} (hx : AllReal x) (hy : AllReal y) : AllReal (mulf (F := Ideal) x y) := fun i => (hx i).mul (hy i)
theorem allReal_maximumf {x y : FVec Ideal s φ} (hx : AllReal x) (hy : AllReal y) :
    AllReal (maximumf (F := Ideal) x y) := fun i => (hx i).max (hy i)

theorem isReal_scalar_addf {x y : Ideal φ} (hx : IsReal x) (hy : IsReal y) : IsReal (Scalar.addf (F := Ideal) x y) := hx.add hy
theorem isReal_scalar_subf {x y : Ideal φ} (hx : IsReal x) (hy : IsReal y) : IsReal (Scalar.subf (F := Ideal) x y) := hx.sub hy
theorem isReal_scalar_mulf {x y : Ideal φ} (hx : IsReal x) (hy : IsReal y) : IsReal (Scalar.mulf (F := Ideal) x y) := hx.mul hy
theorem isReal_scalar_maximumf {x y : Ideal φ} (hx : IsReal x) (hy : IsReal y) :
    IsReal (Scalar.maximumf (F := Ideal) x y) := hx.max hy

/-- Lane-by-lane selection, under ANY mask: each result entry is an entry of one of the branches. -/
theorem allReal_select (c : IVec s 1) {a b : s.Idx → EReal} (ha : AllReal a) (hb : AllReal b) :
    AllReal (select c a b) := by
  intro i
  show IsReal (if c i = 1 then a i else b i)
  split
  · exact ha i
  · exact hb i
/-- Selection on a scalar condition, between whole arrays. -/
theorem allReal_scalar_select {ι : Type} (c : BitVec 1) {a b : ι → EReal} (ha : AllReal a) (hb : AllReal b) :
    AllReal (Scalar.select c a b) := by
  show AllReal (if c = 1 then a else b)
  split
  · exact ha
  · exact hb

/-- A change of format is the identity at this instance. -/
theorem allReal_truncf (ψ : FTy) {x : FVec Ideal s φ} (h : ψ.bits < φ.bits) (hx : AllReal x) :
    AllReal (truncf (F := Ideal) ψ x h) := fun i => hx i
theorem allReal_extf (ψ : FTy) {x : FVec Ideal s φ} (h : φ.bits < ψ.bits) (hx : AllReal x) :
    AllReal (extf (F := Ideal) ψ x h) := fun i => hx i
theorem allReal_id {ι : Type} {x : ι → EReal} (hx : AllReal x) : AllReal (id x) := hx
theorem allZero_id {ι : Type} {x : ι → EReal} (hx : AllZero x) : AllZero (id x) := hx

end Elementwise

/-! ## Constants and conversions -/

section Constants
variable {s : Shape}

theorem ofBits_f32_zero : Scalar.ofBits (F := Ideal) .f32 0x00000000#32 = 0 := Ideal.ofBits_zero_f32
theorem ofBits_f32_one : Scalar.ofBits (F := Ideal) .f32 0x3F800000#32 = 1 := by
  show Ideal.ofBits .f32 0x3F800000#32 = 1
  simp [Ideal.ofBits, Ideal.ieee, -EReal.coe_mul]; norm_num
theorem isReal_ofBits_zero : IsReal (Scalar.ofBits (F := Ideal) .f32 0x00000000#32) := by rw [ofBits_f32_zero]; exact isReal_zero
theorem isReal_ofBits_one : IsReal (Scalar.ofBits (F := Ideal) .f32 0x3F800000#32) := by rw [ofBits_f32_one]; exact isReal_one
theorem allZero_constant_zero (s : Shape) : AllZero (constant (F := Ideal) s .f32 0x00000000#32) := fun _ => ofBits_f32_zero
theorem allReal_constant_zero (s : Shape) : AllReal (constant (F := Ideal) s .f32 0x00000000#32) := fun _ => isReal_ofBits_zero
theorem allReal_constant_one (s : Shape) : AllReal (constant (F := Ideal) s .f32 0x3F800000#32) := fun _ => isReal_ofBits_one
/-- The splat of one value. -/
theorem allReal_broadcast (t : Shape) {x : EReal} (hx : IsReal x) : AllReal (broadcast t x) := fun _ => hx
theorem allZero_broadcast (t : Shape) {x : EReal} (hx : x = 0) : AllZero (broadcast t x) := fun _ => hx
theorem allReal_broadcast_zero (t : Shape) : AllReal (broadcast t (Scalar.ofBits (F := Ideal) .f32 0x00000000#32)) := fun _ => isReal_ofBits_zero
theorem allReal_broadcast_one (t : Shape) : AllReal (broadcast t (Scalar.ofBits (F := Ideal) .f32 0x3F800000#32)) := fun _ => isReal_ofBits_one
/-- An integer read as a float is that integer. -/
theorem allReal_sitofp (φ : FTy) {w : Nat} (x : IVec s w) : AllReal (sitofp (F := Ideal) φ x) := fun i => ⟨((x i).toInt : ℝ), rfl⟩

end Constants

/-! ## Re-indexings: every result entry is an operand entry (or, for a pad, the pad value) -/

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allZero_broadcastInDim (dims : Fin s.rank → Fin t.rank) (h : s.BroadcastsInDim t dims) {x : s.Idx → EReal}
    (hx : AllZero x) : AllZero (broadcastInDim t dims h x) := fun _ => hx _
theorem allReal_broadcastTo {x : s.Idx → EReal} (h : s.Broadcasts t) (hx : AllReal x) : AllReal (broadcastTo t x h) := fun _ => hx _
theorem allReal_shapeCast {x : s.Idx → EReal} (h : s.ShapeCasts t) (hx : AllReal x) : AllReal (shapeCast t x h) := fun _ => hx _
theorem allReal_extractStridedSlice (off : Fin s.rank → Nat) {x : s.Idx → EReal} (h : s.Slices off t) (hx : AllReal x) :
    AllReal (extractStridedSlice t off x h) := fun _ => hx _
/-- Padding with the one element of a rank-zero operand. -/
theorem allReal_pad (lo hi interior : Fin s.rank → Nat) {x : s.Idx → EReal} {u : Shape} {v : u.Idx → EReal}
    (h : s.Pads lo hi interior t) (hu : 0 < u.numel) (hx : AllReal x) (hv : AllReal v) :
    AllReal (pad t lo hi interior x v h hu) := by
  intro j
  unfold pad
  split
  · exact hx _
  · exact hv _
/-- A gather, for ANY index operand: each result entry is the operand's entry at the computed index. -/
theorem allReal_gather {si : Shape} {w : Nat} (d : GatherDims s si t) {x : s.Idx → EReal} (idx : IVec si w)
    (hx : AllReal x) : AllReal (Host.gather d x idx) := fun _ => hx _

end Layout

/-! ## Scatter and sort -/

section Indexing
variable {s si u : Shape} {w : Nat}

/-- The accumulating scatter: each operand entry plus a finite sum of update entries. -/
theorem allReal_scatterAdd {φ : FTy} (d : ScatterDims s si u) {x : FVec Ideal s φ} (idx : IVec si w) {upd : FVec Ideal u φ}
    (hx : AllReal x) (hu : AllReal upd) : AllReal (Host.scatterAdd (F := Ideal) d x idx upd) := by
  intro i
  show IsReal (x i + ∑ j ∈ Finset.univ.filter (fun j => d.resultIdx? j idx = some i), upd j)
  exact (hx i).add (isReal_sum _ fun k _ => hu k)
/-- A scatter whose body is any operation that keeps real numbers real. -/
theorem allReal_scatter (d : ScatterDims s si u) (f : EReal → EReal → EReal)
    (hf : ∀ a b, IsReal a → IsReal b → IsReal (f a b)) {x : s.Idx → EReal} (idx : IVec si w) {upd : u.Idx → EReal}
    (hx : AllReal x) (hu : AllReal upd) : AllReal (Host.scatter d f x idx upd) := by
  unfold Host.scatter
  generalize List.finRange u.numel = l
  induction l generalizing x with
  | nil => exact hx
  | cons n l ih =>
    rw [List.foldl_cons]
    apply ih
    split
    · intro i'
      show IsReal (if i' = _ then _ else _)
      split
      · exact hf _ _ (hx _) (hu _)
      · exact hx _
    · exact hx
/-- The overwriting scatter (its body returns the update): each result entry is an operand entry
    or an update entry. -/
theorem allReal_scatter_set (d : ScatterDims s si u) {x : s.Idx → EReal} (idx : IVec si w) {upd : u.Idx → EReal}
    (hx : AllReal x) (hu : AllReal upd) : AllReal (Host.scatter d (fun _ b => b) x idx upd) := allReal_scatter d _ (fun _ _ _ hb => hb) idx hx hu
/-- A sort of four operands permutes each of them: the fourth output's entries are entries of the
    fourth input, for any comparator and any other three operands. -/
theorem allReal_sort4_4 (s : Shape) (d : Nat) {α β γ : Type} (cmp : α × β × γ × EReal → α × β × γ × EReal → BitVec 1)
    (x : s.Idx → α) (y : s.Idx → β) (z : s.Idx → γ) {v : s.Idx → EReal} (hv : AllReal v) :
    AllReal (Host.sort4 s d cmp x y z v).2.2.2 := by
  unfold Host.sort4
  split
  · intro j; exact hv _
  · exact hv

end Indexing

/-! ## Contractions -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul (F := Ideal) d prec lhs rhs acc) := by
  intro j
  show IsReal (acc j + ∑ k : d.contr.Idx, lhs (d.lhsIdx j k) * rhs (d.rhsIdx j k))
  exact (ha j).add (isReal_sum _ fun k _ => (hl _).mul (hr _))
theorem allReal_dotGeneral (d : DotDims sl sr so) (prec : Option ContractPrecision) {lhs : FVec Ideal sl φ₁}
    {rhs : FVec Ideal sr φ₂} (hl : AllReal lhs) (hr : AllReal rhs) :
    AllReal (Host.dotGeneral (F := Ideal) d prec lhs rhs) := by
  intro j
  show IsReal ((0 : EReal) + ∑ k : d.contr.Idx, lhs (d.lhsIdx j k) * rhs (d.rhsIdx j k))
  exact isReal_zero.add (isReal_sum _ fun k _ => (hl _).mul (hr _))

end Contract

/-! ## The degree normaliser -/

/-- `where (deg > 0) (rsqrt deg) 0` is finite for EVERY `deg`: where `deg > 0` the reciprocal square
    root is a positive real (and `0` at `+∞`); elsewhere the chosen branch is `0`.  The two zero arrays
    (the one compared against, the one selected) may be different terms. -/
theorem allReal_dinv {s : Shape} (deg : FVec Ideal s .f32) {z₁ z₂ : FVec Ideal s .f32} (hz₁ : AllZero z₁) (hz₂ : AllZero z₂) :
    AllReal (select (cmpf (F := Ideal) .ogt deg z₁) (Host.rsqrt (F := Ideal) deg) z₂) := by
  intro i
  show IsReal (if Ideal.cmp .ogt (deg i) (z₁ i) = 1 then Ideal.rsqrt (deg i) else z₂ i)
  rw [hz₁ i, hz₂ i]
  generalize deg i = a
  by_cases h : (0 : EReal) < a
  · have hc : Ideal.cmp .ogt a 0 = 1 := by simp [Ideal.cmp, h]
    rw [if_pos hc]
    induction a using EReal.rec with
    | bot => exact absurd h (by simp)
    | top => rw [Ideal.rsqrt_top]; exact isReal_zero
    | coe r =>
      have hr : 0 < r := by exact_mod_cast h
      rw [Ideal.rsqrt_coe, if_neg (not_lt.mpr hr.le), if_neg hr.ne']
      exact isReal_coe _
  · have hc : ¬ Ideal.cmp .ogt a 0 = 1 := by simp [Ideal.cmp, h]
    rw [if_neg hc]
    exact isReal_zero

/-! ## `log_softmax` over an axis of extent one -/

abbrev Sh0 : Shape := ⟨0, ![]⟩
abbrev ShN : Shape := ⟨1, ![200000]⟩
abbrev ShNx1 : Shape := ⟨2, ![200000, 1]⟩

/-- `log_softmax` along axis 1 of a `200000 × 1` array (`ShNx1`; `ShN` its reduced shape, `Sh0` the rank-zero shape of the initial values), operation by operation: the maximum along the
    axis from `-∞`, its maximum with `-∞`, the shifted argument, its exponential, the sum along the
    axis from `0`, its logarithm, the difference. -/
def logSoftmax1 (h : FVec Ideal ShNx1 .f32) (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) : FVec Ideal ShNx1 .f32 :=
  let cst : FVec Ideal Sh0 .f32 := constant (F := Ideal) Sh0 .f32 0xFF800000#32
  let v0 : FVec Ideal ShN .f32 := Host.reduce (FloatOps.maximumf (F := Ideal) (φ := .f32)) h cst hr hu
  let cst_0 : FVec Ideal Sh0 .f32 := constant (F := Ideal) Sh0 .f32 0xFF800000#32
  let v1 : FVec Ideal ShN .f32 := broadcastInDim ShN ![] hb0 cst_0
  let v2 : FVec Ideal ShN .f32 := maximumf (F := Ideal) v1 v0
  let v3 : FVec Ideal ShNx1 .f32 := broadcastInDim ShNx1 ![0] hb1 v2
  let v4 : FVec Ideal ShNx1 .f32 := subf (F := Ideal) h v3
  let v5 : FVec Ideal ShNx1 .f32 := Host.exp (F := Ideal) v4
  let cst_1 : FVec Ideal Sh0 .f32 := constant (F := Ideal) Sh0 .f32 0x00000000#32
  let v6 : FVec Ideal ShN .f32 := Host.reduceAdd (F := Ideal) v5 cst_1 hr hu
  let v7 : FVec Ideal ShNx1 .f32 := broadcastInDim ShNx1 ![0] hb1 v6
  let v8 : FVec Ideal ShNx1 .f32 := Host.log (F := Ideal) v7
  subf (F := Ideal) v4 v8

/-- On finite input, `log_softmax` over an axis of extent one is identically zero: the maximum is the
    entry itself, the shifted argument `0`, its exponential `1`, the sum `1`, its logarithm `0`. -/
theorem logSoftmax1_eq_zero {h : FVec Ideal ShNx1 .f32} (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) (hh : AllReal h) :
    logSoftmax1 h hr hu hb0 hb1 = fun _ => ((0 : ℝ) : EReal) := by
  have hR : ShNx1.Reduces [1] ShN := ⟨hr.1, by decide, hr.2⟩
  have hbot : Ideal.ofBits .f32 0xFF800000#32 = ⊥ := by simp [Ideal.ofBits, Ideal.ieee]
  -- the reduced axis has one coordinate
  have hu1 : (Finset.univ : Finset (Fin (ShNx1.size 1))) = {⟨0, by decide⟩} := by
    ext k
    simp only [Finset.mem_univ, Finset.mem_singleton, true_iff]
    exact Fin.ext (by show k.val = 0; have hk : k.val < 1 := k.isLt; omega)
  -- a full index is its reduced index with the coordinate 0 put back
  have hlift : ∀ j : ShNx1.Idx, hR.lift (hR.drop j) ⟨0, by decide⟩ = j := by
    intro j
    have h1 : j 1 = (⟨0, by decide⟩ : Fin (ShNx1.size 1)) :=
      Fin.ext (by show (j 1).val = 0; have hk : (j 1).val < 1 := (j 1).isLt; omega)
    calc hR.lift (hR.drop j) ⟨0, by decide⟩ = hR.lift (hR.drop j) (j 1) := by rw [h1]
      _ = j := hR.lift_drop j
  have hdrop0 : ∀ j : ShNx1.Idx, ((hR.drop j) 0).val = (j 0).val := fun j => hR.drop_apply_val_of_eq j 0 0
  -- broadcasting a reduced array back reads it at the reduced index
  have hb : ∀ (x : FVec Ideal ShN .f32) (j : ShNx1.Idx), broadcastInDim ShNx1 ![0] hb1 x j = x (hR.drop j) := by
    intro x j
    unfold broadcastInDim
    refine congrArg x (funext fun a => Fin.ext ?_)
    have ha : a = 0 := Fin.ext (by show a.val = 0; have hk : a.val < 1 := a.isLt; omega)
    subst ha
    rw [dif_neg (by decide)]
    exact (hdrop0 j).symm
  -- the maximum along the axis, from -∞, is the one entry
  have hv0 : ∀ j' : ShN.Idx,
      Host.reduce (FloatOps.maximumf (F := Ideal) (φ := .f32)) h (constant (F := Ideal) Sh0 .f32 0xFF800000#32) hr hu j'
        = h (hR.lift j' ⟨0, by decide⟩) := by
    intro j'
    rw [Host.reduce_eq_fold_single (FloatOps.maximumf (F := Ideal) (φ := .f32)) h _ hr hR hu j', hu1, Finset.fold_singleton]
    show max (h (hR.lift j' ⟨0, by decide⟩)) (Ideal.ofBits .f32 0xFF800000#32) = _
    rw [hbot, max_bot_right]
  -- the sum along the axis, from 0, is the one entry
  have hsum : ∀ (x : FVec Ideal ShNx1 .f32) (j' : ShN.Idx),
      Host.reduceAdd (F := Ideal) x (constant (F := Ideal) Sh0 .f32 0x00000000#32) hr hu j' = x (hR.lift j' ⟨0, by decide⟩) := by
    intro x j'
    show Ideal.hostReduceAdd hr x (Ideal.ofBits .f32 0x00000000#32) j' = _
    rw [Ideal.hostReduceAdd_single hr hR, Ideal.ofBits_zero_f32, zero_add, hu1, Finset.sum_singleton]
  let V0 : FVec Ideal ShN .f32 :=
    Host.reduce (FloatOps.maximumf (F := Ideal) (φ := .f32)) h (constant (F := Ideal) Sh0 .f32 0xFF800000#32) hr hu
  let V2 : FVec Ideal ShN .f32 :=
    maximumf (F := Ideal) (broadcastInDim ShN ![] hb0 (constant (F := Ideal) Sh0 .f32 0xFF800000#32)) V0
  let V4 : FVec Ideal ShNx1 .f32 := subf (F := Ideal) h (broadcastInDim ShNx1 ![0] hb1 V2)
  let V6 : FVec Ideal ShN .f32 :=
    Host.reduceAdd (F := Ideal) (Host.exp (F := Ideal) V4) (constant (F := Ideal) Sh0 .f32 0x00000000#32) hr hu
  have hV2 : ∀ j' : ShN.Idx, V2 j' = h (hR.lift j' ⟨0, by decide⟩) := by
    intro j'
    show max (Ideal.ofBits .f32 0xFF800000#32) (V0 j') = _
    rw [hbot, max_bot_left]
    exact hv0 j'
  -- the shifted argument is 0 everywhere
  have hV4 : ∀ i : ShNx1.Idx, V4 i = 0 := by
    intro i
    show h i - broadcastInDim ShNx1 ![0] hb1 V2 i = 0
    rw [hb V2 i, hV2, hlift]
    obtain ⟨r, hri⟩ := hh i
    rw [hri, ← EReal.coe_sub, sub_self, EReal.coe_zero]
  have hV5 : ∀ i : ShNx1.Idx, Host.exp (F := Ideal) V4 i = 1 := by
    intro i
    show Ideal.exp (V4 i) = 1
    rw [hV4 i, ← EReal.coe_zero, Ideal.exp_coe, Real.exp_zero, EReal.coe_one]
  have hV6 : ∀ j' : ShN.Idx, V6 j' = 1 := by
    intro j'
    show Host.reduceAdd (F := Ideal) (Host.exp (F := Ideal) V4) (constant (F := Ideal) Sh0 .f32 0x00000000#32) hr hu j' = 1
    rw [hsum, hV5]
  have e : logSoftmax1 h hr hu hb0 hb1
      = subf (F := Ideal) V4 (Host.log (F := Ideal) (broadcastInDim ShNx1 ![0] hb1 V6)) := rfl
  rw [e]
  funext j
  simp only [subf, Host.log, Ideal.subf_def, Ideal.hostUnary_log_def]
  rw [hV4 j, hb V6 j, hV6, ← EReal.coe_one, Ideal.log_coe, if_neg (by norm_num), Real.log_one, EReal.coe_zero, sub_zero]

end Cert.LibFinite

end
-- ==== Proof.PreReal.lean ====
import proofs.«140952_j21595095564583_2_alg».proof.Pre_finite_inputs
import proofs.«140952_j21595095564583_2_alg».proof.Proof.LibFinite
import Idealize.ShloMosaic.PureOps.Ideal
import Idealize.ShloMosaic.Lib.ReduceAll
import Idealize.ShloMosaic.Lib.ValueIdx

/-!
  The precondition read back. The predicate finite_inputs is the conjunction, over the nine float arrays, of
  "every entry x has |x| < +∞", each conjunct an and-reduction of the entrywise comparison from true.
  On the extended reals |x| = max x (-x), and max x (-x) < ⊤ excludes exactly x = ⊤ and x = ⊥:
  so the predicate being all ones says that every entry of every float array is (the image of) a real number.
  The integer array (the edge list) is not constrained.
-/

noncomputable section

namespace Cert.PreReal

open Idealize.ShloMosaic Cert.LibFinite Cert.Pre_finite_inputs

/-- The rank-0 shape has one index. -/
instance : Subsingleton S_.Idx := ⟨fun _ _ => funext fun d => d.elim0⟩

/-- The pattern 0x7F800000 denotes +∞. -/
theorem inf_word : Ideal.ofBits .f32 0x7F800000#32 = (⊤ : EReal) := by
  simp [Ideal.ofBits, Ideal.ieee]

/-- |x| < +∞ on the extended reals: x is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One conjunct of the predicate: all (|x| < +∞) over an array says every entry is real. -/
theorem allReal_of_all {s : Shape} {axes : List (Fin s.rank)} (x : FVec Ideal s .f32)
    (bc : S_.BroadcastsInDim s (![] : Fin 0 → Fin s.rank)) (hr : s.ReducesTo axes S_) (h0 : 0 < S_.numel)
    (h : Host.reduce IntOp.andi
        (cmpf .olt (Host.absf x) (broadcastInDim s ![] bc (constant (F := Ideal) S_ .f32 0x7F800000#32)))
        (constantI S_ 1 1#1) hr h0 ValueIdx.ix0 = 1#1) :
    AllReal x := by
  intro i
  have e := Host.reduce_andi_all _ _ hr h0 _ h i
  apply isReal_of_abs_lt_top
  rw [← inf_word]
  exact e

variable [Facts]

/-- finite_inputs all ones: each of the nine float arrays holds only real numbers. -/
theorem real_of_pre (x : FVec Ideal S200000x3 .f32) (e : IVec S2x5000000 32)
    (W1 : FVec Ideal S3x16 .f32) (b1 : FVec Ideal S16 .f32) (W2 : FVec Ideal S16x16 .f32) (b2 : FVec Ideal S16 .f32)
    (W3 : FVec Ideal S16x16 .f32) (b3 : FVec Ideal S16 .f32) (W4 : FVec Ideal S16x1 .f32) (b4 : FVec Ideal S1 .f32)
    (h : fn (F := Ideal) x e W1 b1 W2 b2 W3 b3 W4 b4 = fun _ => 1#1) :
    AllReal x ∧ AllReal W1 ∧ AllReal b1 ∧ AllReal W2 ∧ AllReal b2 ∧ AllReal W3 ∧ AllReal b3 ∧ AllReal W4 ∧ AllReal b4 := by
  have h0 := congrFun h ValueIdx.ix0
  dsimp only [fn, fn_part1, fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨allReal_of_all _ _ _ _ h1, allReal_of_all _ _ _ _ h2, allReal_of_all _ _ _ _ h3, allReal_of_all _ _ _ _ h4,
    allReal_of_all _ _ _ _ h5, allReal_of_all _ _ _ _ h6, allReal_of_all _ _ _ _ h7, allReal_of_all _ _ _ _ h8,
    allReal_of_all _ _ _ _ h9⟩

end Cert.PreReal

end
-- ==== Proof.KI.HostVal.lean ====
/-
  The host stretches of the kernel program, read at the extended-real instance.

  Between its eight kernel regions the program computes on the host: before the first region the
  symmetric normalisation of the graph (degrees by an accumulating scatter of ones, their reciprocal
  square roots guarded by `deg > 0`, the per-edge products gathered at both endpoints, the edges
  sorted into tiles and scattered into zero-filled tile arrays, the two zero pads); between the layers
  `relu (agg + norm_self * h_lin + b)`; at the end the same affine step, the cut back to the true row
  count and `log_softmax` along an axis of extent one.

  This module shows that every float array these stretches produce holds only real numbers — whatever
  the integer edge list is — provided the float inputs do and the regions' outputs (unknowns here) do,
  and that the final `log_softmax` is therefore the zero array.
-/
import proofs.«140952_j21595095564583_2_alg».proof.Proof.Gen.KernelIdeal.Regions
import proofs.«140952_j21595095564583_2_alg».proof.Proof.LibFinite
import proofs.«140952_j21595095564583_2_alg».proof.Proof.PreReal
import proofs.«140952_j21595095564583_2_alg».proof.Defs
import Idealize.ShloMosaic.Lib.StableHlo.Run

set_option maxRecDepth 8192

noncomputable section

namespace Cert.KernelIdeal.Gen

open Idealize.ShloMosaic Idealize.ShloMosaic.TcCoe

/-! ## Reading a buffer after a line of host operations

A line of operations folds into nested results; three small tactics walk that fold one buffer at a
time, so that only the float operands are ever opened. -/

/-- Drop, everywhere in the goal, the operations that do not write the buffer read through them. -/
macro "peel_ne" : tactic =>
  `(tactic| try simp (disch := decide) only [StableHlo.nullary_result_ne', StableHlo.unary_result_ne', StableHlo.binary_result_ne',
      StableHlo.ternary_result_ne', StableHlo.quaternary_result_ne', StableHlo.reshape_result_ne', StableHlo.nary_result_ne',
      StableHlo.unaryIndexed_result_ne', StableHlo.binaryIndexed_result_ne'])

/-- Read the buffer `y` at the operation that writes it: its function applied to the operands' contents before it. -/
macro "read_buf " y:term:max : tactic =>
  `(tactic| first
      | rw [StableHlo.nullary_result $y] | rw [StableHlo.unary_result _ $y] | rw [StableHlo.binary_result _ _ $y]
      | rw [StableHlo.ternary_result _ _ _ $y] | rw [StableHlo.quaternary_result _ _ _ _ $y] | rw [StableHlo.reshape_result _ $y])

/-- Forget the transports along a literal reference's type equation. -/
macro "drop_casts" : tactic =>
  `(tactic| try simp only [StableHlo.TRef.ofBuf, StableHlo.TRef.toBuf, cast_eq])

/-- Unfold a line of operations into its nested results. -/
macro "open_line" : tactic =>
  `(tactic| simp only [StableHlo.after_cons, StableHlo.after_nil])

/-! ## The host stretches over an arbitrary valuation

Each lemma reads one float buffer after a stretch of host operations as its operation applied to the
buffers before it, and concludes that it holds only real numbers whenever the float buffers it is
computed from do.  Integer operands (gather and scatter indices, sort keys) are never opened: the
conclusion holds whatever they are. -/

section Stretches

/-- The degree normaliser `where (deg > 0) (rsqrt deg) 0` is real whatever the degrees are. -/
theorem dinv_stretch (W : Valuation τ sig (Elt Ideal)) :
    LibFinite.AllReal (ι := S200000.Idx)
      (StableHlo.after hostOps0_1 (StableHlo.after hostOps0 W) (Proc.devRef .tc main_v19)) := by
  open_line
  read_buf main_v19; drop_casts
  peel_ne
  read_buf main_v17; read_buf main_v18
  peel_ne
  apply LibFinite.allReal_dinv
  · read_buf main_v16
    apply LibFinite.allZero_broadcastInDim
    peel_ne; read_buf main_cst_2
    exact LibFinite.allZero_constant_zero _
  · read_buf main_call0_v1; drop_casts
    apply LibFinite.allZero_broadcastInDim
    read_buf main_call0_v0; drop_casts
    apply LibFinite.allZero_id
    peel_ne; read_buf main_cst_3
    exact LibFinite.allZero_constant_zero _

/-- The edge norms `dinv[src] * dinv[dst]`: two gathers of a real array, multiplied. -/
theorem edge_norm_stretch (W : Valuation τ sig (Elt Ideal))
    (h19 : LibFinite.AllReal (ι := S200000.Idx) (W (Proc.devRef .tc main_v19))) :
    LibFinite.AllReal (ι := S5000000.Idx) (StableHlo.after hostOps0_2 W (Proc.devRef .tc main_v34)) := by
  open_line
  peel_ne; read_buf main_v34
  apply LibFinite.allReal_mulf
  · peel_ne; read_buf main_v26
    apply LibFinite.allReal_gather
    peel_ne; exact h19
  · peel_ne; read_buf main_v33
    apply LibFinite.allReal_gather
    peel_ne; exact h19

/-- The self-loop norms `dinv * dinv`. -/
theorem self_norm_stretch (W : Valuation τ sig (Elt Ideal))
    (h19 : LibFinite.AllReal (ι := S200000.Idx) (W (Proc.devRef .tc main_v19))) :
    LibFinite.AllReal (ι := S200000.Idx) (StableHlo.after hostOps0_2 W (Proc.devRef .tc main_v35)) := by
  open_line
  peel_ne; read_buf main_v35
  peel_ne
  exact LibFinite.allReal_mulf h19 h19

/-- Sorting the edges by tile key permutes the edge norms. -/
theorem sorted_norm_stretch (W : Valuation τ sig (Elt Ideal))
    (h34 : LibFinite.AllReal (ι := S5000000.Idx) (W (Proc.devRef .tc main_v34))) :
    LibFinite.AllReal (ι := S5000000.Idx) (StableHlo.after hostOps0_10 W (Proc.devRef .tc main_v43_3)) := by
  open_line
  peel_ne; read_buf main_v43_3
  peel_ne
  exact LibFinite.allReal_sort4_4 _ _ _ _ _ _ h34

/-- The sorted edge norms scattered into an array of zeros and cut into tiles. -/
theorem tiled_norm_stretch (W : Valuation τ sig (Elt Ideal))
    (h43 : LibFinite.AllReal (ι := S5000000.Idx) (W (Proc.devRef .tc main_v43_3))) :
    LibFinite.AllReal (ι := S38416x1x512.Idx) (StableHlo.after hostOps0_12 W (Proc.devRef .tc main_v95)) := by
  open_line
  peel_ne; read_buf main_v95
  refine fun i => LibFinite.allReal_shapeCast shapeCasts_S19668992_S38416x1x512 ?_ i
  peel_ne; read_buf main_v92
  apply LibFinite.allReal_scatter_set
  · peel_ne; read_buf main_v85
    apply LibFinite.allReal_broadcastInDim
    peel_ne; read_buf main_cst_27
    exact LibFinite.allReal_constant_zero _
  · peel_ne; exact h43

/-- The self-loop norms as a column. -/
theorem self_column_stretch (W : Valuation τ sig (Elt Ideal))
    (h35 : LibFinite.AllReal (ι := S200000.Idx) (W (Proc.devRef .tc main_v35))) :
    LibFinite.AllReal (ι := S200000x1.Idx) (StableHlo.after hostOps0_12 W (Proc.devRef .tc main_v96)) := by
  open_line
  peel_ne; read_buf main_v96
  refine fun i => LibFinite.allReal_shapeCast shapeCasts_S200000_S200000x1 ?_ i
  peel_ne; exact h35

/-- The column of self-loop norms padded with zeros to the tiled row count. -/
theorem self_pad_stretch (W : Valuation τ sig (Elt Ideal))
    (h96 : LibFinite.AllReal (ι := S200000x1.Idx) (W (Proc.devRef .tc main_v96))) :
    LibFinite.AllReal (ι := S200704x1.Idx) (StableHlo.after hostOps0_13 W (Proc.devRef .tc main_v97)) := by
  open_line
  read_buf main_v97; drop_casts
  apply LibFinite.allReal_pad
  · peel_ne; exact h96
  · read_buf main_call6_v0; drop_casts
    exact LibFinite.allReal_sitofp _ _

/-- The features padded with zeros to the tiled row count. -/
theorem x_pad_stretch (W : Valuation τ sig (Elt Ideal))
    (h0 : LibFinite.AllReal (ι := S200000x3.Idx) (W (Proc.devRef .tc main_arg0))) :
    LibFinite.AllReal (ι := S200704x3.Idx) (StableHlo.after hostOps0_15 W (Proc.devRef .tc main_v98)) := by
  open_line
  read_buf main_v98; drop_casts
  apply LibFinite.allReal_pad
  · peel_ne; exact h0
  · read_buf main_call7_v0; drop_casts
    exact LibFinite.allReal_sitofp _ _

/-- After the first layer: `relu (agg + norm_self * h_lin + b₁)`. -/
theorem layer1_stretch (W : Valuation τ sig (Elt Ideal))
    (hself : LibFinite.AllReal (ι := S200704x1.Idx) (W (Proc.devRef .tc main_v97)))
    (hlin : LibFinite.AllReal (ι := S200704x16.Idx) (W (Proc.devRef .tc main_v99)))
    (hagg : LibFinite.AllReal (ι := S200704x16.Idx) (W (Proc.devRef .tc main_v100)))
    (hb : LibFinite.AllReal (ι := S16.Idx) (W (Proc.devRef .tc main_arg3))) :
    LibFinite.AllReal (ι := S200704x16.Idx)
      (StableHlo.after hostOps2_1 (StableHlo.after hostOps2 W) (Proc.devRef .tc main_v107)) := by
  after_results
  drop_casts
  apply LibFinite.allReal_maximumf
  · apply LibFinite.allReal_addf
    · apply LibFinite.allReal_addf hagg
      apply LibFinite.allReal_mulf _ hlin
      exact LibFinite.allReal_broadcastInDim _ _ hself
    · apply LibFinite.allReal_broadcastInDim
      exact LibFinite.allReal_broadcastInDim _ _ hb
  · apply LibFinite.allReal_broadcastInDim
    exact LibFinite.allReal_constant_zero _

/-- After the second layer: `relu (agg + norm_self * h_lin + b₂)`. -/
theorem layer2_stretch (W : Valuation τ sig (Elt Ideal))
    (hself : LibFinite.AllReal (ι := S200704x1.Idx) (W (Proc.devRef .tc main_v97)))
    (hlin : LibFinite.AllReal (ι := S200704x16.Idx) (W (Proc.devRef .tc main_v108)))
    (hagg : LibFinite.AllReal (ι := S200704x16.Idx) (W (Proc.devRef .tc main_v109)))
    (hb : LibFinite.AllReal (ι := S16.Idx) (W (Proc.devRef .tc main_arg5))) :
    LibFinite.AllReal (ι := S200704x16.Idx)
      (StableHlo.after hostOps4_1 (StableHlo.after hostOps4 W) (Proc.devRef .tc main_v116)) := by
  after_results
  drop_casts
  apply LibFinite.allReal_maximumf
  · apply LibFinite.allReal_addf
    · apply LibFinite.allReal_addf hagg
      apply LibFinite.allReal_mulf _ hlin
      exact LibFinite.allReal_broadcastInDim _ _ hself
    · apply LibFinite.allReal_broadcastInDim
      exact LibFinite.allReal_broadcastInDim _ _ hb
  · apply LibFinite.allReal_broadcastInDim
    exact LibFinite.allReal_constant_zero _

/-- After the third layer: `relu (agg + norm_self * h_lin + b₃)`. -/
theorem layer3_stretch (W : Valuation τ sig (Elt Ideal))
    (hself : LibFinite.AllReal (ι := S200704x1.Idx) (W (Proc.devRef .tc main_v97)))
    (hlin : LibFinite.AllReal (ι := S200704x16.Idx) (W (Proc.devRef .tc main_v117)))
    (hagg : LibFinite.AllReal (ι := S200704x16.Idx) (W (Proc.devRef .tc main_v118)))
    (hb : LibFinite.AllReal (ι := S16.Idx) (W (Proc.devRef .tc main_arg7))) :
    LibFinite.AllReal (ι := S200704x16.Idx)
      (StableHlo.after hostOps6_1 (StableHlo.after hostOps6 W) (Proc.devRef .tc main_v125)) := by
  after_results
  drop_casts
  apply LibFinite.allReal_maximumf
  · apply LibFinite.allReal_addf
    · apply LibFinite.allReal_addf hagg
      apply LibFinite.allReal_mulf _ hlin
      exact LibFinite.allReal_broadcastInDim _ _ hself
    · apply LibFinite.allReal_broadcastInDim
      exact LibFinite.allReal_broadcastInDim _ _ hb
  · apply LibFinite.allReal_broadcastInDim
    exact LibFinite.allReal_constant_zero _

/-- The logits `agg + norm_self * h_lin + b₄`, cut back to the true row count. -/
theorem logits_stretch (W : Valuation τ sig (Elt Ideal))
    (hself : LibFinite.AllReal (ι := S200704x1.Idx) (W (Proc.devRef .tc main_v97)))
    (hlin : LibFinite.AllReal (ι := S200704x1.Idx) (W (Proc.devRef .tc main_v126)))
    (hagg : LibFinite.AllReal (ι := S200704x1.Idx) (W (Proc.devRef .tc main_v127)))
    (hb : LibFinite.AllReal (ι := S1.Idx) (W (Proc.devRef .tc main_arg9))) :
    LibFinite.AllReal (ι := S200000x1.Idx) (StableHlo.after hostOps8 W (Proc.devRef .tc main_v133)) := by
  after_results
  apply LibFinite.allReal_extractStridedSlice
  apply LibFinite.allReal_addf
  · apply LibFinite.allReal_addf hagg
    exact LibFinite.allReal_mulf hself hlin
  · apply LibFinite.allReal_broadcastInDim
    exact LibFinite.allReal_broadcastInDim _ _ hb

/-- The last stretch is `log_softmax` along the axis of extent one, operation by operation. -/
theorem tail_stretch (W : Valuation τ sig (Elt Ideal)) :
    @Eq (S200000x1.Idx → EReal) (StableHlo.after hostOps8_1 W (Proc.devRef .tc main_v134))
      (LibFinite.logSoftmax1 (W (Proc.devRef .tc main_v133)) reducesTo_S200000x1_S200000_d1 h_S_ bcast_S_S200000
          bcast_S200000_S200000x1_0) := by
  after_results
  drop_casts
  rfl

end Stretches

/-! ## The valuations between the items of the program

`m` is the launch memory and `outs` the unknown contents the regions leave.  The entry chain
`V1 … V16` is host operations only; between the regions the host computes the next layer's input from
what the two regions before left. -/

section Valuations

variable (m : (ℓ : Loc nD τ sig) → Buf (Elt Ideal) ℓ) (outs : Outs (F := Ideal))

/-! ### The arguments

No item writes an argument: at every valuation it is read as launched. -/
theorem V16_main_arg0 (c : Dev nD) : V16 m c main_arg0 = m ((c : Thread nD τ).loc main_arg0) :=
  ((V16_of m c main_arg0 (by decide)).trans <|
  (V15_of m c main_arg0 (by decide)).trans <|
  (V14_of m c main_arg0 (by decide)).trans <|
  (V13_of m c main_arg0 (by decide)).trans <|
  (V12_of m c main_arg0 (by decide)).trans <|
  (V11_of m c main_arg0 (by decide)).trans <|
  (V10_of m c main_arg0 (by decide)).trans <|
  (V9_of m c main_arg0 (by decide)).trans <|
  (V8_of m c main_arg0 (by decide)).trans <|
  (V7_of m c main_arg0 (by decide)).trans <|
  (V6_of m c main_arg0 (by decide)).trans <|
  (V5_of m c main_arg0 (by decide)).trans <|
  (V4_of m c main_arg0 (by decide)).trans <|
  (V3_of m c main_arg0 (by decide)).trans <|
  (V2_of m c main_arg0 (by decide)).trans <|
  (V1_of m c main_arg0 (by decide))).trans rfl
theorem V16_main_arg1 (c : Dev nD) : V16 m c main_arg1 = m ((c : Thread nD τ).loc main_arg1) :=
  ((V16_of m c main_arg1 (by decide)).trans <|
  (V15_of m c main_arg1 (by decide)).trans <|
  (V14_of m c main_arg1 (by decide)).trans <|
  (V13_of m c main_arg1 (by decide)).trans <|
  (V12_of m c main_arg1 (by decide)).trans <|
  (V11_of m c main_arg1 (by decide)).trans <|
  (V10_of m c main_arg1 (by decide)).trans <|
  (V9_of m c main_arg1 (by decide)).trans <|
  (V8_of m c main_arg1 (by decide)).trans <|
  (V7_of m c main_arg1 (by decide)).trans <|
  (V6_of m c main_arg1 (by decide)).trans <|
  (V5_of m c main_arg1 (by decide)).trans <|
  (V4_of m c main_arg1 (by decide)).trans <|
  (V3_of m c main_arg1 (by decide)).trans <|
  (V2_of m c main_arg1 (by decide)).trans <|
  (V1_of m c main_arg1 (by decide))).trans rfl
theorem V16_main_arg2 (c : Dev nD) : V16 m c main_arg2 = m ((c : Thread nD τ).loc main_arg2) :=
  ((V16_of m c main_arg2 (by decide)).trans <|
  (V15_of m c main_arg2 (by decide)).trans <|
  (V14_of m c main_arg2 (by decide)).trans <|
  (V13_of m c main_arg2 (by decide)).trans <|
  (V12_of m c main_arg2 (by decide)).trans <|
  (V11_of m c main_arg2 (by decide)).trans <|
  (V10_of m c main_arg2 (by decide)).trans <|
  (V9_of m c main_arg2 (by decide)).trans <|
  (V8_of m c main_arg2 (by decide)).trans <|
  (V7_of m c main_arg2 (by decide)).trans <|
  (V6_of m c main_arg2 (by decide)).trans <|
  (V5_of m c main_arg2 (by decide)).trans <|
  (V4_of m c main_arg2 (by decide)).trans <|
  (V3_of m c main_arg2 (by decide)).trans <|
  (V2_of m c main_arg2 (by decide)).trans <|
  (V1_of m c main_arg2 (by decide))).trans rfl
theorem V16_main_arg3 (c : Dev nD) : V16 m c main_arg3 = m ((c : Thread nD τ).loc main_arg3) :=
  ((V16_of m c main_arg3 (by decide)).trans <|
  (V15_of m c main_arg3 (by decide)).trans <|
  (V14_of m c main_arg3 (by decide)).trans <|
  (V13_of m c main_arg3 (by decide)).trans <|
  (V12_of m c main_arg3 (by decide)).trans <|
  (V11_of m c main_arg3 (by decide)).trans <|
  (V10_of m c main_arg3 (by decide)).trans <|
  (V9_of m c main_arg3 (by decide)).trans <|
  (V8_of m c main_arg3 (by decide)).trans <|
  (V7_of m c main_arg3 (by decide)).trans <|
  (V6_of m c main_arg3 (by decide)).trans <|
  (V5_of m c main_arg3 (by decide)).trans <|
  (V4_of m c main_arg3 (by decide)).trans <|
  (V3_of m c main_arg3 (by decide)).trans <|
  (V2_of m c main_arg3 (by decide)).trans <|
  (V1_of m c main_arg3 (by decide))).trans rfl
theorem V16_main_arg4 (c : Dev nD) : V16 m c main_arg4 = m ((c : Thread nD τ).loc main_arg4) :=
  ((V16_of m c main_arg4 (by decide)).trans <|
  (V15_of m c main_arg4 (by decide)).trans <|
  (V14_of m c main_arg4 (by decide)).trans <|
  (V13_of m c main_arg4 (by decide)).trans <|
  (V12_of m c main_arg4 (by decide)).trans <|
  (V11_of m c main_arg4 (by decide)).trans <|
  (V10_of m c main_arg4 (by decide)).trans <|
  (V9_of m c main_arg4 (by decide)).trans <|
  (V8_of m c main_arg4 (by decide)).trans <|
  (V7_of m c main_arg4 (by decide)).trans <|
  (V6_of m c main_arg4 (by decide)).trans <|
  (V5_of m c main_arg4 (by decide)).trans <|
  (V4_of m c main_arg4 (by decide)).trans <|
  (V3_of m c main_arg4 (by decide)).trans <|
  (V2_of m c main_arg4 (by decide)).trans <|
  (V1_of m c main_arg4 (by decide))).trans rfl
theorem V16_main_arg5 (c : Dev nD) : V16 m c main_arg5 = m ((c : Thread nD τ).loc main_arg5) :=
  ((V16_of m c main_arg5 (by decide)).trans <|
  (V15_of m c main_arg5 (by decide)).trans <|
  (V14_of m c main_arg5 (by decide)).trans <|
  (V13_of m c main_arg5 (by decide)).trans <|
  (V12_of m c main_arg5 (by decide)).trans <|
  (V11_of m c main_arg5 (by decide)).trans <|
  (V10_of m c main_arg5 (by decide)).trans <|
  (V9_of m c main_arg5 (by decide)).trans <|
  (V8_of m c main_arg5 (by decide)).trans <|
  (V7_of m c main_arg5 (by decide)).trans <|
  (V6_of m c main_arg5 (by decide)).trans <|
  (V5_of m c main_arg5 (by decide)).trans <|
  (V4_of m c main_arg5 (by decide)).trans <|
  (V3_of m c main_arg5 (by decide)).trans <|
  (V2_of m c main_arg5 (by decide)).trans <|
  (V1_of m c main_arg5 (by decide))).trans rfl
theorem V16_main_arg6 (c : Dev nD) : V16 m c main_arg6 = m ((c : Thread nD τ).loc main_arg6) :=
  ((V16_of m c main_arg6 (by decide)).trans <|
  (V15_of m c main_arg6 (by decide)).trans <|
  (V14_of m c main_arg6 (by decide)).trans <|
  (V13_of m c main_arg6 (by decide)).trans <|
  (V12_of m c main_arg6 (by decide)).trans <|
  (V11_of m c main_arg6 (by decide)).trans <|
  (V10_of m c main_arg6 (by decide)).trans <|
  (V9_of m c main_arg6 (by decide)).trans <|
  (V8_of m c main_arg6 (by decide)).trans <|
  (V7_of m c main_arg6 (by decide)).trans <|
  (V6_of m c main_arg6 (by decide)).trans <|
  (V5_of m c main_arg6 (by decide)).trans <|
  (V4_of m c main_arg6 (by decide)).trans <|
  (V3_of m c main_arg6 (by decide)).trans <|
  (V2_of m c main_arg6 (by decide)).trans <|
  (V1_of m c main_arg6 (by decide))).trans rfl
theorem V16_main_arg7 (c : Dev nD) : V16 m c main_arg7 = m ((c : Thread nD τ).loc main_arg7) :=
  ((V16_of m c main_arg7 (by decide)).trans <|
  (V15_of m c main_arg7 (by decide)).trans <|
  (V14_of m c main_arg7 (by decide)).trans <|
  (V13_of m c main_arg7 (by decide)).trans <|
  (V12_of m c main_arg7 (by decide)).trans <|
  (V11_of m c main_arg7 (by decide)).trans <|
  (V10_of m c main_arg7 (by decide)).trans <|
  (V9_of m c main_arg7 (by decide)).trans <|
  (V8_of m c main_arg7 (by decide)).trans <|
  (V7_of m c main_arg7 (by decide)).trans <|
  (V6_of m c main_arg7 (by decide)).trans <|
  (V5_of m c main_arg7 (by decide)).trans <|
  (V4_of m c main_arg7 (by decide)).trans <|
  (V3_of m c main_arg7 (by decide)).trans <|
  (V2_of m c main_arg7 (by decide)).trans <|
  (V1_of m c main_arg7 (by decide))).trans rfl
theorem V16_main_arg8 (c : Dev nD) : V16 m c main_arg8 = m ((c : Thread nD τ).loc main_arg8) :=
  ((V16_of m c main_arg8 (by decide)).trans <|
  (V15_of m c main_arg8 (by decide)).trans <|
  (V14_of m c main_arg8 (by decide)).trans <|
  (V13_of m c main_arg8 (by decide)).trans <|
  (V12_of m c main_arg8 (by decide)).trans <|
  (V11_of m c main_arg8 (by decide)).trans <|
  (V10_of m c main_arg8 (by decide)).trans <|
  (V9_of m c main_arg8 (by decide)).trans <|
  (V8_of m c main_arg8 (by decide)).trans <|
  (V7_of m c main_arg8 (by decide)).trans <|
  (V6_of m c main_arg8 (by decide)).trans <|
  (V5_of m c main_arg8 (by decide)).trans <|
  (V4_of m c main_arg8 (by decide)).trans <|
  (V3_of m c main_arg8 (by decide)).trans <|
  (V2_of m c main_arg8 (by decide)).trans <|
  (V1_of m c main_arg8 (by decide))).trans rfl
theorem V16_main_arg9 (c : Dev nD) : V16 m c main_arg9 = m ((c : Thread nD τ).loc main_arg9) :=
  ((V16_of m c main_arg9 (by decide)).trans <|
  (V15_of m c main_arg9 (by decide)).trans <|
  (V14_of m c main_arg9 (by decide)).trans <|
  (V13_of m c main_arg9 (by decide)).trans <|
  (V12_of m c main_arg9 (by decide)).trans <|
  (V11_of m c main_arg9 (by decide)).trans <|
  (V10_of m c main_arg9 (by decide)).trans <|
  (V9_of m c main_arg9 (by decide)).trans <|
  (V8_of m c main_arg9 (by decide)).trans <|
  (V7_of m c main_arg9 (by decide)).trans <|
  (V6_of m c main_arg9 (by decide)).trans <|
  (V5_of m c main_arg9 (by decide)).trans <|
  (V4_of m c main_arg9 (by decide)).trans <|
  (V3_of m c main_arg9 (by decide)).trans <|
  (V2_of m c main_arg9 (by decide)).trans <|
  (V1_of m c main_arg9 (by decide))).trans rfl

/-- Under the precondition every float argument holds only real numbers (the edge list is not constrained). -/
theorem args_real [Cert.Pre_finite_inputs.Facts] (hpre : Cert.Pre_KernelIdeal m) (c : Dev nD) :
    LibFinite.AllReal (ι := S200000x3.Idx) (m ((c : Thread nD τ).loc main_arg0)) ∧
    LibFinite.AllReal (ι := S3x16.Idx) (m ((c : Thread nD τ).loc main_arg2)) ∧
    LibFinite.AllReal (ι := S16.Idx) (m ((c : Thread nD τ).loc main_arg3)) ∧
    LibFinite.AllReal (ι := S16x16.Idx) (m ((c : Thread nD τ).loc main_arg4)) ∧
    LibFinite.AllReal (ι := S16.Idx) (m ((c : Thread nD τ).loc main_arg5)) ∧
    LibFinite.AllReal (ι := S16x16.Idx) (m ((c : Thread nD τ).loc main_arg6)) ∧
    LibFinite.AllReal (ι := S16.Idx) (m ((c : Thread nD τ).loc main_arg7)) ∧
    LibFinite.AllReal (ι := S16x1.Idx) (m ((c : Thread nD τ).loc main_arg8)) ∧
    LibFinite.AllReal (ι := S1.Idx) (m ((c : Thread nD τ).loc main_arg9)) :=
  Cert.PreReal.real_of_pre _ _ _ _ _ _ _ _ _ _ (hpre c)

/-! ### The entry chain: the float buffers the regions read -/

/-- The degree normaliser. -/
theorem V2_dinv_real (c : Dev nD) : LibFinite.AllReal (ι := S200000.Idx) (V2 m c main_v19) :=
  dinv_stretch (V0 m c)

/-- The edge norms, as computed. -/
theorem V3_edge_norm_real (c : Dev nD) : LibFinite.AllReal (ι := S5000000.Idx) (V3 m c main_v34) :=
  edge_norm_stretch (V2 m c) (V2_dinv_real m c)

/-- The self-loop norms, as computed. -/
theorem V3_self_norm_real (c : Dev nD) : LibFinite.AllReal (ι := S200000.Idx) (V3 m c main_v35) :=
  self_norm_stretch (V2 m c) (V2_dinv_real m c)

theorem V10_edge_norm (c : Dev nD) : V10 m c main_v34 = V3 m c main_v34 :=
  (V10_of m c main_v34 (by decide)).trans <| (V9_of m c main_v34 (by decide)).trans <| (V8_of m c main_v34 (by decide)).trans <| (V7_of m c main_v34 (by decide)).trans <| (V6_of m c main_v34 (by decide)).trans <| (V5_of m c main_v34 (by decide)).trans <| (V4_of m c main_v34 (by decide))

theorem V12_self_norm (c : Dev nD) : V12 m c main_v35 = V3 m c main_v35 :=
  (V12_of m c main_v35 (by decide)).trans <| (V11_of m c main_v35 (by decide)).trans <| (V10_of m c main_v35 (by decide)).trans <| (V9_of m c main_v35 (by decide)).trans <| (V8_of m c main_v35 (by decide)).trans <| (V7_of m c main_v35 (by decide)).trans <| (V6_of m c main_v35 (by decide)).trans <| (V5_of m c main_v35 (by decide)).trans <| (V4_of m c main_v35 (by decide))

/-- The edge norms in tile order. -/
theorem V11_sorted_norm_real (c : Dev nD) : LibFinite.AllReal (ι := S5000000.Idx) (V11 m c main_v43_3) := by
  refine sorted_norm_stretch (V10 m c) ?_
  rw [V10_edge_norm]; exact V3_edge_norm_real m c

theorem V12_sorted_norm (c : Dev nD) : V12 m c main_v43_3 = V11 m c main_v43_3 :=
  V12_of m c main_v43_3 (by decide)

/-- The tiled edge norms. -/
theorem V13_tiled_norm_real (c : Dev nD) : LibFinite.AllReal (ι := S38416x1x512.Idx) (V13 m c main_v95) := by
  refine tiled_norm_stretch (V12 m c) ?_
  rw [V12_sorted_norm]; exact V11_sorted_norm_real m c

/-- The column of self-loop norms. -/
theorem V13_self_column_real (c : Dev nD) : LibFinite.AllReal (ι := S200000x1.Idx) (V13 m c main_v96) := by
  refine self_column_stretch (V12 m c) ?_
  rw [V12_self_norm]; exact V3_self_norm_real m c

/-- The padded self-loop norms. -/
theorem V14_self_pad_real (c : Dev nD) : LibFinite.AllReal (ι := S200704x1.Idx) (V14 m c main_v97) :=
  self_pad_stretch (V13 m c) (V13_self_column_real m c)

theorem V16_tiled_norm (c : Dev nD) : V16 m c main_v95 = V13 m c main_v95 :=
  (V16_of m c main_v95 (by decide)).trans <| (V15_of m c main_v95 (by decide)).trans <| (V14_of m c main_v95 (by decide))

theorem V16_self_pad (c : Dev nD) : V16 m c main_v97 = V14 m c main_v97 :=
  (V16_of m c main_v97 (by decide)).trans <| (V15_of m c main_v97 (by decide))

theorem V15_main_arg0 (c : Dev nD) : V15 m c main_arg0 = m ((c : Thread nD τ).loc main_arg0) :=
  ((V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))).trans rfl

/-- At the first region's entry the padded features, the tiled edge norms and the padded self-loop norms
    hold only real numbers, whatever the edge list is. -/
theorem entry_real [Cert.Pre_finite_inputs.Facts] (hpre : Cert.Pre_KernelIdeal m) (c : Dev nD) :
    LibFinite.AllReal (ι := S200704x3.Idx) (V16 m c main_v98) ∧
    LibFinite.AllReal (ι := S38416x1x512.Idx) (V16 m c main_v95) ∧
    LibFinite.AllReal (ι := S200704x1.Idx) (V16 m c main_v97) := by
  refine ⟨?_, ?_, ?_⟩
  · refine x_pad_stretch (V15 m c) ?_
    rw [V15_main_arg0]; exact (args_real m hpre c).1
  · rw [V16_tiled_norm]; exact V13_tiled_norm_real m c
  · rw [V16_self_pad]; exact V14_self_pad_real m c

/-! ### What the items after the entry leave unchanged

`Wr J` lists every buffer some item between the first region's entry and valuation `J` may write; a
buffer outside it is read at valuation `J` as at the entry. -/

abbrev Wr17 : List (Ref sig .tc) := [main_v99]
abbrev Wr18 : List (Ref sig .tc) := ([main_v100] : List (Ref sig .tc)) ++ Wr17
abbrev Wr19 : List (Ref sig .tc) := hostOps2_W ++ Wr18
abbrev Wr20 : List (Ref sig .tc) := hostOps2_1_W ++ Wr19
abbrev Wr21 : List (Ref sig .tc) := ([main_v108] : List (Ref sig .tc)) ++ Wr20
abbrev Wr22 : List (Ref sig .tc) := ([main_v109] : List (Ref sig .tc)) ++ Wr21
abbrev Wr23 : List (Ref sig .tc) := hostOps4_W ++ Wr22
abbrev Wr24 : List (Ref sig .tc) := hostOps4_1_W ++ Wr23
abbrev Wr25 : List (Ref sig .tc) := ([main_v117] : List (Ref sig .tc)) ++ Wr24
abbrev Wr26 : List (Ref sig .tc) := ([main_v118] : List (Ref sig .tc)) ++ Wr25
abbrev Wr27 : List (Ref sig .tc) := hostOps6_W ++ Wr26
abbrev Wr28 : List (Ref sig .tc) := hostOps6_1_W ++ Wr27
abbrev Wr29 : List (Ref sig .tc) := ([main_v126] : List (Ref sig .tc)) ++ Wr28
abbrev Wr30 : List (Ref sig .tc) := ([main_v127] : List (Ref sig .tc)) ++ Wr29
abbrev Wr31 : List (Ref sig .tc) := hostOps8_W ++ Wr30
abbrev Wr32 : List (Ref sig .tc) := hostOps8_1_W ++ Wr31

theorem V17_keep (c : Dev nD) (r : Ref sig .tc) (h : r ∉ Wr17) : V17 m outs c r = V16 m c r := V17_of m outs c r h
theorem V18_keep (c : Dev nD) (r : Ref sig .tc) (h : r ∉ Wr18) : V18 m outs c r = V16 m c r :=
  (V18_of m outs c r (fun hm => h (List.mem_append_left _ hm))).trans (V17_keep m outs c r (fun hm => h (List.mem_append_right _ hm)))
theorem V19_keep (c : Dev nD) (r : Ref sig .tc) (h : r ∉ Wr19) : V19 m outs c r = V16 m c r :=
  (V19_of m outs c r (fun hm => h (List.mem_append_left _ hm))).trans (V18_keep m outs c r (fun hm => h (List.mem_append_right _ hm)))
theorem V20_keep (c : Dev nD) (r : Ref sig .tc) (h : r ∉ Wr20) : V20 m outs c r = V16 m c r :=
  (V20_of m outs c r (fun hm => h (List.mem_append_left _ hm))).trans (V19_keep m outs c r (fun hm => h (List.mem_append_right _ hm)))
theorem V21_keep (c : Dev nD) (r : Ref sig .tc) (h : r ∉ Wr21) : V21 m outs c r = V16 m c r :=
  (V21_of m outs c r (fun hm => h (List.mem_append_left _ hm))).trans (V20_keep m outs c r (fun hm => h (List.mem_append_right _ hm)))
theorem V22_keep (c : Dev nD) (r : Ref sig .tc) (h : r ∉ Wr22) : V22 m outs c r = V16 m c r :=
  (V22_of m outs c r (fun hm => h (List.mem_append_left _ hm))).trans (V21_keep m outs c r (fun hm => h (List.mem_append_right _ hm)))
theorem V23_keep (c : Dev nD) (r : Ref sig .tc) (h : r ∉ Wr23) : V23 m outs c r = V16 m c r :=
  (V23_of m outs c r (fun hm => h (List.mem_append_left _ hm))).trans (V22_keep m outs c r (fun hm => h (List.mem_append_right _ hm)))
theorem V24_keep (c : Dev nD) (r : Ref sig .tc) (h : r ∉ Wr24) : V24 m outs c r = V16 m c r :=
  (V24_of m outs c r (fun hm => h (List.mem_append_left _ hm))).trans (V23_keep m outs c r (fun hm => h (List.mem_append_right _ hm)))
theorem V25_keep (c : Dev nD) (r : Ref sig .tc) (h : r ∉ Wr25) : V25 m outs c r = V16 m c r :=
  (V25_of m outs c r (fun hm => h (List.mem_append_left _ hm))).trans (V24_keep m outs c r (fun hm => h (List.mem_append_right _ hm)))
theorem V26_keep (c : Dev nD) (r : Ref sig .tc) (h : r ∉ Wr26) : V26 m outs c r = V16 m c r :=
  (V26_of m outs c r (fun hm => h (List.mem_append_left _ hm))).trans (V25_keep m outs c r (fun hm => h (List.mem_append_right _ hm)))
theorem V27_keep (c : Dev nD) (r : Ref sig .tc) (h : r ∉ Wr27) : V27 m outs c r = V16 m c r :=
  (V27_of m outs c r (fun hm => h (List.mem_append_left _ hm))).trans (V26_keep m outs c r (fun hm => h (List.mem_append_right _ hm)))
theorem V28_keep (c : Dev nD) (r : Ref sig .tc) (h : r ∉ Wr28) : V28 m outs c r = V16 m c r :=
  (V28_of m outs c r (fun hm => h (List.mem_append_left _ hm))).trans (V27_keep m outs c r (fun hm => h (List.mem_append_right _ hm)))
theorem V29_keep (c : Dev nD) (r : Ref sig .tc) (h : r ∉ Wr29) : V29 m outs c r = V16 m c r :=
  (V29_of m outs c r (fun hm => h (List.mem_append_left _ hm))).trans (V28_keep m outs c r (fun hm => h (List.mem_append_right _ hm)))
theorem V30_keep (c : Dev nD) (r : Ref sig .tc) (h : r ∉ Wr30) : V30 m outs c r = V16 m c r :=
  (V30_of m outs c r (fun hm => h (List.mem_append_left _ hm))).trans (V29_keep m outs c r (fun hm => h (List.mem_append_right _ hm)))
theorem V31_keep (c : Dev nD) (r : Ref sig .tc) (h : r ∉ Wr31) : V31 m outs c r = V16 m c r :=
  (V31_of m outs c r (fun hm => h (List.mem_append_left _ hm))).trans (V30_keep m outs c r (fun hm => h (List.mem_append_right _ hm)))
theorem V32_keep (c : Dev nD) (r : Ref sig .tc) (h : r ∉ Wr32) : V32 m outs c r = V16 m c r :=
  (V32_of m outs c r (fun hm => h (List.mem_append_left _ hm))).trans (V31_keep m outs c r (fun hm => h (List.mem_append_right _ hm)))

/-! The edge tiles (source ids, destination ids, norms) and the self-loop norms, at each region's entry and exit. -/
theorem V17_main_v93 (c : Dev nD) : V17 m outs c main_v93 = V16 m c main_v93 := V17_keep m outs c main_v93 (by decide)
theorem V17_main_v94 (c : Dev nD) : V17 m outs c main_v94 = V16 m c main_v94 := V17_keep m outs c main_v94 (by decide)
theorem V17_main_v95 (c : Dev nD) : V17 m outs c main_v95 = V16 m c main_v95 := V17_keep m outs c main_v95 (by decide)
theorem V17_main_v97 (c : Dev nD) : V17 m outs c main_v97 = V16 m c main_v97 := V17_keep m outs c main_v97 (by decide)
theorem V18_main_v93 (c : Dev nD) : V18 m outs c main_v93 = V16 m c main_v93 := V18_keep m outs c main_v93 (by decide)
theorem V18_main_v94 (c : Dev nD) : V18 m outs c main_v94 = V16 m c main_v94 := V18_keep m outs c main_v94 (by decide)
theorem V18_main_v95 (c : Dev nD) : V18 m outs c main_v95 = V16 m c main_v95 := V18_keep m outs c main_v95 (by decide)
theorem V18_main_v97 (c : Dev nD) : V18 m outs c main_v97 = V16 m c main_v97 := V18_keep m outs c main_v97 (by decide)
theorem V20_main_v93 (c : Dev nD) : V20 m outs c main_v93 = V16 m c main_v93 := V20_keep m outs c main_v93 (by decide)
theorem V20_main_v94 (c : Dev nD) : V20 m outs c main_v94 = V16 m c main_v94 := V20_keep m outs c main_v94 (by decide)
theorem V20_main_v95 (c : Dev nD) : V20 m outs c main_v95 = V16 m c main_v95 := V20_keep m outs c main_v95 (by decide)
theorem V20_main_v97 (c : Dev nD) : V20 m outs c main_v97 = V16 m c main_v97 := V20_keep m outs c main_v97 (by decide)
theorem V21_main_v93 (c : Dev nD) : V21 m outs c main_v93 = V16 m c main_v93 := V21_keep m outs c main_v93 (by decide)
theorem V21_main_v94 (c : Dev nD) : V21 m outs c main_v94 = V16 m c main_v94 := V21_keep m outs c main_v94 (by decide)
theorem V21_main_v95 (c : Dev nD) : V21 m outs c main_v95 = V16 m c main_v95 := V21_keep m outs c main_v95 (by decide)
theorem V21_main_v97 (c : Dev nD) : V21 m outs c main_v97 = V16 m c main_v97 := V21_keep m outs c main_v97 (by decide)
theorem V22_main_v93 (c : Dev nD) : V22 m outs c main_v93 = V16 m c main_v93 := V22_keep m outs c main_v93 (by decide)
theorem V22_main_v94 (c : Dev nD) : V22 m outs c main_v94 = V16 m c main_v94 := V22_keep m outs c main_v94 (by decide)
theorem V22_main_v95 (c : Dev nD) : V22 m outs c main_v95 = V16 m c main_v95 := V22_keep m outs c main_v95 (by decide)
theorem V22_main_v97 (c : Dev nD) : V22 m outs c main_v97 = V16 m c main_v97 := V22_keep m outs c main_v97 (by decide)
theorem V24_main_v93 (c : Dev nD) : V24 m outs c main_v93 = V16 m c main_v93 := V24_keep m outs c main_v93 (by decide)
theorem V24_main_v94 (c : Dev nD) : V24 m outs c main_v94 = V16 m c main_v94 := V24_keep m outs c main_v94 (by decide)
theorem V24_main_v95 (c : Dev nD) : V24 m outs c main_v95 = V16 m c main_v95 := V24_keep m outs c main_v95 (by decide)
theorem V24_main_v97 (c : Dev nD) : V24 m outs c main_v97 = V16 m c main_v97 := V24_keep m outs c main_v97 (by decide)
theorem V25_main_v93 (c : Dev nD) : V25 m outs c main_v93 = V16 m c main_v93 := V25_keep m outs c main_v93 (by decide)
theorem V25_main_v94 (c : Dev nD) : V25 m outs c main_v94 = V16 m c main_v94 := V25_keep m outs c main_v94 (by decide)
theorem V25_main_v95 (c : Dev nD) : V25 m outs c main_v95 = V16 m c main_v95 := V25_keep m outs c main_v95 (by decide)
theorem V25_main_v97 (c : Dev nD) : V25 m outs c main_v97 = V16 m c main_v97 := V25_keep m outs c main_v97 (by decide)
theorem V26_main_v93 (c : Dev nD) : V26 m outs c main_v93 = V16 m c main_v93 := V26_keep m outs c main_v93 (by decide)
theorem V26_main_v94 (c : Dev nD) : V26 m outs c main_v94 = V16 m c main_v94 := V26_keep m outs c main_v94 (by decide)
theorem V26_main_v95 (c : Dev nD) : V26 m outs c main_v95 = V16 m c main_v95 := V26_keep m outs c main_v95 (by decide)
theorem V26_main_v97 (c : Dev nD) : V26 m outs c main_v97 = V16 m c main_v97 := V26_keep m outs c main_v97 (by decide)
theorem V28_main_v93 (c : Dev nD) : V28 m outs c main_v93 = V16 m c main_v93 := V28_keep m outs c main_v93 (by decide)
theorem V28_main_v94 (c : Dev nD) : V28 m outs c main_v94 = V16 m c main_v94 := V28_keep m outs c main_v94 (by decide)
theorem V28_main_v95 (c : Dev nD) : V28 m outs c main_v95 = V16 m c main_v95 := V28_keep m outs c main_v95 (by decide)
theorem V28_main_v97 (c : Dev nD) : V28 m outs c main_v97 = V16 m c main_v97 := V28_keep m outs c main_v97 (by decide)
theorem V29_main_v93 (c : Dev nD) : V29 m outs c main_v93 = V16 m c main_v93 := V29_keep m outs c main_v93 (by decide)
theorem V29_main_v94 (c : Dev nD) : V29 m outs c main_v94 = V16 m c main_v94 := V29_keep m outs c main_v94 (by decide)
theorem V29_main_v95 (c : Dev nD) : V29 m outs c main_v95 = V16 m c main_v95 := V29_keep m outs c main_v95 (by decide)
theorem V29_main_v97 (c : Dev nD) : V29 m outs c main_v97 = V16 m c main_v97 := V29_keep m outs c main_v97 (by decide)
theorem V30_main_v93 (c : Dev nD) : V30 m outs c main_v93 = V16 m c main_v93 := V30_keep m outs c main_v93 (by decide)
theorem V30_main_v94 (c : Dev nD) : V30 m outs c main_v94 = V16 m c main_v94 := V30_keep m outs c main_v94 (by decide)
theorem V30_main_v95 (c : Dev nD) : V30 m outs c main_v95 = V16 m c main_v95 := V30_keep m outs c main_v95 (by decide)
theorem V30_main_v97 (c : Dev nD) : V30 m outs c main_v97 = V16 m c main_v97 := V30_keep m outs c main_v97 (by decide)

/-! ### What a region leaves, read back -/

theorem V17_main_v99 (c : Dev nD) : V17 m outs c main_v99 = outs 17 main_v99 c := Function.update_self _ _ _
theorem V18_main_v100 (c : Dev nD) : V18 m outs c main_v100 = outs 18 main_v100 c := Function.update_self _ _ _
theorem V18_main_v99 (c : Dev nD) : V18 m outs c main_v99 = outs 17 main_v99 c :=
  (V18_of m outs c main_v99 (by decide)).trans (V17_main_v99 m outs c)
theorem V21_main_v108 (c : Dev nD) : V21 m outs c main_v108 = outs 21 main_v108 c := Function.update_self _ _ _
theorem V22_main_v109 (c : Dev nD) : V22 m outs c main_v109 = outs 22 main_v109 c := Function.update_self _ _ _
theorem V22_main_v108 (c : Dev nD) : V22 m outs c main_v108 = outs 21 main_v108 c :=
  (V22_of m outs c main_v108 (by decide)).trans (V21_main_v108 m outs c)
theorem V25_main_v117 (c : Dev nD) : V25 m outs c main_v117 = outs 25 main_v117 c := Function.update_self _ _ _
theorem V26_main_v118 (c : Dev nD) : V26 m outs c main_v118 = outs 26 main_v118 c := Function.update_self _ _ _
theorem V26_main_v117 (c : Dev nD) : V26 m outs c main_v117 = outs 25 main_v117 c :=
  (V26_of m outs c main_v117 (by decide)).trans (V25_main_v117 m outs c)
theorem V29_main_v126 (c : Dev nD) : V29 m outs c main_v126 = outs 29 main_v126 c := Function.update_self _ _ _
theorem V30_main_v127 (c : Dev nD) : V30 m outs c main_v127 = outs 30 main_v127 c := Function.update_self _ _ _
theorem V30_main_v126 (c : Dev nD) : V30 m outs c main_v126 = outs 29 main_v126 c :=
  (V30_of m outs c main_v126 (by decide)).trans (V29_main_v126 m outs c)

/-- The weights each dense region reads are the launch's. -/
theorem V20_main_arg4 (c : Dev nD) : V20 m outs c main_arg4 = m ((c : Thread nD τ).loc main_arg4) :=
  (V20_keep m outs c main_arg4 (by decide)).trans (V16_main_arg4 m c)
theorem V24_main_arg6 (c : Dev nD) : V24 m outs c main_arg6 = m ((c : Thread nD τ).loc main_arg6) :=
  (V24_keep m outs c main_arg6 (by decide)).trans (V16_main_arg6 m c)
theorem V28_main_arg8 (c : Dev nD) : V28 m outs c main_arg8 = m ((c : Thread nD τ).loc main_arg8) :=
  (V28_keep m outs c main_arg8 (by decide)).trans (V16_main_arg8 m c)

/-! ### Between the regions -/

/-- The second layer's input is real when the first layer's two regions left real arrays. -/
theorem layer1_real [Cert.Pre_finite_inputs.Facts] (hpre : Cert.Pre_KernelIdeal m) (c : Dev nD)
    (h99 : LibFinite.AllReal (ι := S200704x16.Idx) (outs 17 main_v99 c))
    (h100 : LibFinite.AllReal (ι := S200704x16.Idx) (outs 18 main_v100 c)) :
    LibFinite.AllReal (ι := S200704x16.Idx) (V20 m outs c main_v107) := by
  refine layer1_stretch (V18 m outs c) ?_ ?_ ?_ ?_
  · rw [V18_main_v97]; exact (entry_real m hpre c).2.2
  · rw [V18_main_v99]; exact h99
  · rw [V18_main_v100]; exact h100
  · rw [V18_keep m outs c main_arg3 (by decide), V16_main_arg3]; exact (args_real m hpre c).2.2.1

/-- The third layer's input is real when the second layer's two regions left real arrays. -/
theorem layer2_real [Cert.Pre_finite_inputs.Facts] (hpre : Cert.Pre_KernelIdeal m) (c : Dev nD)
    (h108 : LibFinite.AllReal (ι := S200704x16.Idx) (outs 21 main_v108 c))
    (h109 : LibFinite.AllReal (ι := S200704x16.Idx) (outs 22 main_v109 c)) :
    LibFinite.AllReal (ι := S200704x16.Idx) (V24 m outs c main_v116) := by
  refine layer2_stretch (V22 m outs c) ?_ ?_ ?_ ?_
  · rw [V22_main_v97]; exact (entry_real m hpre c).2.2
  · rw [V22_main_v108]; exact h108
  · rw [V22_main_v109]; exact h109
  · rw [V22_keep m outs c main_arg5 (by decide), V16_main_arg5]; exact (args_real m hpre c).2.2.2.2.1

/-- The last layer's input is real when the third layer's two regions left real arrays. -/
theorem layer3_real [Cert.Pre_finite_inputs.Facts] (hpre : Cert.Pre_KernelIdeal m) (c : Dev nD)
    (h117 : LibFinite.AllReal (ι := S200704x16.Idx) (outs 25 main_v117 c))
    (h118 : LibFinite.AllReal (ι := S200704x16.Idx) (outs 26 main_v118 c)) :
    LibFinite.AllReal (ι := S200704x16.Idx) (V28 m outs c main_v125) := by
  refine layer3_stretch (V26 m outs c) ?_ ?_ ?_ ?_
  · rw [V26_main_v97]; exact (entry_real m hpre c).2.2
  · rw [V26_main_v117]; exact h117
  · rw [V26_main_v118]; exact h118
  · rw [V26_keep m outs c main_arg7 (by decide), V16_main_arg7]; exact (args_real m hpre c).2.2.2.2.2.2.1

/-- The logits are real when the last layer's two regions left real arrays. -/
theorem logits_real [Cert.Pre_finite_inputs.Facts] (hpre : Cert.Pre_KernelIdeal m) (c : Dev nD)
    (h126 : LibFinite.AllReal (ι := S200704x1.Idx) (outs 29 main_v126 c))
    (h127 : LibFinite.AllReal (ι := S200704x1.Idx) (outs 30 main_v127 c)) :
    LibFinite.AllReal (ι := S200000x1.Idx) (V31 m outs c main_v133) := by
  refine logits_stretch (V30 m outs c) ?_ ?_ ?_ ?_
  · rw [V30_main_v97]; exact (entry_real m hpre c).2.2
  · rw [V30_main_v126]; exact h126
  · rw [V30_main_v127]; exact h127
  · rw [V30_keep m outs c main_arg9 (by decide), V16_main_arg9]; exact (args_real m hpre c).2.2.2.2.2.2.2.2

/-- The program's result: `log_softmax` over an axis of extent one of a real array is the zero array. -/
theorem result_zero [Cert.Pre_finite_inputs.Facts] (hpre : Cert.Pre_KernelIdeal m) (c : Dev nD)
    (h126 : LibFinite.AllReal (ι := S200704x1.Idx) (outs 29 main_v126 c))
    (h127 : LibFinite.AllReal (ι := S200704x1.Idx) (outs 30 main_v127 c)) :
    @Eq (S200000x1.Idx → EReal) (V32 m outs c main_v134) (fun _ => ((0 : ℝ) : EReal)) :=
  (tail_stretch (V31 m outs c)).trans
    (LibFinite.logSoftmax1_eq_zero _ _ _ _ (logits_real m outs hpre c h126 h127))

end Valuations

end Cert.KernelIdeal.Gen

end
-- ==== Proof.KI.DenseVal0.lean ====
import proofs.«140952_j21595095564583_2_alg».proof.Proof.KI.Points0
import proofs.«140952_j21595095564583_2_alg».proof.Proof.LibFinite
import proofs.«140952_j21595095564583_2_alg».proof.Proof.KI.Dense0
import Idealize.ShloMosaic.Lib.Pipeline.Value

/-!
# The first dense layer writes only real numbers

The first dense layer multiplies its input array (200704 rows of 3) by its 3 × 16 weight, one tile
of 1024 rows per grid point, 196 points in all, and writes each product tile back to the
200704 × 16 result array.  At the extended-real instance a tile of the product is a finite sum of
products of entries of the two operands (the changes of format in between are the identity), so it
is real wherever the operands are.  Every point writes its tile back, tile `t` holds rows
`1024 t … 1024 t + 1023`, and these tiles cover the result array; an entry of the final array is
therefore an entry of some written tile, hence real.
-/

noncomputable section

namespace Cert.KernelIdeal.Gen

open Idealize.ShloMosaic Idealize.ShloMosaic.TcCoe Idealize.SL.Sem
open Idealize.ShloMosaic.Pipeline (Dat)
open Cert.LibFinite

/-- The product tile is real when the input tile and the weight are: the reshape and the two changes
    of format keep real numbers, the accumulator is zero, and a finite sum of products of reals is real. -/
theorem pay0_real (x : Vec Ideal S1024x3 .f32) (w : Vec Ideal S3x16 .f32) (hx : AllReal x) (hw : AllReal w) :
    AllReal (k0_pay1 (F := Ideal) x w) := by
  unfold k0_pay1
  exact allReal_matmul _ _ (allReal_truncf _ _ (allReal_shapeCast _ hx)) (allReal_truncf _ _ hw)
    (allReal_constant_zero _)

/-- The result window's block index at grid point `t` is `(t, 0)`: row tile `t`, the one column tile. -/
theorem rowTile0 : ∀ t : Fin cfg0.N, win0_2.index t (0 : Fin 2) = t.val ∧ win0_2.index t (1 : Fin 2) = 0 :=
  (by decide +kernel : ∀ t : Fin grid0.N, _)

/-- Every entry of the result array lies in a tile that is written back: row `r` lies in tile `r / 1024`. -/
theorem cover0 (i : S200704x16.Idx) :
    ∃ t : Fin cfg0.N, (cfg0.win 2).flush t = true ∧ i ∈ ((cfg0.win 2).blk t).view.set := by
  have hi0 : (i 0).val < 200704 := (i 0).isLt
  have hi1 : (i 1).val < 16 := (i 1).isLt
  have hN : cfg0.N = 196 := by decide
  let t : Fin cfg0.N := ⟨(i 0).val / 1024, by rw [hN]; omega⟩
  have ht : t.val = (i 0).val / 1024 := rfl
  obtain ⟨e0, e1⟩ := rowTile0 t
  refine ⟨t, flush0_2 t, ?_⟩
  show i ∈ ((View.whole main_v99).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 16 ≤ (i 1).val ∧ (i 1).val < win0_2.index t (1 : Fin 2) * 16 + 16
    rw [e1]; omega

/-- The two zero offsets of an access to a whole tile, as the constant function. -/
theorem zeroOff0 : (![0, 0] : Fin 2 → Nat) = fun _ => 0 := funext fun a => by fin_cases a <;> rfl

/-- The body loads its two whole tiles and stores one whole tile: what it leaves is the product tile. -/
theorem out0_2_eq_pay {F : FTy → Type} [FloatOps F] (x0 : Vec F S1024x3 .f32) (x1 : Vec F S3x16 .f32) :
    out0_2 x0 x1 = k0_pay1 x0 x1 := by
  unfold out0_2
  rw [View.canon_unit_zero zeroOff0]
  simp only [View.ld_unit_zero (S := S1024x3) zeroOff0, View.ld_unit_zero (S := S3x16) zeroOff0]

variable (V : (c : Dev nD) → (b : Ref sig .tc) → Buf (Elt Ideal) ((c : Thread nD τ).loc b))

/-- An input tile is read off the input array: its entries are entries of the array. -/
theorem iblk0_0_real (c : Dev nD) (t : Fin cfg0.N) (hx : AllReal (V c main_v98 : S200704x3.Idx → EReal)) :
    AllReal (iblk0 V c 0 t : Vec Ideal S1024x3 .f32) := by
  intro j
  show IsReal (V c main_v98 (((cfg0.win 0).blk t).view.emb j))
  exact hx _

/-- The weight tile is the weight array. -/
theorem iblk0_1_real (c : Dev nD) (t : Fin cfg0.N) (hw : AllReal (V c main_arg2 : S3x16.Idx → EReal)) :
    AllReal (iblk0 V c 1 t : Vec Ideal S3x16 .f32) := by
  intro j
  show IsReal (V c main_arg2 (((cfg0.win 1).blk t).view.emb j))
  exact hw _

/-- For any record of the region whose result tile at each point is the body's, the result array after
    all 196 write-backs is real everywhere: every written entry is an entry of a product tile, and the
    written tiles cover the array. -/
theorem dense0_real_of (c : Dev nD) (dat : Dat τ (Elt Ideal) Unit ℕ (UR sig nD τ) ℕ cfg0 c)
    (hafter : ∀ t, dat.after 2 t = out0_2 (iblk0 V c 0 t) (iblk0 V c 1 t))
    (hx : AllReal (V c main_v98 : S200704x3.Idx → EReal)) (hw : AllReal (V c main_arg2 : S3x16.Idx → EReal)) :
    AllReal (dat.arrAt 2 cfg0.N : S200704x16.Idx → EReal) := by
  intro i
  refine dat.arrAt_forall_of_cover 2 (fun _ x => IsReal x) (fun t _ y => ?_) (fun i => cover0 i) i
  show IsReal ((cfg0.win 2).cut (grid0.coords t) (dat.after 2 t) y)
  rw [hafter, out0_2_eq_pay]
  exact pay0_real _ _ (iblk0_0_real V c t hx) (iblk0_1_real V c t hw) _

/-- The first dense layer's result array is real everywhere when its input and its weight are. -/
theorem dense0_real (c : Dev nD) (hx : AllReal (V c main_v98 : S200704x3.Idx → EReal))
    (hw : AllReal (V c main_arg2 : S3x16.Idx → EReal)) :
    AllReal ((dat0 (F := Ideal) V c).arrAt 2 cfg0.N : S200704x16.Idx → EReal) :=
  dense0_real_of V c (dat0 (F := Ideal) V c) (after0_2 V c) hx hw

end Cert.KernelIdeal.Gen

end
-- ==== Proof.KI.DenseVal2.lean ====
import proofs.«140952_j21595095564583_2_alg».proof.Proof.KI.Points2
import proofs.«140952_j21595095564583_2_alg».proof.Proof.LibFinite
import proofs.«140952_j21595095564583_2_alg».proof.Proof.KI.Dense2
import Idealize.ShloMosaic.Lib.Pipeline.Value

/-!
# The second dense layer writes only real numbers

The second dense layer multiplies its input array (200704 rows of 16) by its 16 × 16 weight, one tile
of 1024 rows per grid point, 196 points in all, and writes each product tile back to the
200704 × 16 result array.  At the extended-real instance a tile of the product is a finite sum of
products of entries of the two operands (the changes of format in between are the identity), so it
is real wherever the operands are.  Every point writes its tile back, tile `t` holds rows
`1024 t … 1024 t + 1023`, and these tiles cover the result array; an entry of the final array is
therefore an entry of some written tile, hence real.
-/

noncomputable section

namespace Cert.KernelIdeal.Gen

open Idealize.ShloMosaic Idealize.ShloMosaic.TcCoe Idealize.SL.Sem
open Idealize.ShloMosaic.Pipeline (Dat)
open Cert.LibFinite

/-- The product tile is real when the input tile and the weight are: the reshape and the two changes
    of format keep real numbers, the accumulator is zero, and a finite sum of products of reals is real. -/
theorem pay2_real (x : Vec Ideal S1024x16 .f32) (w : Vec Ideal S16x16 .f32) (hx : AllReal x) (hw : AllReal w) :
    AllReal (k2_pay1 (F := Ideal) x w) := by
  unfold k2_pay1
  exact allReal_matmul _ _ (allReal_truncf _ _ (allReal_shapeCast _ hx)) (allReal_truncf _ _ hw)
    (allReal_constant_zero _)

/-- The result window's block index at grid point `t` is `(t, 0)`: row tile `t`, the one column tile. -/
theorem rowTile2 : ∀ t : Fin cfg2.N, win2_2.index t (0 : Fin 2) = t.val ∧ win2_2.index t (1 : Fin 2) = 0 :=
  (by decide +kernel : ∀ t : Fin grid2.N, _)

/-- Every entry of the result array lies in a tile that is written back: row `r` lies in tile `r / 1024`. -/
theorem cover2 (i : S200704x16.Idx) :
    ∃ t : Fin cfg2.N, (cfg2.win 2).flush t = true ∧ i ∈ ((cfg2.win 2).blk t).view.set := by
  have hi0 : (i 0).val < 200704 := (i 0).isLt
  have hi1 : (i 1).val < 16 := (i 1).isLt
  have hN : cfg2.N = 196 := by decide
  let t : Fin cfg2.N := ⟨(i 0).val / 1024, by rw [hN]; omega⟩
  have ht : t.val = (i 0).val / 1024 := rfl
  obtain ⟨e0, e1⟩ := rowTile2 t
  refine ⟨t, flush2_2 t, ?_⟩
  show i ∈ ((View.whole main_v108).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 16 ≤ (i 1).val ∧ (i 1).val < win2_2.index t (1 : Fin 2) * 16 + 16
    rw [e1]; omega

/-- The two zero offsets of an access to a whole tile, as the constant function. -/
theorem zeroOff2 : (![0, 0] : Fin 2 → Nat) = fun _ => 0 := funext fun a => by fin_cases a <;> rfl

/-- The body loads its two whole tiles and stores one whole tile: what it leaves is the product tile. -/
theorem out2_2_eq_pay {F : FTy → Type} [FloatOps F] (x0 : Vec F S1024x16 .f32) (x1 : Vec F S16x16 .f32) :
    out2_2 x0 x1 = k2_pay1 x0 x1 := by
  unfold out2_2
  rw [View.canon_unit_zero zeroOff2]
  simp only [View.ld_unit_zero (S := S1024x16) zeroOff2, View.ld_unit_zero (S := S16x16) zeroOff2]

variable (V : (c : Dev nD) → (b : Ref sig .tc) → Buf (Elt Ideal) ((c : Thread nD τ).loc b))

/-- An input tile is read off the input array: its entries are entries of the array. -/
theorem iblk2_0_real (c : Dev nD) (t : Fin cfg2.N) (hx : AllReal (V c main_v107 : S200704x16.Idx → EReal)) :
    AllReal (iblk2 V c 0 t : Vec Ideal S1024x16 .f32) := by
  intro j
  show IsReal (V c main_v107 (((cfg2.win 0).blk t).view.emb j))
  exact hx _

/-- The weight tile is the weight array. -/
theorem iblk2_1_real (c : Dev nD) (t : Fin cfg2.N) (hw : AllReal (V c main_arg4 : S16x16.Idx → EReal)) :
    AllReal (iblk2 V c 1 t : Vec Ideal S16x16 .f32) := by
  intro j
  show IsReal (V c main_arg4 (((cfg2.win 1).blk t).view.emb j))
  exact hw _

/-- For any record of the region whose result tile at each point is the body's, the result array after
    all 196 write-backs is real everywhere: every written entry is an entry of a product tile, and the
    written tiles cover the array. -/
theorem dense2_real_of (c : Dev nD) (dat : Dat τ (Elt Ideal) Unit ℕ (UR sig nD τ) ℕ cfg2 c)
    (hafter : ∀ t, dat.after 2 t = out2_2 (iblk2 V c 0 t) (iblk2 V c 1 t))
    (hx : AllReal (V c main_v107 : S200704x16.Idx → EReal)) (hw : AllReal (V c main_arg4 : S16x16.Idx → EReal)) :
    AllReal (dat.arrAt 2 cfg2.N : S200704x16.Idx → EReal) := by
  intro i
  refine dat.arrAt_forall_of_cover 2 (fun _ x => IsReal x) (fun t _ y => ?_) (fun i => cover2 i) i
  show IsReal ((cfg2.win 2).cut (grid2.coords t) (dat.after 2 t) y)
  rw [hafter, out2_2_eq_pay]
  exact pay2_real _ _ (iblk2_0_real V c t hx) (iblk2_1_real V c t hw) _

/-- The second dense layer's result array is real everywhere when its input and its weight are. -/
theorem dense2_real (c : Dev nD) (hx : AllReal (V c main_v107 : S200704x16.Idx → EReal))
    (hw : AllReal (V c main_arg4 : S16x16.Idx → EReal)) :
    AllReal ((dat2 (F := Ideal) V c).arrAt 2 cfg2.N : S200704x16.Idx → EReal) :=
  dense2_real_of V c (dat2 (F := Ideal) V c) (after2_2 V c) hx hw

end Cert.KernelIdeal.Gen

end
-- ==== Proof.KI.DenseVal4.lean ====
import proofs.«140952_j21595095564583_2_alg».proof.Proof.KI.Points4
import proofs.«140952_j21595095564583_2_alg».proof.Proof.LibFinite
import proofs.«140952_j21595095564583_2_alg».proof.Proof.KI.Dense4
import Idealize.ShloMosaic.Lib.Pipeline.Value

/-!
# The third dense layer writes only real numbers

The third dense layer multiplies its input array (200704 rows of 16) by its 16 × 16 weight, one tile
of 1024 rows per grid point, 196 points in all, and writes each product tile back to the
200704 × 16 result array.  At the extended-real instance a tile of the product is a finite sum of
products of entries of the two operands (the changes of format in between are the identity), so it
is real wherever the operands are.  Every point writes its tile back, tile `t` holds rows
`1024 t … 1024 t + 1023`, and these tiles cover the result array; an entry of the final array is
therefore an entry of some written tile, hence real.
-/

noncomputable section

namespace Cert.KernelIdeal.Gen

open Idealize.ShloMosaic Idealize.ShloMosaic.TcCoe Idealize.SL.Sem
open Idealize.ShloMosaic.Pipeline (Dat)
open Cert.LibFinite

/-- The product tile is real when the input tile and the weight are: the reshape and the two changes
    of format keep real numbers, the accumulator is zero, and a finite sum of products of reals is real. -/
theorem pay4_real (x : Vec Ideal S1024x16 .f32) (w : Vec Ideal S16x16 .f32) (hx : AllReal x) (hw : AllReal w) :
    AllReal (k4_pay1 (F := Ideal) x w) := by
  unfold k4_pay1
  exact allReal_matmul _ _ (allReal_truncf _ _ (allReal_shapeCast _ hx)) (allReal_truncf _ _ hw)
    (allReal_constant_zero _)

/-- The result window's block index at grid point `t` is `(t, 0)`: row tile `t`, the one column tile. -/
theorem rowTile4 : ∀ t : Fin cfg4.N, win4_2.index t (0 : Fin 2) = t.val ∧ win4_2.index t (1 : Fin 2) = 0 :=
  (by decide +kernel : ∀ t : Fin grid4.N, _)

/-- Every entry of the result array lies in a tile that is written back: row `r` lies in tile `r / 1024`. -/
theorem cover4 (i : S200704x16.Idx) :
    ∃ t : Fin cfg4.N, (cfg4.win 2).flush t = true ∧ i ∈ ((cfg4.win 2).blk t).view.set := by
  have hi0 : (i 0).val < 200704 := (i 0).isLt
  have hi1 : (i 1).val < 16 := (i 1).isLt
  have hN : cfg4.N = 196 := by decide
  let t : Fin cfg4.N := ⟨(i 0).val / 1024, by rw [hN]; omega⟩
  have ht : t.val = (i 0).val / 1024 := rfl
  obtain ⟨e0, e1⟩ := rowTile4 t
  refine ⟨t, flush4_2 t, ?_⟩
  show i ∈ ((View.whole main_v117).slice (win4_2.rect t)).set
  rw [View.set_slice_whole, Rect.mem_set_unit]
  intro a
  match a with
  | ⟨0, _⟩ =>
    show win4_2.index t (0 : Fin 2) * 1024 ≤ (i 0).val ∧ (i 0).val < win4_2.index t (0 : Fin 2) * 1024 + 1024
    rw [e0, ht]; omega
  | ⟨1, _⟩ =>
    show win4_2.index t (1 : Fin 2) * 16 ≤ (i 1).val ∧ (i 1).val < win4_2.index t (1 : Fin 2) * 16 + 16
    rw [e1]; omega

/-- The two zero offsets of an access to a whole tile, as the constant function. -/
theorem zeroOff4 : (![0, 0] : Fin 2 → Nat) = fun _ => 0 := funext fun a => by fin_cases a <;> rfl

/-- The body loads its two whole tiles and stores one whole tile: what it leaves is the product tile. -/
theorem out4_2_eq_pay {F : FTy → Type} [FloatOps F] (x0 : Vec F S1024x16 .f32) (x1 : Vec F S16x16 .f32) :
    out4_2 x0 x1 = k4_pay1 x0 x1 := by
  unfold out4_2
  rw [View.canon_unit_zero zeroOff4]
  simp only [View.ld_unit_zero (S := S1024x16) zeroOff4, View.ld_unit_zero (S := S16x16) zeroOff4]

variable (V : (c : Dev nD) → (b : Ref sig .tc) → Buf (Elt Ideal) ((c : Thread nD τ).loc b))

/-- An input tile is read off the input array: its entries are entries of the array. -/
theorem iblk4_0_real (c : Dev nD) (t : Fin cfg4.N) (hx : AllReal (V c main_v116 : S200704x16.Idx → EReal)) :
    AllReal (iblk4 V c 0 t : Vec Ideal S1024x16 .f32) := by
  intro j
  show IsReal (V c main_v116 (((cfg4.win 0).blk t).view.emb j))
  exact hx _

/-- The weight tile is the weight array. -/
theorem iblk4_1_real (c : Dev nD) (t : Fin cfg4.N) (hw : AllReal (V c main_arg6 : S16x16.Idx → EReal)) :
    AllReal (iblk4 V c 1 t : Vec Ideal S16x16 .f32) := by
  intro j
  show IsReal (V c main_arg6 (((cfg4.win 1).blk t).view.emb j))
  exact hw _

/-- For any record of the region whose result tile at each point is the body's, the result array after
    all 196 write-backs is real everywhere: every written entry is an entry of a product tile, and the
    written tiles cover the array. -/
theorem dense4_real_of (c : Dev nD) (dat : Dat τ (Elt Ideal) Unit ℕ (UR sig nD τ) ℕ cfg4 c)
    (hafter : ∀ t, dat.after 2 t = out4_2 (iblk4 V c 0 t) (iblk4 V c 1 t))
    (hx : AllReal (V c main_v116 : S200704x16.Idx → EReal)) (hw : AllReal (V c main_arg6 : S16x16.Idx → EReal)) :
    AllReal (dat.arrAt 2 cfg4.N : S200704x16.Idx → EReal) := by
  intro i
  refine dat.arrAt_forall_of_cover 2 (fun _ x => IsReal x) (fun t _ y => ?_) (fun i => cover4 i) i
  show IsReal ((cfg4.win 2).cut (grid4.coords t) (dat.after 2 t) y)
  rw [hafter, out4_2_eq_pay]
  exact pay4_real _ _ (iblk4_0_real V c t hx) (iblk4_1_real V c t hw) _

/-- The third dense layer's result array is real everywhere when its input and its weight are. -/
theorem dense4_real (c : Dev nD) (hx : AllReal (V c main_v116 : S200704x16.Idx → EReal))
    (hw : AllReal (V c main_arg6 : S16x16.Idx → EReal)) :
    AllReal ((dat4 (F := Ideal) V c).arrAt 2 cfg4.N : S200704x16.Idx → EReal) :=
  dense4_real_of V c (dat4 (F := Ideal) V c) (after4_2 V c) hx hw

end Cert.KernelIdeal.Gen

end
-- ==== Proof.KI.DenseVal6.lean ====
import proofs.«140952_j21595095564583_2_alg».proof.Proof.KI.Points6
import proofs.«140952_j21595095564583_2_alg».proof.Proof.LibFinite
import proofs.«140952_j21595095564583_2_alg».proof.Proof.KI.Dense6
import Idealize.ShloMosaic.Lib.Pipeline.Value

/-!
# The fourth dense layer writes only real numbers

The fourth dense layer multiplies its input array (200704 rows of 16) by its 16 × 1 weight, one tile
of 1024 rows per grid point, 196 points in all, and writes each product tile back to the
200704 × 1 result array.  At the extended-real instance a tile of the product is a finite sum of
products of entries of the two operands (the changes of format in between are the identity), so it
is real wherever the operands are.  Every point writes its tile back, tile `t` holds rows
`1024 t … 1024 t + 1023`, and these tiles cover the result array; an entry of the final array is
therefore an entry of some written tile, hence real.
-/

noncomputable section

namespace Cert.KernelIdeal.Gen

open Idealize.ShloMosaic Idealize.ShloMosaic.TcCoe Idealize.SL.Sem
open Idealize.ShloMosaic.Pipeline (Dat)
open Cert.LibFinite

/-- The product tile is real when the input tile and the weight are: the reshape and the two changes
    of format keep real numbers, the accumulator is zero, and a finite sum of products of reals is real. -/
theorem pay6_real (x : Vec Ideal S1024x16 .f32) (w : Vec Ideal S16x1 .f32) (hx : AllReal x) (hw : AllReal w) :
    AllReal (k6_pay1 (F := Ideal) x w) := by
  unfold k6_pay1
  exact allReal_matmul _ _ (allReal_truncf _ _ (allReal_shapeCast _ hx)) (allReal_truncf _ _ hw)
    (allReal_constant_zero _)

/-- The result window's block index at grid point `t` is `(t, 0)`: row tile `t`, the one column tile. -/
theorem rowTile6 : ∀ t : Fin cfg6.N, win6_2.index t (0 : Fin 2) = t.val ∧ win6_2.index t (1 : Fin 2) = 0 :=
  (by decide +kernel : ∀ t : Fin grid6.N, _)

/-- Every entry of the result array lies in a tile that is written back: row `r` lies in tile `r / 1024`. -/
theorem cover6 (i : S200704x1.Idx) :
    ∃ t : Fin cfg6.N, (cfg6.win 2).flush t = true ∧ i ∈ ((cfg6.win 2).blk t).view.set := by
  have hi0 : (i 0).val < 200704 := (i 0).isLt
  have hi1 : (i 1).val < 1 := (i 1).isLt
  have hN : cfg6.N = 196 := by decide
  let t : Fin cfg6.N := ⟨(i 0).val / 1024, by rw [hN]; omega⟩
  have ht : t.val = (i 0).val / 1024 := rfl
  obtain ⟨e0, e1⟩ := rowTile6 t
  refine ⟨t, flush6_2 t, ?_⟩
  show i ∈ ((View.whole main_v126).slice (win6_2.rect t)).set
  rw [View.set_slice_whole, Rect.mem_set_unit]
  intro a
  match a with
  | ⟨0, _⟩ =>
    show win6_2.index t (0 : Fin 2) * 1024 ≤ (i 0).val ∧ (i 0).val < win6_2.index t (0 : Fin 2) * 1024 + 1024
    rw [e0, ht]; omega
  | ⟨1, _⟩ =>
    show win6_2.index t (1 : Fin 2) * 1 ≤ (i 1).val ∧ (i 1).val < win6_2.index t (1 : Fin 2) * 1 + 1
    rw [e1]; omega

/-- The two zero offsets of an access to a whole tile, as the constant function. -/
theorem zeroOff6 : (![0, 0] : Fin 2 → Nat) = fun _ => 0 := funext fun a => by fin_cases a <;> rfl

/-- The body loads its two whole tiles and stores one whole tile: what it leaves is the product tile. -/
theorem out6_2_eq_pay {F : FTy → Type} [FloatOps F] (x0 : Vec F S1024x16 .f32) (x1 : Vec F S16x1 .f32) :
    out6_2 x0 x1 = k6_pay1 x0 x1 := by
  unfold out6_2
  rw [View.canon_unit_zero zeroOff6]
  simp only [View.ld_unit_zero (S := S1024x16) zeroOff6, View.ld_unit_zero (S := S16x1) zeroOff6]

variable (V : (c : Dev nD) → (b : Ref sig .tc) → Buf (Elt Ideal) ((c : Thread nD τ).loc b))

/-- An input tile is read off the input array: its entries are entries of the array. -/
theorem iblk6_0_real (c : Dev nD) (t : Fin cfg6.N) (hx : AllReal (V c main_v125 : S200704x16.Idx → EReal)) :
    AllReal (iblk6 V c 0 t : Vec Ideal S1024x16 .f32) := by
  intro j
  show IsReal (V c main_v125 (((cfg6.win 0).blk t).view.emb j))
  exact hx _

/-- The weight tile is the weight array. -/
theorem iblk6_1_real (c : Dev nD) (t : Fin cfg6.N) (hw : AllReal (V c main_arg8 : S16x1.Idx → EReal)) :
    AllReal (iblk6 V c 1 t : Vec Ideal S16x1 .f32) := by
  intro j
  show IsReal (V c main_arg8 (((cfg6.win 1).blk t).view.emb j))
  exact hw _

/-- For any record of the region whose result tile at each point is the body's, the result array after
    all 196 write-backs is real everywhere: every written entry is an entry of a product tile, and the
    written tiles cover the array. -/
theorem dense6_real_of (c : Dev nD) (dat : Dat τ (Elt Ideal) Unit ℕ (UR sig nD τ) ℕ cfg6 c)
    (hafter : ∀ t, dat.after 2 t = out6_2 (iblk6 V c 0 t) (iblk6 V c 1 t))
    (hx : AllReal (V c main_v125 : S200704x16.Idx → EReal)) (hw : AllReal (V c main_arg8 : S16x1.Idx → EReal)) :
    AllReal (dat.arrAt 2 cfg6.N : S200704x1.Idx → EReal) := by
  intro i
  refine dat.arrAt_forall_of_cover 2 (fun _ x => IsReal x) (fun t _ y => ?_) (fun i => cover6 i) i
  show IsReal ((cfg6.win 2).cut (grid6.coords t) (dat.after 2 t) y)
  rw [hafter, out6_2_eq_pay]
  exact pay6_real _ _ (iblk6_0_real V c t hx) (iblk6_1_real V c t hw) _

/-- The fourth dense layer's result array is real everywhere when its input and its weight are. -/
theorem dense6_real (c : Dev nD) (hx : AllReal (V c main_v125 : S200704x16.Idx → EReal))
    (hw : AllReal (V c main_arg8 : S16x1.Idx → EReal)) :
    AllReal ((dat6 (F := Ideal) V c).arrAt 2 cfg6.N : S200704x1.Idx → EReal) :=
  dense6_real_of V c (dat6 (F := Ideal) V c) (after6_2 V c) hx hw

end Cert.KernelIdeal.Gen

end
-- ==== Proof.KI.AggVal1.lean ====
/-
  The first aggregation call computes real numbers.

  At the instance where a float is an extended real, the call's output array holds only real
  numbers as soon as the feature array and the edge-norm array do.  The call runs over a
  196 × 196 grid of (destination tile, source tile) pairs and keeps an accumulator: it is reset
  to the zero block at the first source tile, receives one contribution per pair — a product
  of two one-hot selections (entries `0`, `1` or an edge norm, WHATEVER the integer ids are)
  with the feature tile, hence a finite sum of products of reals — and is copied to the output
  tile at the last source tile.

  Here: what the accumulator and the output tile hold after each kind of point, as the pure
  accumulation step of the blocks staged there; that one step keeps the accumulator real; by
  induction on the point, that the accumulator is real after every point; that the output
  tiles written back at the last source tiles cover the output array; and so that the output
  array is real after the call.
-/
import proofs.«140952_j21595095564583_2_alg».proof.Proof.LibFinite
import proofs.«140952_j21595095564583_2_alg».proof.Proof.KI.Agg1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.LibFinite

/-! ## What each kind of point leaves, as the pure accumulation step -/

section Pieces

variable {F : FTy → Type} [FloatOps F]
variable (V : (c : Dev nD) → (b : Ref sig .tc) → Buf (Elt F) ((c : Thread nD τ).loc b))

private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- The accumulator after a first point is the zero block plus the tile pair's contribution: the
    zero fill is read back and the sum stored over it. -/
theorem sout1_A_0_eq (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc1 i) (hlast : ¬lastSrc1 i) (x0 : Vec F S1024x16 .f32) (x1 : Vec F S1x1x512 .i32) (x2 : Vec F S1x1x512 .i32) (x3 : Vec F S1x1x512 .f32) :
    sout1_A_0 c i arg2 harg2 arg3 harg3 arg4 harg4 arg5 harg5 arg6 harg6 arg7 harg7 hfirst hlast x0 x1 x2 x3 = k1_pay1 (k1_pay3 x1 x2 x3 x0 k1_pay2) := by
  unfold sout1_A_0
  rw [View.read_writes_eq_canon _ _ _ (accCover1_first c i arg2 harg2 arg3 harg3 arg4 harg4 arg5 harg5 arg6 harg6 arg7 harg7 hfirst hlast x0 x1 x2 x3)]
  unfold aggRun1_first
  dsimp only
  sl_unfold_words
  rw [View.canon_cons_unit_zero (S := S1024x16) zeroOff2, View.readCov_unit_zero (S := S1024x16) _ zeroOff2]
  simp only [View.readAt_eq_ld, harg2.read_unread, harg3.read_unread, harg4.read_unread, harg5.read_unread,
    View.ld_unit_zero (S := S1024x16) zeroOff2, View.ld_unit_zero (S := S1x1x512) zeroOff3]

/-- The accumulator after an inner point is what it held plus the tile pair's contribution. -/
theorem sout1_B_0_eq (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : ¬lastSrc1 i) (x0 : Vec F S1024x16 .f32) (x1 : Vec F S1x1x512 .i32) (x2 : Vec F S1x1x512 .i32) (x3 : Vec F S1x1x512 .f32) (xs : Vec F S1024x16 .f32) :
    sout1_B_0 c i arg2 harg2 arg3 harg3 arg4 harg4 arg5 harg5 arg6 harg6 arg7 harg7 hfirst hlast x0 x1 x2 x3 xs = k1_pay1 (k1_pay3 x1 x2 x3 x0 xs) := by
  unfold sout1_B_0
  rw [View.read_writes_eq_canon _ _ _ (accCover1_inner c i arg2 harg2 arg3 harg3 arg4 harg4 arg5 harg5 arg6 harg6 arg7 harg7 hfirst hlast x0 x1 x2 x3 xs)]
  unfold aggRun1_inner
  dsimp only
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- The accumulator after a last point is what it held plus the tile pair's contribution, -/
theorem sout1_C_0_eq (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) :
    sout1_C_0 c i arg2 harg2 arg3 harg3 arg4 harg4 arg5 harg5 arg6 harg6 arg7 harg7 hfirst hlast x0 x1 x2 x3 xs = k1_pay1 (k1_pay3 x1 x2 x3 x0 xs) := by
  unfold sout1_C_0
  rw [View.read_writes_eq_canon _ _ _ (accCover1_last c i arg2 harg2 arg3 harg3 arg4 harg4 arg5 harg5 arg6 harg6 arg7 harg7 hfirst hlast x0 x1 x2 x3 xs)]
  unfold aggRun1_last
  dsimp only
  sl_unfold_words
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- and the output tile receives the accumulator read back. -/
theorem out1_C_4_eq (c : Dev nD) (i : grid1.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc1 i) (hlast : lastSrc1 i) (x0 : Vec F S1024x16 .f32) (x1 : Vec F S1x1x512 .i32) (x2 : Vec F S1x1x512 .i32) (x3 : Vec F S1x1x512 .f32) (xs : Vec F S1024x16 .f32) :
    out1_C_4 c i arg2 harg2 arg3 harg3 arg4 harg4 arg5 harg5 arg6 harg6 arg7 harg7 hfirst hlast x0 x1 x2 x3 xs = k1_pay1 (k1_pay3 x1 x2 x3 x0 xs) := by
  unfold out1_C_4
  rw [View.read_writes_eq_canon _ _ _ (outCover1_last c i arg2 harg2 arg3 harg3 arg4 harg4 arg5 harg5 arg6 harg6 arg7 harg7 hfirst hlast x0 x1 x2 x3 xs)]
  unfold aggRun1_last
  dsimp only
  sl_unfold_words
  rw [View.canon_unit_zero (S := S1024x16) zeroOff2, View.readCov_unit_zero (S := S1024x16) _ zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- At a grid point: on the blocks the four inputs stage there. -/
theorem accFirst1_eq (c : Dev nD) (t : Fin cfg1.N) (h0 : t.val % 196 = 0) :
    accFirst1 V c t h0
      = k1_pay1 (k1_pay3 (iblk1 V c 1 t) (iblk1 V c 2 t) (iblk1 V c 3 t) (iblk1 V c 0 t) k1_pay2) := by
  unfold accFirst1; exact sout1_A_0_eq ..

theorem accInner1_eq (c : Dev nD) (t : Fin cfg1.N) (h0 : ¬t.val % 196 = 0) (h1 : ¬t.val % 196 = 195)
    (xs : Vec F S1024x16 .f32) :
    accInner1 V c t h0 h1 xs
      = k1_pay1 (k1_pay3 (iblk1 V c 1 t) (iblk1 V c 2 t) (iblk1 V c 3 t) (iblk1 V c 0 t) xs) := by
  unfold accInner1; exact sout1_B_0_eq ..

theorem accLast1_eq (c : Dev nD) (t : Fin cfg1.N) (h1 : t.val % 196 = 195) (xs : Vec F S1024x16 .f32) :
    accLast1 V c t h1 xs
      = k1_pay1 (k1_pay3 (iblk1 V c 1 t) (iblk1 V c 2 t) (iblk1 V c 3 t) (iblk1 V c 0 t) xs) := by
  unfold accLast1; exact sout1_C_0_eq ..

theorem outLast1_eq (c : Dev nD) (t : Fin cfg1.N) (h1 : t.val % 196 = 195) (xs : Vec F S1024x16 .f32) :
    outLast1 V c t h1 xs
      = k1_pay1 (k1_pay3 (iblk1 V c 1 t) (iblk1 V c 2 t) (iblk1 V c 3 t) (iblk1 V c 0 t) xs) := by
  unfold outLast1; exact out1_C_4_eq ..

end Pieces

/-! ## One step keeps the accumulator real -/
/-- One accumulation step keeps the accumulator real: the contribution is a product of two
    one-hot selections (entries `0`, `1` or an edge norm, whatever the integer ids are) with the
    feature block, a finite sum of products of reals. -/
theorem step1_real (lsrc ldst : Vec Ideal S1x1x512 .i32) (nrm : Vec Ideal S1x1x512 .f32)
    (h acc : Vec Ideal S1024x16 .f32) (hn : AllReal nrm) (hh : AllReal h) (ha : AllReal acc) :
    AllReal (k1_pay1 (F := Ideal) (k1_pay3 (F := Ideal) lsrc ldst nrm h acc)) := by
  dsimp only [k1_pay1, k1_pay3]
  apply allReal_shapeCast
  apply allReal_addf ha
  apply allReal_matmul
  · apply allReal_truncf
    apply allReal_select
    · exact allReal_broadcast_one _
    · exact allReal_broadcast_zero _
  · apply allReal_truncf
    apply allReal_matmul
    · apply allReal_truncf
      apply allReal_select
      · apply allReal_broadcastTo
        apply allReal_shapeCast
        apply allReal_shapeCast
        apply allReal_shapeCast
        exact hn
      · exact allReal_broadcast_zero _
    · apply allReal_truncf
      apply allReal_shapeCast
      exact hh
    · exact allReal_constant_zero _
  · exact allReal_constant_zero _

/-- The reset value is the zero block. -/
theorem zeros1_real : AllReal (k1_pay2 (F := Ideal)) := by
  dsimp only [k1_pay2]
  apply allReal_shapeCast
  exact allReal_broadcast_zero _

/-! ## The output tiles cover the array -/

/-- The output window's block index at the flattened point `t` is the destination tile
    `t / 196` on the row axis and `0` on the feature axis. -/
theorem outIndex1 : ∀ t : Fin cfg1.N, win1_4.index t (0 : Fin 2) = t.val / 196 ∧ win1_4.index t (1 : Fin 2) = 0 :=
  (by decide +kernel : ∀ t : Fin grid1.N, win1_4.index t (0 : Fin 2) = t.val / 196 ∧ win1_4.index t (1 : Fin 2) = 0)

/-- An index of the output array lies in point `t`'s block iff each coordinate lies in the block's
    range on its axis. -/
theorem mem_outBlk1 (t : Fin cfg1.N) (i : S200704x16.Idx) :
    i ∈ ((cfg1.win 4).blk t).view.set ↔
      ∀ a : Fin 2, win1_4.index t a * S1024x16.size a ≤ (i a).val
        ∧ (i a).val < win1_4.index t a * S1024x16.size a + S1024x16.size a := by
  show i ∈ ((View.whole main_v100).slice (win1_4.rect t)).set ↔ _
  rw [View.set_slice_whole, Rect.mem_set_unit]
  exact Iff.rfl

/-- Row `r` of the output array lies in the block of destination tile `r / 1024`, which is written
    back at the last source tile of that row of the grid: the point `196 * (r / 1024) + 195`. -/
theorem cover1 (i : S200704x16.Idx) :
    ∃ t : Fin cfg1.N, (cfg1.win 4).flush t = true ∧ i ∈ ((cfg1.win 4).blk t).view.set := by
  have hi0 : (i 0).val < 200704 := (i 0).isLt
  have hi1 : (i 1).val < 16 := (i 1).isLt
  have hN : cfg1.N = 38416 := by decide
  have hlt : 196 * ((i 0).val / 1024) + 195 < cfg1.N := by rw [hN]; omega
  obtain ⟨q0, q1⟩ := outIndex1 ⟨196 * ((i 0).val / 1024) + 195, hlt⟩
  refine ⟨⟨196 * ((i 0).val / 1024) + 195, hlt⟩, (flush1_4 _).mpr ?_, ?_⟩
  · show (196 * ((i 0).val / 1024) + 195) % 196 = 195
    omega
  · rw [mem_outBlk1]
    intro a
    match a with
    | ⟨0, _⟩ =>
      show win1_4.index ⟨196 * ((i 0).val / 1024) + 195, hlt⟩ (0 : Fin 2) * 1024 ≤ (i 0).val
        ∧ (i 0).val < win1_4.index ⟨196 * ((i 0).val / 1024) + 195, hlt⟩ (0 : Fin 2) * 1024 + 1024
      rw [q0]
      show (196 * ((i 0).val / 1024) + 195) / 196 * 1024 ≤ (i 0).val
        ∧ (i 0).val < (196 * ((i 0).val / 1024) + 195) / 196 * 1024 + 1024
      omega
    | ⟨1, _⟩ =>
      show win1_4.index ⟨196 * ((i 0).val / 1024) + 195, hlt⟩ (1 : Fin 2) * 16 ≤ (i 1).val
        ∧ (i 1).val < win1_4.index ⟨196 * ((i 0).val / 1024) + 195, hlt⟩ (1 : Fin 2) * 16 + 16
      rw [q1]
      omega

variable (V : (c : Dev nD) → (b : Ref sig .tc) → Buf (Elt Ideal) ((c : Thread nD τ).loc b))

/-! ## Blocks read off real arrays are real -/

/-- The feature tile staged at point `t` is read off the feature array entry by entry. -/
theorem featBlk1_real (c : Dev nD) (t : Fin cfg1.N) (hh : AllReal (V c main_v99 : S200704x16.Idx → EReal)) :
    AllReal (iblk1 (F := Ideal) V c 0 t) := by
  intro y
  show IsReal (V c main_v99 (((cfg1.win 0).blk t).view.emb y))
  exact hh _

/-- The row of edge norms staged at point `t` is read off the norm array entry by entry. -/
theorem normBlk1_real (c : Dev nD) (t : Fin cfg1.N) (hn : AllReal (V c main_v95 : S38416x1x512.Idx → EReal)) :
    AllReal (iblk1 (F := Ideal) V c 3 t) := by
  intro y
  show IsReal (V c main_v95 (((cfg1.win 3).blk t).view.emb y))
  exact hn _

/-! ## The accumulator is real after every point -/

/-- By induction on the point: at the first source tile the accumulator is the zero block plus a
    contribution; at every other, what the point before left plus a contribution. -/
theorem acc1_real (c : Dev nD) (hh : AllReal (V c main_v99 : S200704x16.Idx → EReal)) (hn : AllReal (V c main_v95 : S38416x1x512.Idx → EReal)) :
    ∀ (n : ℕ) (hn' : n < cfg1.N), AllReal (outsAt1 (F := Ideal) V c n hn').2 := by
  intro n
  induction n with
  | zero =>
    intro h
    rw [congrArg Prod.snd (outsAt1_A V c ⟨0, h⟩ (Nat.zero_mod _)), accFirst1_eq]
    exact step1_real _ _ _ _ _ (normBlk1_real V c _ hn) (featBlk1_real V c _ hh) zeros1_real
  | succ n ih =>
    intro h
    have prev : AllReal (outsAt1 (F := Ideal) V c ((⟨n + 1, h⟩ : Fin cfg1.N).val - 1)
        (Nat.lt_of_le_of_lt (Nat.sub_le _ _) (⟨n + 1, h⟩ : Fin cfg1.N).isLt)).2 :=
      ih (Nat.lt_of_succ_lt h)
    by_cases h0 : (n + 1) % 196 = 0
    · rw [congrArg Prod.snd (outsAt1_A V c ⟨n + 1, h⟩ h0), accFirst1_eq]
      exact step1_real _ _ _ _ _ (normBlk1_real V c _ hn) (featBlk1_real V c _ hh) zeros1_real
    · by_cases h1 : (n + 1) % 196 = 195
      · rw [congrArg Prod.snd (outsAt1_C V c ⟨n + 1, h⟩ h1), accLast1_eq]
        exact step1_real _ _ _ _ _ (normBlk1_real V c _ hn) (featBlk1_real V c _ hh) prev
      · rw [congrArg Prod.snd (outsAt1_B V c ⟨n + 1, h⟩ h0 h1), accInner1_eq]
        exact step1_real _ _ _ _ _ (normBlk1_real V c _ hn) (featBlk1_real V c _ hh) prev

/-! ## The output array is real after the call -/

/-- Every element of the output array lies in a tile written back at a last source tile, where
    the tile holds the accumulator: real, by `acc1_real`. -/
theorem agg1_real (c : Dev nD) (hh : AllReal (V c main_v99 : S200704x16.Idx → EReal)) (hn : AllReal (V c main_v95 : S38416x1x512.Idx → EReal)) :
    AllReal ((dat1 (F := Ideal) V c).arrAt 4 cfg1.N : S200704x16.Idx → EReal) := by
  intro i
  refine (dat1 (F := Ideal) V c).arrAt_forall_of_cover 4 (fun _ x => IsReal x) ?_ (fun i => cover1 i) i
  intro t hf y
  have h195 : t.val % 196 = 195 := (flush1_4 t).mp hf
  show IsReal ((dat1 (F := Ideal) V c).after 4 t ((cfg1.win 4).xinj (cfg1.grid.coords t) y))
  rw [after1_4, congrArg Prod.fst (outsAt1_C V c t h195), outLast1_eq]
  exact step1_real _ _ _ _ _ (normBlk1_real V c _ hn) (featBlk1_real V c _ hh) (acc1_real V c hh hn _ _) _

end Cert.KernelIdeal.Gen

end
-- ==== Proof.KI.AggVal3.lean ====
/-
  The second aggregation call computes real numbers.

  At the instance where a float is an extended real, the call's output array holds only real
  numbers as soon as the feature array and the edge-norm array do.  The call runs over a
  196 × 196 grid of (destination tile, source tile) pairs and keeps an accumulator: it is reset
  to the zero block at the first source tile, receives one contribution per pair — a product
  of two one-hot selections (entries `0`, `1` or an edge norm, WHATEVER the integer ids are)
  with the feature tile, hence a finite sum of products of reals — and is copied to the output
  tile at the last source tile.

  Here: what the accumulator and the output tile hold after each kind of point, as the pure
  accumulation step of the blocks staged there; that one step keeps the accumulator real; by
  induction on the point, that the accumulator is real after every point; that the output
  tiles written back at the last source tiles cover the output array; and so that the output
  array is real after the call.
-/
import proofs.«140952_j21595095564583_2_alg».proof.Proof.LibFinite
import proofs.«140952_j21595095564583_2_alg».proof.Proof.KI.Agg3
import proofs.«140952_j21595095564583_2_alg».proof.Proof.KI.AggVal1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.LibFinite

/-! ## What each kind of point leaves, as the pure accumulation step -/

section Pieces

variable {F : FTy → Type} [FloatOps F]
variable (V : (c : Dev nD) → (b : Ref sig .tc) → Buf (Elt F) ((c : Thread nD τ).loc b))

private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- The accumulator after a first point is the zero block plus the tile pair's contribution: the
    zero fill is read back and the sum stored over it. -/
theorem sout3_A_0_eq (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc3 i) (hlast : ¬lastSrc3 i) (x0 : Vec F S1024x16 .f32) (x1 : Vec F S1x1x512 .i32) (x2 : Vec F S1x1x512 .i32) (x3 : Vec F S1x1x512 .f32) :
    sout3_A_0 c i arg2 harg2 arg3 harg3 arg4 harg4 arg5 harg5 arg6 harg6 arg7 harg7 hfirst hlast x0 x1 x2 x3 = k3_pay1 (k3_pay3 x1 x2 x3 x0 k3_pay2) := by
  unfold sout3_A_0
  rw [View.read_writes_eq_canon _ _ _ (accCover3_first c i arg2 harg2 arg3 harg3 arg4 harg4 arg5 harg5 arg6 harg6 arg7 harg7 hfirst hlast x0 x1 x2 x3)]
  unfold aggRun3_first
  dsimp only
  sl_unfold_words
  rw [View.canon_cons_unit_zero (S := S1024x16) zeroOff2, View.readCov_unit_zero (S := S1024x16) _ zeroOff2]
  simp only [View.readAt_eq_ld, harg2.read_unread, harg3.read_unread, harg4.read_unread, harg5.read_unread,
    View.ld_unit_zero (S := S1024x16) zeroOff2, View.ld_unit_zero (S := S1x1x512) zeroOff3]

/-- The accumulator after an inner point is what it held plus the tile pair's contribution. -/
theorem sout3_B_0_eq (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : ¬lastSrc3 i) (x0 : Vec F S1024x16 .f32) (x1 : Vec F S1x1x512 .i32) (x2 : Vec F S1x1x512 .i32) (x3 : Vec F S1x1x512 .f32) (xs : Vec F S1024x16 .f32) :
    sout3_B_0 c i arg2 harg2 arg3 harg3 arg4 harg4 arg5 harg5 arg6 harg6 arg7 harg7 hfirst hlast x0 x1 x2 x3 xs = k3_pay1 (k3_pay3 x1 x2 x3 x0 xs) := by
  unfold sout3_B_0
  rw [View.read_writes_eq_canon _ _ _ (accCover3_inner c i arg2 harg2 arg3 harg3 arg4 harg4 arg5 harg5 arg6 harg6 arg7 harg7 hfirst hlast x0 x1 x2 x3 xs)]
  unfold aggRun3_inner
  dsimp only
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- The accumulator after a last point is what it held plus the tile pair's contribution, -/
theorem sout3_C_0_eq (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) :
    sout3_C_0 c i arg2 harg2 arg3 harg3 arg4 harg4 arg5 harg5 arg6 harg6 arg7 harg7 hfirst hlast x0 x1 x2 x3 xs = k3_pay1 (k3_pay3 x1 x2 x3 x0 xs) := by
  unfold sout3_C_0
  rw [View.read_writes_eq_canon _ _ _ (accCover3_last c i arg2 harg2 arg3 harg3 arg4 harg4 arg5 harg5 arg6 harg6 arg7 harg7 hfirst hlast x0 x1 x2 x3 xs)]
  unfold aggRun3_last
  dsimp only
  sl_unfold_words
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- and the output tile receives the accumulator read back. -/
theorem out3_C_4_eq (c : Dev nD) (i : grid3.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc3 i) (hlast : lastSrc3 i) (x0 : Vec F S1024x16 .f32) (x1 : Vec F S1x1x512 .i32) (x2 : Vec F S1x1x512 .i32) (x3 : Vec F S1x1x512 .f32) (xs : Vec F S1024x16 .f32) :
    out3_C_4 c i arg2 harg2 arg3 harg3 arg4 harg4 arg5 harg5 arg6 harg6 arg7 harg7 hfirst hlast x0 x1 x2 x3 xs = k3_pay1 (k3_pay3 x1 x2 x3 x0 xs) := by
  unfold out3_C_4
  rw [View.read_writes_eq_canon _ _ _ (outCover3_last c i arg2 harg2 arg3 harg3 arg4 harg4 arg5 harg5 arg6 harg6 arg7 harg7 hfirst hlast x0 x1 x2 x3 xs)]
  unfold aggRun3_last
  dsimp only
  sl_unfold_words
  rw [View.canon_unit_zero (S := S1024x16) zeroOff2, View.readCov_unit_zero (S := S1024x16) _ zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- At a grid point: on the blocks the four inputs stage there. -/
theorem accFirst3_eq (c : Dev nD) (t : Fin cfg3.N) (h0 : t.val % 196 = 0) :
    accFirst3 V c t h0
      = k3_pay1 (k3_pay3 (iblk3 V c 1 t) (iblk3 V c 2 t) (iblk3 V c 3 t) (iblk3 V c 0 t) k3_pay2) := by
  unfold accFirst3; exact sout3_A_0_eq ..

theorem accInner3_eq (c : Dev nD) (t : Fin cfg3.N) (h0 : ¬t.val % 196 = 0) (h1 : ¬t.val % 196 = 195)
    (xs : Vec F S1024x16 .f32) :
    accInner3 V c t h0 h1 xs
      = k3_pay1 (k3_pay3 (iblk3 V c 1 t) (iblk3 V c 2 t) (iblk3 V c 3 t) (iblk3 V c 0 t) xs) := by
  unfold accInner3; exact sout3_B_0_eq ..

theorem accLast3_eq (c : Dev nD) (t : Fin cfg3.N) (h1 : t.val % 196 = 195) (xs : Vec F S1024x16 .f32) :
    accLast3 V c t h1 xs
      = k3_pay1 (k3_pay3 (iblk3 V c 1 t) (iblk3 V c 2 t) (iblk3 V c 3 t) (iblk3 V c 0 t) xs) := by
  unfold accLast3; exact sout3_C_0_eq ..

theorem outLast3_eq (c : Dev nD) (t : Fin cfg3.N) (h1 : t.val % 196 = 195) (xs : Vec F S1024x16 .f32) :
    outLast3 V c t h1 xs
      = k3_pay1 (k3_pay3 (iblk3 V c 1 t) (iblk3 V c 2 t) (iblk3 V c 3 t) (iblk3 V c 0 t) xs) := by
  unfold outLast3; exact out3_C_4_eq ..

end Pieces

/-! ## One step keeps the accumulator real -/
/-- One accumulation step keeps the accumulator real: the contribution is a product of two
    one-hot selections (entries `0`, `1` or an edge norm, whatever the integer ids are) with the
    feature block, a finite sum of products of reals. -/
theorem step3_real (lsrc ldst : Vec Ideal S1x1x512 .i32) (nrm : Vec Ideal S1x1x512 .f32)
    (h acc : Vec Ideal S1024x16 .f32) (hn : AllReal nrm) (hh : AllReal h) (ha : AllReal acc) :
    AllReal (k3_pay1 (F := Ideal) (k3_pay3 (F := Ideal) lsrc ldst nrm h acc)) := by
  dsimp only [k3_pay1, k3_pay3]
  apply allReal_shapeCast
  apply allReal_addf ha
  apply allReal_matmul
  · apply allReal_truncf
    apply allReal_select
    · exact allReal_broadcast_one _
    · exact allReal_broadcast_zero _
  · apply allReal_truncf
    apply allReal_matmul
    · apply allReal_truncf
      apply allReal_select
      · apply allReal_broadcastTo
        apply allReal_shapeCast
        apply allReal_shapeCast
        apply allReal_shapeCast
        exact hn
      · exact allReal_broadcast_zero _
    · apply allReal_truncf
      apply allReal_shapeCast
      exact hh
    · exact allReal_constant_zero _
  · exact allReal_constant_zero _

/-- The reset value is the zero block. -/
theorem zeros3_real : AllReal (k3_pay2 (F := Ideal)) := by
  dsimp only [k3_pay2]
  apply allReal_shapeCast
  exact allReal_broadcast_zero _

/-! ## The output tiles cover the array -/

/-- The output window's block index at the flattened point `t` is the destination tile
    `t / 196` on the row axis and `0` on the feature axis: this call's output index map is the
    first aggregation call's, the same function of the grid point, where the fact is decided. -/
theorem outIndex3 : ∀ t : Fin cfg3.N, win3_4.index t (0 : Fin 2) = t.val / 196 ∧ win3_4.index t (1 : Fin 2) = 0 :=
  fun t => ⟨(show win3_4.index t (0 : Fin 2) = win1_4.index t (0 : Fin 2) from rfl).trans (outIndex1 t).1,
    (show win3_4.index t (1 : Fin 2) = win1_4.index t (1 : Fin 2) from rfl).trans (outIndex1 t).2⟩

/-- An index of the output array lies in point `t`'s block iff each coordinate lies in the block's
    range on its axis. -/
theorem mem_outBlk3 (t : Fin cfg3.N) (i : S200704x16.Idx) :
    i ∈ ((cfg3.win 4).blk t).view.set ↔
      ∀ a : Fin 2, win3_4.index t a * S1024x16.size a ≤ (i a).val
        ∧ (i a).val < win3_4.index t a * S1024x16.size a + S1024x16.size a := by
  show i ∈ ((View.whole main_v109).slice (win3_4.rect t)).set ↔ _
  rw [View.set_slice_whole, Rect.mem_set_unit]
  exact Iff.rfl

/-- Row `r` of the output array lies in the block of destination tile `r / 1024`, which is written
    back at the last source tile of that row of the grid: the point `196 * (r / 1024) + 195`. -/
theorem cover3 (i : S200704x16.Idx) :
    ∃ t : Fin cfg3.N, (cfg3.win 4).flush t = true ∧ i ∈ ((cfg3.win 4).blk t).view.set := by
  have hi0 : (i 0).val < 200704 := (i 0).isLt
  have hi1 : (i 1).val < 16 := (i 1).isLt
  have hN : cfg3.N = 38416 := by decide
  have hlt : 196 * ((i 0).val / 1024) + 195 < cfg3.N := by rw [hN]; omega
  obtain ⟨q0, q1⟩ := outIndex3 ⟨196 * ((i 0).val / 1024) + 195, hlt⟩
  refine ⟨⟨196 * ((i 0).val / 1024) + 195, hlt⟩, (flush3_4 _).mpr ?_, ?_⟩
  · show (196 * ((i 0).val / 1024) + 195) % 196 = 195
    omega
  · rw [mem_outBlk3]
    intro a
    match a with
    | ⟨0, _⟩ =>
      show win3_4.index ⟨196 * ((i 0).val / 1024) + 195, hlt⟩ (0 : Fin 2) * 1024 ≤ (i 0).val
        ∧ (i 0).val < win3_4.index ⟨196 * ((i 0).val / 1024) + 195, hlt⟩ (0 : Fin 2) * 1024 + 1024
      rw [q0]
      show (196 * ((i 0).val / 1024) + 195) / 196 * 1024 ≤ (i 0).val
        ∧ (i 0).val < (196 * ((i 0).val / 1024) + 195) / 196 * 1024 + 1024
      omega
    | ⟨1, _⟩ =>
      show win3_4.index ⟨196 * ((i 0).val / 1024) + 195, hlt⟩ (1 : Fin 2) * 16 ≤ (i 1).val
        ∧ (i 1).val < win3_4.index ⟨196 * ((i 0).val / 1024) + 195, hlt⟩ (1 : Fin 2) * 16 + 16
      rw [q1]
      omega

variable (V : (c : Dev nD) → (b : Ref sig .tc) → Buf (Elt Ideal) ((c : Thread nD τ).loc b))

/-! ## Blocks read off real arrays are real -/

/-- The feature tile staged at point `t` is read off the feature array entry by entry. -/
theorem featBlk3_real (c : Dev nD) (t : Fin cfg3.N) (hh : AllReal (V c main_v108 : S200704x16.Idx → EReal)) :
    AllReal (iblk3 (F := Ideal) V c 0 t) := by
  intro y
  show IsReal (V c main_v108 (((cfg3.win 0).blk t).view.emb y))
  exact hh _

/-- The row of edge norms staged at point `t` is read off the norm array entry by entry. -/
theorem normBlk3_real (c : Dev nD) (t : Fin cfg3.N) (hn : AllReal (V c main_v95 : S38416x1x512.Idx → EReal)) :
    AllReal (iblk3 (F := Ideal) V c 3 t) := by
  intro y
  show IsReal (V c main_v95 (((cfg3.win 3).blk t).view.emb y))
  exact hn _

/-! ## The accumulator is real after every point -/

/-- By induction on the point: at the first source tile the accumulator is the zero block plus a
    contribution; at every other, what the point before left plus a contribution. -/
theorem acc3_real (c : Dev nD) (hh : AllReal (V c main_v108 : S200704x16.Idx → EReal)) (hn : AllReal (V c main_v95 : S38416x1x512.Idx → EReal)) :
    ∀ (n : ℕ) (hn' : n < cfg3.N), AllReal (outsAt3 (F := Ideal) V c n hn').2 := by
  intro n
  induction n with
  | zero =>
    intro h
    rw [congrArg Prod.snd (outsAt3_A V c ⟨0, h⟩ (Nat.zero_mod _)), accFirst3_eq]
    exact step3_real _ _ _ _ _ (normBlk3_real V c _ hn) (featBlk3_real V c _ hh) zeros3_real
  | succ n ih =>
    intro h
    have prev : AllReal (outsAt3 (F := Ideal) V c ((⟨n + 1, h⟩ : Fin cfg3.N).val - 1)
        (Nat.lt_of_le_of_lt (Nat.sub_le _ _) (⟨n + 1, h⟩ : Fin cfg3.N).isLt)).2 :=
      ih (Nat.lt_of_succ_lt h)
    by_cases h0 : (n + 1) % 196 = 0
    · rw [congrArg Prod.snd (outsAt3_A V c ⟨n + 1, h⟩ h0), accFirst3_eq]
      exact step3_real _ _ _ _ _ (normBlk3_real V c _ hn) (featBlk3_real V c _ hh) zeros3_real
    · by_cases h1 : (n + 1) % 196 = 195
      · rw [congrArg Prod.snd (outsAt3_C V c ⟨n + 1, h⟩ h1), accLast3_eq]
        exact step3_real _ _ _ _ _ (normBlk3_real V c _ hn) (featBlk3_real V c _ hh) prev
      · rw [congrArg Prod.snd (outsAt3_B V c ⟨n + 1, h⟩ h0 h1), accInner3_eq]
        exact step3_real _ _ _ _ _ (normBlk3_real V c _ hn) (featBlk3_real V c _ hh) prev

/-! ## The output array is real after the call -/

/-- Every element of the output array lies in a tile written back at a last source tile, where
    the tile holds the accumulator: real, by `acc3_real`. -/
theorem agg3_real (c : Dev nD) (hh : AllReal (V c main_v108 : S200704x16.Idx → EReal)) (hn : AllReal (V c main_v95 : S38416x1x512.Idx → EReal)) :
    AllReal ((dat3 (F := Ideal) V c).arrAt 4 cfg3.N : S200704x16.Idx → EReal) := by
  intro i
  refine (dat3 (F := Ideal) V c).arrAt_forall_of_cover 4 (fun _ x => IsReal x) ?_ (fun i => cover3 i) i
  intro t hf y
  have h195 : t.val % 196 = 195 := (flush3_4 t).mp hf
  show IsReal ((dat3 (F := Ideal) V c).after 4 t ((cfg3.win 4).xinj (cfg3.grid.coords t) y))
  rw [after3_4, congrArg Prod.fst (outsAt3_C V c t h195), outLast3_eq]
  exact step3_real _ _ _ _ _ (normBlk3_real V c _ hn) (featBlk3_real V c _ hh) (acc3_real V c hh hn _ _) _

end Cert.KernelIdeal.Gen

end
-- ==== Proof.KI.AggVal5.lean ====
/-
  The third aggregation call computes real numbers.

  At the instance where a float is an extended real, the call's output array holds only real
  numbers as soon as the feature array and the edge-norm array do.  The call runs over a
  196 × 196 grid of (destination tile, source tile) pairs and keeps an accumulator: it is reset
  to the zero block at the first source tile, receives one contribution per pair — a product
  of two one-hot selections (entries `0`, `1` or an edge norm, WHATEVER the integer ids are)
  with the feature tile, hence a finite sum of products of reals — and is copied to the output
  tile at the last source tile.

  Here: what the accumulator and the output tile hold after each kind of point, as the pure
  accumulation step of the blocks staged there; that one step keeps the accumulator real; by
  induction on the point, that the accumulator is real after every point; that the output
  tiles written back at the last source tiles cover the output array; and so that the output
  array is real after the call.
-/
import proofs.«140952_j21595095564583_2_alg».proof.Proof.LibFinite
import proofs.«140952_j21595095564583_2_alg».proof.Proof.KI.Agg5
import proofs.«140952_j21595095564583_2_alg».proof.Proof.KI.AggVal1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.LibFinite

/-! ## What each kind of point leaves, as the pure accumulation step -/

section Pieces

variable {F : FTy → Type} [FloatOps F]
variable (V : (c : Dev nD) → (b : Ref sig .tc) → Buf (Elt F) ((c : Thread nD τ).loc b))

private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- The accumulator after a first point is the zero block plus the tile pair's contribution: the
    zero fill is read back and the sum stored over it. -/
theorem sout5_A_0_eq (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : firstSrc5 i) (hlast : ¬lastSrc5 i) (x0 : Vec F S1024x16 .f32) (x1 : Vec F S1x1x512 .i32) (x2 : Vec F S1x1x512 .i32) (x3 : Vec F S1x1x512 .f32) :
    sout5_A_0 c i arg2 harg2 arg3 harg3 arg4 harg4 arg5 harg5 arg6 harg6 arg7 harg7 hfirst hlast x0 x1 x2 x3 = k5_pay1 (k5_pay3 x1 x2 x3 x0 k5_pay2) := by
  unfold sout5_A_0
  rw [View.read_writes_eq_canon _ _ _ (accCover5_first c i arg2 harg2 arg3 harg3 arg4 harg4 arg5 harg5 arg6 harg6 arg7 harg7 hfirst hlast x0 x1 x2 x3)]
  unfold aggRun5_first
  dsimp only
  sl_unfold_words
  rw [View.canon_cons_unit_zero (S := S1024x16) zeroOff2, View.readCov_unit_zero (S := S1024x16) _ zeroOff2]
  simp only [View.readAt_eq_ld, harg2.read_unread, harg3.read_unread, harg4.read_unread, harg5.read_unread,
    View.ld_unit_zero (S := S1024x16) zeroOff2, View.ld_unit_zero (S := S1x1x512) zeroOff3]

/-- The accumulator after an inner point is what it held plus the tile pair's contribution. -/
theorem sout5_B_0_eq (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : ¬lastSrc5 i) (x0 : Vec F S1024x16 .f32) (x1 : Vec F S1x1x512 .i32) (x2 : Vec F S1x1x512 .i32) (x3 : Vec F S1x1x512 .f32) (xs : Vec F S1024x16 .f32) :
    sout5_B_0 c i arg2 harg2 arg3 harg3 arg4 harg4 arg5 harg5 arg6 harg6 arg7 harg7 hfirst hlast x0 x1 x2 x3 xs = k5_pay1 (k5_pay3 x1 x2 x3 x0 xs) := by
  unfold sout5_B_0
  rw [View.read_writes_eq_canon _ _ _ (accCover5_inner c i arg2 harg2 arg3 harg3 arg4 harg4 arg5 harg5 arg6 harg6 arg7 harg7 hfirst hlast x0 x1 x2 x3 xs)]
  unfold aggRun5_inner
  dsimp only
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- The accumulator after a last point is what it held plus the tile pair's contribution, -/
theorem sout5_C_0_eq (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) :
    sout5_C_0 c i arg2 harg2 arg3 harg3 arg4 harg4 arg5 harg5 arg6 harg6 arg7 harg7 hfirst hlast x0 x1 x2 x3 xs = k5_pay1 (k5_pay3 x1 x2 x3 x0 xs) := by
  unfold sout5_C_0
  rw [View.read_writes_eq_canon _ _ _ (accCover5_last c i arg2 harg2 arg3 harg3 arg4 harg4 arg5 harg5 arg6 harg6 arg7 harg7 hfirst hlast x0 x1 x2 x3 xs)]
  unfold aggRun5_last
  dsimp only
  sl_unfold_words
  rw [View.canon_unit_zero (S := S1024x16) zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- and the output tile receives the accumulator read back. -/
theorem out5_C_4_eq (c : Dev nD) (i : grid5.Coords) (arg2 : Memref sig .tc .vmem S1024x16 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x16 .f32) (harg6 : arg6.IsWhole) (arg7 : Memref sig .tc .vmem S1024x16 .f32) (harg7 : arg7.IsWhole)
    (hfirst : ¬firstSrc5 i) (hlast : lastSrc5 i) (x0 : Vec F S1024x16 .f32) (x1 : Vec F S1x1x512 .i32) (x2 : Vec F S1x1x512 .i32) (x3 : Vec F S1x1x512 .f32) (xs : Vec F S1024x16 .f32) :
    out5_C_4 c i arg2 harg2 arg3 harg3 arg4 harg4 arg5 harg5 arg6 harg6 arg7 harg7 hfirst hlast x0 x1 x2 x3 xs = k5_pay1 (k5_pay3 x1 x2 x3 x0 xs) := by
  unfold out5_C_4
  rw [View.read_writes_eq_canon _ _ _ (outCover5_last c i arg2 harg2 arg3 harg3 arg4 harg4 arg5 harg5 arg6 harg6 arg7 harg7 hfirst hlast x0 x1 x2 x3 xs)]
  unfold aggRun5_last
  dsimp only
  sl_unfold_words
  rw [View.canon_unit_zero (S := S1024x16) zeroOff2, View.readCov_unit_zero (S := S1024x16) _ zeroOff2]
  simp only [View.readAt_eq_ld, harg2.read_unread, harg3.read_unread, harg4.read_unread, harg5.read_unread, harg7.read_unread,
    View.ld_unit_zero (S := S1024x16) zeroOff2, View.ld_unit_zero (S := S1x1x512) zeroOff3]

/-- At a grid point: on the blocks the four inputs stage there. -/
theorem accFirst5_eq (c : Dev nD) (t : Fin cfg5.N) (h0 : t.val % 196 = 0) :
    accFirst5 V c t h0
      = k5_pay1 (k5_pay3 (iblk5 V c 1 t) (iblk5 V c 2 t) (iblk5 V c 3 t) (iblk5 V c 0 t) k5_pay2) := by
  unfold accFirst5; exact sout5_A_0_eq ..

theorem accInner5_eq (c : Dev nD) (t : Fin cfg5.N) (h0 : ¬t.val % 196 = 0) (h1 : ¬t.val % 196 = 195)
    (xs : Vec F S1024x16 .f32) :
    accInner5 V c t h0 h1 xs
      = k5_pay1 (k5_pay3 (iblk5 V c 1 t) (iblk5 V c 2 t) (iblk5 V c 3 t) (iblk5 V c 0 t) xs) := by
  unfold accInner5; exact sout5_B_0_eq ..

theorem accLast5_eq (c : Dev nD) (t : Fin cfg5.N) (h1 : t.val % 196 = 195) (xs : Vec F S1024x16 .f32) :
    accLast5 V c t h1 xs
      = k5_pay1 (k5_pay3 (iblk5 V c 1 t) (iblk5 V c 2 t) (iblk5 V c 3 t) (iblk5 V c 0 t) xs) := by
  unfold accLast5; exact sout5_C_0_eq ..

theorem outLast5_eq (c : Dev nD) (t : Fin cfg5.N) (h1 : t.val % 196 = 195) (xs : Vec F S1024x16 .f32) :
    outLast5 V c t h1 xs
      = k5_pay1 (k5_pay3 (iblk5 V c 1 t) (iblk5 V c 2 t) (iblk5 V c 3 t) (iblk5 V c 0 t) xs) := by
  unfold outLast5; exact out5_C_4_eq ..

end Pieces

/-! ## One step keeps the accumulator real -/
/-- One accumulation step keeps the accumulator real: the contribution is a product of two
    one-hot selections (entries `0`, `1` or an edge norm, whatever the integer ids are) with the
    feature block, a finite sum of products of reals. -/
theorem step5_real (lsrc ldst : Vec Ideal S1x1x512 .i32) (nrm : Vec Ideal S1x1x512 .f32)
    (h acc : Vec Ideal S1024x16 .f32) (hn : AllReal nrm) (hh : AllReal h) (ha : AllReal acc) :
    AllReal (k5_pay1 (F := Ideal) (k5_pay3 (F := Ideal) lsrc ldst nrm h acc)) := by
  dsimp only [k5_pay1, k5_pay3]
  apply allReal_shapeCast
  apply allReal_addf ha
  apply allReal_matmul
  · apply allReal_truncf
    apply allReal_select
    · exact allReal_broadcast_one _
    · exact allReal_broadcast_zero _
  · apply allReal_truncf
    apply allReal_matmul
    · apply allReal_truncf
      apply allReal_select
      · apply allReal_broadcastTo
        apply allReal_shapeCast
        apply allReal_shapeCast
        apply allReal_shapeCast
        exact hn
      · exact allReal_broadcast_zero _
    · apply allReal_truncf
      apply allReal_shapeCast
      exact hh
    · exact allReal_constant_zero _
  · exact allReal_constant_zero _

/-- The reset value is the zero block. -/
theorem zeros5_real : AllReal (k5_pay2 (F := Ideal)) := by
  dsimp only [k5_pay2]
  apply allReal_shapeCast
  exact allReal_broadcast_zero _

/-! ## The output tiles cover the array -/

/-- The output window's block index at the flattened point `t` is the destination tile
    `t / 196` on the row axis and `0` on the feature axis: this call's output index map is the
    first aggregation call's, the same function of the grid point, where the fact is decided. -/
theorem outIndex5 : ∀ t : Fin cfg5.N, win5_4.index t (0 : Fin 2) = t.val / 196 ∧ win5_4.index t (1 : Fin 2) = 0 :=
  fun t => ⟨(show win5_4.index t (0 : Fin 2) = win1_4.index t (0 : Fin 2) from rfl).trans (outIndex1 t).1,
    (show win5_4.index t (1 : Fin 2) = win1_4.index t (1 : Fin 2) from rfl).trans (outIndex1 t).2⟩

/-- An index of the output array lies in point `t`'s block iff each coordinate lies in the block's
    range on its axis. -/
theorem mem_outBlk5 (t : Fin cfg5.N) (i : S200704x16.Idx) :
    i ∈ ((cfg5.win 4).blk t).view.set ↔
      ∀ a : Fin 2, win5_4.index t a * S1024x16.size a ≤ (i a).val
        ∧ (i a).val < win5_4.index t a * S1024x16.size a + S1024x16.size a := by
  show i ∈ ((View.whole main_v118).slice (win5_4.rect t)).set ↔ _
  rw [View.set_slice_whole, Rect.mem_set_unit]
  exact Iff.rfl

/-- Row `r` of the output array lies in the block of destination tile `r / 1024`, which is written
    back at the last source tile of that row of the grid: the point `196 * (r / 1024) + 195`. -/
theorem cover5 (i : S200704x16.Idx) :
    ∃ t : Fin cfg5.N, (cfg5.win 4).flush t = true ∧ i ∈ ((cfg5.win 4).blk t).view.set := by
  have hi0 : (i 0).val < 200704 := (i 0).isLt
  have hi1 : (i 1).val < 16 := (i 1).isLt
  have hN : cfg5.N = 38416 := by decide
  have hlt : 196 * ((i 0).val / 1024) + 195 < cfg5.N := by rw [hN]; omega
  obtain ⟨q0, q1⟩ := outIndex5 ⟨196 * ((i 0).val / 1024) + 195, hlt⟩
  refine ⟨⟨196 * ((i 0).val / 1024) + 195, hlt⟩, (flush5_4 _).mpr ?_, ?_⟩
  · show (196 * ((i 0).val / 1024) + 195) % 196 = 195
    omega
  · rw [mem_outBlk5]
    intro a
    match a with
    | ⟨0, _⟩ =>
      show win5_4.index ⟨196 * ((i 0).val / 1024) + 195, hlt⟩ (0 : Fin 2) * 1024 ≤ (i 0).val
        ∧ (i 0).val < win5_4.index ⟨196 * ((i 0).val / 1024) + 195, hlt⟩ (0 : Fin 2) * 1024 + 1024
      rw [q0]
      show (196 * ((i 0).val / 1024) + 195) / 196 * 1024 ≤ (i 0).val
        ∧ (i 0).val < (196 * ((i 0).val / 1024) + 195) / 196 * 1024 + 1024
      omega
    | ⟨1, _⟩ =>
      show win5_4.index ⟨196 * ((i 0).val / 1024) + 195, hlt⟩ (1 : Fin 2) * 16 ≤ (i 1).val
        ∧ (i 1).val < win5_4.index ⟨196 * ((i 0).val / 1024) + 195, hlt⟩ (1 : Fin 2) * 16 + 16
      rw [q1]
      omega

variable (V : (c : Dev nD) → (b : Ref sig .tc) → Buf (Elt Ideal) ((c : Thread nD τ).loc b))

/-! ## Blocks read off real arrays are real -/

/-- The feature tile staged at point `t` is read off the feature array entry by entry. -/
theorem featBlk5_real (c : Dev nD) (t : Fin cfg5.N) (hh : AllReal (V c main_v117 : S200704x16.Idx → EReal)) :
    AllReal (iblk5 (F := Ideal) V c 0 t) := by
  intro y
  show IsReal (V c main_v117 (((cfg5.win 0).blk t).view.emb y))
  exact hh _

/-- The row of edge norms staged at point `t` is read off the norm array entry by entry. -/
theorem normBlk5_real (c : Dev nD) (t : Fin cfg5.N) (hn : AllReal (V c main_v95 : S38416x1x512.Idx → EReal)) :
    AllReal (iblk5 (F := Ideal) V c 3 t) := by
  intro y
  show IsReal (V c main_v95 (((cfg5.win 3).blk t).view.emb y))
  exact hn _

/-! ## The accumulator is real after every point -/

/-- By induction on the point: at the first source tile the accumulator is the zero block plus a
    contribution; at every other, what the point before left plus a contribution. -/
theorem acc5_real (c : Dev nD) (hh : AllReal (V c main_v117 : S200704x16.Idx → EReal)) (hn : AllReal (V c main_v95 : S38416x1x512.Idx → EReal)) :
    ∀ (n : ℕ) (hn' : n < cfg5.N), AllReal (outsAt5 (F := Ideal) V c n hn').2 := by
  intro n
  induction n with
  | zero =>
    intro h
    rw [congrArg Prod.snd (outsAt5_A V c ⟨0, h⟩ (Nat.zero_mod _)), accFirst5_eq]
    exact step5_real _ _ _ _ _ (normBlk5_real V c _ hn) (featBlk5_real V c _ hh) zeros5_real
  | succ n ih =>
    intro h
    have prev : AllReal (outsAt5 (F := Ideal) V c ((⟨n + 1, h⟩ : Fin cfg5.N).val - 1)
        (Nat.lt_of_le_of_lt (Nat.sub_le _ _) (⟨n + 1, h⟩ : Fin cfg5.N).isLt)).2 :=
      ih (Nat.lt_of_succ_lt h)
    by_cases h0 : (n + 1) % 196 = 0
    · rw [congrArg Prod.snd (outsAt5_A V c ⟨n + 1, h⟩ h0), accFirst5_eq]
      exact step5_real _ _ _ _ _ (normBlk5_real V c _ hn) (featBlk5_real V c _ hh) zeros5_real
    · by_cases h1 : (n + 1) % 196 = 195
      · rw [congrArg Prod.snd (outsAt5_C V c ⟨n + 1, h⟩ h1), accLast5_eq]
        exact step5_real _ _ _ _ _ (normBlk5_real V c _ hn) (featBlk5_real V c _ hh) prev
      · rw [congrArg Prod.snd (outsAt5_B V c ⟨n + 1, h⟩ h0 h1), accInner5_eq]
        exact step5_real _ _ _ _ _ (normBlk5_real V c _ hn) (featBlk5_real V c _ hh) prev

/-! ## The output array is real after the call -/

/-- Every element of the output array lies in a tile written back at a last source tile, where
    the tile holds the accumulator: real, by `acc5_real`. -/
theorem agg5_real (c : Dev nD) (hh : AllReal (V c main_v117 : S200704x16.Idx → EReal)) (hn : AllReal (V c main_v95 : S38416x1x512.Idx → EReal)) :
    AllReal ((dat5 (F := Ideal) V c).arrAt 4 cfg5.N : S200704x16.Idx → EReal) := by
  intro i
  refine (dat5 (F := Ideal) V c).arrAt_forall_of_cover 4 (fun _ x => IsReal x) ?_ (fun i => cover5 i) i
  intro t hf y
  have h195 : t.val % 196 = 195 := (flush5_4 t).mp hf
  show IsReal ((dat5 (F := Ideal) V c).after 4 t ((cfg5.win 4).xinj (cfg5.grid.coords t) y))
  rw [after5_4, congrArg Prod.fst (outsAt5_C V c t h195), outLast5_eq]
  exact step5_real _ _ _ _ _ (normBlk5_real V c _ hn) (featBlk5_real V c _ hh) (acc5_real V c hh hn _ _) _

end Cert.KernelIdeal.Gen

end
-- ==== Proof.KI.AggVal7.lean ====
/-
  The fourth aggregation call computes real numbers.

  At the instance where a float is an extended real, the call's output array holds only real
  numbers as soon as the feature array and the edge-norm array do.  The call runs over a
  196 × 196 grid of (destination tile, source tile) pairs and keeps an accumulator: it is reset
  to the zero block at the first source tile, receives one contribution per pair — a product
  of two one-hot selections (entries `0`, `1` or an edge norm, WHATEVER the integer ids are)
  with the feature tile, hence a finite sum of products of reals — and is copied to the output
  tile at the last source tile.

  Here: what the accumulator and the output tile hold after each kind of point, as the pure
  accumulation step of the blocks staged there; that one step keeps the accumulator real; by
  induction on the point, that the accumulator is real after every point; that the output
  tiles written back at the last source tiles cover the output array; and so that the output
  array is real after the call.
-/
import proofs.«140952_j21595095564583_2_alg».proof.Proof.LibFinite
import proofs.«140952_j21595095564583_2_alg».proof.Proof.KI.Agg7
import proofs.«140952_j21595095564583_2_alg».proof.Proof.KI.AggVal1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.LibFinite

/-! ## What each kind of point leaves, as the pure accumulation step -/

section Pieces

variable {F : FTy → Type} [FloatOps F]
variable (V : (c : Dev nD) → (b : Ref sig .tc) → Buf (Elt F) ((c : Thread nD τ).loc b))

private theorem zeroOff2 : (![0, 0] : Fin 2 → Nat) = fun _ => 0 := funext fun a => by fin_cases a <;> rfl
private theorem zeroOff3 : (![0, 0, 0] : Fin 3 → Nat) = fun _ => 0 := funext fun a => by fin_cases a <;> rfl

/-- The accumulator after a first point is the zero block plus the tile pair's contribution: the
    zero fill is read back and the sum stored over it. -/
theorem sout7_A_0_eq (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : firstSrc7 i) (hlast : ¬lastSrc7 i) (x0 : Vec F S1024x1 .f32) (x1 : Vec F S1x1x512 .i32) (x2 : Vec F S1x1x512 .i32) (x3 : Vec F S1x1x512 .f32) :
    sout7_A_0 c i arg2 harg2 arg3 harg3 arg4 harg4 arg5 harg5 arg6 harg6 arg7 harg7 hfirst hlast x0 x1 x2 x3 = k7_pay1 (k7_pay3 x1 x2 x3 x0 k7_pay2) := by
  unfold sout7_A_0
  rw [View.read_writes_eq_canon _ _ _ (accCover7_first c i arg2 harg2 arg3 harg3 arg4 harg4 arg5 harg5 arg6 harg6 arg7 harg7 hfirst hlast x0 x1 x2 x3)]
  unfold aggRun7_first
  dsimp only
  sl_unfold_words
  rw [View.canon_cons_unit_zero (S := S1024x1) zeroOff2, View.readCov_unit_zero (S := S1024x1) _ zeroOff2]
  simp only [View.readAt_eq_ld, harg2.read_unread, harg3.read_unread, harg4.read_unread, harg5.read_unread,
    View.ld_unit_zero (S := S1024x1) zeroOff2, View.ld_unit_zero (S := S1x1x512) zeroOff3]

/-- The accumulator after an inner point is what it held plus the tile pair's contribution. -/
theorem sout7_B_0_eq (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : ¬lastSrc7 i) (x0 : Vec F S1024x1 .f32) (x1 : Vec F S1x1x512 .i32) (x2 : Vec F S1x1x512 .i32) (x3 : Vec F S1x1x512 .f32) (xs : Vec F S1024x1 .f32) :
    sout7_B_0 c i arg2 harg2 arg3 harg3 arg4 harg4 arg5 harg5 arg6 harg6 arg7 harg7 hfirst hlast x0 x1 x2 x3 xs = k7_pay1 (k7_pay3 x1 x2 x3 x0 xs) := by
  unfold sout7_B_0
  rw [View.read_writes_eq_canon _ _ _ (accCover7_inner c i arg2 harg2 arg3 harg3 arg4 harg4 arg5 harg5 arg6 harg6 arg7 harg7 hfirst hlast x0 x1 x2 x3 xs)]
  unfold aggRun7_inner
  dsimp only
  rw [View.canon_unit_zero (S := S1024x1) zeroOff2]
  simp only [View.readAt_eq_ld, harg2.read_unread, harg3.read_unread, harg4.read_unread, harg5.read_unread, harg7.read_unread,
    View.ld_unit_zero (S := S1024x1) zeroOff2, View.ld_unit_zero (S := S1x1x512) zeroOff3]

/-- The accumulator after a last point is what it held plus the tile pair's contribution, -/
theorem sout7_C_0_eq (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) :
    sout7_C_0 c i arg2 harg2 arg3 harg3 arg4 harg4 arg5 harg5 arg6 harg6 arg7 harg7 hfirst hlast x0 x1 x2 x3 xs = k7_pay1 (k7_pay3 x1 x2 x3 x0 xs) := by
  unfold sout7_C_0
  rw [View.read_writes_eq_canon _ _ _ (accCover7_last c i arg2 harg2 arg3 harg3 arg4 harg4 arg5 harg5 arg6 harg6 arg7 harg7 hfirst hlast x0 x1 x2 x3 xs)]
  unfold aggRun7_last
  dsimp only
  sl_unfold_words
  rw [View.canon_unit_zero (S := S1024x1) zeroOff2]
  simp only [View.readAt_eq_ld, harg2.read_unread, harg3.read_unread, harg4.read_unread, harg5.read_unread, harg7.read_unread,
    View.ld_unit_zero (S := S1024x1) zeroOff2, View.ld_unit_zero (S := S1x1x512) zeroOff3]

/-- and the output tile receives the accumulator read back. -/
theorem out7_C_4_eq (c : Dev nD) (i : grid7.Coords) (arg2 : Memref sig .tc .vmem S1024x1 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S1x1x512 .f32) (harg5 : arg5.IsWhole)
    (arg6 : Memref sig .tc .vmem S1024x1 .f32) (harg6 : arg6.IsWhole) (arg7 : Memref sig .tc .vmem S1024x1 .f32) (harg7 : arg7.IsWhole)
    (hfirst : ¬firstSrc7 i) (hlast : lastSrc7 i) (x0 : Vec F S1024x1 .f32) (x1 : Vec F S1x1x512 .i32) (x2 : Vec F S1x1x512 .i32) (x3 : Vec F S1x1x512 .f32) (xs : Vec F S1024x1 .f32) :
    out7_C_4 c i arg2 harg2 arg3 harg3 arg4 harg4 arg5 harg5 arg6 harg6 arg7 harg7 hfirst hlast x0 x1 x2 x3 xs = k7_pay1 (k7_pay3 x1 x2 x3 x0 xs) := by
  unfold out7_C_4
  rw [View.read_writes_eq_canon _ _ _ (outCover7_last c i arg2 harg2 arg3 harg3 arg4 harg4 arg5 harg5 arg6 harg6 arg7 harg7 hfirst hlast x0 x1 x2 x3 xs)]
  unfold aggRun7_last
  dsimp only
  sl_unfold_words
  rw [View.canon_unit_zero (S := S1024x1) zeroOff2, View.readCov_unit_zero (S := S1024x1) _ zeroOff2]
  simp only [View.readAt_eq_ld, harg2.read_unread, harg3.read_unread, harg4.read_unread, harg5.read_unread, harg7.read_unread,
    View.ld_unit_zero (S := S1024x1) zeroOff2, View.ld_unit_zero (S := S1x1x512) zeroOff3]

/-- At a grid point: on the blocks the four inputs stage there. -/
theorem accFirst7_eq (c : Dev nD) (t : Fin cfg7.N) (h0 : t.val % 196 = 0) :
    accFirst7 V c t h0
      = k7_pay1 (k7_pay3 (iblk7 V c 1 t) (iblk7 V c 2 t) (iblk7 V c 3 t) (iblk7 V c 0 t) k7_pay2) := by
  unfold accFirst7; exact sout7_A_0_eq ..

theorem accInner7_eq (c : Dev nD) (t : Fin cfg7.N) (h0 : ¬t.val % 196 = 0) (h1 : ¬t.val % 196 = 195)
    (xs : Vec F S1024x1 .f32) :
    accInner7 V c t h0 h1 xs
      = k7_pay1 (k7_pay3 (iblk7 V c 1 t) (iblk7 V c 2 t) (iblk7 V c 3 t) (iblk7 V c 0 t) xs) := by
  unfold accInner7; exact sout7_B_0_eq ..

theorem accLast7_eq (c : Dev nD) (t : Fin cfg7.N) (h1 : t.val % 196 = 195) (xs : Vec F S1024x1 .f32) :
    accLast7 V c t h1 xs
      = k7_pay1 (k7_pay3 (iblk7 V c 1 t) (iblk7 V c 2 t) (iblk7 V c 3 t) (iblk7 V c 0 t) xs) := by
  unfold accLast7; exact sout7_C_0_eq ..

theorem outLast7_eq (c : Dev nD) (t : Fin cfg7.N) (h1 : t.val % 196 = 195) (xs : Vec F S1024x1 .f32) :
    outLast7 V c t h1 xs
      = k7_pay1 (k7_pay3 (iblk7 V c 1 t) (iblk7 V c 2 t) (iblk7 V c 3 t) (iblk7 V c 0 t) xs) := by
  unfold outLast7; exact out7_C_4_eq ..

end Pieces

/-! ## One step keeps the accumulator real -/
/-- One accumulation step keeps the accumulator real: the contribution is a product of two
    one-hot selections (entries `0`, `1` or an edge norm, whatever the integer ids are) with the
    feature block, a finite sum of products of reals. -/
theorem step7_real (lsrc ldst : Vec Ideal S1x1x512 .i32) (nrm : Vec Ideal S1x1x512 .f32)
    (h acc : Vec Ideal S1024x1 .f32) (hn : AllReal nrm) (hh : AllReal h) (ha : AllReal acc) :
    AllReal (k7_pay1 (F := Ideal) (k7_pay3 (F := Ideal) lsrc ldst nrm h acc)) := by
  dsimp only [k7_pay1, k7_pay3]
  apply allReal_shapeCast
  apply allReal_addf ha
  apply allReal_matmul
  · apply allReal_truncf
    apply allReal_select
    · exact allReal_broadcast_one _
    · exact allReal_broadcast_zero _
  · apply allReal_truncf
    apply allReal_matmul
    · apply allReal_truncf
      apply allReal_select
      · apply allReal_broadcastTo
        apply allReal_shapeCast
        apply allReal_shapeCast
        apply allReal_shapeCast
        exact hn
      · exact allReal_broadcast_zero _
    · apply allReal_truncf
      apply allReal_shapeCast
      exact hh
    · exact allReal_constant_zero _
  · exact allReal_constant_zero _

/-- The reset value is the zero block. -/
theorem zeros7_real : AllReal (k7_pay2 (F := Ideal)) := by
  dsimp only [k7_pay2]
  apply allReal_shapeCast
  exact allReal_broadcast_zero _

/-! ## The output tiles cover the array -/

/-- The output window's block index at the flattened point `t` is the destination tile
    `t / 196` on the row axis and `0` on the feature axis: this call's output index map is the
    first aggregation call's, the same function of the grid point, where the fact is decided. -/
theorem outIndex7 : ∀ t : Fin cfg7.N, win7_4.index t (0 : Fin 2) = t.val / 196 ∧ win7_4.index t (1 : Fin 2) = 0 :=
  fun t => ⟨(show win7_4.index t (0 : Fin 2) = win1_4.index t (0 : Fin 2) from rfl).trans (outIndex1 t).1,
    (show win7_4.index t (1 : Fin 2) = win1_4.index t (1 : Fin 2) from rfl).trans (outIndex1 t).2⟩

/-- An index of the output array lies in point `t`'s block iff each coordinate lies in the block's
    range on its axis. -/
theorem mem_outBlk7 (t : Fin cfg7.N) (i : S200704x1.Idx) :
    i ∈ ((cfg7.win 4).blk t).view.set ↔
      ∀ a : Fin 2, win7_4.index t a * S1024x1.size a ≤ (i a).val
        ∧ (i a).val < win7_4.index t a * S1024x1.size a + S1024x1.size a := by
  show i ∈ ((View.whole main_v127).slice (win7_4.rect t)).set ↔ _
  rw [View.set_slice_whole, Rect.mem_set_unit]
  exact Iff.rfl

/-- Row `r` of the output array lies in the block of destination tile `r / 1024`, which is written
    back at the last source tile of that row of the grid: the point `196 * (r / 1024) + 195`. -/
theorem cover7 (i : S200704x1.Idx) :
    ∃ t : Fin cfg7.N, (cfg7.win 4).flush t = true ∧ i ∈ ((cfg7.win 4).blk t).view.set := by
  have hi0 : (i 0).val < 200704 := (i 0).isLt
  have hi1 : (i 1).val < 1 := (i 1).isLt
  have hN : cfg7.N = 38416 := by decide
  have hlt : 196 * ((i 0).val / 1024) + 195 < cfg7.N := by rw [hN]; omega
  obtain ⟨q0, q1⟩ := outIndex7 ⟨196 * ((i 0).val / 1024) + 195, hlt⟩
  refine ⟨⟨196 * ((i 0).val / 1024) + 195, hlt⟩, (flush7_4 _).mpr ?_, ?_⟩
  · show (196 * ((i 0).val / 1024) + 195) % 196 = 195
    omega
  · rw [mem_outBlk7]
    intro a
    match a with
    | ⟨0, _⟩ =>
      show win7_4.index ⟨196 * ((i 0).val / 1024) + 195, hlt⟩ (0 : Fin 2) * 1024 ≤ (i 0).val
        ∧ (i 0).val < win7_4.index ⟨196 * ((i 0).val / 1024) + 195, hlt⟩ (0 : Fin 2) * 1024 + 1024
      rw [q0]
      show (196 * ((i 0).val / 1024) + 195) / 196 * 1024 ≤ (i 0).val
        ∧ (i 0).val < (196 * ((i 0).val / 1024) + 195) / 196 * 1024 + 1024
      omega
    | ⟨1, _⟩ =>
      show win7_4.index ⟨196 * ((i 0).val / 1024) + 195, hlt⟩ (1 : Fin 2) * 1 ≤ (i 1).val
        ∧ (i 1).val < win7_4.index ⟨196 * ((i 0).val / 1024) + 195, hlt⟩ (1 : Fin 2) * 1 + 1
      rw [q1]
      omega

variable (V : (c : Dev nD) → (b : Ref sig .tc) → Buf (Elt Ideal) ((c : Thread nD τ).loc b))

/-! ## Blocks read off real arrays are real -/

/-- The feature tile staged at point `t` is read off the feature array entry by entry. -/
theorem featBlk7_real (c : Dev nD) (t : Fin cfg7.N) (hh : AllReal (V c main_v126 : S200704x1.Idx → EReal)) :
    AllReal (iblk7 (F := Ideal) V c 0 t) := by
  intro y
  show IsReal (V c main_v126 (((cfg7.win 0).blk t).view.emb y))
  exact hh _

/-- The row of edge norms staged at point `t` is read off the norm array entry by entry. -/
theorem normBlk7_real (c : Dev nD) (t : Fin cfg7.N) (hn : AllReal (V c main_v95 : S38416x1x512.Idx → EReal)) :
    AllReal (iblk7 (F := Ideal) V c 3 t) := by
  intro y
  show IsReal (V c main_v95 (((cfg7.win 3).blk t).view.emb y))
  exact hn _

/-! ## The accumulator is real after every point -/

/-- By induction on the point: at the first source tile the accumulator is the zero block plus a
    contribution; at every other, what the point before left plus a contribution. -/
theorem acc7_real (c : Dev nD) (hh : AllReal (V c main_v126 : S200704x1.Idx → EReal)) (hn : AllReal (V c main_v95 : S38416x1x512.Idx → EReal)) :
    ∀ (n : ℕ) (hn' : n < cfg7.N), AllReal (outsAt7 (F := Ideal) V c n hn').2 := by
  intro n
  induction n with
  | zero =>
    intro h
    rw [congrArg Prod.snd (outsAt7_A V c ⟨0, h⟩ (Nat.zero_mod _)), accFirst7_eq]
    exact step7_real _ _ _ _ _ (normBlk7_real V c _ hn) (featBlk7_real V c _ hh) zeros7_real
  | succ n ih =>
    intro h
    have prev : AllReal (outsAt7 (F := Ideal) V c ((⟨n + 1, h⟩ : Fin cfg7.N).val - 1)
        (Nat.lt_of_le_of_lt (Nat.sub_le _ _) (⟨n + 1, h⟩ : Fin cfg7.N).isLt)).2 :=
      ih (Nat.lt_of_succ_lt h)
    by_cases h0 : (n + 1) % 196 = 0
    · rw [congrArg Prod.snd (outsAt7_A V c ⟨n + 1, h⟩ h0), accFirst7_eq]
      exact step7_real _ _ _ _ _ (normBlk7_real V c _ hn) (featBlk7_real V c _ hh) zeros7_real
    · by_cases h1 : (n + 1) % 196 = 195
      · rw [congrArg Prod.snd (outsAt7_C V c ⟨n + 1, h⟩ h1), accLast7_eq]
        exact step7_real _ _ _ _ _ (normBlk7_real V c _ hn) (featBlk7_real V c _ hh) prev
      · rw [congrArg Prod.snd (outsAt7_B V c ⟨n + 1, h⟩ h0 h1), accInner7_eq]
        exact step7_real _ _ _ _ _ (normBlk7_real V c _ hn) (featBlk7_real V c _ hh) prev

/-! ## The output array is real after the call -/

/-- Every element of the output array lies in a tile written back at a last source tile, where
    the tile holds the accumulator: real, by `acc7_real`. -/
theorem agg7_real (c : Dev nD) (hh : AllReal (V c main_v126 : S200704x1.Idx → EReal)) (hn : AllReal (V c main_v95 : S38416x1x512.Idx → EReal)) :
    AllReal ((dat7 (F := Ideal) V c).arrAt 4 cfg7.N : S200704x1.Idx → EReal) := by
  intro i
  refine (dat7 (F := Ideal) V c).arrAt_forall_of_cover 4 (fun _ x => IsReal x) ?_ (fun i => cover7 i) i
  intro t hf y
  have h195 : t.val % 196 = 195 := (flush7_4 t).mp hf
  show IsReal ((dat7 (F := Ideal) V c).after 4 t ((cfg7.win 4).xinj (cfg7.grid.coords t) y))
  rw [after7_4, congrArg Prod.fst (outsAt7_C V c t h195), outLast7_eq]
  exact step7_real _ _ _ _ _ (normBlk7_real V c _ hn) (featBlk7_real V c _ hh) (acc7_real V c hh hn _ _) _

end Cert.KernelIdeal.Gen

end
-- ==== Proof.KI.Values.lean ====
import proofs.«140952_j21595095564583_2_alg».proof.Proof.KI.Frame
import proofs.«140952_j21595095564583_2_alg».proof.Proof.KI.HostVal
import proofs.«140952_j21595095564583_2_alg».proof.Proof.KI.DenseVal0
import proofs.«140952_j21595095564583_2_alg».proof.Proof.KI.DenseVal2
import proofs.«140952_j21595095564583_2_alg».proof.Proof.KI.DenseVal4
import proofs.«140952_j21595095564583_2_alg».proof.Proof.KI.DenseVal6
import proofs.«140952_j21595095564583_2_alg».proof.Proof.KI.AggVal1
import proofs.«140952_j21595095564583_2_alg».proof.Proof.KI.AggVal3
import proofs.«140952_j21595095564583_2_alg».proof.Proof.KI.AggVal5
import proofs.«140952_j21595095564583_2_alg».proof.Proof.KI.AggVal7
import proofs.«140952_j21595095564583_2_alg».proof.Proof.LibFinite

/-!
# The kernel program's result is the zero array

The program is a four-layer graph convolution followed by `log_softmax` along an axis of extent one.
Each layer is a dense product (a region writing a finite sum of products, tile by tile) followed by an
aggregation over the edges (a region adding up, tile by tile, rows scaled by the edge norms); between two
layers the host adds the self term and the bias and takes the maximum with zero.  Every one of these steps
keeps real numbers real, whatever the integer edge list is: the float arguments are real by the
precondition, the edge norms are real because the reciprocal square root of the degrees sits under a
selection on `deg > 0` whose other branch is zero, a dense region's output is real when its input and its
weight are, an aggregating region's output is real when the rows it reads and the tiled norms are.
So the last layer's one-column output is real, and `log_softmax` of a real number along an axis of
extent one is `(h - h) - log (exp 0) = 0`.

The chain below is stated over the eight regions' value facts, each in the form
"for every contents `V` the region is entered from, real inputs give a real output array";
the final theorem supplies them.
-/

set_option maxRecDepth 16384

noncomputable section

namespace Cert.KernelIdeal.Gen

open Idealize.ShloMosaic Idealize.ShloMosaic.TcCoe Idealize.SL.Sem
open Idealize.ShloMosaic.Pipeline (Dat)
open Cert.LibFinite

variable [Cert.Pre_finite_inputs.Facts]
variable (m : (ℓ : Loc nD τ sig) → Buf (Elt Ideal) ℓ)

section Chain

/-! ## The eight regions' value facts -/

variable
  (D0 : ∀ (V : (c : Dev nD) → (b : Ref sig .tc) → Buf (Elt Ideal) ((c : Thread nD τ).loc b)) (c : Dev nD),
    AllReal (V c main_v98 : S200704x3.Idx → EReal) → AllReal (V c main_arg2 : S3x16.Idx → EReal) →
    AllReal ((dat0 (F := Ideal) V c).arrAt 2 cfg0.N : S200704x16.Idx → EReal))
  (A1 : ∀ (V : (c : Dev nD) → (b : Ref sig .tc) → Buf (Elt Ideal) ((c : Thread nD τ).loc b)) (c : Dev nD),
    AllReal (V c main_v99 : S200704x16.Idx → EReal) → AllReal (V c main_v95 : S38416x1x512.Idx → EReal) →
    AllReal ((dat1 (F := Ideal) V c).arrAt 4 cfg1.N : S200704x16.Idx → EReal))
  (D2 : ∀ (V : (c : Dev nD) → (b : Ref sig .tc) → Buf (Elt Ideal) ((c : Thread nD τ).loc b)) (c : Dev nD),
    AllReal (V c main_v107 : S200704x16.Idx → EReal) → AllReal (V c main_arg4 : S16x16.Idx → EReal) →
    AllReal ((dat2 (F := Ideal) V c).arrAt 2 cfg2.N : S200704x16.Idx → EReal))
  (A3 : ∀ (V : (c : Dev nD) → (b : Ref sig .tc) → Buf (Elt Ideal) ((c : Thread nD τ).loc b)) (c : Dev nD),
    AllReal (V c main_v108 : S200704x16.Idx → EReal) → AllReal (V c main_v95 : S38416x1x512.Idx → EReal) →
    AllReal ((dat3 (F := Ideal) V c).arrAt 4 cfg3.N : S200704x16.Idx → EReal))
  (D4 : ∀ (V : (c : Dev nD) → (b : Ref sig .tc) → Buf (Elt Ideal) ((c : Thread nD τ).loc b)) (c : Dev nD),
    AllReal (V c main_v116 : S200704x16.Idx → EReal) → AllReal (V c main_arg6 : S16x16.Idx → EReal) →
    AllReal ((dat4 (F := Ideal) V c).arrAt 2 cfg4.N : S200704x16.Idx → EReal))
  (A5 : ∀ (V : (c : Dev nD) → (b : Ref sig .tc) → Buf (Elt Ideal) ((c : Thread nD τ).loc b)) (c : Dev nD),
    AllReal (V c main_v117 : S200704x16.Idx → EReal) → AllReal (V c main_v95 : S38416x1x512.Idx → EReal) →
    AllReal ((dat5 (F := Ideal) V c).arrAt 4 cfg5.N : S200704x16.Idx → EReal))
  (D6 : ∀ (V : (c : Dev nD) → (b : Ref sig .tc) → Buf (Elt Ideal) ((c : Thread nD τ).loc b)) (c : Dev nD),
    AllReal (V c main_v125 : S200704x16.Idx → EReal) → AllReal (V c main_arg8 : S16x1.Idx → EReal) →
    AllReal ((dat6 (F := Ideal) V c).arrAt 2 cfg6.N : S200704x1.Idx → EReal))
  (A7 : ∀ (V : (c : Dev nD) → (b : Ref sig .tc) → Buf (Elt Ideal) ((c : Thread nD τ).loc b)) (c : Dev nD),
    AllReal (V c main_v126 : S200704x1.Idx → EReal) → AllReal (V c main_v95 : S38416x1x512.Idx → EReal) →
    AllReal ((dat7 (F := Ideal) V c).arrAt 4 cfg7.N : S200704x1.Idx → EReal))

include D0 in
/-- Layer 1's product is real: the padded features and the first weight are. -/
theorem lin0_real (hpre : Cert.Pre_KernelIdeal m) (c : Dev nD) :
    AllReal (ι := S200704x16.Idx) (lin0 (F := Ideal) m c) := by
  unfold lin0
  refine D0 (atTc (V16 m)) c (entry_real m hpre c).1 ?_
  show AllReal (ι := S3x16.Idx) (V16 m c main_arg2)
  rw [V16_main_arg2]
  exact (args_real m hpre c).2.1

include D0 A1 in
/-- Layer 1's aggregate is real: the product and the tiled edge norms are. -/
theorem agg1_real_chain (hpre : Cert.Pre_KernelIdeal m) (c : Dev nD) :
    AllReal (ι := S200704x16.Idx) (agg1 (F := Ideal) m c) := by
  unfold agg1
  refine A1 (atTc (S17 m)) c ?_ ?_
  · show AllReal (ι := S200704x16.Idx) (S17 m c main_v99)
    unfold S17
    rw [Function.update_self]
    exact lin0_real m D0 hpre c
  · show AllReal (ι := S38416x1x512.Idx) (S17 m c main_v95)
    rw [← V17_eq m c, V17_main_v95]
    exact (entry_real m hpre c).2.1

include D0 A1 in
/-- Layer 2's input (self term, bias, rectifier) is real. -/
theorem in2_real (hpre : Cert.Pre_KernelIdeal m) (c : Dev nD) :
    AllReal (ι := S200704x16.Idx) (V20 m (outs m) c main_v107) := by
  refine layer1_real m (outs m) hpre c ?_ ?_
  · rw [outs_v99]; exact lin0_real m D0 hpre c
  · rw [outs_v100]; exact agg1_real_chain m D0 A1 hpre c

include D0 A1 D2 in
/-- Layer 2's product is real. -/
theorem lin2_real (hpre : Cert.Pre_KernelIdeal m) (c : Dev nD) :
    AllReal (ι := S200704x16.Idx) (lin2 (F := Ideal) m c) := by
  unfold lin2
  refine D2 (atTc (S20 m)) c ?_ ?_
  · show AllReal (ι := S200704x16.Idx) (S20 m c main_v107)
    rw [← V20_eq m c]
    exact in2_real m D0 A1 hpre c
  · show AllReal (ι := S16x16.Idx) (S20 m c main_arg4)
    rw [← V20_eq m c, V20_main_arg4]
    exact (args_real m hpre c).2.2.2.1

include D0 A1 D2 A3 in
/-- Layer 2's aggregate is real. -/
theorem agg3_real_chain (hpre : Cert.Pre_KernelIdeal m) (c : Dev nD) :
    AllReal (ι := S200704x16.Idx) (agg3 (F := Ideal) m c) := by
  unfold agg3
  refine A3 (atTc (S21 m)) c ?_ ?_
  · show AllReal (ι := S200704x16.Idx) (S21 m c main_v108)
    unfold S21
    rw [Function.update_self]
    exact lin2_real m D0 A1 D2 hpre c
  · show AllReal (ι := S38416x1x512.Idx) (S21 m c main_v95)
    rw [← V21_eq m c, V21_main_v95]
    exact (entry_real m hpre c).2.1

include D0 A1 D2 A3 in
/-- Layer 3's input is real. -/
theorem in4_real (hpre : Cert.Pre_KernelIdeal m) (c : Dev nD) :
    AllReal (ι := S200704x16.Idx) (V24 m (outs m) c main_v116) := by
  refine layer2_real m (outs m) hpre c ?_ ?_
  · rw [outs_v108]; exact lin2_real m D0 A1 D2 hpre c
  · rw [outs_v109]; exact agg3_real_chain m D0 A1 D2 A3 hpre c

include D0 A1 D2 A3 D4 in
/-- Layer 3's product is real. -/
theorem lin4_real (hpre : Cert.Pre_KernelIdeal m) (c : Dev nD) :
    AllReal (ι := S200704x16.Idx) (lin4 (F := Ideal) m c) := by
  unfold lin4
  refine D4 (atTc (S24 m)) c ?_ ?_
  · show AllReal (ι := S200704x16.Idx) (S24 m c main_v116)
    rw [← V24_eq m c]
    exact in4_real m D0 A1 D2 A3 hpre c
  · show AllReal (ι := S16x16.Idx) (S24 m c main_arg6)
    rw [← V24_eq m c, V24_main_arg6]
    exact (args_real m hpre c).2.2.2.2.2.1

include D0 A1 D2 A3 D4 A5 in
/-- Layer 3's aggregate is real. -/
theorem agg5_real_chain (hpre : Cert.Pre_KernelIdeal m) (c : Dev nD) :
    AllReal (ι := S200704x16.Idx) (agg5 (F := Ideal) m c) := by
  unfold agg5
  refine A5 (atTc (S25 m)) c ?_ ?_
  · show AllReal (ι := S200704x16.Idx) (S25 m c main_v117)
    unfold S25
    rw [Function.update_self]
    exact lin4_real m D0 A1 D2 A3 D4 hpre c
  · show AllReal (ι := S38416x1x512.Idx) (S25 m c main_v95)
    rw [← V25_eq m c, V25_main_v95]
    exact (entry_real m hpre c).2.1

include D0 A1 D2 A3 D4 A5 in
/-- The last layer's input is real. -/
theorem in6_real (hpre : Cert.Pre_KernelIdeal m) (c : Dev nD) :
    AllReal (ι := S200704x16.Idx) (V28 m (outs m) c main_v125) := by
  refine layer3_real m (outs m) hpre c ?_ ?_
  · rw [outs_v117]; exact lin4_real m D0 A1 D2 A3 D4 hpre c
  · rw [outs_v118]; exact agg5_real_chain m D0 A1 D2 A3 D4 A5 hpre c

include D0 A1 D2 A3 D4 A5 D6 in
/-- The last layer's product (one column) is real. -/
theorem lin6_real (hpre : Cert.Pre_KernelIdeal m) (c : Dev nD) :
    AllReal (ι := S200704x1.Idx) (lin6 (F := Ideal) m c) := by
  unfold lin6
  refine D6 (atTc (S28 m)) c ?_ ?_
  · show AllReal (ι := S200704x16.Idx) (S28 m c main_v125)
    rw [← V28_eq m c]
    exact in6_real m D0 A1 D2 A3 D4 A5 hpre c
  · show AllReal (ι := S16x1.Idx) (S28 m c main_arg8)
    rw [← V28_eq m c, V28_main_arg8]
    exact (args_real m hpre c).2.2.2.2.2.2.2.1

include D0 A1 D2 A3 D4 A5 D6 A7 in
/-- The last layer's aggregate is real. -/
theorem agg7_real_chain (hpre : Cert.Pre_KernelIdeal m) (c : Dev nD) :
    AllReal (ι := S200704x1.Idx) (agg7 (F := Ideal) m c) := by
  unfold agg7
  refine A7 (atTc (S29 m)) c ?_ ?_
  · show AllReal (ι := S200704x1.Idx) (S29 m c main_v126)
    unfold S29
    rw [Function.update_self]
    exact lin6_real m D0 A1 D2 A3 D4 A5 D6 hpre c
  · show AllReal (ι := S38416x1x512.Idx) (S29 m c main_v95)
    rw [← V29_eq m c, V29_main_v95]
    exact (entry_real m hpre c).2.1

include D0 A1 D2 A3 D4 A5 D6 A7 in
/-- The result: `log_softmax` along an axis of extent one of the real logits is the zero array. -/
theorem result_zero_of_regions (hpre : Cert.Pre_KernelIdeal m) (c : Dev nD) :
    @Eq (S200000x1.Idx → EReal) (V32 m (outs m) c main_v134) (fun _ => ((0 : ℝ) : EReal)) := by
  refine result_zero m (outs m) hpre c ?_ ?_
  · rw [outs_v126]; exact lin6_real m D0 A1 D2 A3 D4 A5 D6 hpre c
  · rw [outs_v127]; exact agg7_real_chain m D0 A1 D2 A3 D4 A5 D6 A7 hpre c

end Chain

/-- Under the precondition the kernel program's result array is the zero array, on every core. -/
theorem result_zero_of_pre (hpre : Cert.Pre_KernelIdeal m) (c : Dev nD) :
    @Eq (S200000x1.Idx → EReal) (V32 m (outs m) c main_v134) (fun _ => ((0 : ℝ) : EReal)) :=
  result_zero_of_regions m dense0_real agg1_real dense2_real agg3_real dense4_real agg5_real dense6_real agg7_real hpre c

end Cert.KernelIdeal.Gen

end
-- ==== Proof.RefVal.lean ====
import proofs.«140952_j21595095564583_2_alg».proof.Defs
import proofs.«140952_j21595095564583_2_alg».proof.Proof.RefRead
import proofs.«140952_j21595095564583_2_alg».proof.Proof.LibFinite
import proofs.«140952_j21595095564583_2_alg».proof.Proof.PreReal

/-!
  The value of the reference program at the extended-real instance.

  The reference is a four-layer graph convolution on a graph given by an integer edge list, followed by
  log_softmax along the channel axis. Its last layer has ONE output channel, so the softmax is taken over
  an axis of extent one: log_softmax h = (h - max h) - log (sum (exp (h - max h))) = (h - h) - log (exp 0) = 0
  wherever h is a real number. And h is real everywhere: the float inputs are real by the precondition, and every
  intermediate array is obtained from real arrays by operations that keep real numbers real for ANY integer
  indices (a gather reads an entry, a scatter-add is a finite sum, a matrix product a finite sum of products);
  the one operation that can leave the reals, the reciprocal square root of the degrees, sits under a selection on
  deg > 0 whose other branch is zero. So the reference's result is the array of zeros.
-/

noncomputable section

namespace Cert.RefVal

open Idealize.ShloMosaic Idealize.SL.Sem Cert.LibFinite Cert.ReferenceIdeal Cert.ReferenceIdeal.Read

variable [Cert.ReferenceIdeal.Facts]

/-! ## The normalisation is real, for every edge list

The degree array is a scatter-add of ones; whatever it holds, the array
where (deg > 0) (rsqrt deg) 0 holds only real numbers, and so do its gathers along the two
rows of the edge list and their product, the per-edge weight. -/

/-- The zero array the degrees are compared against. -/
theorem zero_cmp : AllZero (val_main_v11 (F := Ideal)) := by
  unfold val_main_v11 val_main_cst_1
  exact allZero_broadcastInDim _ _ (allZero_constant_zero _)

/-- The zero array chosen where the degree is not positive. -/
theorem zero_else : AllZero (val_main_call0_v1 (F := Ideal)) := by
  unfold val_main_call0_v1 val_main_call0_v0 val_main_cst_2
  exact allZero_broadcastInDim _ _ (allZero_id (allZero_constant_zero _))

/-- The inverse square roots of the degrees, zero where the degree is not positive. -/
theorem real_dinv (x1 : (⟨S2x5000000, .i32⟩ : BufTy).Contents (Elt Ideal)) : AllReal (val_main_v14 (F := Ideal) x1) := by
  unfold val_main_v14 val_main_v12 val_main_v13
  exact allReal_dinv _ zero_cmp zero_else

/-- The weight of an edge: the product of the two gathered inverse square roots. -/
theorem real_norm (x1 : (⟨S2x5000000, .i32⟩ : BufTy).Contents (Elt Ideal)) : AllReal (val_main_v29 (F := Ideal) x1) := by
  unfold val_main_v29 val_main_v21 val_main_v28
  exact allReal_mulf (allReal_gather _ _ (real_dinv x1)) (allReal_gather _ _ (real_dinv x1))

/-! ## The four layers

Each layer multiplies by a real weight matrix (a finite sum of products of reals), gathers rows
along the edge list, scales each gathered row by the edge's weight, adds the rows up at the edge's
target (a finite sum of reals, from zero), adds the real bias, and (the first three) takes the maximum
with zero. Every step keeps real numbers real, whatever the integer indices are. -/

theorem real_layer1 (x0 : (⟨S200000x3, .f32⟩ : BufTy).Contents (Elt Ideal)) (x1 : (⟨S2x5000000, .i32⟩ : BufTy).Contents (Elt Ideal)) (x2 : (⟨S3x16, .f32⟩ : BufTy).Contents (Elt Ideal)) (x3 : (⟨S16, .f32⟩ : BufTy).Contents (Elt Ideal)) (h0 : AllReal x0) (h2 : AllReal x2) (h3 : AllReal x3) :
    AllReal (val_main_v47 (F := Ideal) x0 x1 x2 x3) := by
  unfold val_main_v47 val_main_v46 val_main_v43 val_main_v41 val_main_cst_8 val_main_v40 val_main_v37 val_main_v30
    val_main_v39 val_main_v38 val_main_v45 val_main_v44 val_main_call1_v0 val_main_call1_cst
  exact allReal_maximumf
    (allReal_addf
      (allReal_scatterAdd _ _ (allReal_broadcastInDim _ _ (allReal_constant_zero _))
        (allReal_mulf (allReal_gather _ _ (allReal_dotGeneral _ _ h0 h2))
          (allReal_broadcastInDim _ _ (allReal_broadcastInDim _ _ (real_norm x1)))))
      (allReal_broadcastInDim _ _ (allReal_broadcastInDim _ _ h3)))
    (allReal_broadcastInDim _ _ (allReal_constant_zero _))

theorem real_layer2 (x0 : (⟨S200000x3, .f32⟩ : BufTy).Contents (Elt Ideal)) (x1 : (⟨S2x5000000, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (h0 : AllReal x0) (h2 : AllReal x2) (h3 : AllReal x3) (h4 : AllReal x4) (h5 : AllReal x5) :
    AllReal (val_main_v65 (F := Ideal) x0 x1 x2 x3 x4 x5) := by
  unfold val_main_v65 val_main_v64 val_main_v61 val_main_v59 val_main_cst_11 val_main_v58 val_main_v55 val_main_v48
    val_main_v57 val_main_v56 val_main_v63 val_main_v62 val_main_call2_v0 val_main_call2_cst
  exact allReal_maximumf
    (allReal_addf
      (allReal_scatterAdd _ _ (allReal_broadcastInDim _ _ (allReal_constant_zero _))
        (allReal_mulf (allReal_gather _ _ (allReal_dotGeneral _ _ (real_layer1 x0 x1 x2 x3 h0 h2 h3) h4))
          (allReal_broadcastInDim _ _ (allReal_broadcastInDim _ _ (real_norm x1)))))
      (allReal_broadcastInDim _ _ (allReal_broadcastInDim _ _ h5)))
    (allReal_broadcastInDim _ _ (allReal_constant_zero _))

theorem real_layer3 (x0 : (⟨S200000x3, .f32⟩ : BufTy).Contents (Elt Ideal)) (x1 : (⟨S2x5000000, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (h0 : AllReal x0) (h2 : AllReal x2) (h3 : AllReal x3) (h4 : AllReal x4) (h5 : AllReal x5) (h6 : AllReal x6) (h7 : AllReal x7) :
    AllReal (val_main_v83 (F := Ideal) x0 x1 x2 x3 x4 x5 x6 x7) := by
  unfold val_main_v83 val_main_v82 val_main_v79 val_main_v77 val_main_cst_14 val_main_v76 val_main_v73 val_main_v66
    val_main_v75 val_main_v74 val_main_v81 val_main_v80 val_main_call3_v0 val_main_call3_cst
  exact allReal_maximumf
    (allReal_addf
      (allReal_scatterAdd _ _ (allReal_broadcastInDim _ _ (allReal_constant_zero _))
        (allReal_mulf (allReal_gather _ _ (allReal_dotGeneral _ _ (real_layer2 x0 x1 x2 x3 x4 x5 h0 h2 h3 h4 h5) h6))
          (allReal_broadcastInDim _ _ (allReal_broadcastInDim _ _ (real_norm x1)))))
      (allReal_broadcastInDim _ _ (allReal_broadcastInDim _ _ h7)))
    (allReal_broadcastInDim _ _ (allReal_constant_zero _))

/-- The last layer has one output channel and no maximum. -/
theorem real_layer4 (x0 : (⟨S200000x3, .f32⟩ : BufTy).Contents (Elt Ideal)) (x1 : (⟨S2x5000000, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (x8 : (⟨S16x1, .f32⟩ : BufTy).Contents (Elt Ideal)) (x9 : (⟨S1, .f32⟩ : BufTy).Contents (Elt Ideal)) (h0 : AllReal x0) (h2 : AllReal x2) (h3 : AllReal x3) (h4 : AllReal x4) (h5 : AllReal x5) (h6 : AllReal x6) (h7 : AllReal x7) (h8 : AllReal x8) (h9 : AllReal x9) :
    AllReal (val_main_v99 (F := Ideal) x0 x1 x2 x3 x4 x5 x6 x7 x8 x9) := by
  unfold val_main_v99 val_main_v96 val_main_v94 val_main_cst_17 val_main_v93 val_main_v91 val_main_v84
    val_main_v92 val_main_v98 val_main_v97
  exact allReal_addf
    (allReal_scatterAdd _ _ (allReal_broadcastInDim _ _ (allReal_constant_zero _))
      (allReal_mulf (allReal_gather _ _ (allReal_dotGeneral _ _ (real_layer3 x0 x1 x2 x3 x4 x5 x6 x7 h0 h2 h3 h4 h5 h6 h7) h8))
        (allReal_broadcastInDim _ _ (real_norm x1))))
    (allReal_broadcastInDim _ _ (allReal_broadcastInDim _ _ h9))

/-! ## The result

log_softmax along an axis of extent one, of a real number, is zero. -/

theorem result_zero (x0 : (⟨S200000x3, .f32⟩ : BufTy).Contents (Elt Ideal)) (x1 : (⟨S2x5000000, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (x8 : (⟨S16x1, .f32⟩ : BufTy).Contents (Elt Ideal)) (x9 : (⟨S1, .f32⟩ : BufTy).Contents (Elt Ideal)) (h0 : AllReal x0) (h2 : AllReal x2) (h3 : AllReal x3) (h4 : AllReal x4) (h5 : AllReal x5) (h6 : AllReal x6) (h7 : AllReal x7) (h8 : AllReal x8) (h9 : AllReal x9) :
    val_main_v100 (F := Ideal) x0 x1 x2 x3 x4 x5 x6 x7 x8 x9 = fun _ => ((0 : ℝ) : EReal) := by
  unfold val_main_v100 val_main_call4_v8 val_main_call4_v7 val_main_call4_v6 val_main_call4_cst_1 val_main_call4_v5
    val_main_call4_v4 val_main_call4_v3 val_main_call4_v2 val_main_call4_v1 val_main_call4_cst_0 val_main_call4_v0
    val_main_call4_cst
  exact logSoftmax1_eq_zero _ _ _ _ (real_layer4 x0 x1 x2 x3 x4 x5 x6 x7 x8 x9 h0 h2 h3 h4 h5 h6 h7 h8 h9)

/-! ## The run -/

variable [Cert.Pre_finite_inputs.Facts]

/-- Memories that agree on the ten arguments satisfy the precondition together. -/
theorem pre_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.Pre_ReferenceIdeal m' := by
  intro c
  obtain ⟨e0, e1, e2, e3, e4, e5, e6, e7, e8, e9⟩ := hagree c
  rw [e0, e1, e2, e3, e4, e5, e6, e7, e8, e9]
  exact hpre c

/-- Under the precondition, every weakly fair execution of the reference terminates with the result array
    all zeros and the ten arguments unchanged. -/
theorem run_zero (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v100) = (fun _ => ((0 : ℝ) : EReal))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine (θ_run Cert.ReferenceIdeal.defs _ _).mono (fun r h c => ⟨(h c).1.trans ?_, (h c).2⟩)
    (Cert.ReferenceIdeal.Value.run (F := Ideal) m' ρ')
  obtain ⟨h0, h2, h3, h4, h5, h6, h7, h8, h9⟩ := Cert.PreReal.real_of_pre _ _ _ _ _ _ _ _ _ _ (hpre c)
  rw [Cert.ReferenceIdeal.Read.val_main_v100_eq]
  exact result_zero _ _ _ _ _ _ _ _ _ _ h0 h2 h3 h4 h5 h6 h7 h8 h9

/-- The reference runs and leaves its arguments unchanged: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

end Cert.RefVal

end
-- ==== Proof.lean ====
/- The certificate's five claims for the graph-convolution kernel against its reference.

   Both programs end in a log-softmax over an axis of extent one, which is zero wherever its argument is a real
   number. Under the precondition every float input is finite, and every float array either program computes from
   finite inputs holds only real numbers, whatever the integer edge list is: degrees enter only through
   a reciprocal square root taken under a positivity test, gathers read existing entries, scatters and matrix products
   are finite sums of products. So both results are the zero array. The kernel program's frames run its eight kernel
   regions one after the other, each through its own proof data; the idealization rewrote nothing. -/
import proofs.«140952_j21595095564583_2_alg».proof.Defs
import proofs.«140952_j21595095564583_2_alg».proof.Proof.Gen.Kernel
import proofs.«140952_j21595095564583_2_alg».proof.Proof.Gen.KernelIdeal
import proofs.«140952_j21595095564583_2_alg».proof.Proof.Gen.ReferenceIdeal
import proofs.«140952_j21595095564583_2_alg».proof.Proof.Gen.Pre_finite_inputs
import proofs.«140952_j21595095564583_2_alg».proof.Proof.K.Frame
import proofs.«140952_j21595095564583_2_alg».proof.Proof.KI.Frame
import proofs.«140952_j21595095564583_2_alg».proof.Proof.KI.Values
import proofs.«140952_j21595095564583_2_alg».proof.Proof.RefVal
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Gen.frame (F := Bits) m ρ

/-- The same for the kernel program read over the extended reals. -/
theorem frame_kernelIdeal : Cert.frame_KernelIdeal := fun m ρ _ => Cert.KernelIdeal.Gen.frame (F := Ideal) m ρ

/-- Both idealized programs run, and both results are the zero array. -/
theorem algebraic : Cert.algebraic_KernelIdeal_ReferenceIdeal := by
  intro m ρ m' ρ' hpre hagree
  refine ⟨fun _ _ => ((0 : ℝ) : EReal), ?_, ?_⟩
  · exact (θ_run Cert.KernelIdeal.defs _ _).mono
      (fun _ h c => ⟨(h c).1.trans (Cert.KernelIdeal.Gen.result_zero_of_pre m hpre c), (h c).2⟩)
      (Cert.KernelIdeal.Gen.run_val (F := Ideal) m ρ)
  · exact Cert.RefVal.run_zero m' ρ' (Cert.RefVal.pre_of_agree m m' hpre hagree)

theorem claim : Cert.Claim := ⟨Cert.Kernel.Gen.facts, Cert.KernelIdeal.Gen.facts, Cert.ReferenceIdeal.Gen.facts, Cert.Pre_finite_inputs.Gen.facts,
  frame_kernel, frame_kernelIdeal, Cert.RefVal.frame_ref, trivial, algebraic⟩

end Cert.Proof

end
